-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x4096 : Shape := ⟨2, ![1024, 4096]⟩
abbrev S4096x2048 : Shape := ⟨2, ![4096, 2048]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S1024x4096 .f32) (main_arg1 : FVec F S4096x2048 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x4096 .f32) (main_arg1 : FVec F S4096x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S1024x4096 : Shape := ⟨2, ![1024, 4096]⟩
abbrev S4096x2048 : Shape := ⟨2, ![4096, 2048]⟩
abbrev S2x128x4096 : Shape := ⟨3, ![2, 128, 4096]⟩
abbrev S2x4096x128 : Shape := ⟨3, ![2, 4096, 128]⟩
abbrev S2x512x512 : Shape := ⟨3, ![2, 512, 512]⟩
abbrev S4 : Shape := ⟨1, ![4]⟩
abbrev S2 : Shape := ⟨1, ![2]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S512x4096 : Shape := ⟨2, ![512, 4096]⟩
abbrev S1x4096x128 : Shape := ⟨3, ![1, 4096, 128]⟩
abbrev S4096x128 : Shape := ⟨2, ![4096, 128]⟩
abbrev S4096x512 : Shape := ⟨2, ![4096, 512]⟩
abbrev S512x512 : Shape := ⟨2, ![512, 512]⟩
abbrev S1x512x512 : Shape := ⟨3, ![1, 512, 512]⟩
abbrev S256x4096 : Shape := ⟨2, ![256, 4096]⟩
abbrev S256x512 : Shape := ⟨2, ![256, 512]⟩
abbrev S1x256x512 : Shape := ⟨3, ![1, 256, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4096x2048, .bf16⟩
  | .local _ .vmem, ⟨5, _⟩ => ⟨S2x128x4096, .f32⟩
  | .local _ .vmem, ⟨6, _⟩ => ⟨S2x4096x128, .f32⟩
  | .local _ .vmem, ⟨7, _⟩ => ⟨S2x512x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
@[reducible] def k0_t1_loop : Scf.Loop 32 :=
  let c0_i32_30 : BitVec 32 := 0#32
  let c4_i32_31 : BitVec 32 := 4#32
  let v40 : BitVec 32 := Scalar.addi c0_i32_30 c4_i32_31
  let c1_i32_32 : BitVec 32 := 1#32
  ⟨c0_i32_30, v40, c1_i32_32⟩
def k0_off1 (k0_t1 : Fin k0_t1_loop.trips) : Fin 1 → Nat :=
  let c0_i32_30 : BitVec 32 := 0#32
  let c1_i32_32 : BitVec 32 := 1#32
  let arg18 : BitVec 32 := Scf.iv c0_i32_30 c1_i32_32 k0_t1
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  ![v964.toNat]
def k0_off2 (k0_t1 : Fin k0_t1_loop.trips) : Fin 3 → Nat :=
  let c0_i32_30 : BitVec 32 := 0#32
  let c1_i32_32 : BitVec 32 := 1#32
  let arg18 : BitVec 32 := Scf.iv c0_i32_30 c1_i32_32 k0_t1
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let c0_i32_1025 : BitVec 32 := 0#32
  let c0_i32_1026 : BitVec 32 := 0#32
  ![v964.toNat, 0, 0]
def k0_off3 (k0_t1 : Fin k0_t1_loop.trips) : Fin 2 → Nat :=
  let c0_i32_30 : BitVec 32 := 0#32
  let c1_i32_32 : BitVec 32 := 1#32
  let arg18 : BitVec 32 := Scf.iv c0_i32_30 c1_i32_32 k0_t1
  let c128_i32_1024 : BitVec 32 := 128#32
  let v965 : BitVec 32 := Scalar.muli arg18 c128_i32_1024
  let c0_i32_1027 : BitVec 32 := 0#32
  ![v965.toNat, 0]
def k0_off4 (k0_t1 : Fin k0_t1_loop.trips) : Fin 3 → Nat :=
  let c0_i32_30 : BitVec 32 := 0#32
  let c1_i32_32 : BitVec 32 := 1#32
  let arg18 : BitVec 32 := Scf.iv c0_i32_30 c1_i32_32 k0_t1
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let v971 : Index := Scalar.indexCast v964
  let c0_1028 : Index := 0#32
  let c0_1029 : Index := 0#32
  ![v971.toNat, 0, 0]
def k0_off5 (k0_t1 : Fin k0_t1_loop.trips) : Fin 2 → Nat :=
  let c0_i32_30 : BitVec 32 := 0#32
  let c1_i32_32 : BitVec 32 := 1#32
  let arg18 : BitVec 32 := Scf.iv c0_i32_30 c1_i32_32 k0_t1
  let c128_i32_1030 : BitVec 32 := 128#32
  let v975 : BitVec 32 := Scalar.muli arg18 c128_i32_1030
  let v976 : Index := Scalar.indexCast v975
  let c0_1031 : Index := 0#32
  ![v976.toNat, 0]
def k0_cond1 (k0_t1 : Fin k0_t1_loop.trips) : BitVec 1 :=
  let c0_i32_30 : BitVec 32 := 0#32
  let c1_i32_32 : BitVec 32 := 1#32
  let arg18 : BitVec 32 := Scf.iv c0_i32_30 c1_i32_32 k0_t1
  let c2_i32_1032 : BitVec 32 := 2#32
  let v980 : BitVec 32 := Scalar.addi arg18 c2_i32_1032
  let c4_i32_1033 : BitVec 32 := 4#32
  let v981 : BitVec 1 := Scalar.cmpi .slt v980 c4_i32_1033
  let v982 : BitVec 32 := Scalar.extui v981
  let c0_i32_1034 : BitVec 32 := 0#32
  let v983 : BitVec 1 := Scalar.cmpi .ne v982 c0_i32_1034
  v983

def k0_off6 (k0_t1 : Fin k0_t1_loop.trips) : Fin 1 → Nat :=
  let c0_i32_30 : BitVec 32 := 0#32
  let c1_i32_32 : BitVec 32 := 1#32
  let arg18 : BitVec 32 := Scf.iv c0_i32_30 c1_i32_32 k0_t1
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  ![v964.toNat]
def k0_off7 (k0_t1 : Fin k0_t1_loop.trips) : Fin 3 → Nat :=
  let c0_i32_30 : BitVec 32 := 0#32
  let c1_i32_32 : BitVec 32 := 1#32
  let arg18 : BitVec 32 := Scf.iv c0_i32_30 c1_i32_32 k0_t1
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let c0_i32_1037 : BitVec 32 := 0#32
  let c0_i32_1038 : BitVec 32 := 0#32
  ![v964.toNat, 0, 0]
def k0_off8 (k0_t1 : Fin k0_t1_loop.trips) : Fin 2 → Nat :=
  let c0_i32_30 : BitVec 32 := 0#32
  let c1_i32_32 : BitVec 32 := 1#32
  let arg18 : BitVec 32 := Scf.iv c0_i32_30 c1_i32_32 k0_t1
  let c2_i32_1035 : BitVec 32 := 2#32
  let v984 : BitVec 32 := Scalar.addi arg18 c2_i32_1035
  let c128_i32_1036 : BitVec 32 := 128#32
  let v985 : BitVec 32 := Scalar.muli v984 c128_i32_1036
  let c0_i32_1039 : BitVec 32 := 0#32
  ![v985.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v41 : BitVec 32 := Scalar.muli v24 c1_i32_36
  let v42 : BitVec 32 := Scalar.addi c0_i32_37 v41
  v42.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v49 : BitVec 32 := Scalar.muli v13 c1_i32_44
  let v50 : BitVec 32 := Scalar.addi c0_i32_45 v49
  v50.toNat
@[reducible] def k0_t2_loop : Scf.Loop 32 :=
  let c4_i32_60 : BitVec 32 := 4#32
  let c4_i32_61 : BitVec 32 := 4#32
  let v67 : BitVec 32 := Scalar.addi c4_i32_60 c4_i32_61
  let c1_i32_62 : BitVec 32 := 1#32
  ⟨c4_i32_60, v67, c1_i32_62⟩
def k0_off9 (k0_t2 : Fin k0_t2_loop.trips) : Fin 1 → Nat :=
  let c4_i32_60 : BitVec 32 := 4#32
  let c1_i32_62 : BitVec 32 := 1#32
  let arg18 : BitVec 32 := Scf.iv c4_i32_60 c1_i32_62 k0_t2
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  ![v964.toNat]
def k0_off10 (k0_t2 : Fin k0_t2_loop.trips) : Fin 3 → Nat :=
  let c4_i32_60 : BitVec 32 := 4#32
  let c1_i32_62 : BitVec 32 := 1#32
  let arg18 : BitVec 32 := Scf.iv c4_i32_60 c1_i32_62 k0_t2
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let c0_i32_1025 : BitVec 32 := 0#32
  let c0_i32_1026 : BitVec 32 := 0#32
  ![v964.toNat, 0, 0]
def k0_off11 (k0_t2 : Fin k0_t2_loop.trips) : Fin 2 → Nat :=
  let c4_i32_60 : BitVec 32 := 4#32
  let c1_i32_62 : BitVec 32 := 1#32
  let arg18 : BitVec 32 := Scf.iv c4_i32_60 c1_i32_62 k0_t2
  let c128_i32_1024 : BitVec 32 := 128#32
  let v965 : BitVec 32 := Scalar.muli arg18 c128_i32_1024
  let c0_i32_1027 : BitVec 32 := 0#32
  ![v965.toNat, 0]
def k0_off12 (k0_t2 : Fin k0_t2_loop.trips) : Fin 3 → Nat :=
  let c4_i32_60 : BitVec 32 := 4#32
  let c1_i32_62 : BitVec 32 := 1#32
  let arg18 : BitVec 32 := Scf.iv c4_i32_60 c1_i32_62 k0_t2
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let v971 : Index := Scalar.indexCast v964
  let c0_1028 : Index := 0#32
  let c0_1029 : Index := 0#32
  ![v971.toNat, 0, 0]
def k0_off13 (k0_t2 : Fin k0_t2_loop.trips) : Fin 2 → Nat :=
  let c4_i32_60 : BitVec 32 := 4#32
  let c1_i32_62 : BitVec 32 := 1#32
  let arg18 : BitVec 32 := Scf.iv c4_i32_60 c1_i32_62 k0_t2
  let c128_i32_1030 : BitVec 32 := 128#32
  let v975 : BitVec 32 := Scalar.muli arg18 c128_i32_1030
  let v976 : Index := Scalar.indexCast v975
  let c0_1031 : Index := 0#32
  ![v976.toNat, 0]
def k0_cond2 (k0_t2 : Fin k0_t2_loop.trips) : BitVec 1 :=
  let c4_i32_60 : BitVec 32 := 4#32
  let c1_i32_62 : BitVec 32 := 1#32
  let arg18 : BitVec 32 := Scf.iv c4_i32_60 c1_i32_62 k0_t2
  let c2_i32_1032 : BitVec 32 := 2#32
  let v980 : BitVec 32 := Scalar.addi arg18 c2_i32_1032
  let c8_i32 : BitVec 32 := 8#32
  let v981 : BitVec 1 := Scalar.cmpi .slt v980 c8_i32
  let v982 : BitVec 32 := Scalar.extui v981
  let c0_i32_1033 : BitVec 32 := 0#32
  let v983 : BitVec 1 := Scalar.cmpi .ne v982 c0_i32_1033
  v983

def k0_off14 (k0_t2 : Fin k0_t2_loop.trips) : Fin 1 → Nat :=
  let c4_i32_60 : BitVec 32 := 4#32
  let c1_i32_62 : BitVec 32 := 1#32
  let arg18 : BitVec 32 := Scf.iv c4_i32_60 c1_i32_62 k0_t2
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  ![v964.toNat]
def k0_off15 (k0_t2 : Fin k0_t2_loop.trips) : Fin 3 → Nat :=
  let c4_i32_60 : BitVec 32 := 4#32
  let c1_i32_62 : BitVec 32 := 1#32
  let arg18 : BitVec 32 := Scf.iv c4_i32_60 c1_i32_62 k0_t2
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let c0_i32_1036 : BitVec 32 := 0#32
  let c0_i32_1037 : BitVec 32 := 0#32
  ![v964.toNat, 0, 0]
def k0_off16 (k0_t2 : Fin k0_t2_loop.trips) : Fin 2 → Nat :=
  let c4_i32_60 : BitVec 32 := 4#32
  let c1_i32_62 : BitVec 32 := 1#32
  let arg18 : BitVec 32 := Scf.iv c4_i32_60 c1_i32_62 k0_t2
  let c2_i32_1034 : BitVec 32 := 2#32
  let v984 : BitVec 32 := Scalar.addi arg18 c2_i32_1034
  let c128_i32_1035 : BitVec 32 := 128#32
  let v985 : BitVec 32 := Scalar.muli v984 c128_i32_1035
  let c0_i32_1038 : BitVec 32 := 0#32
  ![v985.toNat, 0]
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_66 : BitVec 32 := 1#32
  let v68 : BitVec 32 := Scalar.muli v24 c1_i32_66
  let v69 : BitVec 32 := Scalar.addi c0_i32_67 v68
  v69.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_73 : BitVec 32 := 1#32
  let v76 : BitVec 32 := Scalar.muli v13 c1_i32_73
  let v77 : BitVec 32 := Scalar.addi c0_i32_74 v76
  v77.toNat
@[reducible] def k0_t3_loop : Scf.Loop 32 :=
  let c0_i32_91 : BitVec 32 := 0#32
  let c16_i32 : BitVec 32 := 16#32
  let v94 : BitVec 32 := Scalar.addi c0_i32_91 c16_i32
  let c1_i32_92 : BitVec 32 := 1#32
  ⟨c0_i32_91, v94, c1_i32_92⟩
def k0_off17 (k0_t3 : Fin k0_t3_loop.trips) : Fin 1 → Nat :=
  let c0_i32_91 : BitVec 32 := 0#32
  let c1_i32_92 : BitVec 32 := 1#32
  let arg18 : BitVec 32 := Scf.iv c0_i32_91 c1_i32_92 k0_t3
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  ![v964.toNat]
def k0_off18 (k0_t3 : Fin k0_t3_loop.trips) : Fin 3 → Nat :=
  let c0_i32_91 : BitVec 32 := 0#32
  let c1_i32_92 : BitVec 32 := 1#32
  let arg18 : BitVec 32 := Scf.iv c0_i32_91 c1_i32_92 k0_t3
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let c0_i32_1025 : BitVec 32 := 0#32
  let c0_i32_1026 : BitVec 32 := 0#32
  ![v964.toNat, 0, 0]
def k0_off19 (k0_t3 : Fin k0_t3_loop.trips) : Fin 2 → Nat :=
  let c0_i32_1027 : BitVec 32 := 0#32
  let c0_i32_91 : BitVec 32 := 0#32
  let c1_i32_92 : BitVec 32 := 1#32
  let arg18 : BitVec 32 := Scf.iv c0_i32_91 c1_i32_92 k0_t3
  let c128_i32_1024 : BitVec 32 := 128#32
  let v965 : BitVec 32 := Scalar.muli arg18 c128_i32_1024
  ![0, v965.toNat]
def k0_off20 (k0_t3 : Fin k0_t3_loop.trips) : Fin 3 → Nat :=
  let c0_i32_91 : BitVec 32 := 0#32
  let c1_i32_92 : BitVec 32 := 1#32
  let arg18 : BitVec 32 := Scf.iv c0_i32_91 c1_i32_92 k0_t3
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let v971 : Index := Scalar.indexCast v964
  let c0_1028 : Index := 0#32
  let c0_1029 : Index := 0#32
  ![v971.toNat, 0, 0]
def k0_off21 (k0_t3 : Fin k0_t3_loop.trips) : Fin 2 → Nat :=
  let c0_1031 : Index := 0#32
  let c0_i32_91 : BitVec 32 := 0#32
  let c1_i32_92 : BitVec 32 := 1#32
  let arg18 : BitVec 32 := Scf.iv c0_i32_91 c1_i32_92 k0_t3
  let c128_i32_1030 : BitVec 32 := 128#32
  let v975 : BitVec 32 := Scalar.muli arg18 c128_i32_1030
  let v976 : Index := Scalar.indexCast v975
  ![0, v976.toNat]
def k0_cond3 (k0_t3 : Fin k0_t3_loop.trips) : BitVec 1 :=
  let c0_i32_91 : BitVec 32 := 0#32
  let c1_i32_92 : BitVec 32 := 1#32
  let arg18 : BitVec 32 := Scf.iv c0_i32_91 c1_i32_92 k0_t3
  let c2_i32_1032 : BitVec 32 := 2#32
  let v980 : BitVec 32 := Scalar.addi arg18 c2_i32_1032
  let c16_i32_1033 : BitVec 32 := 16#32
  let v981 : BitVec 1 := Scalar.cmpi .slt v980 c16_i32_1033
  let v982 : BitVec 32 := Scalar.extui v981
  let c0_i32_1034 : BitVec 32 := 0#32
  let v983 : BitVec 1 := Scalar.cmpi .ne v982 c0_i32_1034
  v983

def k0_off22 (k0_t3 : Fin k0_t3_loop.trips) : Fin 1 → Nat :=
  let c0_i32_91 : BitVec 32 := 0#32
  let c1_i32_92 : BitVec 32 := 1#32
  let arg18 : BitVec 32 := Scf.iv c0_i32_91 c1_i32_92 k0_t3
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  ![v964.toNat]
def k0_off23 (k0_t3 : Fin k0_t3_loop.trips) : Fin 3 → Nat :=
  let c0_i32_91 : BitVec 32 := 0#32
  let c1_i32_92 : BitVec 32 := 1#32
  let arg18 : BitVec 32 := Scf.iv c0_i32_91 c1_i32_92 k0_t3
  let c2_i32_1018 : BitVec 32 := 2#32
  let c0_i32_1019 : BitVec 32 := 0#32
  let v955 : BitVec 1 := Scalar.cmpi .eq c2_i32_1018 c0_i32_1019
  let c1_i32_1020 : BitVec 32 := 1#32
  let v956 : BitVec 32 := Scalar.select v955 c1_i32_1020 c2_i32_1018
  let v957 : BitVec 32 := Scalar.remsi arg18 v956
  let c0_i32_1022 : BitVec 32 := 0#32
  let v959 : BitVec 1 := Scalar.cmpi .slt v957 c0_i32_1022
  let c0_i32_1023 : BitVec 32 := 0#32
  let v960 : BitVec 1 := Scalar.cmpi .slt v956 c0_i32_1023
  let v961 : BitVec 1 := Scalar.xori v959 v960
  let c0_i32_1021 : BitVec 32 := 0#32
  let v958 : BitVec 1 := Scalar.cmpi .ne v957 c0_i32_1021
  let v962 : BitVec 1 := Scalar.andi v961 v958
  let v963 : BitVec 32 := Scalar.addi v957 v956
  let v964 : BitVec 32 := Scalar.select v962 v963 v957
  let c0_i32_1037 : BitVec 32 := 0#32
  let c0_i32_1038 : BitVec 32 := 0#32
  ![v964.toNat, 0, 0]
def k0_off24 (k0_t3 : Fin k0_t3_loop.trips) : Fin 2 → Nat :=
  let c0_i32_1039 : BitVec 32 := 0#32
  let c0_i32_91 : BitVec 32 := 0#32
  let c1_i32_92 : BitVec 32 := 1#32
  let arg18 : BitVec 32 := Scf.iv c0_i32_91 c1_i32_92 k0_t3
  let c2_i32_1035 : BitVec 32 := 2#32
  let v984 : BitVec 32 := Scalar.addi arg18 c2_i32_1035
  let c128_i32_1036 : BitVec 32 := 128#32
  let v985 : BitVec 32 := Scalar.muli v984 c128_i32_1036
  ![0, v985.toNat]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v95 : BitVec 32 := Scalar.muli v2 c1024_i32
  let c0_i32_105 : BitVec 32 := 0#32
  ![v95.toNat, 0]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_94 : BitVec 32 := 1024#32
  let v96 : BitVec 32 := Scalar.muli v2 c1024_i32_94
  let c512_i32_95 : BitVec 32 := 512#32
  let v97 : BitVec 32 := Scalar.addi v96 c512_i32_95
  let c0_i32_117 : BitVec 32 := 0#32
  ![v97.toNat, 0]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v95 : BitVec 32 := Scalar.muli v2 c1024_i32
  let c512_i32_136 : BitVec 32 := 512#32
  ![v95.toNat, 512]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_94 : BitVec 32 := 1024#32
  let v96 : BitVec 32 := Scalar.muli v2 c1024_i32_94
  let c512_i32_95 : BitVec 32 := 512#32
  let v97 : BitVec 32 := Scalar.addi v96 c512_i32_95
  let c512_i32_155 : BitVec 32 := 512#32
  ![v97.toNat, 512]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v95 : BitVec 32 := Scalar.muli v2 c1024_i32
  let c1024_i32_173 : BitVec 32 := 1024#32
  ![v95.toNat, 1024]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_94 : BitVec 32 := 1024#32
  let v96 : BitVec 32 := Scalar.muli v2 c1024_i32_94
  let c512_i32_95 : BitVec 32 := 512#32
  let v97 : BitVec 32 := Scalar.addi v96 c512_i32_95
  let c1024_i32_192 : BitVec 32 := 1024#32
  ![v97.toNat, 1024]
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v95 : BitVec 32 := Scalar.muli v2 c1024_i32
  let c1536_i32 : BitVec 32 := 1536#32
  ![v95.toNat, 1536]
def k0_off32 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_94 : BitVec 32 := 1024#32
  let v96 : BitVec 32 := Scalar.muli v2 c1024_i32_94
  let c512_i32_95 : BitVec 32 := 512#32
  let v97 : BitVec 32 := Scalar.addi v96 c512_i32_95
  let c1536_i32_228 : BitVec 32 := 1536#32
  ![v97.toNat, 1536]
def k0_dev7 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_241 : BitVec 32 := 1#32
  let v238 : BitVec 32 := Scalar.muli v24 c1_i32_241
  let v239 : BitVec 32 := Scalar.addi c0_i32_242 v238
  v239.toNat
def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_249 : BitVec 32 := 1#32
  let v246 : BitVec 32 := Scalar.muli v24 c1_i32_249
  let v247 : BitVec 32 := Scalar.addi c0_i32_250 v246
  v247.toNat
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_262 : BitVec 32 := 1024#32
  let v260 : BitVec 32 := Scalar.muli v13 c1024_i32_262
  let c0_i32_280 : BitVec 32 := 0#32
  ![v260.toNat, 0]
def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_263 : BitVec 32 := 1024#32
  let v261 : BitVec 32 := Scalar.muli v24 c1024_i32_263
  let c0_i32_299 : BitVec 32 := 0#32
  ![v261.toNat, 0]
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_262 : BitVec 32 := 1024#32
  let v260 : BitVec 32 := Scalar.muli v13 c1024_i32_262
  let c512_i32_318 : BitVec 32 := 512#32
  ![v260.toNat, 512]
def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_263 : BitVec 32 := 1024#32
  let v261 : BitVec 32 := Scalar.muli v24 c1024_i32_263
  let c512_i32_337 : BitVec 32 := 512#32
  ![v261.toNat, 512]
def k0_off37 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_262 : BitVec 32 := 1024#32
  let v260 : BitVec 32 := Scalar.muli v13 c1024_i32_262
  let c1024_i32_356 : BitVec 32 := 1024#32
  ![v260.toNat, 1024]
def k0_off38 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_263 : BitVec 32 := 1024#32
  let v261 : BitVec 32 := Scalar.muli v24 c1024_i32_263
  let c1024_i32_375 : BitVec 32 := 1024#32
  ![v261.toNat, 1024]
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_262 : BitVec 32 := 1024#32
  let v260 : BitVec 32 := Scalar.muli v13 c1024_i32_262
  let c1536_i32_394 : BitVec 32 := 1536#32
  ![v260.toNat, 1536]
def k0_off40 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_263 : BitVec 32 := 1024#32
  let v261 : BitVec 32 := Scalar.muli v24 c1024_i32_263
  let c1536_i32_413 : BitVec 32 := 1536#32
  ![v261.toNat, 1536]
def k0_dev9 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_426 : BitVec 32 := 1#32
  let v412 : BitVec 32 := Scalar.muli v13 c1_i32_426
  let v413 : BitVec 32 := Scalar.addi c0_i32_427 v412
  v413.toNat
def k0_dev10 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_434 : BitVec 32 := 1#32
  let v420 : BitVec 32 := Scalar.muli v13 c1_i32_434
  let v421 : BitVec 32 := Scalar.addi c0_i32_435 v420
  v421.toNat
def k0_off41 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_447 : BitVec 32 := 1024#32
  let v434 : BitVec 32 := Scalar.muli v13 c1024_i32_447
  let c512_i32_448 : BitVec 32 := 512#32
  let v435 : BitVec 32 := Scalar.addi v434 c512_i32_448
  let c0_i32_467 : BitVec 32 := 0#32
  ![v435.toNat, 0]
def k0_off42 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_449 : BitVec 32 := 1024#32
  let v436 : BitVec 32 := Scalar.muli v24 c1024_i32_449
  let c512_i32_450 : BitVec 32 := 512#32
  let v437 : BitVec 32 := Scalar.addi v436 c512_i32_450
  let c0_i32_486 : BitVec 32 := 0#32
  ![v437.toNat, 0]
def k0_off43 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_447 : BitVec 32 := 1024#32
  let v434 : BitVec 32 := Scalar.muli v13 c1024_i32_447
  let c512_i32_448 : BitVec 32 := 512#32
  let v435 : BitVec 32 := Scalar.addi v434 c512_i32_448
  let c512_i32_505 : BitVec 32 := 512#32
  ![v435.toNat, 512]
def k0_off44 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_449 : BitVec 32 := 1024#32
  let v436 : BitVec 32 := Scalar.muli v24 c1024_i32_449
  let c512_i32_450 : BitVec 32 := 512#32
  let v437 : BitVec 32 := Scalar.addi v436 c512_i32_450
  let c512_i32_524 : BitVec 32 := 512#32
  ![v437.toNat, 512]
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_447 : BitVec 32 := 1024#32
  let v434 : BitVec 32 := Scalar.muli v13 c1024_i32_447
  let c512_i32_448 : BitVec 32 := 512#32
  let v435 : BitVec 32 := Scalar.addi v434 c512_i32_448
  let c1024_i32_543 : BitVec 32 := 1024#32
  ![v435.toNat, 1024]
def k0_off46 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_449 : BitVec 32 := 1024#32
  let v436 : BitVec 32 := Scalar.muli v24 c1024_i32_449
  let c512_i32_450 : BitVec 32 := 512#32
  let v437 : BitVec 32 := Scalar.addi v436 c512_i32_450
  let c1024_i32_562 : BitVec 32 := 1024#32
  ![v437.toNat, 1024]
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_447 : BitVec 32 := 1024#32
  let v434 : BitVec 32 := Scalar.muli v13 c1024_i32_447
  let c512_i32_448 : BitVec 32 := 512#32
  let v435 : BitVec 32 := Scalar.addi v434 c512_i32_448
  let c1536_i32_581 : BitVec 32 := 1536#32
  ![v435.toNat, 1536]
def k0_off48 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_449 : BitVec 32 := 1024#32
  let v436 : BitVec 32 := Scalar.muli v24 c1024_i32_449
  let c512_i32_450 : BitVec 32 := 512#32
  let v437 : BitVec 32 := Scalar.addi v436 c512_i32_450
  let c1536_i32_600 : BitVec 32 := 1536#32
  ![v437.toNat, 1536]
def k0_off49 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_654 : BitVec 32 := 1024#32
  let v621 : BitVec 32 := Scalar.muli v608 c1024_i32_654
  let c0_i32_673 : BitVec 32 := 0#32
  ![v621.toNat, 0]
def k0_off50 (d0 : Dev nD) (c512_i32_656 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_655 : BitVec 32 := 1024#32
  let v622 : BitVec 32 := Scalar.muli v608 c1024_i32_655
  let v623 : BitVec 32 := Scalar.addi v622 c512_i32_656
  let c0_i32_692 : BitVec 32 := 0#32
  ![v623.toNat, 0]
def k0_off51 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_654 : BitVec 32 := 1024#32
  let v621 : BitVec 32 := Scalar.muli v608 c1024_i32_654
  let c512_i32_711 : BitVec 32 := 512#32
  ![v621.toNat, 512]
def k0_off52 (d0 : Dev nD) (c512_i32_656 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_655 : BitVec 32 := 1024#32
  let v622 : BitVec 32 := Scalar.muli v608 c1024_i32_655
  let v623 : BitVec 32 := Scalar.addi v622 c512_i32_656
  let c512_i32_730 : BitVec 32 := 512#32
  ![v623.toNat, 512]
def k0_off53 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_654 : BitVec 32 := 1024#32
  let v621 : BitVec 32 := Scalar.muli v608 c1024_i32_654
  let c1024_i32_749 : BitVec 32 := 1024#32
  ![v621.toNat, 1024]
def k0_off54 (d0 : Dev nD) (c512_i32_656 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_655 : BitVec 32 := 1024#32
  let v622 : BitVec 32 := Scalar.muli v608 c1024_i32_655
  let v623 : BitVec 32 := Scalar.addi v622 c512_i32_656
  let c1024_i32_768 : BitVec 32 := 1024#32
  ![v623.toNat, 1024]
def k0_off55 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_654 : BitVec 32 := 1024#32
  let v621 : BitVec 32 := Scalar.muli v608 c1024_i32_654
  let c1536_i32_787 : BitVec 32 := 1536#32
  ![v621.toNat, 1536]
def k0_off56 (d0 : Dev nD) (c512_i32_656 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_655 : BitVec 32 := 1024#32
  let v622 : BitVec 32 := Scalar.muli v608 c1024_i32_655
  let v623 : BitVec 32 := Scalar.addi v622 c512_i32_656
  let c1536_i32_806 : BitVec 32 := 1536#32
  ![v623.toNat, 1536]
def k0_off57 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_855 : BitVec 32 := 1024#32
  let v798 : BitVec 32 := Scalar.muli v608 c1024_i32_855
  let c512_i32_856 : BitVec 32 := 512#32
  let v799 : BitVec 32 := Scalar.addi v798 c512_i32_856
  let c256_i32_857 : BitVec 32 := 256#32
  let v800 : BitVec 32 := Scalar.addi v799 c256_i32_857
  let c0_i32_891 : BitVec 32 := 0#32
  ![v800.toNat, 0]
def k0_off58 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_855 : BitVec 32 := 1024#32
  let v798 : BitVec 32 := Scalar.muli v608 c1024_i32_855
  let c512_i32_856 : BitVec 32 := 512#32
  let v799 : BitVec 32 := Scalar.addi v798 c512_i32_856
  let c256_i32_857 : BitVec 32 := 256#32
  let v800 : BitVec 32 := Scalar.addi v799 c256_i32_857
  let c512_i32_929 : BitVec 32 := 512#32
  ![v800.toNat, 512]
def k0_off59 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_855 : BitVec 32 := 1024#32
  let v798 : BitVec 32 := Scalar.muli v608 c1024_i32_855
  let c512_i32_856 : BitVec 32 := 512#32
  let v799 : BitVec 32 := Scalar.addi v798 c512_i32_856
  let c256_i32_857 : BitVec 32 := 256#32
  let v800 : BitVec 32 := Scalar.addi v799 c256_i32_857
  let c1024_i32_967 : BitVec 32 := 1024#32
  ![v800.toNat, 1024]
def k0_off60 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_631 : BitVec 32 := 2#32
  let v598 : BitVec 32 := Scalar.addi v2 c2_i32_631
  let c4_i32_632 : BitVec 32 := 4#32
  let c0_i32_633 : BitVec 32 := 0#32
  let v599 : BitVec 1 := Scalar.cmpi .eq c4_i32_632 c0_i32_633
  let c1_i32_634 : BitVec 32 := 1#32
  let v600 : BitVec 32 := Scalar.select v599 c1_i32_634 c4_i32_632
  let v601 : BitVec 32 := Scalar.remsi v598 v600
  let c0_i32_636 : BitVec 32 := 0#32
  let v603 : BitVec 1 := Scalar.cmpi .slt v601 c0_i32_636
  let c0_i32_637 : BitVec 32 := 0#32
  let v604 : BitVec 1 := Scalar.cmpi .slt v600 c0_i32_637
  let v605 : BitVec 1 := Scalar.xori v603 v604
  let c0_i32_635 : BitVec 32 := 0#32
  let v602 : BitVec 1 := Scalar.cmpi .ne v601 c0_i32_635
  let v606 : BitVec 1 := Scalar.andi v605 v602
  let v607 : BitVec 32 := Scalar.addi v601 v600
  let v608 : BitVec 32 := Scalar.select v606 v607 v601
  let c1024_i32_855 : BitVec 32 := 1024#32
  let v798 : BitVec 32 := Scalar.muli v608 c1024_i32_855
  let c512_i32_856 : BitVec 32 := 512#32
  let v799 : BitVec 32 := Scalar.addi v798 c512_i32_856
  let c256_i32_857 : BitVec 32 := 256#32
  let v800 : BitVec 32 := Scalar.addi v799 c256_i32_857
  let c1536_i32_1005 : BitVec 32 := 1536#32
  ![v800.toNat, 1536]

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S2x128x4096_S1x128x4096_0_0_0 : ∀ a, (![0, 0, 0] : Fin 3 → Nat) a + S1x128x4096.size a ≤ S2x128x4096.size a
  squeezes_S1x128x4096_S128x4096 : S1x128x4096.Squeezes S128x4096
  inb_S1024x4096_S128x4096_0_0 : ∀ a, (![0, 0] : Fin 2 → Nat) a + S128x4096.size a ≤ S1024x4096.size a
  inb_S2_S1_1 : ∀ a, (![1] : Fin 1 → Nat) a + S1.size a ≤ S2.size a
  inb_S2x128x4096_S1x128x4096_1_0_0 : ∀ a, (![1, 0, 0] : Fin 3 → Nat) a + S1x128x4096.size a ≤ S2x128x4096.size a
  inb_S1024x4096_S128x4096_128_0 : ∀ a, (![128, 0] : Fin 2 → Nat) a + S128x4096.size a ≤ S1024x4096.size a
  h_S1x128x4096 : 0 < S1x128x4096.numel
  shapeCasts_S1x128x4096_S128x4096 : S1x128x4096.ShapeCasts S128x4096
  bitsLt_bf16_f32 : FTy.bits .bf16 < FTy.bits .f32
  h_S128x4096 : 0 < S128x4096.numel
  shapeCasts_S128x4096_S128x4096 : S128x4096.ShapeCasts S128x4096
  inb_S4_S1_0 : ∀ a, (![0] : Fin 1 → Nat) a + S1.size a ≤ S4.size a
  inb_S1024x4096_S512x4096_0_0 : ∀ a, (![0, 0] : Fin 2 → Nat) a + S512x4096.size a ≤ S1024x4096.size a
  wordsbf16_S1024x4096_S512x4096_0_0 : (Rect.unit (s := S1024x4096) ![0, 0] S512x4096.size inb_S1024x4096_S512x4096_0_0).WholeWords (EltTy.packing .bf16)
  inb_S4_S1_1 : ∀ a, (![1] : Fin 1 → Nat) a + S1.size a ≤ S4.size a
  inb_S1024x4096_S128x4096_512_0 : ∀ a, (![512, 0] : Fin 2 → Nat) a + S128x4096.size a ≤ S1024x4096.size a
  inb_S1024x4096_S128x4096_640_0 : ∀ a, (![640, 0] : Fin 2 → Nat) a + S128x4096.size a ≤ S1024x4096.size a
  inb_S4_S1_2 : ∀ a, (![2] : Fin 1 → Nat) a + S1.size a ≤ S4.size a
  inb_S1024x4096_S512x4096_512_0 : ∀ a, (![512, 0] : Fin 2 → Nat) a + S512x4096.size a ≤ S1024x4096.size a
  wordsbf16_S1024x4096_S512x4096_512_0 : (Rect.unit (s := S1024x4096) ![512, 0] S512x4096.size inb_S1024x4096_S512x4096_512_0).WholeWords (EltTy.packing .bf16)
  inb_S4_S1_3 : ∀ a, (![3] : Fin 1 → Nat) a + S1.size a ≤ S4.size a
  inb_S2x4096x128_S1x4096x128_0_0_0 : ∀ a, (![0, 0, 0] : Fin 3 → Nat) a + S1x4096x128.size a ≤ S2x4096x128.size a
  squeezes_S1x4096x128_S4096x128 : S1x4096x128.Squeezes S4096x128
  inb_S4096x2048_S4096x128_0_0 : ∀ a, (![0, 0] : Fin 2 → Nat) a + S4096x128.size a ≤ S4096x2048.size a
  inb_S2x4096x128_S1x4096x128_1_0_0 : ∀ a, (![1, 0, 0] : Fin 3 → Nat) a + S1x4096x128.size a ≤ S2x4096x128.size a
  inb_S4096x2048_S4096x128_0_128 : ∀ a, (![0, 128] : Fin 2 → Nat) a + S4096x128.size a ≤ S4096x2048.size a
  h_S1x4096x128 : 0 < S1x4096x128.numel
  shapeCasts_S1x4096x128_S4096x128 : S1x4096x128.ShapeCasts S4096x128
  h_S4096x128 : 0 < S4096x128.numel
  shapeCasts_S4096x128_S4096x128 : S4096x128.ShapeCasts S4096x128
  h_S512x4096 : 0 < S512x4096.numel
  inb_S4096x2048_S4096x512_0_0 : ∀ a, (![0, 0] : Fin 2 → Nat) a + S4096x512.size a ≤ S4096x2048.size a
  h_S4096x512 : 0 < S4096x512.numel
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512x512_S1x512x512 : S512x512.ShapeCasts S1x512x512
  squeezes_S1x512x512_S512x512 : S1x512x512.Squeezes S512x512
  inb_S2x512x512_S1x512x512_1_0_0 : ∀ a, (![1, 0, 0] : Fin 3 → Nat) a + S1x512x512.size a ≤ S2x512x512.size a
  inb_S4096x2048_S4096x512_0_512 : ∀ a, (![0, 512] : Fin 2 → Nat) a + S4096x512.size a ≤ S4096x2048.size a
  inb_S4096x2048_S4096x512_0_1024 : ∀ a, (![0, 1024] : Fin 2 → Nat) a + S4096x512.size a ≤ S4096x2048.size a
  inb_S4096x2048_S4096x512_0_1536 : ∀ a, (![0, 1536] : Fin 2 → Nat) a + S4096x512.size a ≤ S4096x2048.size a
  inb_S1024x4096_S256x4096_0_0 : ∀ a, (![0, 0] : Fin 2 → Nat) a + S256x4096.size a ≤ S1024x4096.size a
  wordsbf16_S1024x4096_S256x4096_0_0 : (Rect.unit (s := S1024x4096) ![0, 0] S256x4096.size inb_S1024x4096_S256x4096_0_0).WholeWords (EltTy.packing .bf16)
  inb_S1024x4096_S256x4096_256_0 : ∀ a, (![256, 0] : Fin 2 → Nat) a + S256x4096.size a ≤ S1024x4096.size a
  wordsbf16_S1024x4096_S256x4096_256_0 : (Rect.unit (s := S1024x4096) ![256, 0] S256x4096.size inb_S1024x4096_S256x4096_256_0).WholeWords (EltTy.packing .bf16)
  inb_S1024x4096_S256x4096_512_0 : ∀ a, (![512, 0] : Fin 2 → Nat) a + S256x4096.size a ≤ S1024x4096.size a
  wordsbf16_S1024x4096_S256x4096_512_0 : (Rect.unit (s := S1024x4096) ![512, 0] S256x4096.size inb_S1024x4096_S256x4096_512_0).WholeWords (EltTy.packing .bf16)
  inb_S1024x4096_S256x4096_768_0 : ∀ a, (![768, 0] : Fin 2 → Nat) a + S256x4096.size a ≤ S1024x4096.size a
  wordsbf16_S1024x4096_S256x4096_768_0 : (Rect.unit (s := S1024x4096) ![768, 0] S256x4096.size inb_S1024x4096_S256x4096_768_0).WholeWords (EltTy.packing .bf16)
  h_S256x4096 : 0 < S256x4096.numel
  inb_S2x512x512_S1x256x512_0_0_0 : ∀ a, (![0, 0, 0] : Fin 3 → Nat) a + S1x256x512.size a ≤ S2x512x512.size a
  h_S1x256x512 : 0 < S1x256x512.numel
  shapeCasts_S1x256x512_S256x512 : S1x256x512.ShapeCasts S256x512
  shapeCasts_S256x512_S1x256x512 : S256x512.ShapeCasts S1x256x512
  squeezes_S1x256x512_S256x512 : S1x256x512.Squeezes S256x512
  inb_S2x512x512_S1x256x512_1_0_0 : ∀ a, (![1, 0, 0] : Fin 3 → Nat) a + S1x256x512.size a ≤ S2x512x512.size a
  dot_S512x4096_S4096x512_S512x512_1_0_0_1_n_n_wf : DotDims.WF S512x4096 S4096x512 S512x512 [1] [0] [0] [1] [] []
  dot_S256x4096_S4096x512_S256x512_1_0_0_1_n_n_wf : DotDims.WF S256x4096 S4096x512 S256x512 [1] [0] [0] [1] [] []
  hcc0_scratch8 : 0 + S4.numel ≤ 22
  hcc0_scratch9 : 4 + S4.numel ≤ 22
  hcc0_scratch10 : 8 + S4.numel ≤ 22
  hcc0_scratch11 : 12 + S4.numel ≤ 22
  hcc0_scratch12 : 16 + S2.numel ≤ 22
  hcc0_scratch13 : 18 + S2.numel ≤ 22
  hcc0_scratch14 : 20 + S2.numel ≤ 22
  k0_dev1_lt : ∀ d0 : Dev nD, (k0_dev1 d0) < nD
  k0_dev2_lt : ∀ d0 : Dev nD, (k0_dev2 d0) < nD
  k0_t1_ok : k0_t1_loop.OK
  k0_off1_inb : ∀ k0_t1 : Fin k0_t1_loop.trips, ∀ a, (k0_off1 k0_t1) a + S1.size a ≤ S2.size a
  k0_off2_inb : ∀ k0_t1 : Fin k0_t1_loop.trips, ∀ a, (k0_off2 k0_t1) a + S1x128x4096.size a ≤ S2x128x4096.size a
  k0_off3_inb : ∀ k0_t1 : Fin k0_t1_loop.trips, ∀ a, (k0_off3 k0_t1) a + S128x4096.size a ≤ S1024x4096.size a
  k0_off4_inb : ∀ k0_t1 : Fin k0_t1_loop.trips, ∀ a, (k0_off4 k0_t1) a + S1x128x4096.size a ≤ S2x128x4096.size a
  k0_off5_inb : ∀ k0_t1 : Fin k0_t1_loop.trips, ∀ a, (k0_off5 k0_t1) a + S128x4096.size a ≤ S1024x4096.size a
  k0_off5_packedbf16 : ∀ k0_t1 : Fin k0_t1_loop.trips, (Rect.unit (s := S1024x4096) (k0_off5 k0_t1) S128x4096.size (k0_off5_inb k0_t1)).PackedRows (EltTy.packing .bf16)
  k0_off6_inb : ∀ k0_t1 : Fin k0_t1_loop.trips, ∀ (k0_h1 : k0_cond1 k0_t1 = 1#1), ∀ a, (k0_off6 k0_t1) a + S1.size a ≤ S2.size a
  k0_off7_inb : ∀ k0_t1 : Fin k0_t1_loop.trips, ∀ (k0_h1 : k0_cond1 k0_t1 = 1#1), ∀ a, (k0_off7 k0_t1) a + S1x128x4096.size a ≤ S2x128x4096.size a
  k0_off8_inb : ∀ k0_t1 : Fin k0_t1_loop.trips, ∀ (k0_h1 : k0_cond1 k0_t1 = 1#1), ∀ a, (k0_off8 k0_t1) a + S128x4096.size a ≤ S1024x4096.size a
  k0_dev3_lt : ∀ d0 : Dev nD, (k0_dev3 d0) < nD
  k0_dev4_lt : ∀ d0 : Dev nD, (k0_dev4 d0) < nD
  k0_t2_ok : k0_t2_loop.OK
  k0_off9_inb : ∀ k0_t2 : Fin k0_t2_loop.trips, ∀ a, (k0_off9 k0_t2) a + S1.size a ≤ S2.size a
  k0_off10_inb : ∀ k0_t2 : Fin k0_t2_loop.trips, ∀ a, (k0_off10 k0_t2) a + S1x128x4096.size a ≤ S2x128x4096.size a
  k0_off11_inb : ∀ k0_t2 : Fin k0_t2_loop.trips, ∀ a, (k0_off11 k0_t2) a + S128x4096.size a ≤ S1024x4096.size a
  k0_off12_inb : ∀ k0_t2 : Fin k0_t2_loop.trips, ∀ a, (k0_off12 k0_t2) a + S1x128x4096.size a ≤ S2x128x4096.size a
  k0_off13_inb : ∀ k0_t2 : Fin k0_t2_loop.trips, ∀ a, (k0_off13 k0_t2) a + S128x4096.size a ≤ S1024x4096.size a
  k0_off13_packedbf16 : ∀ k0_t2 : Fin k0_t2_loop.trips, (Rect.unit (s := S1024x4096) (k0_off13 k0_t2) S128x4096.size (k0_off13_inb k0_t2)).PackedRows (EltTy.packing .bf16)
  k0_off14_inb : ∀ k0_t2 : Fin k0_t2_loop.trips, ∀ (k0_h2 : k0_cond2 k0_t2 = 1#1), ∀ a, (k0_off14 k0_t2) a + S1.size a ≤ S2.size a
  k0_off15_inb : ∀ k0_t2 : Fin k0_t2_loop.trips, ∀ (k0_h2 : k0_cond2 k0_t2 = 1#1), ∀ a, (k0_off15 k0_t2) a + S1x128x4096.size a ≤ S2x128x4096.size a
  k0_off16_inb : ∀ k0_t2 : Fin k0_t2_loop.trips, ∀ (k0_h2 : k0_cond2 k0_t2 = 1#1), ∀ a, (k0_off16 k0_t2) a + S128x4096.size a ≤ S1024x4096.size a
  k0_dev5_lt : ∀ d0 : Dev nD, (k0_dev5 d0) < nD
  k0_dev6_lt : ∀ d0 : Dev nD, (k0_dev6 d0) < nD
  k0_t3_ok : k0_t3_loop.OK
  k0_off17_inb : ∀ k0_t3 : Fin k0_t3_loop.trips, ∀ a, (k0_off17 k0_t3) a + S1.size a ≤ S2.size a
  k0_off18_inb : ∀ k0_t3 : Fin k0_t3_loop.trips, ∀ a, (k0_off18 k0_t3) a + S1x4096x128.size a ≤ S2x4096x128.size a
  k0_off19_inb : ∀ k0_t3 : Fin k0_t3_loop.trips, ∀ a, (k0_off19 k0_t3) a + S4096x128.size a ≤ S4096x2048.size a
  k0_off20_inb : ∀ k0_t3 : Fin k0_t3_loop.trips, ∀ a, (k0_off20 k0_t3) a + S1x4096x128.size a ≤ S2x4096x128.size a
  k0_off21_inb : ∀ k0_t3 : Fin k0_t3_loop.trips, ∀ a, (k0_off21 k0_t3) a + S4096x128.size a ≤ S4096x2048.size a
  k0_off21_packedbf16 : ∀ k0_t3 : Fin k0_t3_loop.trips, (Rect.unit (s := S4096x2048) (k0_off21 k0_t3) S4096x128.size (k0_off21_inb k0_t3)).PackedRows (EltTy.packing .bf16)
  k0_off22_inb : ∀ k0_t3 : Fin k0_t3_loop.trips, ∀ (k0_h3 : k0_cond3 k0_t3 = 1#1), ∀ a, (k0_off22 k0_t3) a + S1.size a ≤ S2.size a
  k0_off23_inb : ∀ k0_t3 : Fin k0_t3_loop.trips, ∀ (k0_h3 : k0_cond3 k0_t3 = 1#1), ∀ a, (k0_off23 k0_t3) a + S1x4096x128.size a ≤ S2x4096x128.size a
  k0_off24_inb : ∀ k0_t3 : Fin k0_t3_loop.trips, ∀ (k0_h3 : k0_cond3 k0_t3 = 1#1), ∀ a, (k0_off24 k0_t3) a + S4096x128.size a ≤ S4096x2048.size a
  k0_off25_inb : ∀ d0 : Dev nD, ∀ a, (k0_off25 d0) a + S512x512.size a ≤ S4096x2048.size a
  k0_off26_inb : ∀ d0 : Dev nD, ∀ a, (k0_off26 d0) a + S512x512.size a ≤ S4096x2048.size a
  k0_off27_inb : ∀ d0 : Dev nD, ∀ a, (k0_off27 d0) a + S512x512.size a ≤ S4096x2048.size a
  k0_off28_inb : ∀ d0 : Dev nD, ∀ a, (k0_off28 d0) a + S512x512.size a ≤ S4096x2048.size a
  k0_off29_inb : ∀ d0 : Dev nD, ∀ a, (k0_off29 d0) a + S512x512.size a ≤ S4096x2048.size a
  k0_off30_inb : ∀ d0 : Dev nD, ∀ a, (k0_off30 d0) a + S512x512.size a ≤ S4096x2048.size a
  k0_off31_inb : ∀ d0 : Dev nD, ∀ a, (k0_off31 d0) a + S512x512.size a ≤ S4096x2048.size a
  k0_off32_inb : ∀ d0 : Dev nD, ∀ a, (k0_off32 d0) a + S512x512.size a ≤ S4096x2048.size a
  k0_dev7_lt : ∀ d0 : Dev nD, (k0_dev7 d0) < nD
  k0_dev8_lt : ∀ d0 : Dev nD, (k0_dev8 d0) < nD
  k0_off33_inb : ∀ d0 : Dev nD, ∀ a, (k0_off33 d0) a + S512x512.size a ≤ S4096x2048.size a
  k0_off34_inb : ∀ d0 : Dev nD, ∀ a, (k0_off34 d0) a + S512x512.size a ≤ S4096x2048.size a
  k0_off35_inb : ∀ d0 : Dev nD, ∀ a, (k0_off35 d0) a + S512x512.size a ≤ S4096x2048.size a
  k0_off36_inb : ∀ d0 : Dev nD, ∀ a, (k0_off36 d0) a + S512x512.size a ≤ S4096x2048.size a
  k0_off37_inb : ∀ d0 : Dev nD, ∀ a, (k0_off37 d0) a + S512x512.size a ≤ S4096x2048.size a
  k0_off38_inb : ∀ d0 : Dev nD, ∀ a, (k0_off38 d0) a + S512x512.size a ≤ S4096x2048.size a
  k0_off39_inb : ∀ d0 : Dev nD, ∀ a, (k0_off39 d0) a + S512x512.size a ≤ S4096x2048.size a
  k0_off40_inb : ∀ d0 : Dev nD, ∀ a, (k0_off40 d0) a + S512x512.size a ≤ S4096x2048.size a
  k0_dev9_lt : ∀ d0 : Dev nD, (k0_dev9 d0) < nD
  k0_dev10_lt : ∀ d0 : Dev nD, (k0_dev10 d0) < nD
  k0_off41_inb : ∀ d0 : Dev nD, ∀ a, (k0_off41 d0) a + S512x512.size a ≤ S4096x2048.size a
  k0_off42_inb : ∀ d0 : Dev nD, ∀ a, (k0_off42 d0) a + S512x512.size a ≤ S4096x2048.size a
  k0_off43_inb : ∀ d0 : Dev nD, ∀ a, (k0_off43 d0) a + S512x512.size a ≤ S4096x2048.size a
  k0_off44_inb : ∀ d0 : Dev nD, ∀ a, (k0_off44 d0) a + S512x512.size a ≤ S4096x2048.size a
  k0_off45_inb : ∀ d0 : Dev nD, ∀ a, (k0_off45 d0) a + S512x512.size a ≤ S4096x2048.size a
  k0_off46_inb : ∀ d0 : Dev nD, ∀ a, (k0_off46 d0) a + S512x512.size a ≤ S4096x2048.size a
  k0_off47_inb : ∀ d0 : Dev nD, ∀ a, (k0_off47 d0) a + S512x512.size a ≤ S4096x2048.size a
  k0_off48_inb : ∀ d0 : Dev nD, ∀ a, (k0_off48 d0) a + S512x512.size a ≤ S4096x2048.size a
  k0_off49_inb : ∀ d0 : Dev nD, ∀ a, (k0_off49 d0) a + S256x512.size a ≤ S4096x2048.size a
  k0_off50_inb : ∀ d0 : Dev nD, ∀ (r : Fin 2), ∀ a, (k0_off50 d0 (BitVec.ofNat 32 (256 + 256 * r.val))) a + S256x512.size a ≤ S4096x2048.size a
  k0_off51_inb : ∀ d0 : Dev nD, ∀ a, (k0_off51 d0) a + S256x512.size a ≤ S4096x2048.size a
  k0_off52_inb : ∀ d0 : Dev nD, ∀ (r : Fin 2), ∀ a, (k0_off52 d0 (BitVec.ofNat 32 (256 + 256 * r.val))) a + S256x512.size a ≤ S4096x2048.size a
  k0_off53_inb : ∀ d0 : Dev nD, ∀ a, (k0_off53 d0) a + S256x512.size a ≤ S4096x2048.size a
  k0_off54_inb : ∀ d0 : Dev nD, ∀ (r : Fin 2), ∀ a, (k0_off54 d0 (BitVec.ofNat 32 (256 + 256 * r.val))) a + S256x512.size a ≤ S4096x2048.size a
  k0_off55_inb : ∀ d0 : Dev nD, ∀ a, (k0_off55 d0) a + S256x512.size a ≤ S4096x2048.size a
  k0_off56_inb : ∀ d0 : Dev nD, ∀ (r : Fin 2), ∀ a, (k0_off56 d0 (BitVec.ofNat 32 (256 + 256 * r.val))) a + S256x512.size a ≤ S4096x2048.size a
  k0_off57_inb : ∀ d0 : Dev nD, ∀ a, (k0_off57 d0) a + S256x512.size a ≤ S4096x2048.size a
  k0_off58_inb : ∀ d0 : Dev nD, ∀ a, (k0_off58 d0) a + S256x512.size a ≤ S4096x2048.size a
  k0_off59_inb : ∀ d0 : Dev nD, ∀ a, (k0_off59 d0) a + S256x512.size a ≤ S4096x2048.size a
  k0_off60_inb : ∀ d0 : Dev nD, ∀ a, (k0_off60 d0) a + S256x512.size a ≤ S4096x2048.size a

variable [Facts₀]

abbrev cc0_scratch8 : DmaSems sig S4 := SemArray.consecutive 0 S4 hcc0_scratch8
abbrev cc0_scratch9 : DmaSems sig S4 := SemArray.consecutive 4 S4 hcc0_scratch9
abbrev cc0_scratch10 : DmaSems sig S4 := SemArray.consecutive 8 S4 hcc0_scratch10
abbrev cc0_scratch11 : DmaSems sig S4 := SemArray.consecutive 12 S4 hcc0_scratch11
abbrev cc0_scratch12 : DmaSems sig S2 := SemArray.consecutive 16 S2 hcc0_scratch12
abbrev cc0_scratch13 : DmaSems sig S2 := SemArray.consecutive 18 S2 hcc0_scratch13
abbrev cc0_scratch14 : DmaSems sig S2 := SemArray.consecutive 20 S2 hcc0_scratch14
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Sched.lean ====
/-
  The protocol of the gathered product on four devices, as a schedule of rounds.

  Each device converts its 1024 rows of x to the narrow format in its own buffer, and the rows travel: the two halves to
  both ring neighbours (legs a1r, a1l, a2r, a2l), and from there the quarters one step further (legs fr0, fr1 to the right,
  fl0, fl1 to the left), so that every device ends holding all four blocks. A leg has a send cell on the device that fires
  it and a receive cell on the device it lands on, one duty each, in one round. The entry handshake runs on the barrier
  cell: two duties of one unit, one from each neighbour, each handing over the buffers that neighbour lets this device
  write into.
-/
import proofs.«900658_g7700000000000659_dist_ag_gemm_m4096_k4096_n8192_f32_relu_v7x_i4_1_alg».proof.Proof.Ring
import proofs.«900658_g7700000000000659_dist_ag_gemm_m4096_k4096_n8192_f32_relu_v7x_i4_1_alg».proof.Proof.Gen.KernelIdeal.Skeleton
import proofs.«900658_g7700000000000659_dist_ag_gemm_m4096_k4096_n8192_f32_relu_v7x_i4_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, the legs' rounds (duties `Bool`), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch. -/
def s₀ : MemSt nD τ sig (Elt F) := ⟨m, fun _ => 0, ρ⟩

/-! ## The buffers and their row ranges -/

/-- The device's own rows, converted; what came from the left; from the right; from across. -/
abbrev ownM : Memref sig .tc .vmem S1024x4096 .bf16 := Memref.whole cc0_scratch0
abbrev lftM : Memref sig .tc .vmem S1024x4096 .bf16 := Memref.whole cc0_scratch1
abbrev rgtM : Memref sig .tc .vmem S1024x4096 .bf16 := Memref.whole cc0_scratch2
abbrev dgnM : Memref sig .tc .vmem S1024x4096 .bf16 := Memref.whole cc0_scratch3

/-- Rows 0–511 and 512–1023; the four quarters. -/
abbrev rH0 : Rect S1024x4096 := Rect.unit (s := S1024x4096) ![0, 0] S512x4096.size inb_S1024x4096_S512x4096_0_0
abbrev rH1 : Rect S1024x4096 := Rect.unit (s := S1024x4096) ![512, 0] S512x4096.size inb_S1024x4096_S512x4096_512_0
abbrev rQ0 : Rect S1024x4096 := Rect.unit (s := S1024x4096) ![0, 0] S256x4096.size inb_S1024x4096_S256x4096_0_0
abbrev rQ1 : Rect S1024x4096 := Rect.unit (s := S1024x4096) ![256, 0] S256x4096.size inb_S1024x4096_S256x4096_256_0
abbrev rQ2 : Rect S1024x4096 := Rect.unit (s := S1024x4096) ![512, 0] S256x4096.size inb_S1024x4096_S256x4096_512_0
abbrev rQ3 : Rect S1024x4096 := Rect.unit (s := S1024x4096) ![768, 0] S256x4096.size inb_S1024x4096_S256x4096_768_0

abbrev ownH0 : Memref sig .tc .vmem S512x4096 .bf16 := ownM.slice rH0 (fun _ => rfl)
abbrev ownH1 : Memref sig .tc .vmem S512x4096 .bf16 := ownM.slice rH1 (fun _ => rfl)
abbrev lftH0 : Memref sig .tc .vmem S512x4096 .bf16 := lftM.slice rH0 (fun _ => rfl)
abbrev lftH1 : Memref sig .tc .vmem S512x4096 .bf16 := lftM.slice rH1 (fun _ => rfl)
abbrev rgtH0 : Memref sig .tc .vmem S512x4096 .bf16 := rgtM.slice rH0 (fun _ => rfl)
abbrev rgtH1 : Memref sig .tc .vmem S512x4096 .bf16 := rgtM.slice rH1 (fun _ => rfl)
abbrev dgnH0 : Memref sig .tc .vmem S512x4096 .bf16 := dgnM.slice rH0 (fun _ => rfl)
abbrev dgnH1 : Memref sig .tc .vmem S512x4096 .bf16 := dgnM.slice rH1 (fun _ => rfl)
abbrev lftQ0 : Memref sig .tc .vmem S256x4096 .bf16 := lftM.slice rQ0 (fun _ => rfl)
abbrev lftQ1 : Memref sig .tc .vmem S256x4096 .bf16 := lftM.slice rQ1 (fun _ => rfl)
abbrev rgtQ2 : Memref sig .tc .vmem S256x4096 .bf16 := rgtM.slice rQ2 (fun _ => rfl)
abbrev rgtQ3 : Memref sig .tc .vmem S256x4096 .bf16 := rgtM.slice rQ3 (fun _ => rfl)
abbrev dgnQ0 : Memref sig .tc .vmem S256x4096 .bf16 := dgnM.slice rQ0 (fun _ => rfl)
abbrev dgnQ1 : Memref sig .tc .vmem S256x4096 .bf16 := dgnM.slice rQ1 (fun _ => rfl)
abbrev dgnQ2 : Memref sig .tc .vmem S256x4096 .bf16 := dgnM.slice rQ2 (fun _ => rfl)
abbrev dgnQ3 : Memref sig .tc .vmem S256x4096 .bf16 := dgnM.slice rQ3 (fun _ => rfl)

/-- The contents of one of the four 1024 × 4096 buffers. -/
abbrev Rows : Type := (cc0_scratch0 : Ref sig .tc).ty.Contents (Elt F)

/-- The device's block of x in the narrow format: what its own buffer holds once converted, and what each copy of it
    on another device holds. -/
def xb (c : Dev nD) : Rows (F := F) :=
  truncf (F := F) .bf16 (m ((c : Thread nD τ).loc main_arg0)) bitsLt_bf16_f32

/-- The elements of a memref of device `c`, at share `q`, holding their part of `f`. -/
abbrev rowsOn {sh : Shape} (M : Memref sig .tc .vmem sh .bf16) (c : Dev nD) (q : PosShare TreeShare)
    (f : Buf (Elt F) (M.view.loc (c : Thread nD τ))) : sProp 𝕄 :=
  M.view.loc (c : Thread nD τ) ↦[M.view.set]{q} f

/-! ## The legs and the cells -/

/-- The eight remote copies a device fires. -/
inductive Leg | a1r | a1l | a2r | a2l | fr0 | fr1 | fl0 | fl1
deriving DecidableEq

abbrev semAt4 (A : DmaSems sig S4) (o : Fin 1 → Nat) (h : ∀ a, o a + S1.size a ≤ S4.size a) : DmaSem sig :=
  ((A.slice (Rect.unit (s := S4) o S1.size h)).squeeze S_ squeezes_S1_S_).sem

/-- A leg's send semaphore (on the firing device) and its receive semaphore (on the device it lands on). -/
def sS : Leg → DmaSem sig
  | .a1r => semAt4 cc0_scratch8 ![0] inb_S4_S1_0 | .a1l => semAt4 cc0_scratch8 ![1] inb_S4_S1_1
  | .a2r => semAt4 cc0_scratch8 ![2] inb_S4_S1_2 | .a2l => semAt4 cc0_scratch8 ![3] inb_S4_S1_3
  | .fr0 => semAt4 cc0_scratch10 ![0] inb_S4_S1_0 | .fr1 => semAt4 cc0_scratch10 ![1] inb_S4_S1_1
  | .fl0 => semAt4 cc0_scratch10 ![2] inb_S4_S1_2 | .fl1 => semAt4 cc0_scratch10 ![3] inb_S4_S1_3
def sR : Leg → DmaSem sig
  | .a1r => semAt4 cc0_scratch9 ![0] inb_S4_S1_0 | .a1l => semAt4 cc0_scratch9 ![1] inb_S4_S1_1
  | .a2r => semAt4 cc0_scratch9 ![2] inb_S4_S1_2 | .a2l => semAt4 cc0_scratch9 ![3] inb_S4_S1_3
  | .fr0 => semAt4 cc0_scratch11 ![0] inb_S4_S1_0 | .fr1 => semAt4 cc0_scratch11 ![1] inb_S4_S1_1
  | .fl0 => semAt4 cc0_scratch11 ![2] inb_S4_S1_2 | .fl1 => semAt4 cc0_scratch11 ![3] inb_S4_S1_3

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (l : Leg) (c : Dev nD) : GSem nD τ sig := ((c : Thread nD τ), .dma (sS l))
abbrev recvCell (l : Leg) (c : Dev nD) : GSem nD τ sig := ((c : Thread nD τ), .dma (sR l))

/-- Where a leg fired by `c` lands, and whose leg lands on `c`. -/
def tgt : Leg → Dev nD → Dev nD
  | .a1r, c | .a2r, c | .fr0, c | .fr1, c => nxt c
  | .a1l, c | .a2l, c | .fl0, c | .fl1, c => prv c
def src : Leg → Dev nD → Dev nD
  | .a1r, c | .a2r, c | .fr0, c | .fr1, c => prv c
  | .a1l, c | .a2l, c | .fl0, c | .fl1, c => nxt c
theorem src_tgt (l : Leg) (c : Dev nD) : src l (tgt l c) = c := by cases l <;> first | exact prv_nxt c | exact nxt_prv c
theorem tgt_src (l : Leg) (c : Dev nD) : tgt l (src l c) = c := by cases l <;> first | exact prv_nxt c | exact nxt_prv c

/-- Whose block of x a leg carries when `c` fires it: its own on the first four, the left neighbour's on the two it forwards
    to the right, the right neighbour's on the two it forwards to the left. -/
def carries : Leg → Dev nD → Dev nD
  | .a1r, c | .a1l, c | .a2r, c | .a2l, c => c
  | .fr0, c | .fr1, c => prv c
  | .fl0, c | .fl1, c => nxt c

/-! ## The payloads -/

/-- The share of its source rows a leg borrows: the two legs that read the same rows take the two halves of one half,
    so that the device keeps a share to load the rows with while both copies are under way. -/
def legShare : Leg → PosShare TreeShare
  | .a1r | .a2r | .fr0 | .fr1 | .fl0 | .fl1 => fullShare.left
  | .a1l | .a2l => fullShare.right.left

/-- What the send cell's units give back to the firing device: the borrowed share of the source rows, unchanged. -/
def sendPay (l : Leg) (c : Dev nD) : sProp 𝕄 :=
  match l with
  | .a1r => rowsOn ownH0 c (legShare .a1r) (xb m c) | .a1l => rowsOn ownH0 c (legShare .a1l) (xb m c)
  | .a2r => rowsOn ownH1 c (legShare .a2r) (xb m c) | .a2l => rowsOn ownH1 c (legShare .a2l) (xb m c)
  | .fr0 => rowsOn lftQ0 c (legShare .fr0) (xb m (prv c)) | .fr1 => rowsOn lftQ1 c (legShare .fr1) (xb m (prv c))
  | .fl0 => rowsOn rgtQ2 c (legShare .fl0) (xb m (nxt c)) | .fl1 => rowsOn rgtQ3 c (legShare .fl1) (xb m (nxt c))

/-- What the receive cell's units give the device the leg lands on: the destination rows holding the block of x the
    leg carries from the device that fired it. -/
def recvPay (l : Leg) (c : Dev nD) : sProp 𝕄 :=
  match l with
  | .a1r => rowsOn lftH0 c fullShare (xb m (prv c)) | .a2r => rowsOn lftH1 c fullShare (xb m (prv c))
  | .a1l => rowsOn rgtH0 c fullShare (xb m (nxt c)) | .a2l => rowsOn rgtH1 c fullShare (xb m (nxt c))
  | .fr0 => rowsOn dgnQ0 c fullShare (xb m (opp c)) | .fr1 => rowsOn dgnQ1 c fullShare (xb m (opp c))
  | .fl0 => rowsOn dgnQ2 c fullShare (xb m (opp c)) | .fl1 => rowsOn dgnQ3 c fullShare (xb m (opp c))

/-- What the right neighbour's barrier unit hands `c`: the buffers of that neighbour `c` writes into, its left buffer and
    the upper half of its across buffer. -/
def barPayT (c : Dev nD) : sProp 𝕄 :=
  iprop((∃ f : Rows (F := F), (lftM : Memref sig .tc .vmem S1024x4096 .bf16).view.loc ((nxt c : Dev nD) : Thread nD τ) ↦{fullShare} f) ∗ (∃ f : Rows (F := F), rowsOn (F := F) dgnH0 (nxt c) fullShare f))
/-- What the left neighbour's hands it: that neighbour's right buffer and the lower half of its across buffer. -/
def barPayF (c : Dev nD) : sProp 𝕄 :=
  iprop((∃ f : Rows (F := F), (rgtM : Memref sig .tc .vmem S1024x4096 .bf16).view.loc ((prv c : Dev nD) : Thread nD τ) ↦{fullShare} f) ∗ (∃ f : Rows (F := F), rowsOn (F := F) dgnH1 (prv c) fullShare f))

/-! ## The schedule -/

/-- Which leg's cell a DMA semaphore is, and whether its receive cell. -/
def legOf (s : DmaSem sig) : Option (Bool × Leg) :=
  ([(false, Leg.a1r), (false, .a1l), (false, .a2r), (false, .a2l), (false, .fr0), (false, .fr1), (false, .fl0), (false, .fl1),
    (true, .a1r), (true, .a1l), (true, .a2r), (true, .a2l), (true, .fr0), (true, .fr1), (true, .fl0), (true, .fl1)] : List (Bool × Leg)).find?
    fun p => decide (s = (if p.1 then sR p.2 else sS p.2))

/-- The units a leg's copy credits: the credit of its destination slice. -/
def legAmt : Leg → ℕ
  | .a1r => lftH0.view.dmaCredit | .a2r => lftH1.view.dmaCredit | .a1l => rgtH0.view.dmaCredit | .a2l => rgtH1.view.dmaCredit
  | .fr0 => dgnQ0.view.dmaCredit | .fr1 => dgnQ1.view.dmaCredit | .fl0 => dgnQ2.view.dmaCredit | .fl1 => dgnQ3.view.dmaCredit
theorem legAmt_pos (l : Leg) : 0 < legAmt l := by cases l <;> exact View.dmaCredit_pos _ (by decide)

abbrev IsBar (g : GSem nD τ sig) : Prop := g.1.2 = .tc ∧ g.2 = .reg barS
abbrev IsLeg (g : GSem nD τ sig) : Prop := g.1.2 = .tc ∧ ∃ s, g.2 = .dma s ∧ (legOf s).isSome = true

/-- One round: a barrier cell has the two unit duties `false` (from the left neighbour) and `true` (from the right one);
    a leg's send or receive cell the one duty `false` of the slice's credit. -/
def agRd : Rounds.Schedule (GSem nD τ sig) Bool 𝕄 where
  duties g r := if r = 0 ∧ IsBar g then Finset.univ else if r = 0 ∧ IsLeg g then {false} else ∅
  unitless _ := False
  amount g _ _ := match g.2 with
    | .reg _ => 1
    | .dma s => match legOf s with | some (_, l) => legAmt l | none => 1
  payload g _ d := match g.2 with
    | .reg s => if s = barS then (if d then barPayT g.1.1 else barPayF g.1.1) else iprop(emp)
    | .dma s => match legOf s with
      | some (true, l) => recvPay m l g.1.1
      | some (false, l) => sendPay m l g.1.1
      | none => iprop(emp)
  amount_pos g _ _ _ := by
    rcases g with ⟨t, s | s⟩
    · exact Nat.one_pos
    · dsimp only
      cases h : legOf s with
      | none => exact Nat.one_pos
      | some p => exact legAmt_pos p.2

section Sched
variable (c : Dev nD) (l : Leg)

theorem legOf_send : legOf (sS l) = some (false, l) := by cases l <;> rfl
theorem legOf_recv : legOf (sR l) = some (true, l) := by cases l <;> rfl

theorem not_bar_send : ¬ IsBar (sendCell l c) := fun h => by cases h.2
theorem not_bar_recv : ¬ IsBar (recvCell l c) := fun h => by cases h.2
theorem isLeg_send : IsLeg (sendCell l c) := ⟨rfl, _, rfl, by rw [legOf_send]; rfl⟩
theorem isLeg_recv : IsLeg (recvCell l c) := ⟨rfl, _, rfl, by rw [legOf_recv]; rfl⟩

theorem duties_bar : (agRd (F := F) m).duties (barCell c) 0 = Finset.univ := by dsimp only [agRd]; exact if_pos ⟨rfl, rfl, rfl⟩
theorem duties_send : (agRd (F := F) m).duties (sendCell l c) 0 = {false} := by
  dsimp only [agRd]; rw [if_neg (fun h => not_bar_send c l h.2)]; exact if_pos ⟨rfl, isLeg_send c l⟩
theorem duties_recv : (agRd (F := F) m).duties (recvCell l c) 0 = {false} := by
  dsimp only [agRd]; rw [if_neg (fun h => not_bar_recv c l h.2)]; exact if_pos ⟨rfl, isLeg_recv c l⟩
theorem duties_later (g : GSem nD τ sig) : ∀ r, 1 ≤ r → (agRd (F := F) m).duties g r = ∅ :=
  fun r hr => by dsimp only [agRd]; rw [if_neg fun h => by omega, if_neg fun h => by omega]

theorem amount_bar (d : Bool) : (agRd (F := F) m).amount (barCell c) 0 d = 1 := rfl
theorem amount_send (d : Bool) : (agRd (F := F) m).amount (sendCell l c) 0 d = legAmt l := by
  show (match legOf (sS l) with | some (_, l) => legAmt l | none => 1) = _; rw [legOf_send]
theorem amount_recv (d : Bool) : (agRd (F := F) m).amount (recvCell l c) 0 d = legAmt l := by
  show (match legOf (sR l) with | some (_, l) => legAmt l | none => 1) = _; rw [legOf_recv]

theorem expect_bar : (agRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (agRd (F := F) m).expect (sendCell l c) 0 = legAmt l := by
  unfold Schedule.expect Schedule.amountOf; rw [duties_send, Finset.sum_singleton, amount_send]
theorem expect_recv : (agRd (F := F) m).expect (recvCell l c) 0 = legAmt l := by
  unfold Schedule.expect Schedule.amountOf; rw [duties_recv, Finset.sum_singleton, amount_recv]

theorem payload_bar_true : (agRd (F := F) m).payload (barCell c) 0 true = barPayT c := by
  show (if barS = barS then (if true = true then barPayT c else barPayF c) else iprop(emp)) = _; rw [if_pos rfl, if_pos rfl]
theorem payload_bar_false : (agRd (F := F) m).payload (barCell c) 0 false = barPayF c := by
  show (if barS = barS then (if false = true then barPayT c else barPayF c) else iprop(emp)) = _; rw [if_pos rfl]; exact if_neg Bool.false_ne_true
theorem payload_send (d : Bool) : (agRd (F := F) m).payload (sendCell l c) 0 d = sendPay m l c := by
  show (match legOf (sS l) with | some (true, l) => recvPay m l c | some (false, l) => sendPay m l c | none => iprop(emp)) = _; rw [legOf_send]
theorem payload_recv (d : Bool) : (agRd (F := F) m).payload (recvCell l c) 0 d = recvPay m l c := by
  show (match legOf (sR l) with | some (true, l) => recvPay m l c | some (false, l) => sendPay m l c | none => iprop(emp)) = _; rw [legOf_recv]

end Sched

end Cert.KernelIdeal.AG

end
-- ==== Proof.State.lean ====
/-
  What a device holds when the kernel body starts and when it ends: the cells' invariants it opens, its positions and the
  tokens of the duties it pays, what it owes the other devices, the credit it will wait for, its buffers, and the counters of
  the semaphores only its own local copies use.
-/
import proofs.«900658_g7700000000000659_dist_ag_gemm_m4096_k4096_n8192_f32_relu_v7x_i4_1_alg».proof.Proof.Sched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The semaphores of the local copies: two for the rows of x, two for the columns of w, two for the result tiles -/

abbrev semAt2 (A : DmaSems sig S2) (o : Fin 1 → Nat) (h : ∀ a, o a + S1.size a ≤ S2.size a) : DmaSem sig :=
  ((A.slice (Rect.unit (s := S2) o S1.size h)).squeeze S_ squeezes_S1_S_).sem
abbrev xS0 : DmaSem sig := semAt2 cc0_scratch12 ![0] inb_S2_S1_0
abbrev xS1 : DmaSem sig := semAt2 cc0_scratch12 ![1] inb_S2_S1_1
abbrev wS0 : DmaSem sig := semAt2 cc0_scratch13 ![0] inb_S2_S1_0
abbrev wS1 : DmaSem sig := semAt2 cc0_scratch13 ![1] inb_S2_S1_1
abbrev yS0 : DmaSem sig := semAt2 cc0_scratch14 ![0] inb_S2_S1_0
abbrev yS1 : DmaSem sig := semAt2 cc0_scratch14 ![1] inb_S2_S1_1

/-- The six counters at zero. -/
def localSems (c : Dev nD) : sProp 𝕄 :=
  iprop(semVal ((c : Thread nD τ), SemLoc.dma xS0) 0 ∗ semVal ((c : Thread nD τ), SemLoc.dma xS1) 0
    ∗ semVal ((c : Thread nD τ), SemLoc.dma wS0) 0 ∗ semVal ((c : Thread nD τ), SemLoc.dma wS1) 0
    ∗ semVal ((c : Thread nD τ), SemLoc.dma yS0) 0 ∗ semVal ((c : Thread nD τ), SemLoc.dma yS1) 0)

/-! ## The cells a device touches -/

variable (K : GSem nD τ sig → ℕ)

/-- A leg's three invariants as device `c` needs them: its send cell, its own receive cell of that leg (where the same leg
    of a neighbour lands), and the receive cell on the device `t` its own copy lands on. -/
def legInvAt (c : Dev nD) (l : Leg) (t : Dev nD) : sProp 𝕄 :=
  iprop(cellInv ER (agRd m) (K (sendCell l c)) (sendCell l c) ∗ cellInv ER (agRd m) (K (recvCell l c)) (recvCell l c)
    ∗ cellInv ER (agRd m) (K (recvCell l t)) (recvCell l t))
instance legInvAt_persistent (c : Dev nD) (l : Leg) (t : Dev nD) : BI.Persistent (legInvAt m K c l t) := by unfold legInvAt; infer_instance
abbrev legInv (c : Dev nD) (l : Leg) : sProp 𝕄 := legInvAt m K c l (tgt l c)

/-- Its positions on the leg's two own cells, that round 0 of the three is reached, and the two tokens it pays with. -/
def legGhostAt (c : Dev nD) (l : Leg) (t : Dev nD) : sProp 𝕄 :=
  iprop(atPos ER (sendCell l c) 0 ∅ 0 ∗ atPos ER (recvCell l c) 0 ∅ 0
    ∗ reached ER (sendCell l c) 0 ∗ reached ER (recvCell l c) 0 ∗ reached ER (recvCell l t) 0
    ∗ dutyTok ER (sendCell l c) 0 false ∗ dutyTok ER (recvCell l t) 0 false)
abbrev legGhost (c : Dev nD) (l : Leg) : sProp 𝕄 := legGhostAt (F := F) c l (tgt l c)

/-- The barrier cells: its own and both neighbours'. It pays the left neighbour's duty `true` (it is that neighbour's right
    neighbour) and the right neighbour's duty `false`. -/
def barInv (c : Dev nD) : sProp 𝕄 :=
  iprop(cellInv ER (agRd m) (K (barCell c)) (barCell c) ∗ cellInv ER (agRd m) (K (barCell (prv c))) (barCell (prv c))
    ∗ cellInv ER (agRd m) (K (barCell (nxt c))) (barCell (nxt c)))
instance barInv_persistent (c : Dev nD) : BI.Persistent (barInv m K c) := by unfold barInv; infer_instance
def barGhost (c : Dev nD) : sProp 𝕄 :=
  iprop(atPos ER (barCell c) 0 ∅ 0 ∗ reached ER (barCell (prv c)) 0 ∗ reached ER (barCell (nxt c)) 0
    ∗ dutyTok ER (barCell (prv c)) 0 true ∗ dutyTok ER (barCell (nxt c)) 0 false)

/-- All of it. -/
def ghost (c : Dev nD) : sProp 𝕄 :=
  iprop((barInv m K c ∗ legInvAt m K c .a1r (nxt c) ∗ legInvAt m K c .a1l (prv c) ∗ legInvAt m K c .a2r (nxt c) ∗ legInvAt m K c .a2l (prv c)
      ∗ legInvAt m K c .fr0 (nxt c) ∗ legInvAt m K c .fr1 (nxt c) ∗ legInvAt m K c .fl0 (prv c) ∗ legInvAt m K c .fl1 (prv c))
    ∗ barGhost c ∗ legGhostAt c .a1r (nxt c) ∗ legGhostAt c .a1l (prv c) ∗ legGhostAt c .a2r (nxt c) ∗ legGhostAt c .a2l (prv c)
      ∗ legGhostAt c .fr0 (nxt c) ∗ legGhostAt c .fr1 (nxt c) ∗ legGhostAt c .fl0 (prv c) ∗ legGhostAt c .fl1 (prv c))

/-! ## What a device owes at launch, and the credit it waits for -/

/-- One unit to each neighbour's barrier cell, and each leg's credit to the receive cell it lands on. -/
def O₀ (c : Dev nD) : CellTallies nD τ sig Unit :=
  tallyAt (recvCell .fl1 (prv c)) () (legAmt .fl1) + tallyAt (recvCell .fl0 (prv c)) () (legAmt .fl0)
  + tallyAt (recvCell .fr1 (nxt c)) () (legAmt .fr1) + tallyAt (recvCell .fr0 (nxt c)) () (legAmt .fr0)
  + tallyAt (recvCell .a2l (prv c)) () (legAmt .a2l) + tallyAt (recvCell .a2r (nxt c)) () (legAmt .a2r)
  + tallyAt (recvCell .a1l (prv c)) () (legAmt .a1l) + tallyAt (recvCell .a1r (nxt c)) () (legAmt .a1r)
  + tallyAt (barCell (nxt c)) () 1 + tallyAt (barCell (prv c)) () 1

/-- The credit dealt at launch: its barrier's two units and each receive cell's. -/
def creds (c : Dev nD) : sProp 𝕄 :=
  iprop(cred (tallyAt (barCell c) () 2)
    ∗ cred (tallyAt (recvCell .a1r c) () (legAmt .a1r)) ∗ cred (tallyAt (recvCell .a1l c) () (legAmt .a1l))
    ∗ cred (tallyAt (recvCell .a2r c) () (legAmt .a2r)) ∗ cred (tallyAt (recvCell .a2l c) () (legAmt .a2l))
    ∗ cred (tallyAt (recvCell .fr0 c) () (legAmt .fr0)) ∗ cred (tallyAt (recvCell .fr1 c) () (legAmt .fr1))
    ∗ cred (tallyAt (recvCell .fl0 c) () (legAmt .fl0)) ∗ cred (tallyAt (recvCell .fl1 c) () (legAmt .fl1)))

/-! ## The levels: barrier cells below the halves' receive cells below the quarters' -/

def L (g : GSem nD τ sig) : Finset Unit := if g.1.2 = .tc then {()} else ∅
def lv (g : GSem nD τ sig) (_ : Unit) : ℕ :=
  match g.2 with
  | .reg s => if s = barS then 1 else 0
  | .dma s => match legOf s with
    | some (true, .a1r) | some (true, .a1l) | some (true, .a2r) | some (true, .a2l) => 2
    | some (true, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The buffers -/

/-- The other buffers, each through its whole memref: the narrowed block of w, the two staging double buffers, the result
    tiles' double buffer; the two arguments and the result. -/
abbrev wbfM : Memref sig .tc .vmem S4096x2048 .bf16 := Memref.whole cc0_scratch4
abbrev xfM : Memref sig .tc .vmem S2x128x4096 .f32 := Memref.whole cc0_scratch5
abbrev wfM : Memref sig .tc .vmem S2x4096x128 .f32 := Memref.whole cc0_scratch6
abbrev yvM : Memref sig .tc .vmem S2x512x512 .f32 := Memref.whole cc0_scratch7
abbrev xM : Memref sig .tc .hbm S1024x4096 .f32 := Memref.whole main_arg0
abbrev wM : Memref sig .tc .hbm S4096x2048 .f32 := Memref.whole main_arg1
abbrev oM : Memref sig .tc .hbm S4096x2048 .f32 := Memref.whole main_v1

/-- The eight scratch buffers, each whole at some contents. -/
def scratch (c : Dev nD) : sProp 𝕄 :=
  iprop((∃ f, (ownM : Memref sig .tc .vmem S1024x4096 .bf16).view.loc (c : Thread nD τ) ↦{fullShare} f)
    ∗ (∃ f, (lftM : Memref sig .tc .vmem S1024x4096 .bf16).view.loc (c : Thread nD τ) ↦{fullShare} f)
    ∗ (∃ f, (rgtM : Memref sig .tc .vmem S1024x4096 .bf16).view.loc (c : Thread nD τ) ↦{fullShare} f)
    ∗ (∃ f, (dgnM : Memref sig .tc .vmem S1024x4096 .bf16).view.loc (c : Thread nD τ) ↦{fullShare} f)
    ∗ (∃ f, (wbfM : Memref sig .tc .vmem S4096x2048 .bf16).view.loc (c : Thread nD τ) ↦{fullShare} f)
    ∗ (∃ f, (xfM : Memref sig .tc .vmem S2x128x4096 .f32).view.loc (c : Thread nD τ) ↦{fullShare} f)
    ∗ (∃ f, (wfM : Memref sig .tc .vmem S2x4096x128 .f32).view.loc (c : Thread nD τ) ↦{fullShare} f)
    ∗ (∃ f, (yvM : Memref sig .tc .vmem S2x512x512 .f32).view.loc (c : Thread nD τ) ↦{fullShare} f))

/-- The two arguments at their launch contents and the result at contents `o`. -/
def arrays (c : Dev nD) (o : Buf (Elt F) ((c : Thread nD τ).loc main_v1)) : sProp 𝕄 :=
  iprop(((xM : Memref sig .tc .hbm S1024x4096 .f32).view.loc (c : Thread nD τ) ↦{fullShare} m ((c : Thread nD τ).loc main_arg0))
    ∗ ((wM : Memref sig .tc .hbm S4096x2048 .f32).view.loc (c : Thread nD τ) ↦{fullShare} m ((c : Thread nD τ).loc main_arg1))
    ∗ ((oM : Memref sig .tc .hbm S4096x2048 .f32).view.loc (c : Thread nD τ) ↦{fullShare} o))

end Cert.KernelIdeal.AG

end
-- ==== Proof.Contents.lean ====
/-
  What each device's result holds, as a function of the memory at launch.

  Device `c` holds its 1024 rows of x and its 2048 columns of w; both are narrowed to the short format before any
  product is taken (`xb`, `wb`). Its result is 4096 × 2048: rows `1024 d … 1024 d + 1023` are the product of device
  `d`'s narrowed rows with `c`'s narrowed columns, followed by the maximum with zero. The product is taken tile by
  tile, a tile being 512 columns wide and 512 rows high, except for the rows of the opposite device `opp c`, whose
  tiles are 256 rows high. At the extended reals the height of a tile does not show in the value; at a float format
  it may (a product is one operation of the format over the whole tile), so the result is stated tile by tile
  (`outv`): element (R, C) is element (R mod 1024 mod h, C mod 512) of the product of the tile of rows it lies in,
  h the tile height of its device, with the tile of columns it lies in.
-/
import proofs.«900658_g7700000000000659_dist_ag_gemm_m4096_k4096_n8192_f32_relu_v7x_i4_1_alg».proof.Proof.Ring
import proofs.«900658_g7700000000000659_dist_ag_gemm_m4096_k4096_n8192_f32_relu_v7x_i4_1_alg».proof.Proof.Sched
import Idealize.ShloMosaic.Lib.ValueIdx

noncomputable section

namespace Cert.KernelIdeal.AG

open Cert.KernelIdeal Cert.KernelIdeal.Gen Idealize.ShloMosaic Idealize.ShloMosaic.TcCoe
open Idealize.ShloMosaic.ValueIdx

variable {F : FTy → Type} [FloatOps F] (m : (ℓ : Loc nD τ sig) → Buf (Elt F) ℓ)

/-- The contents of the 4096 × 2048 buffer of narrowed columns. -/
abbrev Cols : Type := (cc0_scratch4 : Ref sig .tc).ty.Contents (Elt F)

/-- The device's block of w, narrowed. -/
def wb (c : Dev nD) : Cols (F := F) :=
  truncf (F := F) .bf16 (m ((c : Thread nD τ).loc main_arg1)) bitsLt_bf16_f32

/-! ## Tiles -/

/-- Rows `512 h … 512 h + 511` of a 1024 × 4096 array. -/
def rows512 (X : Rows (F := F)) (h : Fin 2) : Vec F S512x4096 .bf16 :=
  fun i => X (ix2 (⟨512 * h.val + (i 0).val, by have := idx2_lt0 i; have := h.isLt; omega⟩ : Fin 1024) (i 1 : Fin 4096))

/-- Rows `256 h … 256 h + 255` of a 1024 × 4096 array. -/
def rows256 (X : Rows (F := F)) (h : Fin 4) : Vec F S256x4096 .bf16 :=
  fun i => X (ix2 (⟨256 * h.val + (i 0).val, by have := idx2_lt0 i; have := h.isLt; omega⟩ : Fin 1024) (i 1 : Fin 4096))

/-- Columns `512 t … 512 t + 511` of a 4096 × 2048 array. -/
def cols512 (W : Cols (F := F)) (t : Fin 4) : Vec F S4096x512 .bf16 :=
  fun i => W (ix2 (i 0 : Fin 4096) (⟨512 * t.val + (i 1).val, by have := idx2_lt1 i; have := t.isLt; omega⟩ : Fin 2048))

theorem rows512_apply (X : Rows (F := F)) (h : Fin 2) (p : Fin 512) (k : Fin 4096) :
    rows512 X h (ix2 p k) = X (ix2 (⟨512 * h.val + p.val, by have := h.isLt; omega⟩ : Fin 1024) k) := rfl
theorem rows256_apply (X : Rows (F := F)) (h : Fin 4) (p : Fin 256) (k : Fin 4096) :
    rows256 X h (ix2 p k) = X (ix2 (⟨256 * h.val + p.val, by have := h.isLt; omega⟩ : Fin 1024) k) := rfl
theorem cols512_apply (W : Cols (F := F)) (t : Fin 4) (k : Fin 4096) (q : Fin 512) :
    cols512 W t (ix2 k q) = W (ix2 k (⟨512 * t.val + q.val, by have := t.isLt; omega⟩ : Fin 2048)) := rfl

/-! ## One tile of the result -/

/-- A 512 × 4096 tile times a 4096 × 512 tile, accumulated into zero, then the maximum with zero. -/
def mmRelu512F (a : Vec F S512x4096 .bf16) (b : Vec F S4096x512 .bf16) : FVec F S512x512 .f32 :=
  maximumf (matmul dot_S512x4096_S4096x512_S512x512_1_0_0_1_n_n none a b (constant S512x512 .f32 0x00000000#32))
    (broadcast S512x512 (Scalar.ofBits .f32 0x00000000#32))

/-- A 256 × 4096 tile times a 4096 × 512 tile, accumulated into zero, then the maximum with zero. -/
def mmRelu256F (a : Vec F S256x4096 .bf16) (b : Vec F S4096x512 .bf16) : FVec F S256x512 .f32 :=
  maximumf (matmul dot_S256x4096_S4096x512_S256x512_1_0_0_1_n_n none a b (constant S256x512 .f32 0x00000000#32))
    (broadcast S256x512 (Scalar.ofBits .f32 0x00000000#32))

/-- The 512-row payloads are this tile under an added leading unit axis. -/
theorem pay4_eq_mmRelu512F (a : Vec F S512x4096 .bf16) (b : Vec F S4096x512 .bf16) :
    k0_pay4 a b = shapeCast S1x512x512 (mmRelu512F a b) shapeCasts_S512x512_S1x512x512 := rfl
/-- The 256-row payloads are this tile under an added leading unit axis. -/
theorem pay35_eq_mmRelu256F (a : Vec F S256x4096 .bf16) (b : Vec F S4096x512 .bf16) :
    k0_pay35 a b = shapeCast S1x256x512 (mmRelu256F a b) shapeCasts_S256x512_S1x256x512 := rfl

/-! ## The result -/

/-- The device whose rows of x produce row (i 0) of the result: (i 0) / 1024. -/
def oDev (i : S4096x2048.Idx) : Dev nD := ⟨(i 0).val / 1024, by have := idx2_lt0 i; show _ < 4; omega⟩
/-- The row inside that device's 1024 rows: (i 0) mod 1024. -/
def oRow (i : S4096x2048.Idx) : Fin 1024 := ⟨(i 0).val % 1024, Nat.mod_lt _ (by decide)⟩
/-- The tile of columns: (i 1) / 512. -/
def oTile (i : S4096x2048.Idx) : Fin 4 := ⟨(i 1).val / 512, by have := idx2_lt1 i; omega⟩
/-- The column inside the tile: (i 1) mod 512. -/
def oCol (i : S4096x2048.Idx) : Fin 512 := ⟨(i 1).val % 512, Nat.mod_lt _ (by decide)⟩

/-- What device `c`'s result holds: tiles of 256 rows for the rows of the opposite device, of 512 rows for the others. -/
def outv (c : Dev nD) : (main_v1 : Ref sig .tc).ty.Contents (Elt F) := fun (i : S4096x2048.Idx) =>
  if oDev i = opp c then
    mmRelu256F (rows256 (xb m (oDev i)) ⟨(oRow i).val / 256, by have := (oRow i).isLt; omega⟩) (cols512 (wb m c) (oTile i))
      (ix2 (⟨(oRow i).val % 256, Nat.mod_lt _ (by decide)⟩ : Fin 256) (oCol i))
  else
    mmRelu512F (rows512 (xb m (oDev i)) ⟨(oRow i).val / 512, by have := (oRow i).isLt; omega⟩) (cols512 (wb m c) (oTile i))
      (ix2 (⟨(oRow i).val % 512, Nat.mod_lt _ (by decide)⟩ : Fin 512) (oCol i))

theorem outv_opp (c : Dev nD) (i : S4096x2048.Idx) (h : oDev i = opp c) :
    outv m c i = mmRelu256F (rows256 (xb m (oDev i)) ⟨(oRow i).val / 256, by have := (oRow i).isLt; omega⟩) (cols512 (wb m c) (oTile i))
      (ix2 (⟨(oRow i).val % 256, Nat.mod_lt _ (by decide)⟩ : Fin 256) (oCol i)) := if_pos h

theorem outv_ne (c : Dev nD) (i : S4096x2048.Idx) (h : oDev i ≠ opp c) :
    outv m c i = mmRelu512F (rows512 (xb m (oDev i)) ⟨(oRow i).val / 512, by have := (oRow i).isLt; omega⟩) (cols512 (wb m c) (oTile i))
      (ix2 (⟨(oRow i).val % 512, Nat.mod_lt _ (by decide)⟩ : Fin 512) (oCol i)) := if_neg h

end Cert.KernelIdeal.AG

end
-- ==== Proof.Phi.lean ====
/-
  What the kernel body is handed and what it leaves, on one device: the launch theorem's invariant before and after the
  one grid point, and the body lemma's statement over them.
-/
import proofs.«900658_g7700000000000659_dist_ag_gemm_m4096_k4096_n8192_f32_relu_v7x_i4_1_alg».proof.Proof.State
import proofs.«900658_g7700000000000659_dist_ag_gemm_m4096_k4096_n8192_f32_relu_v7x_i4_1_alg».proof.Proof.Contents

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The sixteen counters of the legs' cells, back at zero once every cell is closed. -/
def legSems (c : Dev nD) : sProp 𝕄 :=
  iprop(semVal (sendCell .a1r c) 0 ∗ semVal (sendCell .a1l c) 0 ∗ semVal (sendCell .a2r c) 0 ∗ semVal (sendCell .a2l c) 0
    ∗ semVal (recvCell .a1r c) 0 ∗ semVal (recvCell .a1l c) 0 ∗ semVal (recvCell .a2r c) 0 ∗ semVal (recvCell .a2l c) 0
    ∗ semVal (sendCell .fr0 c) 0 ∗ semVal (sendCell .fr1 c) 0 ∗ semVal (sendCell .fl0 c) 0 ∗ semVal (sendCell .fl1 c) 0
    ∗ semVal (recvCell .fr0 c) 0 ∗ semVal (recvCell .fr1 c) 0 ∗ semVal (recvCell .fl0 c) 0 ∗ semVal (recvCell .fl1 c) 0)

/-- What the body starts from, at the names `K` the cells' invariants were allocated under. -/
def bodyPre (K : GSem nD τ sig → ℕ) (c : Dev nD) : sProp 𝕄 :=
  iprop(ghost m K c ∗ localSems c ∗ creds c ∗ levAts L lv ∗ arrays m c (m ((c : Thread nD τ).loc main_v1)) ∗ scratch c)

/-- What it leaves: the arguments unchanged, the result at its value, every counter of its own at zero, the scratch
    buffers at some contents. -/
def bodyPost (c : Dev nD) : sProp 𝕄 :=
  iprop(arrays m c (outv m c) ∗ localSems c ∗ legSems c ∗ scratch c)

/-- The invariant before the one grid point and after it. -/
def Φ₀ (c : Dev nD) : sProp 𝕄 := iprop(∃ K, bodyPre m K c)
def Φ₁ (c : Dev nD) : sProp 𝕄 := bodyPost m c

end Cert.KernelIdeal.AG

end
-- ==== Proof.Levels.lean ====
/-
  The levels' ledger: a device may wait on a cell while everything it still owes lies strictly above that cell.
  Barrier cells sit at 1, the halves' receive cells at 2, the quarters' at 3, every other cell at 0.
-/
import proofs.«900658_g7700000000000659_dist_ag_gemm_m4096_k4096_n8192_f32_relu_v7x_i4_1_alg».proof.Proof.State

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every cell the tallies `O` are positive at is a TensorCore cell of level above `k`. -/
def Above (k : ℕ) (O : CellTallies nD τ sig Unit) : Prop := ∀ g i, 0 < O g i → g.1.2 = .tc ∧ k < lv g i

theorem above_zero (k : ℕ) : Above k 0 := fun g i h => absurd h (Nat.lt_irrefl 0)

theorem above_add {k : ℕ} {O₁ O₂ : CellTallies nD τ sig Unit} (h₁ : Above k O₁) (h₂ : Above k O₂) : Above k (O₁ + O₂) :=
  fun g i h => (Pipeline.add_pos_cases h).elim (h₁ g i) (h₂ g i)

theorem above_tally {k : ℕ} (g₀ : GSem nD τ sig) (n : ℕ) (hg : g₀.1.2 = .tc) (hk : k < lv g₀ ()) : Above k (tallyAt g₀ () n) := by
  intro g i h
  rw [tallyAt_apply] at h
  by_cases hh : g = g₀ ∧ i = ()
  · obtain ⟨rfl, rfl⟩ := hh; exact ⟨hg, hk⟩
  · rw [if_neg hh] at h; exact absurd h (Nat.lt_irrefl 0)

/-- The evidence a wait on cell `s` presents while the device owes `O`. -/
theorem mayWait_of_above (c : Dev nD) (s : SemLoc sig) (O : CellTallies nD τ sig Unit) (h : Above (lv ((c : Thread nD τ), s) ()) O) :
    (levAts L lv : sProp 𝕄) ⊢ MayWait (c : Thread nD τ) s () O :=
  Pipeline.mayWait_of_levAts (by rw [L_tc]; exact Finset.mem_singleton_self _)
    (fun g i hg => ⟨by unfold L; rw [if_pos (h g i hg).1]; exact Finset.mem_singleton_self _, by cases i; exact (h g () hg).2⟩)

theorem lv_bar (c : Dev nD) : lv (barCell c) () = 1 := rfl
theorem lv_send (l : Leg) (c : Dev nD) : lv (sendCell l c) () = 0 := by cases l <;> rfl
theorem lv_recv (l : Leg) (c : Dev nD) : lv (recvCell l c) () = match l with | .a1r | .a1l | .a2r | .a2l => 2 | _ => 3 := by cases l <;> rfl
theorem lv_xS0 (c : Dev nD) : lv ((c : Thread nD τ), SemLoc.dma xS0) () = 0 := rfl
theorem lv_xS1 (c : Dev nD) : lv ((c : Thread nD τ), SemLoc.dma xS1) () = 0 := rfl
theorem lv_wS0 (c : Dev nD) : lv ((c : Thread nD τ), SemLoc.dma wS0) () = 0 := rfl
theorem lv_wS1 (c : Dev nD) : lv ((c : Thread nD τ), SemLoc.dma wS1) () = 0 := rfl
theorem lv_yS0 (c : Dev nD) : lv ((c : Thread nD τ), SemLoc.dma yS0) () = 0 := rfl
theorem lv_yS1 (c : Dev nD) : lv ((c : Thread nD τ), SemLoc.dma yS1) () = 0 := rfl

/-- A receive cell's tally lies above level `k` when `k` is below the cell's level. -/
theorem above_recv {k : ℕ} (l : Leg) (d : Dev nD) (hk : k < lv (recvCell l d) ()) : Above k (tallyAt (recvCell l d) () (legAmt l)) :=
  above_tally _ _ rfl hk
theorem above_bar {k : ℕ} (d : Dev nD) (n : ℕ) (hk : k < 1) : Above k (tallyAt (barCell d) () n) :=
  above_tally _ _ rfl hk

end Cert.KernelIdeal.AG

end
-- ==== Proof.RowRanges.lean ====
/-
  Carving a 1024 × 4096 buffer into row ranges and shares, and what a landed copy holds.

  A row range is a rectangle of whole rows, `n` rows from row `off`: an element lies in it when its row does. The two
  halves partition the buffer and two quarters partition each half, so what is held of the buffer splits into what is
  held of the halves, and of a half into what is held of its quarters; every such piece splits again along the share.
  A copy between the same row range of two such buffers lands, on that range, exactly the source's contents: writing
  through a placement what was read through it returns the function that was read.
-/
import proofs.«900658_g7700000000000659_dist_ag_gemm_m4096_k4096_n8192_f32_relu_v7x_i4_1_alg».proof.Proof.Sched
import Idealize.ShloMosaic.Rules.PointsTo
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Row ranges as sets of elements -/

/-- An element lies in the range of `n` rows from row `off` exactly when its row does. -/
theorem mem_rowRange {off n : Nat} {inb : ∀ a, (![off, 0] : Fin 2 → Nat) a + (![n, 4096] : Fin 2 → Nat) a ≤ S1024x4096.size a}
    (i : S1024x4096.Idx) :
    i ∈ (Rect.unit (s := S1024x4096) ![off, 0] ![n, 4096] inb).set ↔ off ≤ (i 0).val ∧ (i 0).val < off + n := by
  rw [Rect.mem_set_unit, Fin.forall_fin_two]
  have h1 : (i 1).val < 4096 := (i 1).isLt
  simp only [Matrix.cons_val_zero, Matrix.cons_val_one]
  omega

theorem mem_rH0 (i : S1024x4096.Idx) : i ∈ rH0.set ↔ (i 0).val < 512 := by
  rw [show rH0 = Rect.unit (s := S1024x4096) ![0, 0] ![512, 4096] inb_S1024x4096_S512x4096_0_0 from rfl, mem_rowRange]; omega
theorem mem_rH1 (i : S1024x4096.Idx) : i ∈ rH1.set ↔ 512 ≤ (i 0).val := by
  have := (i 0).isLt
  rw [show rH1 = Rect.unit (s := S1024x4096) ![512, 0] ![512, 4096] inb_S1024x4096_S512x4096_512_0 from rfl, mem_rowRange]
  show _ ∧ (i 0).val < 512 + 512 ↔ _
  have h : (i 0).val < 1024 := (i 0).isLt
  omega
theorem mem_rQ0 (i : S1024x4096.Idx) : i ∈ rQ0.set ↔ (i 0).val < 256 := by
  rw [show rQ0 = Rect.unit (s := S1024x4096) ![0, 0] ![256, 4096] inb_S1024x4096_S256x4096_0_0 from rfl, mem_rowRange]; omega
theorem mem_rQ1 (i : S1024x4096.Idx) : i ∈ rQ1.set ↔ 256 ≤ (i 0).val ∧ (i 0).val < 512 := by
  rw [show rQ1 = Rect.unit (s := S1024x4096) ![256, 0] ![256, 4096] inb_S1024x4096_S256x4096_256_0 from rfl, mem_rowRange]
theorem mem_rQ2 (i : S1024x4096.Idx) : i ∈ rQ2.set ↔ 512 ≤ (i 0).val ∧ (i 0).val < 768 := by
  rw [show rQ2 = Rect.unit (s := S1024x4096) ![512, 0] ![256, 4096] inb_S1024x4096_S256x4096_512_0 from rfl, mem_rowRange]
theorem mem_rQ3 (i : S1024x4096.Idx) : i ∈ rQ3.set ↔ 768 ≤ (i 0).val := by
  rw [show rQ3 = Rect.unit (s := S1024x4096) ![768, 0] ![256, 4096] inb_S1024x4096_S256x4096_768_0 from rfl, mem_rowRange]
  have h : (i 0).val < 1024 := (i 0).isLt
  omega

/-- The two halves cover the buffer … -/
theorem halves_cover : rH0.set ∪ rH1.set = (Finset.univ : Finset S1024x4096.Idx) := by
  ext i; rw [Finset.mem_union, mem_rH0, mem_rH1]; simp only [Finset.mem_univ, iff_true]; omega
/-- … and share no element. -/
theorem halves_disjoint : Disjoint rH0.set rH1.set :=
  Finset.disjoint_left.mpr fun i h0 h1 => by rw [mem_rH0] at h0; rw [mem_rH1] at h1; omega
/-- The first two quarters cover the first half and share no element. -/
theorem quartersLo_cover : rQ0.set ∪ rQ1.set = rH0.set := by
  ext i; rw [Finset.mem_union, mem_rQ0, mem_rQ1, mem_rH0]; omega
theorem quartersLo_disjoint : Disjoint rQ0.set rQ1.set :=
  Finset.disjoint_left.mpr fun i h0 h1 => by rw [mem_rQ0] at h0; rw [mem_rQ1] at h1; omega
/-- The last two quarters cover the second half and share no element. -/
theorem quartersHi_cover : rQ2.set ∪ rQ3.set = rH1.set := by
  ext i; rw [Finset.mem_union, mem_rQ2, mem_rQ3, mem_rH1]; omega
theorem quartersHi_disjoint : Disjoint rQ2.set rQ3.set :=
  Finset.disjoint_left.mpr fun i h0 h1 => by rw [mem_rQ2] at h0; rw [mem_rQ3] at h1; omega

/-! ## Splitting along row ranges -/

/-- What is held of a whole buffer splits into what is held of two rectangles that partition it. -/
theorem whole_split_slices (b : Ref sig .tc) {r₀ r₁ : Rect b.ty.shape}
    (hU : r₀.set ∪ r₁.set = Finset.univ) (hD : Disjoint r₀.set r₁.set)
    (c : Dev nD) (q : PosShare TreeShare) (f : Buf (Elt F) ((View.whole b).loc (c : Thread nD τ))) :
    ((View.whole b).loc (c : Thread nD τ) ↦{q} f : sProp 𝕄)
      ⊣⊢ iprop((((View.whole b).slice r₀).loc (c : Thread nD τ) ↦[((View.whole b).slice r₀).set]{q} f)
          ∗ (((View.whole b).slice r₁).loc (c : Thread nD τ) ↦[((View.whole b).slice r₁).set]{q} f)) := by
  rw [View.set_slice_whole, View.set_slice_whole, ← hU]
  exact pointsTo_union hD

/-- What is held of a rectangle of a whole buffer splits into what is held of two rectangles that partition it. -/
theorem slice_split_slices (b : Ref sig .tc) {r r₀ r₁ : Rect b.ty.shape}
    (hU : r₀.set ∪ r₁.set = r.set) (hD : Disjoint r₀.set r₁.set)
    (c : Dev nD) (q : PosShare TreeShare) (f : Buf (Elt F) ((View.whole b).loc (c : Thread nD τ))) :
    ((((View.whole b).slice r).loc (c : Thread nD τ) ↦[((View.whole b).slice r).set]{q} f) : sProp 𝕄)
      ⊣⊢ iprop((((View.whole b).slice r₀).loc (c : Thread nD τ) ↦[((View.whole b).slice r₀).set]{q} f)
          ∗ (((View.whole b).slice r₁).loc (c : Thread nD τ) ↦[((View.whole b).slice r₁).set]{q} f)) := by
  rw [View.set_slice_whole, View.set_slice_whole, View.set_slice_whole, ← hU]
  exact pointsTo_union hD

/-! ## Splitting along the share, and contents that agree on the elements held -/

/-- Any piece, at any share, is its left and right halves of that share. -/
theorem rowsOn_share {sh : Shape} (M' : Memref sig .tc .vmem sh .bf16) (c : Dev nD) (q : PosShare TreeShare)
    (f : Buf (Elt F) (M'.view.loc (c : Thread nD τ))) :
    (rowsOn M' c q f : sProp 𝕄) ⊣⊢ iprop(rowsOn M' c q.left f ∗ rowsOn M' c q.right f) :=
  pointsTo_share (PosShare.mem_left_op_right q)

/-- The full share is its left and right halves … -/
theorem rowsOn_full {sh : Shape} (M' : Memref sig .tc .vmem sh .bf16) (c : Dev nD)
    (f : Buf (Elt F) (M'.view.loc (c : Thread nD τ))) :
    (rowsOn M' c fullShare f : sProp 𝕄) ⊣⊢ iprop(rowsOn M' c fullShare.left f ∗ rowsOn M' c fullShare.right f) :=
  rowsOn_share M' c fullShare f

/-- … and its right half splits once more. -/
theorem rowsOn_full_right {sh : Shape} (M' : Memref sig .tc .vmem sh .bf16) (c : Dev nD)
    (f : Buf (Elt F) (M'.view.loc (c : Thread nD τ))) :
    (rowsOn M' c fullShare.right f : sProp 𝕄)
      ⊣⊢ iprop(rowsOn M' c fullShare.right.left f ∗ rowsOn M' c fullShare.right.right f) :=
  rowsOn_share M' c fullShare.right f

/-- Contents that agree on the elements of a piece give the same piece. -/
theorem rowsOn_congr {sh : Shape} (M' : Memref sig .tc .vmem sh .bf16) (c : Dev nD) (q : PosShare TreeShare)
    (f g : Buf (Elt F) (M'.view.loc (c : Thread nD τ))) (h : ∀ i ∈ M'.view.set, f i = g i) :
    (rowsOn M' c q f : sProp 𝕄) = rowsOn M' c q g :=
  pointsTo_congr h

/-! ## What a landed copy holds -/

/-- Writing through a placement, over any contents, what was read through the same placement of `f` gives `f` on
    the placement's elements. -/
theorem write_read_self {κ : Kind} {sp : Space} {s : Shape} {e : EltTy} (v : View sig κ sp s e)
    (f g : v.ty.Contents (Elt F)) {i : v.ty.Idx} (hi : i ∈ v.set) :
    v.write (Elt F) g (v.read (Elt F) f) Finset.univ i = f i := by
  obtain ⟨y, rfl⟩ := View.exists_emb_of_mem_set v hi
  rw [View.write_emb_of_mem _ _ (Finset.mem_univ y), View.read_apply, cast_cast, cast_eq]

/-- info: 'Cert.KernelIdeal.AG.slice_split_slices' depends on axioms: [propext, Classical.choice, Quot.sound] -/
#guard_msgs in #print axioms slice_split_slices

/-- info: 'Cert.KernelIdeal.AG.write_read_self' depends on axioms: [propext, Classical.choice, Quot.sound] -/
#guard_msgs in #print axioms write_read_self

end Cert.KernelIdeal.AG

end
-- ==== Proof.Tables.lean ====
/-
  The schedule's payload rows, leg by leg, with the points-to itself on the right side: what a send cell's units give
  back to the firing device (the borrowed share of the source rows, unchanged), what a receive cell's units give the
  device the leg lands on (the destination rows holding the block the leg carries), both at the device that owns the
  cell and, for the receive cell, at the device the leg lands on; the barrier cell's two rows at the neighbours; and
  each cell's whole round when nothing has been taken.
-/
import proofs.«900658_g7700000000000659_dist_ag_gemm_m4096_k4096_n8192_f32_relu_v7x_i4_1_alg».proof.Proof.Sched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier cell -/

/-- The duty `true` of the left neighbour's barrier cell, which this device pays: its own left buffer and the upper half
    of its across buffer. -/
theorem payload_bar_true_prv (c : Dev nD) : (agRd (F := F) m).payload (barCell (prv c)) 0 true
    = iprop((∃ f : Rows (F := F), (lftM : Memref sig .tc .vmem S1024x4096 .bf16).view.loc (c : Thread nD τ) ↦{fullShare} f) ∗ (∃ f : Rows (F := F), rowsOn (F := F) dgnH0 c fullShare f)) := by
  rw [payload_bar_true]; unfold barPayT; rw [nxt_prv]
/-- The duty `false` of the right neighbour's: its own right buffer and the lower half of its across buffer. -/
theorem payload_bar_false_nxt (c : Dev nD) : (agRd (F := F) m).payload (barCell (nxt c)) 0 false
    = iprop((∃ f : Rows (F := F), (rgtM : Memref sig .tc .vmem S1024x4096 .bf16).view.loc (c : Thread nD τ) ↦{fullShare} f) ∗ (∃ f : Rows (F := F), rowsOn (F := F) dgnH1 c fullShare f)) := by
  rw [payload_bar_false]; unfold barPayF; rw [prv_nxt]

/-- The barrier cell's whole round: the left neighbour's hand-over and the right neighbour's. -/
theorem rest_bar (c : Dev nD) : bigSep ((agRd (F := F) m).duties (barCell c) 0 \ ∅) (fun d => (agRd (F := F) m).payload (barCell c) 0 d)
    = iprop(barPayF (F := F) c ∗ barPayT (F := F) c) := by
  rw [Finset.sdiff_empty, duties_bar, bigSep_univ_eq_bigSepL [false, true] (by decide) (by decide), bigSepL_cons_cons, bigSepL_singleton,
    payload_bar_false, payload_bar_true]
  rfl

/-! ## The send cells: the borrowed share of the source rows, unchanged -/

theorem pay_send_a1r (c : Dev nD) (d : Bool) : (agRd (F := F) m).payload (sendCell .a1r c) 0 d = rowsOn (F := F) ownH0 c fullShare.left (xb m c) := by
  rw [payload_send]; rfl
theorem pay_send_a1l (c : Dev nD) (d : Bool) : (agRd (F := F) m).payload (sendCell .a1l c) 0 d = rowsOn (F := F) ownH0 c fullShare.right.left (xb m c) := by
  rw [payload_send]; rfl
theorem pay_send_a2r (c : Dev nD) (d : Bool) : (agRd (F := F) m).payload (sendCell .a2r c) 0 d = rowsOn (F := F) ownH1 c fullShare.left (xb m c) := by
  rw [payload_send]; rfl
theorem pay_send_a2l (c : Dev nD) (d : Bool) : (agRd (F := F) m).payload (sendCell .a2l c) 0 d = rowsOn (F := F) ownH1 c fullShare.right.left (xb m c) := by
  rw [payload_send]; rfl
theorem pay_send_fr0 (c : Dev nD) (d : Bool) : (agRd (F := F) m).payload (sendCell .fr0 c) 0 d = rowsOn (F := F) lftQ0 c fullShare.left (xb m (prv c)) := by
  rw [payload_send]; rfl
theorem pay_send_fr1 (c : Dev nD) (d : Bool) : (agRd (F := F) m).payload (sendCell .fr1 c) 0 d = rowsOn (F := F) lftQ1 c fullShare.left (xb m (prv c)) := by
  rw [payload_send]; rfl
theorem pay_send_fl0 (c : Dev nD) (d : Bool) : (agRd (F := F) m).payload (sendCell .fl0 c) 0 d = rowsOn (F := F) rgtQ2 c fullShare.left (xb m (nxt c)) := by
  rw [payload_send]; rfl
theorem pay_send_fl1 (c : Dev nD) (d : Bool) : (agRd (F := F) m).payload (sendCell .fl1 c) 0 d = rowsOn (F := F) rgtQ3 c fullShare.left (xb m (nxt c)) := by
  rw [payload_send]; rfl

/-! ## The receive cells, at the device that owns the cell: the destination rows holding the block the leg carries -/

theorem pay_recv_a1r (c : Dev nD) (d : Bool) : (agRd (F := F) m).payload (recvCell .a1r c) 0 d = rowsOn (F := F) lftH0 c fullShare (xb m (prv c)) := by
  rw [payload_recv]; rfl
theorem pay_recv_a1l (c : Dev nD) (d : Bool) : (agRd (F := F) m).payload (recvCell .a1l c) 0 d = rowsOn (F := F) rgtH0 c fullShare (xb m (nxt c)) := by
  rw [payload_recv]; rfl
theorem pay_recv_a2r (c : Dev nD) (d : Bool) : (agRd (F := F) m).payload (recvCell .a2r c) 0 d = rowsOn (F := F) lftH1 c fullShare (xb m (prv c)) := by
  rw [payload_recv]; rfl
theorem pay_recv_a2l (c : Dev nD) (d : Bool) : (agRd (F := F) m).payload (recvCell .a2l c) 0 d = rowsOn (F := F) rgtH1 c fullShare (xb m (nxt c)) := by
  rw [payload_recv]; rfl
theorem pay_recv_fr0 (c : Dev nD) (d : Bool) : (agRd (F := F) m).payload (recvCell .fr0 c) 0 d = rowsOn (F := F) dgnQ0 c fullShare (xb m (opp c)) := by
  rw [payload_recv]; rfl
theorem pay_recv_fr1 (c : Dev nD) (d : Bool) : (agRd (F := F) m).payload (recvCell .fr1 c) 0 d = rowsOn (F := F) dgnQ1 c fullShare (xb m (opp c)) := by
  rw [payload_recv]; rfl
theorem pay_recv_fl0 (c : Dev nD) (d : Bool) : (agRd (F := F) m).payload (recvCell .fl0 c) 0 d = rowsOn (F := F) dgnQ2 c fullShare (xb m (opp c)) := by
  rw [payload_recv]; rfl
theorem pay_recv_fl1 (c : Dev nD) (d : Bool) : (agRd (F := F) m).payload (recvCell .fl1 c) 0 d = rowsOn (F := F) dgnQ3 c fullShare (xb m (opp c)) := by
  rw [payload_recv]; rfl

/-! ## The receive cells, at the device a leg fired by `c` lands on -/

theorem pay_recv_a1r_nxt (c : Dev nD) (d : Bool) : (agRd (F := F) m).payload (recvCell .a1r (nxt c)) 0 d = rowsOn (F := F) lftH0 (nxt c) fullShare (xb m c) := by
  rw [pay_recv_a1r]; show rowsOn lftH0 (nxt c) fullShare (xb m (prv (nxt c))) = _; rw [prv_nxt]
theorem pay_recv_a1l_prv (c : Dev nD) (d : Bool) : (agRd (F := F) m).payload (recvCell .a1l (prv c)) 0 d = rowsOn (F := F) rgtH0 (prv c) fullShare (xb m c) := by
  rw [pay_recv_a1l]; show rowsOn rgtH0 (prv c) fullShare (xb m (nxt (prv c))) = _; rw [nxt_prv]
theorem pay_recv_a2r_nxt (c : Dev nD) (d : Bool) : (agRd (F := F) m).payload (recvCell .a2r (nxt c)) 0 d = rowsOn (F := F) lftH1 (nxt c) fullShare (xb m c) := by
  rw [pay_recv_a2r]; show rowsOn lftH1 (nxt c) fullShare (xb m (prv (nxt c))) = _; rw [prv_nxt]
theorem pay_recv_a2l_prv (c : Dev nD) (d : Bool) : (agRd (F := F) m).payload (recvCell .a2l (prv c)) 0 d = rowsOn (F := F) rgtH1 (prv c) fullShare (xb m c) := by
  rw [pay_recv_a2l]; show rowsOn rgtH1 (prv c) fullShare (xb m (nxt (prv c))) = _; rw [nxt_prv]
theorem pay_recv_fr0_nxt (c : Dev nD) (d : Bool) : (agRd (F := F) m).payload (recvCell .fr0 (nxt c)) 0 d = rowsOn (F := F) dgnQ0 (nxt c) fullShare (xb m (prv c)) := by
  rw [pay_recv_fr0]; show rowsOn dgnQ0 (nxt c) fullShare (xb m (opp (nxt c))) = _; rw [opp_nxt]
theorem pay_recv_fr1_nxt (c : Dev nD) (d : Bool) : (agRd (F := F) m).payload (recvCell .fr1 (nxt c)) 0 d = rowsOn (F := F) dgnQ1 (nxt c) fullShare (xb m (prv c)) := by
  rw [pay_recv_fr1]; show rowsOn dgnQ1 (nxt c) fullShare (xb m (opp (nxt c))) = _; rw [opp_nxt]
theorem pay_recv_fl0_prv (c : Dev nD) (d : Bool) : (agRd (F := F) m).payload (recvCell .fl0 (prv c)) 0 d = rowsOn (F := F) dgnQ2 (prv c) fullShare (xb m (nxt c)) := by
  rw [pay_recv_fl0]; show rowsOn dgnQ2 (prv c) fullShare (xb m (opp (prv c))) = _; rw [opp_prv]
theorem pay_recv_fl1_prv (c : Dev nD) (d : Bool) : (agRd (F := F) m).payload (recvCell .fl1 (prv c)) 0 d = rowsOn (F := F) dgnQ3 (prv c) fullShare (xb m (nxt c)) := by
  rw [pay_recv_fl1]; show rowsOn dgnQ3 (prv c) fullShare (xb m (opp (prv c))) = _; rw [opp_prv]

/-! ## A leg's cell's whole round, nothing taken: its one row -/

theorem rest_send_a1r (c : Dev nD) : bigSep ((agRd (F := F) m).duties (sendCell .a1r c) 0 \ ∅) (fun d => (agRd (F := F) m).payload (sendCell .a1r c) 0 d)
    = rowsOn (F := F) ownH0 c fullShare.left (xb m c) := by
  rw [Finset.sdiff_empty, duties_send, bigSep_singleton, pay_send_a1r]
theorem rest_send_a1l (c : Dev nD) : bigSep ((agRd (F := F) m).duties (sendCell .a1l c) 0 \ ∅) (fun d => (agRd (F := F) m).payload (sendCell .a1l c) 0 d)
    = rowsOn (F := F) ownH0 c fullShare.right.left (xb m c) := by
  rw [Finset.sdiff_empty, duties_send, bigSep_singleton, pay_send_a1l]
theorem rest_send_a2r (c : Dev nD) : bigSep ((agRd (F := F) m).duties (sendCell .a2r c) 0 \ ∅) (fun d => (agRd (F := F) m).payload (sendCell .a2r c) 0 d)
    = rowsOn (F := F) ownH1 c fullShare.left (xb m c) := by
  rw [Finset.sdiff_empty, duties_send, bigSep_singleton, pay_send_a2r]
theorem rest_send_a2l (c : Dev nD) : bigSep ((agRd (F := F) m).duties (sendCell .a2l c) 0 \ ∅) (fun d => (agRd (F := F) m).payload (sendCell .a2l c) 0 d)
    = rowsOn (F := F) ownH1 c fullShare.right.left (xb m c) := by
  rw [Finset.sdiff_empty, duties_send, bigSep_singleton, pay_send_a2l]
theorem rest_send_fr0 (c : Dev nD) : bigSep ((agRd (F := F) m).duties (sendCell .fr0 c) 0 \ ∅) (fun d => (agRd (F := F) m).payload (sendCell .fr0 c) 0 d)
    = rowsOn (F := F) lftQ0 c fullShare.left (xb m (prv c)) := by
  rw [Finset.sdiff_empty, duties_send, bigSep_singleton, pay_send_fr0]
theorem rest_send_fr1 (c : Dev nD) : bigSep ((agRd (F := F) m).duties (sendCell .fr1 c) 0 \ ∅) (fun d => (agRd (F := F) m).payload (sendCell .fr1 c) 0 d)
    = rowsOn (F := F) lftQ1 c fullShare.left (xb m (prv c)) := by
  rw [Finset.sdiff_empty, duties_send, bigSep_singleton, pay_send_fr1]
theorem rest_send_fl0 (c : Dev nD) : bigSep ((agRd (F := F) m).duties (sendCell .fl0 c) 0 \ ∅) (fun d => (agRd (F := F) m).payload (sendCell .fl0 c) 0 d)
    = rowsOn (F := F) rgtQ2 c fullShare.left (xb m (nxt c)) := by
  rw [Finset.sdiff_empty, duties_send, bigSep_singleton, pay_send_fl0]
theorem rest_send_fl1 (c : Dev nD) : bigSep ((agRd (F := F) m).duties (sendCell .fl1 c) 0 \ ∅) (fun d => (agRd (F := F) m).payload (sendCell .fl1 c) 0 d)
    = rowsOn (F := F) rgtQ3 c fullShare.left (xb m (nxt c)) := by
  rw [Finset.sdiff_empty, duties_send, bigSep_singleton, pay_send_fl1]
theorem rest_recv_a1r (c : Dev nD) : bigSep ((agRd (F := F) m).duties (recvCell .a1r c) 0 \ ∅) (fun d => (agRd (F := F) m).payload (recvCell .a1r c) 0 d)
    = rowsOn (F := F) lftH0 c fullShare (xb m (prv c)) := by
  rw [Finset.sdiff_empty, duties_recv, bigSep_singleton, pay_recv_a1r]
theorem rest_recv_a1l (c : Dev nD) : bigSep ((agRd (F := F) m).duties (recvCell .a1l c) 0 \ ∅) (fun d => (agRd (F := F) m).payload (recvCell .a1l c) 0 d)
    = rowsOn (F := F) rgtH0 c fullShare (xb m (nxt c)) := by
  rw [Finset.sdiff_empty, duties_recv, bigSep_singleton, pay_recv_a1l]
theorem rest_recv_a2r (c : Dev nD) : bigSep ((agRd (F := F) m).duties (recvCell .a2r c) 0 \ ∅) (fun d => (agRd (F := F) m).payload (recvCell .a2r c) 0 d)
    = rowsOn (F := F) lftH1 c fullShare (xb m (prv c)) := by
  rw [Finset.sdiff_empty, duties_recv, bigSep_singleton, pay_recv_a2r]
theorem rest_recv_a2l (c : Dev nD) : bigSep ((agRd (F := F) m).duties (recvCell .a2l c) 0 \ ∅) (fun d => (agRd (F := F) m).payload (recvCell .a2l c) 0 d)
    = rowsOn (F := F) rgtH1 c fullShare (xb m (nxt c)) := by
  rw [Finset.sdiff_empty, duties_recv, bigSep_singleton, pay_recv_a2l]
theorem rest_recv_fr0 (c : Dev nD) : bigSep ((agRd (F := F) m).duties (recvCell .fr0 c) 0 \ ∅) (fun d => (agRd (F := F) m).payload (recvCell .fr0 c) 0 d)
    = rowsOn (F := F) dgnQ0 c fullShare (xb m (opp c)) := by
  rw [Finset.sdiff_empty, duties_recv, bigSep_singleton, pay_recv_fr0]
theorem rest_recv_fr1 (c : Dev nD) : bigSep ((agRd (F := F) m).duties (recvCell .fr1 c) 0 \ ∅) (fun d => (agRd (F := F) m).payload (recvCell .fr1 c) 0 d)
    = rowsOn (F := F) dgnQ1 c fullShare (xb m (opp c)) := by
  rw [Finset.sdiff_empty, duties_recv, bigSep_singleton, pay_recv_fr1]
theorem rest_recv_fl0 (c : Dev nD) : bigSep ((agRd (F := F) m).duties (recvCell .fl0 c) 0 \ ∅) (fun d => (agRd (F := F) m).payload (recvCell .fl0 c) 0 d)
    = rowsOn (F := F) dgnQ2 c fullShare (xb m (opp c)) := by
  rw [Finset.sdiff_empty, duties_recv, bigSep_singleton, pay_recv_fl0]
theorem rest_recv_fl1 (c : Dev nD) : bigSep ((agRd (F := F) m).duties (recvCell .fl1 c) 0 \ ∅) (fun d => (agRd (F := F) m).payload (recvCell .fl1 c) 0 d)
    = rowsOn (F := F) dgnQ3 c fullShare (xb m (opp c)) := by
  rw [Finset.sdiff_empty, duties_recv, bigSep_singleton, pay_recv_fl1]

/-- info: 'Cert.KernelIdeal.AG.rest_recv_fl1' depends on axioms: [propext, Classical.choice, Quot.sound] -/
#guard_msgs in #print axioms rest_recv_fl1

end Cert.KernelIdeal.AG

end
-- ==== Proof.Rejoin.lean ====
/-
  The four 1024-row buffers put together again: what is held of a buffer's halves, quarters and shares, all at one
  contents, is the whole buffer at the full share at that contents. A piece held at other contents that agree with
  them on the piece's own rows is the piece at these; and two pieces of disjoint row ranges held at different contents
  are both pieces at the contents that follow the one on its rows and the other elsewhere.
-/
import proofs.«900658_g7700000000000659_dist_ag_gemm_m4096_k4096_n8192_f32_relu_v7x_i4_1_alg».proof.Proof.RowRangesInst
import proofs.«900658_g7700000000000659_dist_ag_gemm_m4096_k4096_n8192_f32_relu_v7x_i4_1_alg».proof.Proof.State

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One piece at other contents that agree on its rows -/

theorem rowsOn_restate {sh : Shape} (M' : Memref sig .tc .vmem sh .bf16) (c : Dev nD) (q : PosShare TreeShare)
    (f g : Buf (Elt F) (M'.view.loc (c : Thread nD τ))) (h : ∀ i ∈ M'.view.set, f i = g i) :
    (rowsOn M' c q f : sProp 𝕄) ⊢ rowsOn M' c q g :=
  Entails.of_eq (rowsOn_congr M' c q f g h)

/-! ## The shares of one piece -/

/-- The three shares a source half is cut into while its two copies are under way: together the half at the full share. -/
theorem join_three {sh : Shape} (M' : Memref sig .tc .vmem sh .bf16) (c : Dev nD) (f : Buf (Elt F) (M'.view.loc (c : Thread nD τ))) :
    iprop(rowsOn M' c fullShare.left f ∗ rowsOn M' c fullShare.right.left f ∗ rowsOn M' c fullShare.right.right f)
      ⊢ (rowsOn M' c fullShare f : sProp 𝕄) := by
  iintro ⟨Hl, Hrl, Hrr⟩
  iapply (rowsOn_full M' c f).2
  isplitl [Hl]; · iexact Hl
  iapply (rowsOn_full_right M' c f).2
  isplitl [Hrl] <;> iassumption

/-- The two halves of the full share. -/
theorem join_two {sh : Shape} (M' : Memref sig .tc .vmem sh .bf16) (c : Dev nD) (f : Buf (Elt F) (M'.view.loc (c : Thread nD τ))) :
    iprop(rowsOn M' c fullShare.left f ∗ rowsOn M' c fullShare.right f) ⊢ (rowsOn M' c fullShare f : sProp 𝕄) :=
  (rowsOn_full M' c f).2

/-! ## The four buffers -/

/-- The device's own rows: both halves, each in the three shares. -/
theorem rejoin_own (c : Dev nD) (f : Rows (F := F)) :
    iprop(rowsOn ownH0 c fullShare.left f ∗ rowsOn ownH0 c fullShare.right.left f ∗ rowsOn ownH0 c fullShare.right.right f
        ∗ rowsOn ownH1 c fullShare.left f ∗ rowsOn ownH1 c fullShare.right.left f ∗ rowsOn ownH1 c fullShare.right.right f)
      ⊢ (iprop(∃ f' : Rows (F := F), (ownM : Memref sig .tc .vmem S1024x4096 .bf16).view.loc (c : Thread nD τ) ↦{fullShare} f') : sProp 𝕄) := by
  iintro ⟨A0, A1, A2, B0, B1, B2⟩
  iexists f
  iapply (split_halves_own c fullShare f).2
  isplitl [A0 A1 A2]
  · iapply (join_three ownH0 c f)
    isplitl [A0]; · iexact A0
    isplitl [A1] <;> iassumption
  · iapply (join_three ownH1 c f)
    isplitl [B0]; · iexact B0
    isplitl [B1] <;> iassumption

/-- What came from the left: the first two quarters in two shares each, the second half whole. -/
theorem rejoin_lft (c : Dev nD) (f : Rows (F := F)) :
    iprop(rowsOn lftQ0 c fullShare.left f ∗ rowsOn lftQ0 c fullShare.right f ∗ rowsOn lftQ1 c fullShare.left f ∗ rowsOn lftQ1 c fullShare.right f
        ∗ rowsOn lftH1 c fullShare f)
      ⊢ (iprop(∃ f' : Rows (F := F), (lftM : Memref sig .tc .vmem S1024x4096 .bf16).view.loc (c : Thread nD τ) ↦{fullShare} f') : sProp 𝕄) := by
  iintro ⟨A0, A1, B0, B1, H1⟩
  iexists f
  iapply (split_halves_lft c fullShare f).2
  isplitr [H1]
  · iapply (split_quarters_lo_lft c fullShare f).2
    isplitl [A0 A1]
    · iapply (join_two lftQ0 c f); isplitl [A0] <;> iassumption
    · iapply (join_two lftQ1 c f); isplitl [B0] <;> iassumption
  · iexact H1

/-- What came from the right: the first half whole, the last two quarters in two shares each. -/
theorem rejoin_rgt (c : Dev nD) (f : Rows (F := F)) :
    iprop(rowsOn rgtH0 c fullShare f
        ∗ rowsOn rgtQ2 c fullShare.left f ∗ rowsOn rgtQ2 c fullShare.right f ∗ rowsOn rgtQ3 c fullShare.left f ∗ rowsOn rgtQ3 c fullShare.right f)
      ⊢ (iprop(∃ f' : Rows (F := F), (rgtM : Memref sig .tc .vmem S1024x4096 .bf16).view.loc (c : Thread nD τ) ↦{fullShare} f') : sProp 𝕄) := by
  iintro ⟨H0, A0, A1, B0, B1⟩
  iexists f
  iapply (split_halves_rgt c fullShare f).2
  isplitl [H0]; · iexact H0
  iapply (split_quarters_hi_rgt c fullShare f).2
  isplitl [A0 A1]
  · iapply (join_two rgtQ2 c f); isplitl [A0] <;> iassumption
  · iapply (join_two rgtQ3 c f); isplitl [B0] <;> iassumption

/-- What came from across: the four quarters. -/
theorem rejoin_dgn (c : Dev nD) (f : Rows (F := F)) :
    iprop(rowsOn dgnQ0 c fullShare f ∗ rowsOn dgnQ1 c fullShare f ∗ rowsOn dgnQ2 c fullShare f ∗ rowsOn dgnQ3 c fullShare f)
      ⊢ (iprop(∃ f' : Rows (F := F), (dgnM : Memref sig .tc .vmem S1024x4096 .bf16).view.loc (c : Thread nD τ) ↦{fullShare} f') : sProp 𝕄) := by
  iintro ⟨Q0, Q1, Q2, Q3⟩
  iexists f
  iapply (split_halves_dgn c fullShare f).2
  isplitl [Q0 Q1]
  · iapply (split_quarters_lo_dgn c fullShare f).2; isplitl [Q0] <;> iassumption
  · iapply (split_quarters_hi_dgn c fullShare f).2; isplitl [Q2] <;> iassumption

/-! ## Two pieces of disjoint row ranges at different contents -/

/-- Two rectangles that partition a whole buffer, held at two contents, are the whole buffer at the contents that
    follow the second on its rectangle and the first elsewhere. -/
theorem whole_join_slices (b : Ref sig .tc) {r₀ r₁ : Rect b.ty.shape}
    (hU : r₀.set ∪ r₁.set = Finset.univ) (hD : Disjoint r₀.set r₁.set)
    (c : Dev nD) (q : PosShare TreeShare) (f g : Buf (Elt F) ((View.whole b).loc (c : Thread nD τ))) :
    iprop((((View.whole b).slice r₀).loc (c : Thread nD τ) ↦[((View.whole b).slice r₀).set]{q} f)
        ∗ (((View.whole b).slice r₁).loc (c : Thread nD τ) ↦[((View.whole b).slice r₁).set]{q} g))
      ⊢ (iprop(∃ f' : Buf (Elt F) ((View.whole b).loc (c : Thread nD τ)), (View.whole b).loc (c : Thread nD τ) ↦{q} f') : sProp 𝕄) := by
  rw [View.set_slice_whole, View.set_slice_whole]
  refine (pointsTo_join hD).trans ?_
  rw [hU]
  iintro H; iexists _; iexact H

/-- Two rectangles that partition a rectangle of a whole buffer, likewise. -/
theorem slice_join_slices (b : Ref sig .tc) {r r₀ r₁ : Rect b.ty.shape}
    (hU : r₀.set ∪ r₁.set = r.set) (hD : Disjoint r₀.set r₁.set)
    (c : Dev nD) (q : PosShare TreeShare) (f g : Buf (Elt F) ((View.whole b).loc (c : Thread nD τ))) :
    iprop((((View.whole b).slice r₀).loc (c : Thread nD τ) ↦[((View.whole b).slice r₀).set]{q} f)
        ∗ (((View.whole b).slice r₁).loc (c : Thread nD τ) ↦[((View.whole b).slice r₁).set]{q} g))
      ⊢ (iprop(∃ f' : Buf (Elt F) ((View.whole b).loc (c : Thread nD τ)),
          ((View.whole b).slice r).loc (c : Thread nD τ) ↦[((View.whole b).slice r).set]{q} f') : sProp 𝕄) := by
  rw [View.set_slice_whole, View.set_slice_whole, View.set_slice_whole]
  refine (pointsTo_join hD).trans ?_
  rw [hU]
  iintro H; iexists _; iexact H

theorem join_halves_own (c : Dev nD) (q : PosShare TreeShare) (f g : Rows (F := F)) :
    iprop(rowsOn (ownM.slice rH0 (fun _ => rfl)) c q f ∗ rowsOn (ownM.slice rH1 (fun _ => rfl)) c q g)
      ⊢ (iprop(∃ f' : Rows (F := F), ownM.view.loc (c : Thread nD τ) ↦{q} f') : sProp 𝕄) :=
  whole_join_slices cc0_scratch0 halves_cover halves_disjoint c q f g
theorem join_quarters_lo_own (c : Dev nD) (q : PosShare TreeShare) (f g : Rows (F := F)) :
    iprop(rowsOn (ownM.slice rQ0 (fun _ => rfl)) c q f ∗ rowsOn (ownM.slice rQ1 (fun _ => rfl)) c q g)
      ⊢ (iprop(∃ f' : Rows (F := F), rowsOn (ownM.slice rH0 (fun _ => rfl)) c q f') : sProp 𝕄) :=
  slice_join_slices cc0_scratch0 quartersLo_cover quartersLo_disjoint c q f g
theorem join_quarters_hi_own (c : Dev nD) (q : PosShare TreeShare) (f g : Rows (F := F)) :
    iprop(rowsOn (ownM.slice rQ2 (fun _ => rfl)) c q f ∗ rowsOn (ownM.slice rQ3 (fun _ => rfl)) c q g)
      ⊢ (iprop(∃ f' : Rows (F := F), rowsOn (ownM.slice rH1 (fun _ => rfl)) c q f') : sProp 𝕄) :=
  slice_join_slices cc0_scratch0 quartersHi_cover quartersHi_disjoint c q f g
theorem join_halves_lft (c : Dev nD) (q : PosShare TreeShare) (f g : Rows (F := F)) :
    iprop(rowsOn (lftM.slice rH0 (fun _ => rfl)) c q f ∗ rowsOn (lftM.slice rH1 (fun _ => rfl)) c q g)
      ⊢ (iprop(∃ f' : Rows (F := F), lftM.view.loc (c : Thread nD τ) ↦{q} f') : sProp 𝕄) :=
  whole_join_slices cc0_scratch1 halves_cover halves_disjoint c q f g
theorem join_quarters_lo_lft (c : Dev nD) (q : PosShare TreeShare) (f g : Rows (F := F)) :
    iprop(rowsOn (lftM.slice rQ0 (fun _ => rfl)) c q f ∗ rowsOn (lftM.slice rQ1 (fun _ => rfl)) c q g)
      ⊢ (iprop(∃ f' : Rows (F := F), rowsOn (lftM.slice rH0 (fun _ => rfl)) c q f') : sProp 𝕄) :=
  slice_join_slices cc0_scratch1 quartersLo_cover quartersLo_disjoint c q f g
theorem join_quarters_hi_lft (c : Dev nD) (q : PosShare TreeShare) (f g : Rows (F := F)) :
    iprop(rowsOn (lftM.slice rQ2 (fun _ => rfl)) c q f ∗ rowsOn (lftM.slice rQ3 (fun _ => rfl)) c q g)
      ⊢ (iprop(∃ f' : Rows (F := F), rowsOn (lftM.slice rH1 (fun _ => rfl)) c q f') : sProp 𝕄) :=
  slice_join_slices cc0_scratch1 quartersHi_cover quartersHi_disjoint c q f g
theorem join_halves_rgt (c : Dev nD) (q : PosShare TreeShare) (f g : Rows (F := F)) :
    iprop(rowsOn (rgtM.slice rH0 (fun _ => rfl)) c q f ∗ rowsOn (rgtM.slice rH1 (fun _ => rfl)) c q g)
      ⊢ (iprop(∃ f' : Rows (F := F), rgtM.view.loc (c : Thread nD τ) ↦{q} f') : sProp 𝕄) :=
  whole_join_slices cc0_scratch2 halves_cover halves_disjoint c q f g
theorem join_quarters_lo_rgt (c : Dev nD) (q : PosShare TreeShare) (f g : Rows (F := F)) :
    iprop(rowsOn (rgtM.slice rQ0 (fun _ => rfl)) c q f ∗ rowsOn (rgtM.slice rQ1 (fun _ => rfl)) c q g)
      ⊢ (iprop(∃ f' : Rows (F := F), rowsOn (rgtM.slice rH0 (fun _ => rfl)) c q f') : sProp 𝕄) :=
  slice_join_slices cc0_scratch2 quartersLo_cover quartersLo_disjoint c q f g
theorem join_quarters_hi_rgt (c : Dev nD) (q : PosShare TreeShare) (f g : Rows (F := F)) :
    iprop(rowsOn (rgtM.slice rQ2 (fun _ => rfl)) c q f ∗ rowsOn (rgtM.slice rQ3 (fun _ => rfl)) c q g)
      ⊢ (iprop(∃ f' : Rows (F := F), rowsOn (rgtM.slice rH1 (fun _ => rfl)) c q f') : sProp 𝕄) :=
  slice_join_slices cc0_scratch2 quartersHi_cover quartersHi_disjoint c q f g
theorem join_halves_dgn (c : Dev nD) (q : PosShare TreeShare) (f g : Rows (F := F)) :
    iprop(rowsOn (dgnM.slice rH0 (fun _ => rfl)) c q f ∗ rowsOn (dgnM.slice rH1 (fun _ => rfl)) c q g)
      ⊢ (iprop(∃ f' : Rows (F := F), dgnM.view.loc (c : Thread nD τ) ↦{q} f') : sProp 𝕄) :=
  whole_join_slices cc0_scratch3 halves_cover halves_disjoint c q f g
theorem join_quarters_lo_dgn (c : Dev nD) (q : PosShare TreeShare) (f g : Rows (F := F)) :
    iprop(rowsOn (dgnM.slice rQ0 (fun _ => rfl)) c q f ∗ rowsOn (dgnM.slice rQ1 (fun _ => rfl)) c q g)
      ⊢ (iprop(∃ f' : Rows (F := F), rowsOn (dgnM.slice rH0 (fun _ => rfl)) c q f') : sProp 𝕄) :=
  slice_join_slices cc0_scratch3 quartersLo_cover quartersLo_disjoint c q f g
theorem join_quarters_hi_dgn (c : Dev nD) (q : PosShare TreeShare) (f g : Rows (F := F)) :
    iprop(rowsOn (dgnM.slice rQ2 (fun _ => rfl)) c q f ∗ rowsOn (dgnM.slice rQ3 (fun _ => rfl)) c q g)
      ⊢ (iprop(∃ f' : Rows (F := F), rowsOn (dgnM.slice rH1 (fun _ => rfl)) c q f') : sProp 𝕄) :=
  slice_join_slices cc0_scratch3 quartersHi_cover quartersHi_disjoint c q f g

/-- info: 'Cert.KernelIdeal.AG.join_halves_dgn' depends on axioms: [propext, Classical.choice, Quot.sound] -/
#guard_msgs in #print axioms join_halves_dgn

/-- info: 'Cert.KernelIdeal.AG.rejoin_own' depends on axioms: [propext, Classical.choice, Quot.sound] -/
#guard_msgs in #print axioms rejoin_own

end Cert.KernelIdeal.AG

end
-- ==== Proof.CloseCells.lean ====
/-
  The end of the body: every leg's two own cells stand at round 1 with nothing taken and no later round has a duty, so
  each closes and hands its counter back at zero.
-/
import proofs.«900658_g7700000000000659_dist_ag_gemm_m4096_k4096_n8192_f32_relu_v7x_i4_1_alg».proof.Proof.Phi

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- One cell at round 1, nothing taken: it closes, its counter at zero. -/
theorem close_cell (κ : ℕ) (g : GSem nD τ sig) :
    iprop(cellInv ER (agRd m) κ g ∗ atPos ER g 1 ∅ 0) ⊢ (|={Set.univ}=> semVal g 0 : sProp 𝕄) :=
  Rounds.cell_close ER (agRd m) (Set.mem_univ κ) (fun h => h) (R := 1) (duties_later m g)

/-- The sixteen cells of a device's legs, in the order their counters are listed: all close. -/
theorem close_legs (K : GSem nD τ sig → ℕ) (c : Dev nD) :
    iprop((cellInv ER (agRd m) (K (sendCell .a1r c)) (sendCell .a1r c)
      ∗ cellInv ER (agRd m) (K (sendCell .a1l c)) (sendCell .a1l c)
      ∗ cellInv ER (agRd m) (K (sendCell .a2r c)) (sendCell .a2r c)
      ∗ cellInv ER (agRd m) (K (sendCell .a2l c)) (sendCell .a2l c)
      ∗ cellInv ER (agRd m) (K (recvCell .a1r c)) (recvCell .a1r c)
      ∗ cellInv ER (agRd m) (K (recvCell .a1l c)) (recvCell .a1l c)
      ∗ cellInv ER (agRd m) (K (recvCell .a2r c)) (recvCell .a2r c)
      ∗ cellInv ER (agRd m) (K (recvCell .a2l c)) (recvCell .a2l c)
      ∗ cellInv ER (agRd m) (K (sendCell .fr0 c)) (sendCell .fr0 c)
      ∗ cellInv ER (agRd m) (K (sendCell .fr1 c)) (sendCell .fr1 c)
      ∗ cellInv ER (agRd m) (K (sendCell .fl0 c)) (sendCell .fl0 c)
      ∗ cellInv ER (agRd m) (K (sendCell .fl1 c)) (sendCell .fl1 c)
      ∗ cellInv ER (agRd m) (K (recvCell .fr0 c)) (recvCell .fr0 c)
      ∗ cellInv ER (agRd m) (K (recvCell .fr1 c)) (recvCell .fr1 c)
      ∗ cellInv ER (agRd m) (K (recvCell .fl0 c)) (recvCell .fl0 c)
      ∗ cellInv ER (agRd m) (K (recvCell .fl1 c)) (recvCell .fl1 c))
      ∗ (atPos ER (sendCell .a1r c) 1 ∅ 0
      ∗ atPos ER (sendCell .a1l c) 1 ∅ 0
      ∗ atPos ER (sendCell .a2r c) 1 ∅ 0
      ∗ atPos ER (sendCell .a2l c) 1 ∅ 0
      ∗ atPos ER (recvCell .a1r c) 1 ∅ 0
      ∗ atPos ER (recvCell .a1l c) 1 ∅ 0
      ∗ atPos ER (recvCell .a2r c) 1 ∅ 0
      ∗ atPos ER (recvCell .a2l c) 1 ∅ 0
      ∗ atPos ER (sendCell .fr0 c) 1 ∅ 0
      ∗ atPos ER (sendCell .fr1 c) 1 ∅ 0
      ∗ atPos ER (sendCell .fl0 c) 1 ∅ 0
      ∗ atPos ER (sendCell .fl1 c) 1 ∅ 0
      ∗ atPos ER (recvCell .fr0 c) 1 ∅ 0
      ∗ atPos ER (recvCell .fr1 c) 1 ∅ 0
      ∗ atPos ER (recvCell .fl0 c) 1 ∅ 0
      ∗ atPos ER (recvCell .fl1 c) 1 ∅ 0))
      ⊢ (|={Set.univ}=> legSems c : sProp 𝕄) := by
  unfold legSems
  iintro ⟨⟨I0, I1, I2, I3, I4, I5, I6, I7, I8, I9, I10, I11, I12, I13, I14, I15⟩, A0, A1, A2, A3, A4, A5, A6, A7, A8, A9, A10, A11, A12, A13, A14, A15⟩
  imod (close_cell m (K (sendCell .a1r c)) (sendCell .a1r c)) $$ [I0 A0] with Z0
  · isplitl [I0] <;> iassumption
  imod (close_cell m (K (sendCell .a1l c)) (sendCell .a1l c)) $$ [I1 A1] with Z1
  · isplitl [I1] <;> iassumption
  imod (close_cell m (K (sendCell .a2r c)) (sendCell .a2r c)) $$ [I2 A2] with Z2
  · isplitl [I2] <;> iassumption
  imod (close_cell m (K (sendCell .a2l c)) (sendCell .a2l c)) $$ [I3 A3] with Z3
  · isplitl [I3] <;> iassumption
  imod (close_cell m (K (recvCell .a1r c)) (recvCell .a1r c)) $$ [I4 A4] with Z4
  · isplitl [I4] <;> iassumption
  imod (close_cell m (K (recvCell .a1l c)) (recvCell .a1l c)) $$ [I5 A5] with Z5
  · isplitl [I5] <;> iassumption
  imod (close_cell m (K (recvCell .a2r c)) (recvCell .a2r c)) $$ [I6 A6] with Z6
  · isplitl [I6] <;> iassumption
  imod (close_cell m (K (recvCell .a2l c)) (recvCell .a2l c)) $$ [I7 A7] with Z7
  · isplitl [I7] <;> iassumption
  imod (close_cell m (K (sendCell .fr0 c)) (sendCell .fr0 c)) $$ [I8 A8] with Z8
  · isplitl [I8] <;> iassumption
  imod (close_cell m (K (sendCell .fr1 c)) (sendCell .fr1 c)) $$ [I9 A9] with Z9
  · isplitl [I9] <;> iassumption
  imod (close_cell m (K (sendCell .fl0 c)) (sendCell .fl0 c)) $$ [I10 A10] with Z10
  · isplitl [I10] <;> iassumption
  imod (close_cell m (K (sendCell .fl1 c)) (sendCell .fl1 c)) $$ [I11 A11] with Z11
  · isplitl [I11] <;> iassumption
  imod (close_cell m (K (recvCell .fr0 c)) (recvCell .fr0 c)) $$ [I12 A12] with Z12
  · isplitl [I12] <;> iassumption
  imod (close_cell m (K (recvCell .fr1 c)) (recvCell .fr1 c)) $$ [I13 A13] with Z13
  · isplitl [I13] <;> iassumption
  imod (close_cell m (K (recvCell .fl0 c)) (recvCell .fl0 c)) $$ [I14 A14] with Z14
  · isplitl [I14] <;> iassumption
  imod (close_cell m (K (recvCell .fl1 c)) (recvCell .fl1 c)) $$ [I15 A15] with Z15
  · isplitl [I15] <;> iassumption
  imodintro
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  iexact Z15

/-- The same with each position written as the round after round 0. -/
theorem close_legs' (K : GSem nD τ sig → ℕ) (c : Dev nD) :
    iprop((cellInv ER (agRd m) (K (sendCell .a1r c)) (sendCell .a1r c)
      ∗ cellInv ER (agRd m) (K (sendCell .a1l c)) (sendCell .a1l c)
      ∗ cellInv ER (agRd m) (K (sendCell .a2r c)) (sendCell .a2r c)
      ∗ cellInv ER (agRd m) (K (sendCell .a2l c)) (sendCell .a2l c)
      ∗ cellInv ER (agRd m) (K (recvCell .a1r c)) (recvCell .a1r c)
      ∗ cellInv ER (agRd m) (K (recvCell .a1l c)) (recvCell .a1l c)
      ∗ cellInv ER (agRd m) (K (recvCell .a2r c)) (recvCell .a2r c)
      ∗ cellInv ER (agRd m) (K (recvCell .a2l c)) (recvCell .a2l c)
      ∗ cellInv ER (agRd m) (K (sendCell .fr0 c)) (sendCell .fr0 c)
      ∗ cellInv ER (agRd m) (K (sendCell .fr1 c)) (sendCell .fr1 c)
      ∗ cellInv ER (agRd m) (K (sendCell .fl0 c)) (sendCell .fl0 c)
      ∗ cellInv ER (agRd m) (K (sendCell .fl1 c)) (sendCell .fl1 c)
      ∗ cellInv ER (agRd m) (K (recvCell .fr0 c)) (recvCell .fr0 c)
      ∗ cellInv ER (agRd m) (K (recvCell .fr1 c)) (recvCell .fr1 c)
      ∗ cellInv ER (agRd m) (K (recvCell .fl0 c)) (recvCell .fl0 c)
      ∗ cellInv ER (agRd m) (K (recvCell .fl1 c)) (recvCell .fl1 c))
      ∗ (atPos ER (sendCell .a1r c) (0 + 1) ∅ 0
      ∗ atPos ER (sendCell .a1l c) (0 + 1) ∅ 0
      ∗ atPos ER (sendCell .a2r c) (0 + 1) ∅ 0
      ∗ atPos ER (sendCell .a2l c) (0 + 1) ∅ 0
      ∗ atPos ER (recvCell .a1r c) (0 + 1) ∅ 0
      ∗ atPos ER (recvCell .a1l c) (0 + 1) ∅ 0
      ∗ atPos ER (recvCell .a2r c) (0 + 1) ∅ 0
      ∗ atPos ER (recvCell .a2l c) (0 + 1) ∅ 0
      ∗ atPos ER (sendCell .fr0 c) (0 + 1) ∅ 0
      ∗ atPos ER (sendCell .fr1 c) (0 + 1) ∅ 0
      ∗ atPos ER (sendCell .fl0 c) (0 + 1) ∅ 0
      ∗ atPos ER (sendCell .fl1 c) (0 + 1) ∅ 0
      ∗ atPos ER (recvCell .fr0 c) (0 + 1) ∅ 0
      ∗ atPos ER (recvCell .fr1 c) (0 + 1) ∅ 0
      ∗ atPos ER (recvCell .fl0 c) (0 + 1) ∅ 0
      ∗ atPos ER (recvCell .fl1 c) (0 + 1) ∅ 0))
      ⊢ (|={Set.univ}=> legSems c : sProp 𝕄) :=
  close_legs m K c

end Cert.KernelIdeal.AG

end
-- ==== Proof.Sends.lean ====
/-
  The eight remote copies of a device, each as one step: the rows a leg borrows from its source go out, the credit of
  its send cell comes back, and the device no longer owes the leg's credit to the receive cell it lands on; what lands
  is the destination rows holding the block the leg carries.
-/
import proofs.«900658_g7700000000000659_dist_ag_gemm_m4096_k4096_n8192_f32_relu_v7x_i4_1_alg».proof.Proof.Phi
import proofs.«900658_g7700000000000659_dist_ag_gemm_m4096_k4096_n8192_f32_relu_v7x_i4_1_alg».proof.Proof.RowRangesInst
import proofs.«900658_g7700000000000659_dist_ag_gemm_m4096_k4096_n8192_f32_relu_v7x_i4_1_alg».proof.Proof.Tables

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- The copy of leg `a1r`: ownH0 of this device to lftH0 of the right neighbour. -/
theorem wp_send_a1r (c n : Dev nD) (hn : n = nxt c)
    {hsc : (lftH0 : Memref sig (Dev.tc n : Thread nD τ).2.kind .vmem S512x4096 .bf16).view.ref.isScScratch = false}
    {hsrc : (ownH0 : Memref sig .tc .vmem S512x4096 .bf16).view.WordExact} {hdst : (lftH0 : Memref sig .tc .vmem S512x4096 .bf16).view.WordExact}
    {hsem : DmaTarget.Typed .vmem (.dma (sR .a1r)) (.remote (Dev.tc n : Thread nD τ) (lftH0 : Memref sig .tc .vmem S512x4096 .bf16) (.dma (sS .a1r)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .a1r c)) (sendCell .a1r c) ∗ cellInv ER (agRd m) (K (recvCell .a1r (nxt c))) (recvCell .a1r (nxt c))
        ∗ ((ownH0 : Memref sig .tc .vmem S512x4096 .bf16).view.loc (c : Thread nD τ) ↦[(ownH0 : Memref sig .tc .vmem S512x4096 .bf16).view.set]{fullShare.left} xb m c)
        ∗ ((lftH0 : Memref sig .tc .vmem S512x4096 .bf16).view.loc ((nxt c : Dev nD) : Thread nD τ) ↦[(lftH0 : Memref sig .tc .vmem S512x4096 .bf16).view.set]{fullShare} fd)
        ∗ owes (c : Thread nD τ) (O + tallyAt (recvCell .a1r (nxt c)) () (legAmt .a1r)) W
        ∗ dutyTok ER (sendCell .a1r c) 0 false ∗ reached ER (sendCell .a1r c) 0
        ∗ dutyTok ER (recvCell .a1r (nxt c)) 0 false ∗ reached ER (recvCell .a1r (nxt c)) 0)
      ⊢ iprop(((cred (tallyAt (sendCell .a1r c) () (legAmt .a1r)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownH0 (.remote (Dev.tc n : Thread nD τ) lftH0 (.dma (sS .a1r)) hsc) (.dma (sR .a1r)) hsrc hdst hsem) k) Q) := by
  subst hn
  exact Rounds.wp_send_pointsTo 𝒱₀ ER (agRd m) (c : Thread nD τ) none (c' := ((nxt c : Dev nD) : Thread nD τ)) (src := ownH0) (dst := lftH0)
    (q := fullShare.left) (fs := xb m c) (fd := fd)
    (κ₁ := K (sendCell .a1r c)) (κ₂ := K (recvCell .a1r (nxt c))) (r₁ := 0) (r₂ := 0) (d₁ := false) (d₂ := false)
    (by rw [duties_send]; exact Finset.mem_singleton_self _) (by rw [duties_recv]; exact Finset.mem_singleton_self _)
    () () (legAmt .a1r) rfl (amount_send m c .a1r false) (amount_recv m (nxt c) .a1r false) O rfl (W := W)
    (Entails.of_eq (pay_send_a1r m c false).symm)
    (Entails.of_eq ((landed_eq_own_lft rH0 (fun _ => rfl) (nxt c) fullShare (xb m c) fd).trans (pay_recv_a1r_nxt m c false).symm))

/-- The copy of leg `a1l`: ownH0 of this device to rgtH0 of the left neighbour. -/
theorem wp_send_a1l (c n : Dev nD) (hn : n = prv c)
    {hsc : (rgtH0 : Memref sig (Dev.tc n : Thread nD τ).2.kind .vmem S512x4096 .bf16).view.ref.isScScratch = false}
    {hsrc : (ownH0 : Memref sig .tc .vmem S512x4096 .bf16).view.WordExact} {hdst : (rgtH0 : Memref sig .tc .vmem S512x4096 .bf16).view.WordExact}
    {hsem : DmaTarget.Typed .vmem (.dma (sR .a1l)) (.remote (Dev.tc n : Thread nD τ) (rgtH0 : Memref sig .tc .vmem S512x4096 .bf16) (.dma (sS .a1l)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .a1l c)) (sendCell .a1l c) ∗ cellInv ER (agRd m) (K (recvCell .a1l (prv c))) (recvCell .a1l (prv c))
        ∗ ((ownH0 : Memref sig .tc .vmem S512x4096 .bf16).view.loc (c : Thread nD τ) ↦[(ownH0 : Memref sig .tc .vmem S512x4096 .bf16).view.set]{fullShare.right.left} xb m c)
        ∗ ((rgtH0 : Memref sig .tc .vmem S512x4096 .bf16).view.loc ((prv c : Dev nD) : Thread nD τ) ↦[(rgtH0 : Memref sig .tc .vmem S512x4096 .bf16).view.set]{fullShare} fd)
        ∗ owes (c : Thread nD τ) (O + tallyAt (recvCell .a1l (prv c)) () (legAmt .a1l)) W
        ∗ dutyTok ER (sendCell .a1l c) 0 false ∗ reached ER (sendCell .a1l c) 0
        ∗ dutyTok ER (recvCell .a1l (prv c)) 0 false ∗ reached ER (recvCell .a1l (prv c)) 0)
      ⊢ iprop(((cred (tallyAt (sendCell .a1l c) () (legAmt .a1l)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownH0 (.remote (Dev.tc n : Thread nD τ) rgtH0 (.dma (sS .a1l)) hsc) (.dma (sR .a1l)) hsrc hdst hsem) k) Q) := by
  subst hn
  exact Rounds.wp_send_pointsTo 𝒱₀ ER (agRd m) (c : Thread nD τ) none (c' := ((prv c : Dev nD) : Thread nD τ)) (src := ownH0) (dst := rgtH0)
    (q := fullShare.right.left) (fs := xb m c) (fd := fd)
    (κ₁ := K (sendCell .a1l c)) (κ₂ := K (recvCell .a1l (prv c))) (r₁ := 0) (r₂ := 0) (d₁ := false) (d₂ := false)
    (by rw [duties_send]; exact Finset.mem_singleton_self _) (by rw [duties_recv]; exact Finset.mem_singleton_self _)
    () () (legAmt .a1l) rfl (amount_send m c .a1l false) (amount_recv m (prv c) .a1l false) O rfl (W := W)
    (Entails.of_eq (pay_send_a1l m c false).symm)
    (Entails.of_eq ((landed_eq_own_rgt rH0 (fun _ => rfl) (prv c) fullShare (xb m c) fd).trans (pay_recv_a1l_prv m c false).symm))

/-- The copy of leg `a2r`: ownH1 of this device to lftH1 of the right neighbour. -/
theorem wp_send_a2r (c n : Dev nD) (hn : n = nxt c)
    {hsc : (lftH1 : Memref sig (Dev.tc n : Thread nD τ).2.kind .vmem S512x4096 .bf16).view.ref.isScScratch = false}
    {hsrc : (ownH1 : Memref sig .tc .vmem S512x4096 .bf16).view.WordExact} {hdst : (lftH1 : Memref sig .tc .vmem S512x4096 .bf16).view.WordExact}
    {hsem : DmaTarget.Typed .vmem (.dma (sR .a2r)) (.remote (Dev.tc n : Thread nD τ) (lftH1 : Memref sig .tc .vmem S512x4096 .bf16) (.dma (sS .a2r)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .a2r c)) (sendCell .a2r c) ∗ cellInv ER (agRd m) (K (recvCell .a2r (nxt c))) (recvCell .a2r (nxt c))
        ∗ ((ownH1 : Memref sig .tc .vmem S512x4096 .bf16).view.loc (c : Thread nD τ) ↦[(ownH1 : Memref sig .tc .vmem S512x4096 .bf16).view.set]{fullShare.left} xb m c)
        ∗ ((lftH1 : Memref sig .tc .vmem S512x4096 .bf16).view.loc ((nxt c : Dev nD) : Thread nD τ) ↦[(lftH1 : Memref sig .tc .vmem S512x4096 .bf16).view.set]{fullShare} fd)
        ∗ owes (c : Thread nD τ) (O + tallyAt (recvCell .a2r (nxt c)) () (legAmt .a2r)) W
        ∗ dutyTok ER (sendCell .a2r c) 0 false ∗ reached ER (sendCell .a2r c) 0
        ∗ dutyTok ER (recvCell .a2r (nxt c)) 0 false ∗ reached ER (recvCell .a2r (nxt c)) 0)
      ⊢ iprop(((cred (tallyAt (sendCell .a2r c) () (legAmt .a2r)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownH1 (.remote (Dev.tc n : Thread nD τ) lftH1 (.dma (sS .a2r)) hsc) (.dma (sR .a2r)) hsrc hdst hsem) k) Q) := by
  subst hn
  exact Rounds.wp_send_pointsTo 𝒱₀ ER (agRd m) (c : Thread nD τ) none (c' := ((nxt c : Dev nD) : Thread nD τ)) (src := ownH1) (dst := lftH1)
    (q := fullShare.left) (fs := xb m c) (fd := fd)
    (κ₁ := K (sendCell .a2r c)) (κ₂ := K (recvCell .a2r (nxt c))) (r₁ := 0) (r₂ := 0) (d₁ := false) (d₂ := false)
    (by rw [duties_send]; exact Finset.mem_singleton_self _) (by rw [duties_recv]; exact Finset.mem_singleton_self _)
    () () (legAmt .a2r) rfl (amount_send m c .a2r false) (amount_recv m (nxt c) .a2r false) O rfl (W := W)
    (Entails.of_eq (pay_send_a2r m c false).symm)
    (Entails.of_eq ((landed_eq_own_lft rH1 (fun _ => rfl) (nxt c) fullShare (xb m c) fd).trans (pay_recv_a2r_nxt m c false).symm))

/-- The copy of leg `a2l`: ownH1 of this device to rgtH1 of the left neighbour. -/
theorem wp_send_a2l (c n : Dev nD) (hn : n = prv c)
    {hsc : (rgtH1 : Memref sig (Dev.tc n : Thread nD τ).2.kind .vmem S512x4096 .bf16).view.ref.isScScratch = false}
    {hsrc : (ownH1 : Memref sig .tc .vmem S512x4096 .bf16).view.WordExact} {hdst : (rgtH1 : Memref sig .tc .vmem S512x4096 .bf16).view.WordExact}
    {hsem : DmaTarget.Typed .vmem (.dma (sR .a2l)) (.remote (Dev.tc n : Thread nD τ) (rgtH1 : Memref sig .tc .vmem S512x4096 .bf16) (.dma (sS .a2l)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .a2l c)) (sendCell .a2l c) ∗ cellInv ER (agRd m) (K (recvCell .a2l (prv c))) (recvCell .a2l (prv c))
        ∗ ((ownH1 : Memref sig .tc .vmem S512x4096 .bf16).view.loc (c : Thread nD τ) ↦[(ownH1 : Memref sig .tc .vmem S512x4096 .bf16).view.set]{fullShare.right.left} xb m c)
        ∗ ((rgtH1 : Memref sig .tc .vmem S512x4096 .bf16).view.loc ((prv c : Dev nD) : Thread nD τ) ↦[(rgtH1 : Memref sig .tc .vmem S512x4096 .bf16).view.set]{fullShare} fd)
        ∗ owes (c : Thread nD τ) (O + tallyAt (recvCell .a2l (prv c)) () (legAmt .a2l)) W
        ∗ dutyTok ER (sendCell .a2l c) 0 false ∗ reached ER (sendCell .a2l c) 0
        ∗ dutyTok ER (recvCell .a2l (prv c)) 0 false ∗ reached ER (recvCell .a2l (prv c)) 0)
      ⊢ iprop(((cred (tallyAt (sendCell .a2l c) () (legAmt .a2l)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownH1 (.remote (Dev.tc n : Thread nD τ) rgtH1 (.dma (sS .a2l)) hsc) (.dma (sR .a2l)) hsrc hdst hsem) k) Q) := by
  subst hn
  exact Rounds.wp_send_pointsTo 𝒱₀ ER (agRd m) (c : Thread nD τ) none (c' := ((prv c : Dev nD) : Thread nD τ)) (src := ownH1) (dst := rgtH1)
    (q := fullShare.right.left) (fs := xb m c) (fd := fd)
    (κ₁ := K (sendCell .a2l c)) (κ₂ := K (recvCell .a2l (prv c))) (r₁ := 0) (r₂ := 0) (d₁ := false) (d₂ := false)
    (by rw [duties_send]; exact Finset.mem_singleton_self _) (by rw [duties_recv]; exact Finset.mem_singleton_self _)
    () () (legAmt .a2l) rfl (amount_send m c .a2l false) (amount_recv m (prv c) .a2l false) O rfl (W := W)
    (Entails.of_eq (pay_send_a2l m c false).symm)
    (Entails.of_eq ((landed_eq_own_rgt rH1 (fun _ => rfl) (prv c) fullShare (xb m c) fd).trans (pay_recv_a2l_prv m c false).symm))

/-- The copy of leg `fr0`: lftQ0 of this device to dgnQ0 of the right neighbour. -/
theorem wp_send_fr0 (c n : Dev nD) (hn : n = nxt c)
    {hsc : (dgnQ0 : Memref sig (Dev.tc n : Thread nD τ).2.kind .vmem S256x4096 .bf16).view.ref.isScScratch = false}
    {hsrc : (lftQ0 : Memref sig .tc .vmem S256x4096 .bf16).view.WordExact} {hdst : (dgnQ0 : Memref sig .tc .vmem S256x4096 .bf16).view.WordExact}
    {hsem : DmaTarget.Typed .vmem (.dma (sR .fr0)) (.remote (Dev.tc n : Thread nD τ) (dgnQ0 : Memref sig .tc .vmem S256x4096 .bf16) (.dma (sS .fr0)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .fr0 c)) (sendCell .fr0 c) ∗ cellInv ER (agRd m) (K (recvCell .fr0 (nxt c))) (recvCell .fr0 (nxt c))
        ∗ ((lftQ0 : Memref sig .tc .vmem S256x4096 .bf16).view.loc (c : Thread nD τ) ↦[(lftQ0 : Memref sig .tc .vmem S256x4096 .bf16).view.set]{fullShare.left} xb m (prv c))
        ∗ ((dgnQ0 : Memref sig .tc .vmem S256x4096 .bf16).view.loc ((nxt c : Dev nD) : Thread nD τ) ↦[(dgnQ0 : Memref sig .tc .vmem S256x4096 .bf16).view.set]{fullShare} fd)
        ∗ owes (c : Thread nD τ) (O + tallyAt (recvCell .fr0 (nxt c)) () (legAmt .fr0)) W
        ∗ dutyTok ER (sendCell .fr0 c) 0 false ∗ reached ER (sendCell .fr0 c) 0
        ∗ dutyTok ER (recvCell .fr0 (nxt c)) 0 false ∗ reached ER (recvCell .fr0 (nxt c)) 0)
      ⊢ iprop(((cred (tallyAt (sendCell .fr0 c) () (legAmt .fr0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lftQ0 (.remote (Dev.tc n : Thread nD τ) dgnQ0 (.dma (sS .fr0)) hsc) (.dma (sR .fr0)) hsrc hdst hsem) k) Q) := by
  subst hn
  exact Rounds.wp_send_pointsTo 𝒱₀ ER (agRd m) (c : Thread nD τ) none (c' := ((nxt c : Dev nD) : Thread nD τ)) (src := lftQ0) (dst := dgnQ0)
    (q := fullShare.left) (fs := xb m (prv c)) (fd := fd)
    (κ₁ := K (sendCell .fr0 c)) (κ₂ := K (recvCell .fr0 (nxt c))) (r₁ := 0) (r₂ := 0) (d₁ := false) (d₂ := false)
    (by rw [duties_send]; exact Finset.mem_singleton_self _) (by rw [duties_recv]; exact Finset.mem_singleton_self _)
    () () (legAmt .fr0) rfl (amount_send m c .fr0 false) (amount_recv m (nxt c) .fr0 false) O rfl (W := W)
    (Entails.of_eq (pay_send_fr0 m c false).symm)
    (Entails.of_eq ((landed_eq_lft_dgn rQ0 (fun _ => rfl) (nxt c) fullShare (xb m (prv c)) fd).trans (pay_recv_fr0_nxt m c false).symm))

/-- The copy of leg `fr1`: lftQ1 of this device to dgnQ1 of the right neighbour. -/
theorem wp_send_fr1 (c n : Dev nD) (hn : n = nxt c)
    {hsc : (dgnQ1 : Memref sig (Dev.tc n : Thread nD τ).2.kind .vmem S256x4096 .bf16).view.ref.isScScratch = false}
    {hsrc : (lftQ1 : Memref sig .tc .vmem S256x4096 .bf16).view.WordExact} {hdst : (dgnQ1 : Memref sig .tc .vmem S256x4096 .bf16).view.WordExact}
    {hsem : DmaTarget.Typed .vmem (.dma (sR .fr1)) (.remote (Dev.tc n : Thread nD τ) (dgnQ1 : Memref sig .tc .vmem S256x4096 .bf16) (.dma (sS .fr1)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .fr1 c)) (sendCell .fr1 c) ∗ cellInv ER (agRd m) (K (recvCell .fr1 (nxt c))) (recvCell .fr1 (nxt c))
        ∗ ((lftQ1 : Memref sig .tc .vmem S256x4096 .bf16).view.loc (c : Thread nD τ) ↦[(lftQ1 : Memref sig .tc .vmem S256x4096 .bf16).view.set]{fullShare.left} xb m (prv c))
        ∗ ((dgnQ1 : Memref sig .tc .vmem S256x4096 .bf16).view.loc ((nxt c : Dev nD) : Thread nD τ) ↦[(dgnQ1 : Memref sig .tc .vmem S256x4096 .bf16).view.set]{fullShare} fd)
        ∗ owes (c : Thread nD τ) (O + tallyAt (recvCell .fr1 (nxt c)) () (legAmt .fr1)) W
        ∗ dutyTok ER (sendCell .fr1 c) 0 false ∗ reached ER (sendCell .fr1 c) 0
        ∗ dutyTok ER (recvCell .fr1 (nxt c)) 0 false ∗ reached ER (recvCell .fr1 (nxt c)) 0)
      ⊢ iprop(((cred (tallyAt (sendCell .fr1 c) () (legAmt .fr1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lftQ1 (.remote (Dev.tc n : Thread nD τ) dgnQ1 (.dma (sS .fr1)) hsc) (.dma (sR .fr1)) hsrc hdst hsem) k) Q) := by
  subst hn
  exact Rounds.wp_send_pointsTo 𝒱₀ ER (agRd m) (c : Thread nD τ) none (c' := ((nxt c : Dev nD) : Thread nD τ)) (src := lftQ1) (dst := dgnQ1)
    (q := fullShare.left) (fs := xb m (prv c)) (fd := fd)
    (κ₁ := K (sendCell .fr1 c)) (κ₂ := K (recvCell .fr1 (nxt c))) (r₁ := 0) (r₂ := 0) (d₁ := false) (d₂ := false)
    (by rw [duties_send]; exact Finset.mem_singleton_self _) (by rw [duties_recv]; exact Finset.mem_singleton_self _)
    () () (legAmt .fr1) rfl (amount_send m c .fr1 false) (amount_recv m (nxt c) .fr1 false) O rfl (W := W)
    (Entails.of_eq (pay_send_fr1 m c false).symm)
    (Entails.of_eq ((landed_eq_lft_dgn rQ1 (fun _ => rfl) (nxt c) fullShare (xb m (prv c)) fd).trans (pay_recv_fr1_nxt m c false).symm))

/-- The copy of leg `fl0`: rgtQ2 of this device to dgnQ2 of the left neighbour. -/
theorem wp_send_fl0 (c n : Dev nD) (hn : n = prv c)
    {hsc : (dgnQ2 : Memref sig (Dev.tc n : Thread nD τ).2.kind .vmem S256x4096 .bf16).view.ref.isScScratch = false}
    {hsrc : (rgtQ2 : Memref sig .tc .vmem S256x4096 .bf16).view.WordExact} {hdst : (dgnQ2 : Memref sig .tc .vmem S256x4096 .bf16).view.WordExact}
    {hsem : DmaTarget.Typed .vmem (.dma (sR .fl0)) (.remote (Dev.tc n : Thread nD τ) (dgnQ2 : Memref sig .tc .vmem S256x4096 .bf16) (.dma (sS .fl0)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .fl0 c)) (sendCell .fl0 c) ∗ cellInv ER (agRd m) (K (recvCell .fl0 (prv c))) (recvCell .fl0 (prv c))
        ∗ ((rgtQ2 : Memref sig .tc .vmem S256x4096 .bf16).view.loc (c : Thread nD τ) ↦[(rgtQ2 : Memref sig .tc .vmem S256x4096 .bf16).view.set]{fullShare.left} xb m (nxt c))
        ∗ ((dgnQ2 : Memref sig .tc .vmem S256x4096 .bf16).view.loc ((prv c : Dev nD) : Thread nD τ) ↦[(dgnQ2 : Memref sig .tc .vmem S256x4096 .bf16).view.set]{fullShare} fd)
        ∗ owes (c : Thread nD τ) (O + tallyAt (recvCell .fl0 (prv c)) () (legAmt .fl0)) W
        ∗ dutyTok ER (sendCell .fl0 c) 0 false ∗ reached ER (sendCell .fl0 c) 0
        ∗ dutyTok ER (recvCell .fl0 (prv c)) 0 false ∗ reached ER (recvCell .fl0 (prv c)) 0)
      ⊢ iprop(((cred (tallyAt (sendCell .fl0 c) () (legAmt .fl0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rgtQ2 (.remote (Dev.tc n : Thread nD τ) dgnQ2 (.dma (sS .fl0)) hsc) (.dma (sR .fl0)) hsrc hdst hsem) k) Q) := by
  subst hn
  exact Rounds.wp_send_pointsTo 𝒱₀ ER (agRd m) (c : Thread nD τ) none (c' := ((prv c : Dev nD) : Thread nD τ)) (src := rgtQ2) (dst := dgnQ2)
    (q := fullShare.left) (fs := xb m (nxt c)) (fd := fd)
    (κ₁ := K (sendCell .fl0 c)) (κ₂ := K (recvCell .fl0 (prv c))) (r₁ := 0) (r₂ := 0) (d₁ := false) (d₂ := false)
    (by rw [duties_send]; exact Finset.mem_singleton_self _) (by rw [duties_recv]; exact Finset.mem_singleton_self _)
    () () (legAmt .fl0) rfl (amount_send m c .fl0 false) (amount_recv m (prv c) .fl0 false) O rfl (W := W)
    (Entails.of_eq (pay_send_fl0 m c false).symm)
    (Entails.of_eq ((landed_eq_rgt_dgn rQ2 (fun _ => rfl) (prv c) fullShare (xb m (nxt c)) fd).trans (pay_recv_fl0_prv m c false).symm))

/-- The copy of leg `fl1`: rgtQ3 of this device to dgnQ3 of the left neighbour. -/
theorem wp_send_fl1 (c n : Dev nD) (hn : n = prv c)
    {hsc : (dgnQ3 : Memref sig (Dev.tc n : Thread nD τ).2.kind .vmem S256x4096 .bf16).view.ref.isScScratch = false}
    {hsrc : (rgtQ3 : Memref sig .tc .vmem S256x4096 .bf16).view.WordExact} {hdst : (dgnQ3 : Memref sig .tc .vmem S256x4096 .bf16).view.WordExact}
    {hsem : DmaTarget.Typed .vmem (.dma (sR .fl1)) (.remote (Dev.tc n : Thread nD τ) (dgnQ3 : Memref sig .tc .vmem S256x4096 .bf16) (.dma (sS .fl1)) hsc)}
    {α : Type} {Q : α → sProp 𝕄} {k : PUnit → Prog (TpuEff nD τ sig (Elt F) Λ₀ .tc) α}
    (fd : Rows (F := F)) (O : CellTallies nD τ sig Unit) (W : Waits sig Unit) :
    iprop(cellInv ER (agRd m) (K (sendCell .fl1 c)) (sendCell .fl1 c) ∗ cellInv ER (agRd m) (K (recvCell .fl1 (prv c))) (recvCell .fl1 (prv c))
        ∗ ((rgtQ3 : Memref sig .tc .vmem S256x4096 .bf16).view.loc (c : Thread nD τ) ↦[(rgtQ3 : Memref sig .tc .vmem S256x4096 .bf16).view.set]{fullShare.left} xb m (nxt c))
        ∗ ((dgnQ3 : Memref sig .tc .vmem S256x4096 .bf16).view.loc ((prv c : Dev nD) : Thread nD τ) ↦[(dgnQ3 : Memref sig .tc .vmem S256x4096 .bf16).view.set]{fullShare} fd)
        ∗ owes (c : Thread nD τ) (O + tallyAt (recvCell .fl1 (prv c)) () (legAmt .fl1)) W
        ∗ dutyTok ER (sendCell .fl1 c) 0 false ∗ reached ER (sendCell .fl1 c) 0
        ∗ dutyTok ER (recvCell .fl1 (prv c)) 0 false ∗ reached ER (recvCell .fl1 (prv c)) 0)
      ⊢ iprop(((cred (tallyAt (sendCell .fl1 c) () (legAmt .fl1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rgtQ3 (.remote (Dev.tc n : Thread nD τ) dgnQ3 (.dma (sS .fl1)) hsc) (.dma (sR .fl1)) hsrc hdst hsem) k) Q) := by
  subst hn
  exact Rounds.wp_send_pointsTo 𝒱₀ ER (agRd m) (c : Thread nD τ) none (c' := ((prv c : Dev nD) : Thread nD τ)) (src := rgtQ3) (dst := dgnQ3)
    (q := fullShare.left) (fs := xb m (nxt c)) (fd := fd)
    (κ₁ := K (sendCell .fl1 c)) (κ₂ := K (recvCell .fl1 (prv c))) (r₁ := 0) (r₂ := 0) (d₁ := false) (d₂ := false)
    (by rw [duties_send]; exact Finset.mem_singleton_self _) (by rw [duties_recv]; exact Finset.mem_singleton_self _)
    () () (legAmt .fl1) rfl (amount_send m c .fl1 false) (amount_recv m (prv c) .fl1 false) O rfl (W := W)
    (Entails.of_eq (pay_send_fl1 m c false).symm)
    (Entails.of_eq ((landed_eq_rgt_dgn rQ3 (fun _ => rfl) (prv c) fullShare (xb m (nxt c)) fd).trans (pay_recv_fl1_prv m c false).symm))

/-- info: 'Cert.KernelIdeal.AG.wp_send_fl1' depends on axioms: [propext, Classical.choice, Quot.sound] -/
#guard_msgs in #print axioms wp_send_fl1

end Cert.KernelIdeal.AG

end
-- ==== Proof.LoopX.lean ====
/-
  The two loops that narrow the device's rows of x into its local buffer.

  A device holds 1024 rows of x, eight blocks of 128 rows. Blocks 0 … 3 are narrowed by the first loop into rows 0 … 511
  of the local buffer, blocks 4 … 7 by the second into rows 512 … 1023. A block travels through a staging buffer of two
  slots, block t through slot t mod 2 on that slot's semaphore: before a loop the copies of its first two blocks are
  started; trip t waits for block t, narrows the slot into rows 128 t … 128 t + 127, and, when block t + 2 belongs to
  the loop, starts its copy into the slot just read. So at the head of trip t the copies of blocks t and t + 1 (those
  of the loop) are under way, each lent its rows of x and its slot; what is left of x and of the staging buffer is held,
  the staging buffer's pieces all at one contents, and that contents reads, on a slot whose copy is under way, the
  block the copy delivers. The local buffer holds the narrowed rows of every block below t. A trip is proved once for
  a trip number known only by its parity (which fixes the slot and the semaphore) and by whether a block is left to
  fetch; the rows it touches stay a function of the trip number.
-/
import proofs.«900658_g7700000000000659_dist_ag_gemm_m4096_k4096_n8192_f32_relu_v7x_i4_1_alg».proof.Proof.Contents
import proofs.«900658_g7700000000000659_dist_ag_gemm_m4096_k4096_n8192_f32_relu_v7x_i4_1_alg».proof.Proof.State
import proofs.«900658_g7700000000000659_dist_ag_gemm_m4096_k4096_n8192_f32_relu_v7x_i4_1_alg».proof.Proof.Gen.KernelIdeal.Loops
import Idealize.ShloMosaic.Lib.Tactic
import Idealize.ShloMosaic.Lib.ValueIdx
import Idealize.ShloMosaic.Lib.ValueLayout
import Idealize.ShloMosaic.Lib.Pipeline.Value

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## The slot of a trip: its parity -/

theorem t1_trips : k0_t1_loop.trips = 4 := by decide +kernel
theorem t2_trips : k0_t2_loop.trips = 4 := by decide +kernel

theorem off1_even : ∀ k : Fin k0_t1_loop.trips, k.val % 2 = 0 → k0_off1 k = ![0] := by decide +kernel
theorem off1_odd : ∀ k : Fin k0_t1_loop.trips, k.val % 2 = 1 → k0_off1 k = ![1] := by decide +kernel
theorem off2_even : ∀ k : Fin k0_t1_loop.trips, k.val % 2 = 0 → k0_off2 k = ![0, 0, 0] := by decide +kernel
theorem off2_odd : ∀ k : Fin k0_t1_loop.trips, k.val % 2 = 1 → k0_off2 k = ![1, 0, 0] := by decide +kernel
theorem off4_even : ∀ k : Fin k0_t1_loop.trips, k.val % 2 = 0 → k0_off4 k = ![0, 0, 0] := by decide +kernel
theorem off4_odd : ∀ k : Fin k0_t1_loop.trips, k.val % 2 = 1 → k0_off4 k = ![1, 0, 0] := by decide +kernel
theorem off6_even : ∀ k : Fin k0_t1_loop.trips, k.val % 2 = 0 → k0_off6 k = ![0] := by decide +kernel
theorem off6_odd : ∀ k : Fin k0_t1_loop.trips, k.val % 2 = 1 → k0_off6 k = ![1] := by decide +kernel
theorem off7_even : ∀ k : Fin k0_t1_loop.trips, k.val % 2 = 0 → k0_off7 k = ![0, 0, 0] := by decide +kernel
theorem off7_odd : ∀ k : Fin k0_t1_loop.trips, k.val % 2 = 1 → k0_off7 k = ![1, 0, 0] := by decide +kernel
theorem cond1_lt : ∀ k : Fin k0_t1_loop.trips, k.val < 2 → k0_cond1 k = 1#1 := by decide +kernel
theorem cond1_ge : ∀ k : Fin k0_t1_loop.trips, 2 ≤ k.val → ¬ k0_cond1 k = 1#1 := by decide +kernel

theorem off9_even : ∀ k : Fin k0_t2_loop.trips, k.val % 2 = 0 → k0_off9 k = ![0] := by decide +kernel
theorem off9_odd : ∀ k : Fin k0_t2_loop.trips, k.val % 2 = 1 → k0_off9 k = ![1] := by decide +kernel
theorem off10_even : ∀ k : Fin k0_t2_loop.trips, k.val % 2 = 0 → k0_off10 k = ![0, 0, 0] := by decide +kernel
theorem off10_odd : ∀ k : Fin k0_t2_loop.trips, k.val % 2 = 1 → k0_off10 k = ![1, 0, 0] := by decide +kernel
theorem off12_even : ∀ k : Fin k0_t2_loop.trips, k.val % 2 = 0 → k0_off12 k = ![0, 0, 0] := by decide +kernel
theorem off12_odd : ∀ k : Fin k0_t2_loop.trips, k.val % 2 = 1 → k0_off12 k = ![1, 0, 0] := by decide +kernel
theorem off14_even : ∀ k : Fin k0_t2_loop.trips, k.val % 2 = 0 → k0_off14 k = ![0] := by decide +kernel
theorem off14_odd : ∀ k : Fin k0_t2_loop.trips, k.val % 2 = 1 → k0_off14 k = ![1] := by decide +kernel
theorem off15_even : ∀ k : Fin k0_t2_loop.trips, k.val % 2 = 0 → k0_off15 k = ![0, 0, 0] := by decide +kernel
theorem off15_odd : ∀ k : Fin k0_t2_loop.trips, k.val % 2 = 1 → k0_off15 k = ![1, 0, 0] := by decide +kernel
theorem cond2_lt : ∀ k : Fin k0_t2_loop.trips, k.val < 2 → k0_cond2 k = 1#1 := by decide +kernel
theorem cond2_ge : ∀ k : Fin k0_t2_loop.trips, 2 ≤ k.val → ¬ k0_cond2 k = 1#1 := by decide +kernel

/-! ## The buffers of the conversion, by name -/

abbrev slot0 : Memref sig .tc .vmem S128x4096 .f32 :=
  (xfM.slice (Rect.unit (s := S2x128x4096) ![0, 0, 0] S1x128x4096.size inb_S2x128x4096_S1x128x4096_0_0_0) (fun _ => rfl)).squeeze S128x4096 squeezes_S1x128x4096_S128x4096
abbrev slot1 : Memref sig .tc .vmem S128x4096 .f32 :=
  (xfM.slice (Rect.unit (s := S2x128x4096) ![1, 0, 0] S1x128x4096.size inb_S2x128x4096_S1x128x4096_1_0_0) (fun _ => rfl)).squeeze S128x4096 squeezes_S1x128x4096_S128x4096

theorem rows_inb (t : ℕ) (h : t < 8) : ∀ a, (![128 * t, 0] : Fin 2 → ℕ) a + S128x4096.size a ≤ S1024x4096.size a := by
  intro a; fin_cases a
  · show 128 * t + 128 ≤ 1024; omega
  · show 0 + 4096 ≤ 4096; omega
/-- Rows 128 t … 128 t + 127 of x. -/
abbrev rowsM (t : ℕ) (h : t < 8) : Memref sig .tc .hbm S128x4096 .f32 :=
  xM.slice (Rect.unit (s := S1024x4096) ![128 * t, 0] S128x4096.size (rows_inb t h)) (fun _ => rfl)

/-! ## The slot and the semaphore of a trip, by its parity -/

section Canon
theorem semA1_even (k : Fin k0_t1_loop.trips) (he : k.val % 2 = 0) (hh) :
    cc0_scratch12.slice (Rect.unit (s := S2) (k0_off1 k) S1.size hh) = cc0_scratch12.slice (Rect.unit (s := S2) ![0] S1.size inb_S2_S1_0) :=
  SemArray.slice_unit_congr _ (off1_even k he) _ _
theorem semB1_even (k : Fin k0_t1_loop.trips) (he : k.val % 2 = 0) (hh) :
    cc0_scratch12.slice (Rect.unit (s := S2) (k0_off6 k) S1.size hh) = cc0_scratch12.slice (Rect.unit (s := S2) ![0] S1.size inb_S2_S1_0) :=
  SemArray.slice_unit_congr _ (off6_even k he) _ _
theorem slotA1_even (k : Fin k0_t1_loop.trips) (he : k.val % 2 = 0) (hh hs) :
    xfM.slice (Rect.unit (s := S2x128x4096) (k0_off2 k) S1x128x4096.size hh) hs
      = xfM.slice (Rect.unit (s := S2x128x4096) ![0, 0, 0] S1x128x4096.size inb_S2x128x4096_S1x128x4096_0_0_0) (fun _ => rfl) :=
  Memref.slice_unit_congr _ (off2_even k he) _ _ _ _
theorem slotB1_even (k : Fin k0_t1_loop.trips) (he : k.val % 2 = 0) (hh hs) :
    xfM.slice (Rect.unit (s := S2x128x4096) (k0_off7 k) S1x128x4096.size hh) hs
      = xfM.slice (Rect.unit (s := S2x128x4096) ![0, 0, 0] S1x128x4096.size inb_S2x128x4096_S1x128x4096_0_0_0) (fun _ => rfl) :=
  Memref.slice_unit_congr _ (off7_even k he) _ _ _ _
theorem semA1_odd (k : Fin k0_t1_loop.trips) (he : k.val % 2 = 1) (hh) :
    cc0_scratch12.slice (Rect.unit (s := S2) (k0_off1 k) S1.size hh) = cc0_scratch12.slice (Rect.unit (s := S2) ![1] S1.size inb_S2_S1_1) :=
  SemArray.slice_unit_congr _ (off1_odd k he) _ _
theorem semB1_odd (k : Fin k0_t1_loop.trips) (he : k.val % 2 = 1) (hh) :
    cc0_scratch12.slice (Rect.unit (s := S2) (k0_off6 k) S1.size hh) = cc0_scratch12.slice (Rect.unit (s := S2) ![1] S1.size inb_S2_S1_1) :=
  SemArray.slice_unit_congr _ (off6_odd k he) _ _
theorem slotA1_odd (k : Fin k0_t1_loop.trips) (he : k.val % 2 = 1) (hh hs) :
    xfM.slice (Rect.unit (s := S2x128x4096) (k0_off2 k) S1x128x4096.size hh) hs
      = xfM.slice (Rect.unit (s := S2x128x4096) ![1, 0, 0] S1x128x4096.size inb_S2x128x4096_S1x128x4096_1_0_0) (fun _ => rfl) :=
  Memref.slice_unit_congr _ (off2_odd k he) _ _ _ _
theorem slotB1_odd (k : Fin k0_t1_loop.trips) (he : k.val % 2 = 1) (hh hs) :
    xfM.slice (Rect.unit (s := S2x128x4096) (k0_off7 k) S1x128x4096.size hh) hs
      = xfM.slice (Rect.unit (s := S2x128x4096) ![1, 0, 0] S1x128x4096.size inb_S2x128x4096_S1x128x4096_1_0_0) (fun _ => rfl) :=
  Memref.slice_unit_congr _ (off7_odd k he) _ _ _ _
theorem semA2_even (k : Fin k0_t2_loop.trips) (he : k.val % 2 = 0) (hh) :
    cc0_scratch12.slice (Rect.unit (s := S2) (k0_off9 k) S1.size hh) = cc0_scratch12.slice (Rect.unit (s := S2) ![0] S1.size inb_S2_S1_0) :=
  SemArray.slice_unit_congr _ (off9_even k he) _ _
theorem semB2_even (k : Fin k0_t2_loop.trips) (he : k.val % 2 = 0) (hh) :
    cc0_scratch12.slice (Rect.unit (s := S2) (k0_off14 k) S1.size hh) = cc0_scratch12.slice (Rect.unit (s := S2) ![0] S1.size inb_S2_S1_0) :=
  SemArray.slice_unit_congr _ (off14_even k he) _ _
theorem slotA2_even (k : Fin k0_t2_loop.trips) (he : k.val % 2 = 0) (hh hs) :
    xfM.slice (Rect.unit (s := S2x128x4096) (k0_off10 k) S1x128x4096.size hh) hs
      = xfM.slice (Rect.unit (s := S2x128x4096) ![0, 0, 0] S1x128x4096.size inb_S2x128x4096_S1x128x4096_0_0_0) (fun _ => rfl) :=
  Memref.slice_unit_congr _ (off10_even k he) _ _ _ _
theorem slotB2_even (k : Fin k0_t2_loop.trips) (he : k.val % 2 = 0) (hh hs) :
    xfM.slice (Rect.unit (s := S2x128x4096) (k0_off15 k) S1x128x4096.size hh) hs
      = xfM.slice (Rect.unit (s := S2x128x4096) ![0, 0, 0] S1x128x4096.size inb_S2x128x4096_S1x128x4096_0_0_0) (fun _ => rfl) :=
  Memref.slice_unit_congr _ (off15_even k he) _ _ _ _
theorem semA2_odd (k : Fin k0_t2_loop.trips) (he : k.val % 2 = 1) (hh) :
    cc0_scratch12.slice (Rect.unit (s := S2) (k0_off9 k) S1.size hh) = cc0_scratch12.slice (Rect.unit (s := S2) ![1] S1.size inb_S2_S1_1) :=
  SemArray.slice_unit_congr _ (off9_odd k he) _ _
theorem semB2_odd (k : Fin k0_t2_loop.trips) (he : k.val % 2 = 1) (hh) :
    cc0_scratch12.slice (Rect.unit (s := S2) (k0_off14 k) S1.size hh) = cc0_scratch12.slice (Rect.unit (s := S2) ![1] S1.size inb_S2_S1_1) :=
  SemArray.slice_unit_congr _ (off14_odd k he) _ _
theorem slotA2_odd (k : Fin k0_t2_loop.trips) (he : k.val % 2 = 1) (hh hs) :
    xfM.slice (Rect.unit (s := S2x128x4096) (k0_off10 k) S1x128x4096.size hh) hs
      = xfM.slice (Rect.unit (s := S2x128x4096) ![1, 0, 0] S1x128x4096.size inb_S2x128x4096_S1x128x4096_1_0_0) (fun _ => rfl) :=
  Memref.slice_unit_congr _ (off10_odd k he) _ _ _ _
theorem slotB2_odd (k : Fin k0_t2_loop.trips) (he : k.val % 2 = 1) (hh hs) :
    xfM.slice (Rect.unit (s := S2x128x4096) (k0_off15 k) S1x128x4096.size hh) hs
      = xfM.slice (Rect.unit (s := S2x128x4096) ![1, 0, 0] S1x128x4096.size inb_S2x128x4096_S1x128x4096_1_0_0) (fun _ => rfl) :=
  Memref.slice_unit_congr _ (off15_odd k he) _ _ _ _

end Canon

/-- The slot a trip loads from, in closed form under the trip's parity. -/
instance closedOff4_even (k : Fin k0_t1_loop.trips) [h : Fact (k.val % 2 = 0)] : ClosedOff (k0_off4 k) := ⟨![0, 0, 0], off4_even k h.out⟩
instance closedOff4_odd (k : Fin k0_t1_loop.trips) [h : Fact (k.val % 2 = 1)] : ClosedOff (k0_off4 k) := ⟨![1, 0, 0], off4_odd k h.out⟩
instance closedOff12_even (k : Fin k0_t2_loop.trips) [h : Fact (k.val % 2 = 0)] : ClosedOff (k0_off12 k) := ⟨![0, 0, 0], off12_even k h.out⟩
instance closedOff12_odd (k : Fin k0_t2_loop.trips) [h : Fact (k.val % 2 = 1)] : ClosedOff (k0_off12 k) := ⟨![1, 0, 0], off12_odd k h.out⟩

/-! ## The two slots are apart -/

theorem slotRects_disjoint {h0 h1} :
    Disjoint (Rect.unit (s := S2x128x4096) ![0, 0, 0] S1x128x4096.size h0).set (Rect.unit (s := S2x128x4096) ![1, 0, 0] S1x128x4096.size h1).set := by
  rw [Finset.disjoint_left]
  intro i hi0 hi1
  rw [Rect.mem_set_unit] at hi0 hi1
  have a0 := hi0 0
  have a1 := hi1 0
  simp only [Matrix.cons_val_zero] at a0 a1
  change _ ∧ (i 0).val < 0 + 1 at a0
  change 1 ≤ (i 0).val ∧ _ at a1
  omega

theorem slot0_set : (slot0 : Memref sig .tc .vmem S128x4096 .f32).view.set
    = xfM.view.setOn (Rect.unit (s := S2x128x4096) ![0, 0, 0] S1x128x4096.size inb_S2x128x4096_S1x128x4096_0_0_0).set := by
  rw [Memref.set_view_squeeze]; exact View.set_slice _ _
theorem slot1_set : (slot1 : Memref sig .tc .vmem S128x4096 .f32).view.set
    = xfM.view.setOn (Rect.unit (s := S2x128x4096) ![1, 0, 0] S1x128x4096.size inb_S2x128x4096_S1x128x4096_1_0_0).set := by
  rw [Memref.set_view_squeeze]; exact View.set_slice _ _

theorem box1_even_disj (k : Fin k0_t1_loop.trips) (he : k.val % 2 = 0) :
    Disjoint (xfM.view.setOn (Rect.unit (s := S2x128x4096) (k0_off4 k) S1x128x4096.size (k0_off4_inb k)).set) (slot1 : Memref sig .tc .vmem S128x4096 .f32).view.set := by
  rw [slot1_set, Rect.unit_congr (off4_even k he) (k0_off4_inb k) inb_S2x128x4096_S1x128x4096_0_0_0]
  exact View.disjoint_setOn _ slotRects_disjoint
theorem box1_odd_disj (k : Fin k0_t1_loop.trips) (he : k.val % 2 = 1) :
    Disjoint (xfM.view.setOn (Rect.unit (s := S2x128x4096) (k0_off4 k) S1x128x4096.size (k0_off4_inb k)).set) (slot0 : Memref sig .tc .vmem S128x4096 .f32).view.set := by
  rw [slot0_set, Rect.unit_congr (off4_odd k he) (k0_off4_inb k) inb_S2x128x4096_S1x128x4096_1_0_0]
  exact View.disjoint_setOn _ slotRects_disjoint.symm

theorem box2_even_disj (k : Fin k0_t2_loop.trips) (he : k.val % 2 = 0) :
    Disjoint (xfM.view.setOn (Rect.unit (s := S2x128x4096) (k0_off12 k) S1x128x4096.size (k0_off12_inb k)).set) (slot1 : Memref sig .tc .vmem S128x4096 .f32).view.set := by
  rw [slot1_set, Rect.unit_congr (off12_even k he) (k0_off12_inb k) inb_S2x128x4096_S1x128x4096_0_0_0]
  exact View.disjoint_setOn _ slotRects_disjoint
theorem box2_odd_disj (k : Fin k0_t2_loop.trips) (he : k.val % 2 = 1) :
    Disjoint (xfM.view.setOn (Rect.unit (s := S2x128x4096) (k0_off12 k) S1x128x4096.size (k0_off12_inb k)).set) (slot0 : Memref sig .tc .vmem S128x4096 .f32).view.set := by
  rw [slot0_set, Rect.unit_congr (off12_odd k he) (k0_off12_inb k) inb_S2x128x4096_S1x128x4096_1_0_0]
  exact View.disjoint_setOn _ slotRects_disjoint.symm

/-! ## What a slot holds once a block of x has landed, and what the narrowing stores -/

section Pure
variable (m : (ℓ : Loc nD τ sig) → Buf (Elt F) ℓ) (c : Dev nD)

omit [FloatOps F] in
/-- Points-to assertions over the same elements at contents that agree there are the same assertion. -/
theorem pointsTo_congr {ℓ : Loc nD τ sig} {I : Finset (Idx ℓ)} {q : PosShare TreeShare} {f g : Buf (Elt F) ℓ}
    (h : ∀ i ∈ I, f i = g i) : (ℓ ↦[I]{q} f : sProp 𝕄) = (ℓ ↦[I]{q} g) :=
  BI.Region.is_congr h

/-- Rows 128 t … 128 t + 127 of the device's block of x, as a 128 × 4096 array. -/
def blk (t : ℕ) (h : t < 8) : S128x4096.Idx → Elt F .f32 :=
  (rowsM t h).view.read (Elt F) (m ((c : Thread nD τ).loc main_arg0))

omit [FloatOps F] in
/-- The two slots share no element. -/
theorem slot_sets_disjoint : Disjoint (slot0 : Memref sig .tc .vmem S128x4096 .f32).view.set (slot1 : Memref sig .tc .vmem S128x4096 .f32).view.set := by
  rw [slot0_set, slot1_set]; exact View.disjoint_setOn _ slotRects_disjoint

omit [FloatOps F] in
/-- Writing slot 0 whole leaves what slot 1 reads, and conversely. -/
theorem write0_on1 (G : Buf (Elt F) (xfM.view.loc (c : Thread nD τ))) (p : S128x4096.Idx → Elt F .f32) :
    ∀ i ∈ (slot1 : Memref sig .tc .vmem S128x4096 .f32).view.set, G i = View.write (Elt F) (slot0 : Memref sig .tc .vmem S128x4096 .f32).view G p Finset.univ i := by
  intro i hi
  have hn : i ∉ (slot0 : Memref sig .tc .vmem S128x4096 .f32).view.setOn Finset.univ := by
    rw [View.setOn_univ]; exact fun h0 => Finset.disjoint_left.mp slot_sets_disjoint h0 hi
  exact (View.write_of_not_mem (v := (slot0 : Memref sig .tc .vmem S128x4096 .f32).view) G p Finset.univ hn).symm
omit [FloatOps F] in
theorem write1_on0 (G : Buf (Elt F) (xfM.view.loc (c : Thread nD τ))) (p : S128x4096.Idx → Elt F .f32) :
    ∀ i ∈ (slot0 : Memref sig .tc .vmem S128x4096 .f32).view.set, G i = View.write (Elt F) (slot1 : Memref sig .tc .vmem S128x4096 .f32).view G p Finset.univ i := by
  intro i hi
  have hn : i ∉ (slot1 : Memref sig .tc .vmem S128x4096 .f32).view.setOn Finset.univ := by
    rw [View.setOn_univ]; exact fun h1 => Finset.disjoint_left.mp slot_sets_disjoint hi h1
  exact (View.write_of_not_mem (v := (slot1 : Memref sig .tc .vmem S128x4096 .f32).view) G p Finset.univ hn).symm

omit [FloatOps F] in
theorem read1_write0 (G : Buf (Elt F) (xfM.view.loc (c : Thread nD τ))) (p : S128x4096.Idx → Elt F .f32) :
    (slot1 : Memref sig .tc .vmem S128x4096 .f32).view.read (Elt F) (View.write (Elt F) (slot0 : Memref sig .tc .vmem S128x4096 .f32).view G p Finset.univ)
      = (slot1 : Memref sig .tc .vmem S128x4096 .f32).view.read (Elt F) G :=
  View.read_congr fun i hi => (write0_on1 c G p i hi).symm
omit [FloatOps F] in
theorem read0_write1 (G : Buf (Elt F) (xfM.view.loc (c : Thread nD τ))) (p : S128x4096.Idx → Elt F .f32) :
    (slot0 : Memref sig .tc .vmem S128x4096 .f32).view.read (Elt F) (View.write (Elt F) (slot1 : Memref sig .tc .vmem S128x4096 .f32).view G p Finset.univ)
      = (slot0 : Memref sig .tc .vmem S128x4096 .f32).view.read (Elt F) G :=
  View.read_congr fun i hi => (write1_on0 c G p i hi).symm

omit [FloatOps F] in
/-- The rows a copy reads, whatever spells their first row. -/
theorem blk_of_off {off : Fin 2 → ℕ} (t : ℕ) (h : t < 8) (e : off = ![128 * t, 0]) (p hs) :
    ReadAs.same.apply ((xM.slice (Rect.unit (s := S1024x4096) off S128x4096.size p) hs).view.read (Elt F) (m ((c : Thread nD τ).loc main_arg0)))
      = blk m c t h := by
  subst e; rfl

omit [FloatOps F] in
theorem rows_set_of_off {off : Fin 2 → ℕ} (t : ℕ) (h : t < 8) (e : off = ![128 * t, 0]) (p hs) :
    ((xM.slice (Rect.unit (s := S1024x4096) off S128x4096.size p) hs).view.set : Finset S1024x4096.Idx) = (rowsM t h).view.set := by
  subst e; rfl

end Pure

section Pure2
variable (m : (ℓ : Loc nD τ sig) → Buf (Elt F) ℓ) (c : Dev nD)

/-- The local buffer holds the narrowed rows of x from row `lo` to below row 128 t. -/
def RowsDone (lo t : ℕ) (f : Rows (F := F)) : Prop :=
  ∀ i : S1024x4096.Idx, lo ≤ (i 0).val → (i 0).val < 128 * t → f i = xb m c i

/-- Narrowing a loaded slot: entry by entry. -/
theorem pay1_apply (v : Vec F S1x128x4096 .f32) (j : S128x4096.Idx) :
    k0_pay1 v j = FloatOps.truncf .bf16 bitsLt_bf16_f32 (shapeCast S128x4096 v shapeCasts_S1x128x4096_S128x4096 j) := by
  unfold k0_pay1
  rw [shapeCast_self]
  rfl

theorem pay2_eq_pay1 (v : Vec F S1x128x4096 .f32) : k0_pay2 v = k0_pay1 v := rfl

omit [FloatOps F] in
/-- Row block t of x read at (r, col) is x at (128 t + r, col). -/
theorem blk_apply (t : ℕ) (h : t < 8) (i : S1024x4096.Idx) (h0 : 128 * t ≤ (i 0).val) (h1 : (i 0).val < 128 * t + 128) :
    blk m c t h (ix2 (⟨(i 0).val - 128 * t, by omega⟩ : Fin 128) (i 1 : Fin 4096)) = m ((c : Thread nD τ).loc main_arg0) i := by
  unfold blk
  rw [View.read_apply]
  have he : (rowsM t h).view.emb (ix2 (⟨(i 0).val - 128 * t, by omega⟩ : Fin 128) (i 1 : Fin 4096)) = i := by
    funext a; apply Fin.ext
    show ((xM.view.slice _).emb _ a).val = _
    rw [View.emb_slice, Function.Embedding.trans_apply]
    show ((Rect.unit (s := S1024x4096) ![128 * t, 0] S128x4096.size (rows_inb t h)).emb _ a).val = _
    rw [Rect.emb_apply]
    fin_cases a
    · show 128 * t + 1 * ((i 0).val - 128 * t) = (i 0).val; omega
    · show 0 + 1 * (i 1).val = (i 1).val; omega
  rw [he]; rfl

/-- Storing the narrowed block t over rows 128 t … extends the rows done by one block. -/
theorem rowsDone_store (lo t : ℕ) (h : t < 8) {off5 : Fin 2 → ℕ} (e5 : off5 = ![128 * t, 0]) (p5)
    (f0 : Rows (F := F)) (hf0 : RowsDone m c lo t f0) (v : Vec F S1x128x4096 .f32)
    (hv : shapeCast S128x4096 v shapeCasts_S1x128x4096_S128x4096 = blk m c t h) :
    RowsDone m c lo (t + 1) (((View.whole cc0_scratch0).slice (Rect.unit (s := S1024x4096) off5 S128x4096.size p5)).write (Elt F) f0 (k0_pay1 v) Finset.univ) := by
  subst e5
  intro i hlo hi
  rw [View.write_whole_slice_unit]
  unfold updateSlice
  split
  · next hin =>
    have h0 := hin 0
    have h0' : 128 * t ≤ (i 0).val ∧ (i 0).val < 128 * t + 128 := h0
    rw [pay1_apply, hv]
    have := blk_apply m c t h i h0'.1 h0'.2
    show FloatOps.truncf .bf16 bitsLt_bf16_f32 (blk m c t h _) = FloatOps.truncf .bf16 bitsLt_bf16_f32 (m ((c : Thread nD τ).loc main_arg0) i)
    rw [← this]
    refine congrArg _ (congrArg _ (funext fun b => Fin.ext ?_))
    fin_cases b
    · rfl
    · show (i 1).val - 0 = (i 1).val
      omega
  · next hout =>
    refine hf0 i hlo ?_
    by_contra hge
    refine hout fun a => ?_
    fin_cases a
    · show 128 * t ≤ (i 0).val ∧ (i 0).val < 128 * t + 128
      omega
    · show 0 ≤ (i 1).val ∧ (i 1).val < 0 + 4096
      have h4 : (i 1).val < 4096 := (i 1).isLt
      exact ⟨Nat.zero_le _, by omega⟩

/-- What a slot reads is the load of its rectangle through the whole staging buffer, the leading unit axis dropped. -/
theorem slot0_read (G : Buf (Elt F) (xfM.view.loc (c : Thread nD τ))) {off : Fin 3 → ℕ} (e : off = ![0, 0, 0]) (p) :
    shapeCast S128x4096 (View.readAt (Elt F) xfM.view (Rect.unit (s := S2x128x4096) off S1x128x4096.size p).toLoadRect G) shapeCasts_S1x128x4096_S128x4096
      = (slot0 : Memref sig .tc .vmem S128x4096 .f32).view.read (Elt F) G := by
  subst e; rfl
theorem slot1_read (G : Buf (Elt F) (xfM.view.loc (c : Thread nD τ))) {off : Fin 3 → ℕ} (e : off = ![1, 0, 0]) (p) :
    shapeCast S128x4096 (View.readAt (Elt F) xfM.view (Rect.unit (s := S2x128x4096) off S1x128x4096.size p).toLoadRect G) shapeCasts_S1x128x4096_S128x4096
      = (slot1 : Memref sig .tc .vmem S128x4096 .f32).view.read (Elt F) G := by
  subst e; rfl

end Pure2

/-! ## The invariant -/

theorem lt8a {hi t : ℕ} (hhi : hi ≤ 8) (h : t + 1 < hi) : t < 8 := by omega
theorem lt8b {hi t : ℕ} (hhi : hi ≤ 8) (h : t + 1 < hi) : t + 1 < 8 := by omega
theorem lt8c {hi t : ℕ} (hhi : hi ≤ 8) (h : t < hi) : t < 8 := by omega

section Inv
variable (m : (ℓ : Loc nD τ sig) → Buf (Elt F) ℓ) (c : Dev nD) (O : CellTallies nD τ sig Unit)

/-- The staging double buffer and the block of x before the conversion of block `t` of the range ending at `hi`,
    slot 0 taking block `t` and slot 1 block `t + 1`: the copies of the blocks `t`, `t + 1` below `hi` are under way, each lent
    its rows of x and its slot; the rest of both buffers is held; a slot's semaphore with no copy under way reads zero. -/
def xpieces0 (hi : ℕ) (hhi : hi ≤ 8) (t : ℕ) : sProp 𝕄 :=
  if h2 : t + 1 < hi then
    iprop(∃ G : Buf (Elt F) (xfM.view.loc (c : Thread nD τ)),
      Transfers.Flight countersEmb (c : Thread nD τ) (SemLoc.dma xS0) default 65536
          iprop((xfM.view.loc (c : Thread nD τ) ↦[(slot0 : Memref sig .tc .vmem S128x4096 .f32).view.set]{fullShare} G)
            ∗ (xM.view.loc (c : Thread nD τ) ↦[(rowsM t (lt8a hhi h2)).view.set]{fullShare} m ((c : Thread nD τ).loc main_arg0)))
      ∗ Transfers.Flight countersEmb (c : Thread nD τ) (SemLoc.dma xS1) default 65536
          iprop((xfM.view.loc (c : Thread nD τ) ↦[(slot1 : Memref sig .tc .vmem S128x4096 .f32).view.set]{fullShare} G)
            ∗ (xM.view.loc (c : Thread nD τ) ↦[(rowsM (t + 1) (lt8b hhi h2)).view.set]{fullShare} m ((c : Thread nD τ).loc main_arg0)))
      ∗ (xM.view.loc (c : Thread nD τ) ↦[(Finset.univ \ (rowsM t (lt8a hhi h2)).view.set) \ (rowsM (t + 1) (lt8b hhi h2)).view.set]{fullShare} m ((c : Thread nD τ).loc main_arg0))
      ∗ (xfM.view.loc (c : Thread nD τ) ↦[(Finset.univ \ (slot0 : Memref sig .tc .vmem S128x4096 .f32).view.set) \ (slot1 : Memref sig .tc .vmem S128x4096 .f32).view.set]{fullShare} G)
      ∗ ⌜(slot0 : Memref sig .tc .vmem S128x4096 .f32).view.read (Elt F) G = blk m c t (lt8a hhi h2) ∧ (slot1 : Memref sig .tc .vmem S128x4096 .f32).view.read (Elt F) G = blk m c (t + 1) (lt8b hhi h2)⌝)
  else if h1 : t < hi then
    iprop(∃ G : Buf (Elt F) (xfM.view.loc (c : Thread nD τ)),
      Transfers.Flight countersEmb (c : Thread nD τ) (SemLoc.dma xS0) default 65536
          iprop((xfM.view.loc (c : Thread nD τ) ↦[(slot0 : Memref sig .tc .vmem S128x4096 .f32).view.set]{fullShare} G)
            ∗ (xM.view.loc (c : Thread nD τ) ↦[(rowsM t (lt8c hhi h1)).view.set]{fullShare} m ((c : Thread nD τ).loc main_arg0)))
      ∗ semVal ((c : Thread nD τ), SemLoc.dma xS1) 0
      ∗ (xM.view.loc (c : Thread nD τ) ↦[Finset.univ \ (rowsM t (lt8c hhi h1)).view.set]{fullShare} m ((c : Thread nD τ).loc main_arg0))
      ∗ (xfM.view.loc (c : Thread nD τ) ↦[Finset.univ \ (slot0 : Memref sig .tc .vmem S128x4096 .f32).view.set]{fullShare} G)
      ∗ ⌜(slot0 : Memref sig .tc .vmem S128x4096 .f32).view.read (Elt F) G = blk m c t (lt8c hhi h1)⌝)
  else
    iprop(semVal ((c : Thread nD τ), SemLoc.dma xS0) 0 ∗ semVal ((c : Thread nD τ), SemLoc.dma xS1) 0
      ∗ (xM.view.loc (c : Thread nD τ) ↦{fullShare} m ((c : Thread nD τ).loc main_arg0))
      ∗ ∃ G : Buf (Elt F) (xfM.view.loc (c : Thread nD τ)), xfM.view.loc (c : Thread nD τ) ↦{fullShare} G)

/-- The staging double buffer and the block of x before the conversion of block `t` of the range ending at `hi`,
    slot 1 taking block `t` and slot 0 block `t + 1`: the copies of the blocks `t`, `t + 1` below `hi` are under way, each lent
    its rows of x and its slot; the rest of both buffers is held; a slot's semaphore with no copy under way reads zero. -/
def xpieces1 (hi : ℕ) (hhi : hi ≤ 8) (t : ℕ) : sProp 𝕄 :=
  if h2 : t + 1 < hi then
    iprop(∃ G : Buf (Elt F) (xfM.view.loc (c : Thread nD τ)),
      Transfers.Flight countersEmb (c : Thread nD τ) (SemLoc.dma xS1) default 65536
          iprop((xfM.view.loc (c : Thread nD τ) ↦[(slot1 : Memref sig .tc .vmem S128x4096 .f32).view.set]{fullShare} G)
            ∗ (xM.view.loc (c : Thread nD τ) ↦[(rowsM t (lt8a hhi h2)).view.set]{fullShare} m ((c : Thread nD τ).loc main_arg0)))
      ∗ Transfers.Flight countersEmb (c : Thread nD τ) (SemLoc.dma xS0) default 65536
          iprop((xfM.view.loc (c : Thread nD τ) ↦[(slot0 : Memref sig .tc .vmem S128x4096 .f32).view.set]{fullShare} G)
            ∗ (xM.view.loc (c : Thread nD τ) ↦[(rowsM (t + 1) (lt8b hhi h2)).view.set]{fullShare} m ((c : Thread nD τ).loc main_arg0)))
      ∗ (xM.view.loc (c : Thread nD τ) ↦[(Finset.univ \ (rowsM t (lt8a hhi h2)).view.set) \ (rowsM (t + 1) (lt8b hhi h2)).view.set]{fullShare} m ((c : Thread nD τ).loc main_arg0))
      ∗ (xfM.view.loc (c : Thread nD τ) ↦[(Finset.univ \ (slot1 : Memref sig .tc .vmem S128x4096 .f32).view.set) \ (slot0 : Memref sig .tc .vmem S128x4096 .f32).view.set]{fullShare} G)
      ∗ ⌜(slot1 : Memref sig .tc .vmem S128x4096 .f32).view.read (Elt F) G = blk m c t (lt8a hhi h2) ∧ (slot0 : Memref sig .tc .vmem S128x4096 .f32).view.read (Elt F) G = blk m c (t + 1) (lt8b hhi h2)⌝)
  else if h1 : t < hi then
    iprop(∃ G : Buf (Elt F) (xfM.view.loc (c : Thread nD τ)),
      Transfers.Flight countersEmb (c : Thread nD τ) (SemLoc.dma xS1) default 65536
          iprop((xfM.view.loc (c : Thread nD τ) ↦[(slot1 : Memref sig .tc .vmem S128x4096 .f32).view.set]{fullShare} G)
            ∗ (xM.view.loc (c : Thread nD τ) ↦[(rowsM t (lt8c hhi h1)).view.set]{fullShare} m ((c : Thread nD τ).loc main_arg0)))
      ∗ semVal ((c : Thread nD τ), SemLoc.dma xS0) 0
      ∗ (xM.view.loc (c : Thread nD τ) ↦[Finset.univ \ (rowsM t (lt8c hhi h1)).view.set]{fullShare} m ((c : Thread nD τ).loc main_arg0))
      ∗ (xfM.view.loc (c : Thread nD τ) ↦[Finset.univ \ (slot1 : Memref sig .tc .vmem S128x4096 .f32).view.set]{fullShare} G)
      ∗ ⌜(slot1 : Memref sig .tc .vmem S128x4096 .f32).view.read (Elt F) G = blk m c t (lt8c hhi h1)⌝)
  else
    iprop(semVal ((c : Thread nD τ), SemLoc.dma xS1) 0 ∗ semVal ((c : Thread nD τ), SemLoc.dma xS0) 0
      ∗ (xM.view.loc (c : Thread nD τ) ↦{fullShare} m ((c : Thread nD τ).loc main_arg0))
      ∗ ∃ G : Buf (Elt F) (xfM.view.loc (c : Thread nD τ)), xfM.view.loc (c : Thread nD τ) ↦{fullShare} G)

/-- Before the conversion of block `t` of blocks 0 … 3: the levels; what the device owes, its waits recorded; the local
    buffer whole, the narrowed rows of x below row 128 t in place; the staging buffer and x by the parity of `t`. -/
@[irreducible] def xinv1 (t : ℕ) : sProp 𝕄 :=
  iprop(□ levAts L lv ∗ (∃ W, owes (c : Thread nD τ) O W)
    ∗ (∃ f : Rows (F := F), ((ownM : Memref sig .tc .vmem S1024x4096 .bf16).view.loc (c : Thread nD τ) ↦{fullShare} f) ∗ ⌜RowsDone m c 0 t f⌝)
    ∗ (if t % 2 = 0 then xpieces0 m c 4 (by decide) t else xpieces1 m c 4 (by decide) t))

/-- Before the conversion of block `t` of blocks 4 … 7: the same, the device holding of its local buffer rows 512 … 1023 only. -/
@[irreducible] def xinv2 (t : ℕ) : sProp 𝕄 :=
  iprop(□ levAts L lv ∗ (∃ W, owes (c : Thread nD τ) O W)
    ∗ (∃ f : Rows (F := F), rowsOn ownH1 c fullShare f ∗ ⌜RowsDone m c 512 t f⌝)
    ∗ (if t % 2 = 0 then xpieces0 m c 8 (by decide) t else xpieces1 m c 8 (by decide) t))

end Inv

section Trips
variable (m : (ℓ : Loc nD τ sig) → Buf (Elt F) ℓ) (c : Dev nD) (O : CellTallies nD τ sig Unit)

attribute [local sl_canon] semA1_even semA1_odd semB1_even semB1_odd slotA1_even slotA1_odd slotB1_even slotB1_odd in
/-- One trip at an even block, a later block still to fetch: the block's copy is waited for, its slot narrowed into the
    local buffer's rows, and the slot refilled with the block two further on. -/
theorem trip1_even_refill (k : Fin k0_t1_loop.trips) (he : k.val % 2 = 0) (hlt : k.val < 2)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv1 m c O k.val ⊢ wp frame (wpE (defs₀ (F := F)) 𝒱₀ (c : Thread nD τ) none) Set.univ
      (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv1 m c O (k.val + 1)) := by
  have hk4 : k.val < 4 := by have h1 := k.isLt; have h2 := t1_trips; omega
  unfold xinv1
  rw [if_pos (show k.val % 2 = 0 by omega), if_neg (show ¬ (k.val + 1) % 2 = 0 by omega)]
  unfold xpieces0 xpieces1
  rw [dif_pos (show k.val + 1 < 4 by omega), dif_pos (show k.val + 1 + 1 < 4 by omega)]
  iintro ⟨#Hlev, ⟨%W, HO⟩, ⟨%f0, H0, %hf0⟩, ⟨%G, Hs0, Hs1, Hx, H5, %hl⟩⟩
  have hc := cond1_lt k hlt
  haveI : Fact (k.val % 2 = 0) := ⟨he⟩
  have hbox := box1_even_disj k he
  unfold k0_t1_body
  set_option sl_exec.dmaWindow true in
  set_option sl_exec.dmaWindowLent true in
  sl_exec
  sl_step
  rw [rows_set_of_off (k.val + 1 + 1) (by omega) ((k0_off8_eq k).trans (congrArg (fun a : ℕ => (![a, 0] : Fin 2 → ℕ)) (by omega))) (k0_off8_inb k hc) (fun _ => rfl)]
  rw [pointsTo_congr (F := F) (ℓ := xfM.view.loc (c : Thread nD τ)) (I := (slot1 : Memref sig .tc .vmem S128x4096 .f32).view.set) (q := fullShare) (f := G)
    (write0_on1 c G (trip1_even_refill.sl.dma3 m c k hc))]
  isplitr
  · iexact Hlev
  isplitl [HO]
  · iexists _; iexact HO
  isplitl [H0]
  · iexists _
    isplitl [H0]
    · iexact H0
    · ipureintro
      exact rowsDone_store m c 0 k.val (by omega) ((k0_off5_eq k).trans (congrArg (fun a : ℕ => (![a, 0] : Fin 2 → ℕ)) (by omega))) (k0_off5_inb k) f0 hf0 _
        ((slot0_read c G (off4_even k he) (k0_off4_inb k)).trans hl.1)
  iexists _
  isplitl [Hs1]
  · iexact Hs1
  isplitl [Hs0]
  · iexact Hs0
  isplitl [Hx]
  · iexact Hx
  isplitl [H5]
  · iexact H5
  ipureintro
  exact ⟨(read1_write0 c G _).trans hl.2, (View.read_write_univ _ _).trans (blk_of_off m c (k.val + 1 + 1) (by omega) ((k0_off8_eq k).trans (congrArg (fun a : ℕ => (![a, 0] : Fin 2 → ℕ)) (by omega))) (k0_off8_inb k hc) (fun _ => rfl))⟩

attribute [local sl_canon] semA1_even semA1_odd semB1_even semB1_odd slotA1_even slotA1_odd slotB1_even slotB1_odd in
/-- One trip at an odd block, a later block still to fetch: the block's copy is waited for, its slot narrowed into the
    local buffer's rows, and the slot refilled with the block two further on. -/
theorem trip1_odd_refill (k : Fin k0_t1_loop.trips) (he : k.val % 2 = 1) (hlt : k.val < 2)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv1 m c O k.val ⊢ wp frame (wpE (defs₀ (F := F)) 𝒱₀ (c : Thread nD τ) none) Set.univ
      (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv1 m c O (k.val + 1)) := by
  have hk4 : k.val < 4 := by have h1 := k.isLt; have h2 := t1_trips; omega
  unfold xinv1
  rw [if_neg (show ¬ k.val % 2 = 0 by omega), if_pos (show (k.val + 1) % 2 = 0 by omega)]
  unfold xpieces0 xpieces1
  rw [dif_pos (show k.val + 1 < 4 by omega), dif_pos (show k.val + 1 + 1 < 4 by omega)]
  iintro ⟨#Hlev, ⟨%W, HO⟩, ⟨%f0, H0, %hf0⟩, ⟨%G, Hs1, Hs0, Hx, H5, %hl⟩⟩
  have hc := cond1_lt k hlt
  haveI : Fact (k.val % 2 = 1) := ⟨he⟩
  have hbox := box1_odd_disj k he
  unfold k0_t1_body
  set_option sl_exec.dmaWindow true in
  set_option sl_exec.dmaWindowLent true in
  sl_exec
  sl_step
  rw [rows_set_of_off (k.val + 1 + 1) (by omega) ((k0_off8_eq k).trans (congrArg (fun a : ℕ => (![a, 0] : Fin 2 → ℕ)) (by omega))) (k0_off8_inb k hc) (fun _ => rfl)]
  rw [pointsTo_congr (F := F) (ℓ := xfM.view.loc (c : Thread nD τ)) (I := (slot0 : Memref sig .tc .vmem S128x4096 .f32).view.set) (q := fullShare) (f := G)
    (write1_on0 c G (trip1_odd_refill.sl.dma3 m c k hc))]
  isplitr
  · iexact Hlev
  isplitl [HO]
  · iexists _; iexact HO
  isplitl [H0]
  · iexists _
    isplitl [H0]
    · iexact H0
    · ipureintro
      exact rowsDone_store m c 0 k.val (by omega) ((k0_off5_eq k).trans (congrArg (fun a : ℕ => (![a, 0] : Fin 2 → ℕ)) (by omega))) (k0_off5_inb k) f0 hf0 _
        ((slot1_read c G (off4_odd k he) (k0_off4_inb k)).trans hl.1)
  iexists _
  isplitl [Hs0]
  · iexact Hs0
  isplitl [Hs1]
  · iexact Hs1
  isplitl [Hx]
  · iexact Hx
  isplitl [H5]
  · iexact H5
  ipureintro
  exact ⟨(read0_write1 c G _).trans hl.2, (View.read_write_univ _ _).trans (blk_of_off m c (k.val + 1 + 1) (by omega) ((k0_off8_eq k).trans (congrArg (fun a : ℕ => (![a, 0] : Fin 2 → ℕ)) (by omega))) (k0_off8_inb k hc) (fun _ => rfl))⟩

attribute [local sl_canon] semA1_even semA1_odd semB1_even semB1_odd slotA1_even slotA1_odd slotB1_even slotB1_odd in
/-- One trip at an even block, nothing left to fetch: the block's copy is waited for, its slot narrowed into the
    local buffer's rows. -/
theorem trip1_even_tail (k : Fin k0_t1_loop.trips) (he : k.val % 2 = 0) (hge : 2 ≤ k.val)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv1 m c O k.val ⊢ wp frame (wpE (defs₀ (F := F)) 𝒱₀ (c : Thread nD τ) none) Set.univ
      (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv1 m c O (k.val + 1)) := by
  have hk4 : k.val < 4 := by have h1 := k.isLt; have h2 := t1_trips; omega
  unfold xinv1
  rw [if_pos (show k.val % 2 = 0 by omega), if_neg (show ¬ (k.val + 1) % 2 = 0 by omega)]
  unfold xpieces0 xpieces1
  rw [dif_pos (show k.val + 1 < 4 by omega), dif_neg (show ¬ k.val + 1 + 1 < 4 by omega), dif_pos (show k.val + 1 < 4 by omega)]
  iintro ⟨#Hlev, ⟨%W, HO⟩, ⟨%f0, H0, %hf0⟩, ⟨%G, Hs0, Hs1, Hx, H5, %hl⟩⟩
  have hc := cond1_ge k hge
  haveI : Fact (k.val % 2 = 0) := ⟨he⟩
  have hbox := box1_even_disj k he
  unfold k0_t1_body
  set_option sl_exec.dmaWindow true in
  set_option sl_exec.dmaWindowLent true in
  sl_exec
  sl_step
  isplitr
  · iexact Hlev
  isplitl [HO]
  · iexists _; iexact HO
  isplitl [H0]
  · iexists _
    isplitl [H0]
    · iexact H0
    · ipureintro
      exact rowsDone_store m c 0 k.val (by omega) ((k0_off5_eq k).trans (congrArg (fun a : ℕ => (![a, 0] : Fin 2 → ℕ)) (by omega))) (k0_off5_inb k) f0 hf0 _
        ((slot0_read c G (off4_even k he) (k0_off4_inb k)).trans hl.1)
  iexists _
  isplitl [Hs1]
  · iexact Hs1
  isplitl [Hs0]
  · iexact Hs0
  isplitl [Hx]
  · iexact Hx
  isplitl [H5]
  · iexact H5
  ipureintro
  exact hl.2

attribute [local sl_canon] semA1_even semA1_odd semB1_even semB1_odd slotA1_even slotA1_odd slotB1_even slotB1_odd in
/-- One trip at an odd block, nothing left to fetch: the block's copy is waited for, its slot narrowed into the
    local buffer's rows. -/
theorem trip1_odd_tail (k : Fin k0_t1_loop.trips) (he : k.val % 2 = 1) (hge : 2 ≤ k.val)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv1 m c O k.val ⊢ wp frame (wpE (defs₀ (F := F)) 𝒱₀ (c : Thread nD τ) none) Set.univ
      (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv1 m c O (k.val + 1)) := by
  have hk4 : k.val < 4 := by have h1 := k.isLt; have h2 := t1_trips; omega
  unfold xinv1
  rw [if_neg (show ¬ k.val % 2 = 0 by omega), if_pos (show (k.val + 1) % 2 = 0 by omega)]
  unfold xpieces0 xpieces1
  rw [dif_neg (show ¬ k.val + 1 < 4 by omega), dif_pos (show k.val < 4 by omega), dif_neg (show ¬ k.val + 1 + 1 < 4 by omega), dif_neg (show ¬ k.val + 1 < 4 by omega)]
  iintro ⟨#Hlev, ⟨%W, HO⟩, ⟨%f0, H0, %hf0⟩, ⟨%G, Hs1, Hs0, Hx, H5, %hl⟩⟩
  have hc := cond1_ge k hge
  haveI : Fact (k.val % 2 = 1) := ⟨he⟩
  have hbox := box1_odd_disj k he
  unfold k0_t1_body
  set_option sl_exec.dmaWindow true in
  set_option sl_exec.dmaWindowLent true in
  sl_exec
  sl_step
  isplitr
  · iexact Hlev
  isplitl [HO]
  · iexists _; iexact HO
  isplitl [H0]
  · iexists _
    isplitl [H0]
    · iexact H0
    · ipureintro
      exact rowsDone_store m c 0 k.val (by omega) ((k0_off5_eq k).trans (congrArg (fun a : ℕ => (![a, 0] : Fin 2 → ℕ)) (by omega))) (k0_off5_inb k) f0 hf0 _
        ((slot1_read c G (off4_odd k he) (k0_off4_inb k)).trans hl)
  isplitl [Hs0]
  · iexact Hs0
  isplitl [Hs1]
  · iexact Hs1
  isplitl [Hx]
  · iexact Hx
  iexists _
  iexact H5

attribute [local sl_canon] semA2_even semA2_odd semB2_even semB2_odd slotA2_even slotA2_odd slotB2_even slotB2_odd in
/-- One trip at an even block, a later block still to fetch: the block's copy is waited for, its slot narrowed into the
    local buffer's rows, and the slot refilled with the block two further on. -/
theorem trip2_even_refill (k : Fin k0_t2_loop.trips) (he : k.val % 2 = 0) (hlt : k.val < 2)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv2 m c O (4 + k.val) ⊢ wp frame (wpE (defs₀ (F := F)) 𝒱₀ (c : Thread nD τ) none) Set.univ
      (k0_t2_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv2 m c O ((4 + k.val) + 1)) := by
  have hk4 : k.val < 4 := by have h1 := k.isLt; have h2 := t2_trips; omega
  unfold xinv2
  rw [if_pos (show (4 + k.val) % 2 = 0 by omega), if_neg (show ¬ ((4 + k.val) + 1) % 2 = 0 by omega)]
  unfold xpieces0 xpieces1
  rw [dif_pos (show (4 + k.val) + 1 < 8 by omega), dif_pos (show (4 + k.val) + 1 + 1 < 8 by omega)]
  iintro ⟨#Hlev, ⟨%W, HO⟩, ⟨%f0, H0, %hf0⟩, ⟨%G, Hs0, Hs1, Hx, H5, %hl⟩⟩
  have hc := cond2_lt k hlt
  haveI : Fact (k.val % 2 = 0) := ⟨he⟩
  have hbox := box2_even_disj k he
  unfold k0_t2_body
  set_option sl_exec.dmaWindow true in
  set_option sl_exec.dmaWindowLent true in
  sl_exec
  sl_step
  rw [rows_set_of_off ((4 + k.val) + 1 + 1) (by omega) ((k0_off16_eq k).trans (congrArg (fun a : ℕ => (![a, 0] : Fin 2 → ℕ)) (by omega))) (k0_off16_inb k hc) (fun _ => rfl)]
  rw [pointsTo_congr (F := F) (ℓ := xfM.view.loc (c : Thread nD τ)) (I := (slot1 : Memref sig .tc .vmem S128x4096 .f32).view.set) (q := fullShare) (f := G)
    (write0_on1 c G (trip2_even_refill.sl.dma3 m c k hc))]
  isplitr
  · iexact Hlev
  isplitl [HO]
  · iexists _; iexact HO
  isplitl [H0]
  · iexists _
    isplitl [H0]
    · iexact H0
    · ipureintro
      exact rowsDone_store m c 512 (4 + k.val) (by omega) ((k0_off13_eq k).trans (congrArg (fun a : ℕ => (![a, 0] : Fin 2 → ℕ)) (by omega))) (k0_off13_inb k) f0 hf0 _
        ((slot0_read c G (off12_even k he) (k0_off12_inb k)).trans hl.1)
  iexists _
  isplitl [Hs1]
  · iexact Hs1
  isplitl [Hs0]
  · iexact Hs0
  isplitl [Hx]
  · iexact Hx
  isplitl [H5]
  · iexact H5
  ipureintro
  exact ⟨(read1_write0 c G _).trans hl.2, (View.read_write_univ _ _).trans (blk_of_off m c ((4 + k.val) + 1 + 1) (by omega) ((k0_off16_eq k).trans (congrArg (fun a : ℕ => (![a, 0] : Fin 2 → ℕ)) (by omega))) (k0_off16_inb k hc) (fun _ => rfl))⟩

attribute [local sl_canon] semA2_even semA2_odd semB2_even semB2_odd slotA2_even slotA2_odd slotB2_even slotB2_odd in
/-- One trip at an odd block, a later block still to fetch: the block's copy is waited for, its slot narrowed into the
    local buffer's rows, and the slot refilled with the block two further on. -/
theorem trip2_odd_refill (k : Fin k0_t2_loop.trips) (he : k.val % 2 = 1) (hlt : k.val < 2)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv2 m c O (4 + k.val) ⊢ wp frame (wpE (defs₀ (F := F)) 𝒱₀ (c : Thread nD τ) none) Set.univ
      (k0_t2_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv2 m c O ((4 + k.val) + 1)) := by
  have hk4 : k.val < 4 := by have h1 := k.isLt; have h2 := t2_trips; omega
  unfold xinv2
  rw [if_neg (show ¬ (4 + k.val) % 2 = 0 by omega), if_pos (show ((4 + k.val) + 1) % 2 = 0 by omega)]
  unfold xpieces0 xpieces1
  rw [dif_pos (show (4 + k.val) + 1 < 8 by omega), dif_pos (show (4 + k.val) + 1 + 1 < 8 by omega)]
  iintro ⟨#Hlev, ⟨%W, HO⟩, ⟨%f0, H0, %hf0⟩, ⟨%G, Hs1, Hs0, Hx, H5, %hl⟩⟩
  have hc := cond2_lt k hlt
  haveI : Fact (k.val % 2 = 1) := ⟨he⟩
  have hbox := box2_odd_disj k he
  unfold k0_t2_body
  set_option sl_exec.dmaWindow true in
  set_option sl_exec.dmaWindowLent true in
  sl_exec
  sl_step
  rw [rows_set_of_off ((4 + k.val) + 1 + 1) (by omega) ((k0_off16_eq k).trans (congrArg (fun a : ℕ => (![a, 0] : Fin 2 → ℕ)) (by omega))) (k0_off16_inb k hc) (fun _ => rfl)]
  rw [pointsTo_congr (F := F) (ℓ := xfM.view.loc (c : Thread nD τ)) (I := (slot0 : Memref sig .tc .vmem S128x4096 .f32).view.set) (q := fullShare) (f := G)
    (write1_on0 c G (trip2_odd_refill.sl.dma3 m c k hc))]
  isplitr
  · iexact Hlev
  isplitl [HO]
  · iexists _; iexact HO
  isplitl [H0]
  · iexists _
    isplitl [H0]
    · iexact H0
    · ipureintro
      exact rowsDone_store m c 512 (4 + k.val) (by omega) ((k0_off13_eq k).trans (congrArg (fun a : ℕ => (![a, 0] : Fin 2 → ℕ)) (by omega))) (k0_off13_inb k) f0 hf0 _
        ((slot1_read c G (off12_odd k he) (k0_off12_inb k)).trans hl.1)
  iexists _
  isplitl [Hs0]
  · iexact Hs0
  isplitl [Hs1]
  · iexact Hs1
  isplitl [Hx]
  · iexact Hx
  isplitl [H5]
  · iexact H5
  ipureintro
  exact ⟨(read0_write1 c G _).trans hl.2, (View.read_write_univ _ _).trans (blk_of_off m c ((4 + k.val) + 1 + 1) (by omega) ((k0_off16_eq k).trans (congrArg (fun a : ℕ => (![a, 0] : Fin 2 → ℕ)) (by omega))) (k0_off16_inb k hc) (fun _ => rfl))⟩

attribute [local sl_canon] semA2_even semA2_odd semB2_even semB2_odd slotA2_even slotA2_odd slotB2_even slotB2_odd in
/-- One trip at an even block, nothing left to fetch: the block's copy is waited for, its slot narrowed into the
    local buffer's rows. -/
theorem trip2_even_tail (k : Fin k0_t2_loop.trips) (he : k.val % 2 = 0) (hge : 2 ≤ k.val)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv2 m c O (4 + k.val) ⊢ wp frame (wpE (defs₀ (F := F)) 𝒱₀ (c : Thread nD τ) none) Set.univ
      (k0_t2_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv2 m c O ((4 + k.val) + 1)) := by
  have hk4 : k.val < 4 := by have h1 := k.isLt; have h2 := t2_trips; omega
  unfold xinv2
  rw [if_pos (show (4 + k.val) % 2 = 0 by omega), if_neg (show ¬ ((4 + k.val) + 1) % 2 = 0 by omega)]
  unfold xpieces0 xpieces1
  rw [dif_pos (show (4 + k.val) + 1 < 8 by omega), dif_neg (show ¬ (4 + k.val) + 1 + 1 < 8 by omega), dif_pos (show (4 + k.val) + 1 < 8 by omega)]
  iintro ⟨#Hlev, ⟨%W, HO⟩, ⟨%f0, H0, %hf0⟩, ⟨%G, Hs0, Hs1, Hx, H5, %hl⟩⟩
  have hc := cond2_ge k hge
  haveI : Fact (k.val % 2 = 0) := ⟨he⟩
  have hbox := box2_even_disj k he
  unfold k0_t2_body
  set_option sl_exec.dmaWindow true in
  set_option sl_exec.dmaWindowLent true in
  sl_exec
  sl_step
  isplitr
  · iexact Hlev
  isplitl [HO]
  · iexists _; iexact HO
  isplitl [H0]
  · iexists _
    isplitl [H0]
    · iexact H0
    · ipureintro
      exact rowsDone_store m c 512 (4 + k.val) (by omega) ((k0_off13_eq k).trans (congrArg (fun a : ℕ => (![a, 0] : Fin 2 → ℕ)) (by omega))) (k0_off13_inb k) f0 hf0 _
        ((slot0_read c G (off12_even k he) (k0_off12_inb k)).trans hl.1)
  iexists _
  isplitl [Hs1]
  · iexact Hs1
  isplitl [Hs0]
  · iexact Hs0
  isplitl [Hx]
  · iexact Hx
  isplitl [H5]
  · iexact H5
  ipureintro
  exact hl.2

attribute [local sl_canon] semA2_even semA2_odd semB2_even semB2_odd slotA2_even slotA2_odd slotB2_even slotB2_odd in
/-- One trip at an odd block, nothing left to fetch: the block's copy is waited for, its slot narrowed into the
    local buffer's rows. -/
theorem trip2_odd_tail (k : Fin k0_t2_loop.trips) (he : k.val % 2 = 1) (hge : 2 ≤ k.val)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (d0 : Dev nD) (v13 v24 : BitVec 32) :
    xinv2 m c O (4 + k.val) ⊢ wp frame (wpE (defs₀ (F := F)) 𝒱₀ (c : Thread nD τ) none) Set.univ
      (k0_t2_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 k ()) (fun _ => xinv2 m c O ((4 + k.val) + 1)) := by
  have hk4 : k.val < 4 := by have h1 := k.isLt; have h2 := t2_trips; omega
  unfold xinv2
  rw [if_neg (show ¬ (4 + k.val) % 2 = 0 by omega), if_pos (show ((4 + k.val) + 1) % 2 = 0 by omega)]
  unfold xpieces0 xpieces1
  rw [dif_neg (show ¬ (4 + k.val) + 1 < 8 by omega), dif_pos (show (4 + k.val) < 8 by omega), dif_neg (show ¬ (4 + k.val) + 1 + 1 < 8 by omega), dif_neg (show ¬ (4 + k.val) + 1 < 8 by omega)]
  iintro ⟨#Hlev, ⟨%W, HO⟩, ⟨%f0, H0, %hf0⟩, ⟨%G, Hs1, Hs0, Hx, H5, %hl⟩⟩
  have hc := cond2_ge k hge
  haveI : Fact (k.val % 2 = 1) := ⟨he⟩
  have hbox := box2_odd_disj k he
  unfold k0_t2_body
  set_option sl_exec.dmaWindow true in
  set_option sl_exec.dmaWindowLent true in
  sl_exec
  sl_step
  isplitr
  · iexact Hlev
  isplitl [HO]
  · iexists _; iexact HO
  isplitl [H0]
  · iexists _
    isplitl [H0]
    · iexact H0
    · ipureintro
      exact rowsDone_store m c 512 (4 + k.val) (by omega) ((k0_off13_eq k).trans (congrArg (fun a : ℕ => (![a, 0] : Fin 2 → ℕ)) (by omega))) (k0_off13_inb k) f0 hf0 _
        ((slot1_read c G (off12_odd k he) (k0_off12_inb k)).trans hl)
  isplitl [Hs0]
  · iexact Hs0
  isplitl [Hs1]
  · iexact Hs1
  isplitl [Hx]
  · iexact Hx
  iexists _
  iexact H5

end Trips

section Ends
variable (m : (ℓ : Loc nD τ sig) → Buf (Elt F) ℓ) (c : Dev nD) (O : CellTallies nD τ sig Unit)

omit [FloatOps F] in
/-- The elements of the upper half of the local buffer lie in rows 0 … 511, those of the lower half in rows 512 … 1023. -/
theorem mem_ownH0 (i : S1024x4096.Idx) (hi : i ∈ (ownH0 : Memref sig .tc .vmem S512x4096 .bf16).view.set) : (i 0).val < 512 := by
  have h : i ∈ (rH0 : Rect S1024x4096).set := by
    have := hi
    rw [show (ownH0 : Memref sig .tc .vmem S512x4096 .bf16).view.set = ((View.whole cc0_scratch0).slice rH0).set from rfl, View.set_slice] at this
    obtain ⟨j, hj, rfl⟩ := Finset.mem_map.mp this
    exact hj
  have := (Rect.mem_set_unit.mp h) 0
  have h2 : (i 0).val < 0 + 512 := this.2
  omega
omit [FloatOps F] in
theorem mem_ownH1 (i : S1024x4096.Idx) (hi : i ∈ (ownH1 : Memref sig .tc .vmem S512x4096 .bf16).view.set) : 512 ≤ (i 0).val := by
  have h : i ∈ (rH1 : Rect S1024x4096).set := by
    have := hi
    rw [show (ownH1 : Memref sig .tc .vmem S512x4096 .bf16).view.set = ((View.whole cc0_scratch0).slice rH1).set from rfl, View.set_slice] at this
    obtain ⟨j, hj, rfl⟩ := Finset.mem_map.mp this
    exact hj
  have := (Rect.mem_set_unit.mp h) 0
  exact this.1

/-- What the two copies started before the first loop leave is the invariant at its first trip. -/
theorem inv_entry1 (W : Waits sig Unit) (f0 : Rows (F := F)) (f5 : Buf (Elt F) (xfM.view.loc (c : Thread nD τ)))
    (p0 p1 : S128x4096.Idx → Elt F .f32) (hp0 : p0 = blk m c 0 (by decide)) (hp1 : p1 = blk m c 1 (by decide)) :
    iprop(□ levAts L lv ∗ owes (c : Thread nD τ) O W ∗ ((ownM : Memref sig .tc .vmem S1024x4096 .bf16).view.loc (c : Thread nD τ) ↦{fullShare} f0)
      ∗ Transfers.Flight countersEmb (c : Thread nD τ) (SemLoc.dma xS0) default 65536
          iprop((xfM.view.loc (c : Thread nD τ) ↦[(slot0 : Memref sig .tc .vmem S128x4096 .f32).view.set]{fullShare} (View.write (Elt F) (slot0 : Memref sig .tc .vmem S128x4096 .f32).view f5 p0 Finset.univ))
            ∗ (xM.view.loc (c : Thread nD τ) ↦[(xM.slice (Rect.unit (s := S1024x4096) ![0, 0] S128x4096.size inb_S1024x4096_S128x4096_0_0) (fun _ => rfl)).view.set]{fullShare} m ((c : Thread nD τ).loc main_arg0)))
      ∗ Transfers.Flight countersEmb (c : Thread nD τ) (SemLoc.dma xS1) default 65536
          iprop((xfM.view.loc (c : Thread nD τ) ↦[(slot1 : Memref sig .tc .vmem S128x4096 .f32).view.set]{fullShare} (View.write (Elt F) (slot1 : Memref sig .tc .vmem S128x4096 .f32).view (View.write (Elt F) (slot0 : Memref sig .tc .vmem S128x4096 .f32).view f5 p0 Finset.univ) p1 Finset.univ))
            ∗ (xM.view.loc (c : Thread nD τ) ↦[(xM.slice (Rect.unit (s := S1024x4096) ![128, 0] S128x4096.size inb_S1024x4096_S128x4096_128_0) (fun _ => rfl)).view.set]{fullShare} m ((c : Thread nD τ).loc main_arg0)))
      ∗ (xM.view.loc (c : Thread nD τ) ↦[(Finset.univ \ (xM.slice (Rect.unit (s := S1024x4096) ![0, 0] S128x4096.size inb_S1024x4096_S128x4096_0_0) (fun _ => rfl)).view.set) \ (xM.slice (Rect.unit (s := S1024x4096) ![128, 0] S128x4096.size inb_S1024x4096_S128x4096_128_0) (fun _ => rfl)).view.set]{fullShare} m ((c : Thread nD τ).loc main_arg0))
      ∗ (xfM.view.loc (c : Thread nD τ) ↦[(Finset.univ \ (slot0 : Memref sig .tc .vmem S128x4096 .f32).view.set) \ (slot1 : Memref sig .tc .vmem S128x4096 .f32).view.set]{fullShare} (View.write (Elt F) (slot1 : Memref sig .tc .vmem S128x4096 .f32).view (View.write (Elt F) (slot0 : Memref sig .tc .vmem S128x4096 .f32).view f5 p0 Finset.univ) p1 Finset.univ)))
      ⊢ xinv1 m c O 0 := by
  unfold xinv1
  rw [if_pos (show 0 % 2 = 0 by decide)]
  unfold xpieces0
  rw [dif_pos (show 0 + 1 < 4 by decide)]
  iintro ⟨#Hlev, HO, H0, Hs0, Hs1, Hx, H5⟩
  rw [pointsTo_congr (F := F) (ℓ := xfM.view.loc (c : Thread nD τ)) (I := (slot0 : Memref sig .tc .vmem S128x4096 .f32).view.set) (q := fullShare) (f := (View.write (Elt F) (slot0 : Memref sig .tc .vmem S128x4096 .f32).view f5 p0 Finset.univ))
    (write1_on0 c (View.write (Elt F) (slot0 : Memref sig .tc .vmem S128x4096 .f32).view f5 p0 Finset.univ) p1)]
  isplitr
  · iexact Hlev
  isplitl [HO]
  · iexists _; iexact HO
  isplitl [H0]
  · iexists _
    isplitl [H0]
    · iexact H0
    · ipureintro
      intro i _ hi; omega
  iexists _
  isplitl [Hs0]
  · iexact Hs0
  isplitl [Hs1]
  · iexact Hs1
  isplitl [Hx]
  · iexact Hx
  isplitl [H5]
  · iexact H5
  ipureintro
  exact ⟨(read0_write1 c _ _).trans ((View.read_write_univ _ _).trans hp0), (View.read_write_univ _ _).trans hp1⟩

/-- What the two copies started before the second loop leave is the invariant at its first trip. -/
theorem inv_entry2 (W : Waits sig Unit) (f0 : Rows (F := F)) (hf0 : RowsDone m c 512 4 f0) (f5 : Buf (Elt F) (xfM.view.loc (c : Thread nD τ)))
    (p0 p1 : S128x4096.Idx → Elt F .f32) (hp0 : p0 = blk m c 4 (by decide)) (hp1 : p1 = blk m c 5 (by decide)) :
    iprop(□ levAts L lv ∗ owes (c : Thread nD τ) O W ∗ rowsOn ownH1 c fullShare f0
      ∗ Transfers.Flight countersEmb (c : Thread nD τ) (SemLoc.dma xS0) default 65536
          iprop((xfM.view.loc (c : Thread nD τ) ↦[(slot0 : Memref sig .tc .vmem S128x4096 .f32).view.set]{fullShare} (View.write (Elt F) (slot0 : Memref sig .tc .vmem S128x4096 .f32).view f5 p0 Finset.univ))
            ∗ (xM.view.loc (c : Thread nD τ) ↦[(xM.slice (Rect.unit (s := S1024x4096) ![512, 0] S128x4096.size inb_S1024x4096_S128x4096_512_0) (fun _ => rfl)).view.set]{fullShare} m ((c : Thread nD τ).loc main_arg0)))
      ∗ Transfers.Flight countersEmb (c : Thread nD τ) (SemLoc.dma xS1) default 65536
          iprop((xfM.view.loc (c : Thread nD τ) ↦[(slot1 : Memref sig .tc .vmem S128x4096 .f32).view.set]{fullShare} (View.write (Elt F) (slot1 : Memref sig .tc .vmem S128x4096 .f32).view (View.write (Elt F) (slot0 : Memref sig .tc .vmem S128x4096 .f32).view f5 p0 Finset.univ) p1 Finset.univ))
            ∗ (xM.view.loc (c : Thread nD τ) ↦[(xM.slice (Rect.unit (s := S1024x4096) ![640, 0] S128x4096.size inb_S1024x4096_S128x4096_640_0) (fun _ => rfl)).view.set]{fullShare} m ((c : Thread nD τ).loc main_arg0)))
      ∗ (xM.view.loc (c : Thread nD τ) ↦[(Finset.univ \ (xM.slice (Rect.unit (s := S1024x4096) ![512, 0] S128x4096.size inb_S1024x4096_S128x4096_512_0) (fun _ => rfl)).view.set) \ (xM.slice (Rect.unit (s := S1024x4096) ![640, 0] S128x4096.size inb_S1024x4096_S128x4096_640_0) (fun _ => rfl)).view.set]{fullShare} m ((c : Thread nD τ).loc main_arg0))
      ∗ (xfM.view.loc (c : Thread nD τ) ↦[(Finset.univ \ (slot0 : Memref sig .tc .vmem S128x4096 .f32).view.set) \ (slot1 : Memref sig .tc .vmem S128x4096 .f32).view.set]{fullShare} (View.write (Elt F) (slot1 : Memref sig .tc .vmem S128x4096 .f32).view (View.write (Elt F) (slot0 : Memref sig .tc .vmem S128x4096 .f32).view f5 p0 Finset.univ) p1 Finset.univ)))
      ⊢ xinv2 m c O (4 + 0) := by
  unfold xinv2
  rw [if_pos (show (4 + 0) % 2 = 0 by decide)]
  unfold xpieces0
  rw [dif_pos (show (4 + 0) + 1 < 8 by decide)]
  iintro ⟨#Hlev, HO, H0, Hs0, Hs1, Hx, H5⟩
  rw [pointsTo_congr (F := F) (ℓ := xfM.view.loc (c : Thread nD τ)) (I := (slot0 : Memref sig .tc .vmem S128x4096 .f32).view.set) (q := fullShare) (f := (View.write (Elt F) (slot0 : Memref sig .tc .vmem S128x4096 .f32).view f5 p0 Finset.univ))
    (write1_on0 c (View.write (Elt F) (slot0 : Memref sig .tc .vmem S128x4096 .f32).view f5 p0 Finset.univ) p1)]
  isplitr
  · iexact Hlev
  isplitl [HO]
  · iexists _; iexact HO
  isplitl [H0]
  · iexists _
    isplitl [H0]
    · iexact H0
    · ipureintro
      exact hf0
  iexists _
  isplitl [Hs0]
  · iexact Hs0
  isplitl [Hs1]
  · iexact Hs1
  isplitl [Hx]
  · iexact Hx
  isplitl [H5]
  · iexact H5
  ipureintro
  exact ⟨(read0_write1 c _ _).trans ((View.read_write_univ _ _).trans hp0), (View.read_write_univ _ _).trans hp1⟩

/-- After the last trip of the first loop: no copy under way, both semaphores at zero, x and the staging buffer whole again, and
    rows 0 … 511 of the local buffer hold the narrowed rows of x. -/
def xpost1 : sProp 𝕄 :=
  iprop((∃ W, owes (c : Thread nD τ) O W)
    ∗ (∃ f : Rows (F := F), ((ownM : Memref sig .tc .vmem S1024x4096 .bf16).view.loc (c : Thread nD τ) ↦{fullShare} f) ∗ ⌜∀ i ∈ (ownH0 : Memref sig .tc .vmem S512x4096 .bf16).view.set, f i = xb m c i⌝)
    ∗ semVal ((c : Thread nD τ), SemLoc.dma xS0) 0 ∗ semVal ((c : Thread nD τ), SemLoc.dma xS1) 0
    ∗ (xM.view.loc (c : Thread nD τ) ↦{fullShare} m ((c : Thread nD τ).loc main_arg0))
    ∗ ∃ G : Buf (Elt F) (xfM.view.loc (c : Thread nD τ)), xfM.view.loc (c : Thread nD τ) ↦{fullShare} G)

theorem inv_exit1 : xinv1 m c O 4 ⊢ xpost1 m c O := by
  unfold xinv1 xpost1
  rw [if_pos (show 4 % 2 = 0 by decide)]
  unfold xpieces0
  rw [dif_neg (show ¬ 4 + 1 < 4 by decide), dif_neg (show ¬ 4 < 4 by decide)]
  iintro ⟨-, ⟨%W, HO⟩, ⟨%f, H0, %hf⟩, Hs0, Hs1, Hx, H5⟩
  isplitl [HO]
  · iexists _; iexact HO
  isplitl [H0]
  · iexists _
    isplitl [H0]
    · iexact H0
    · ipureintro
      intro i hi
      have hr := mem_ownH0 i hi
      exact hf i (by omega) (by omega)
  isplitl [Hs0]
  · iexact Hs0
  isplitl [Hs1]
  · iexact Hs1
  isplitl [Hx]
  · iexact Hx
  iexact H5

/-- After the last trip of the second loop: no copy under way, both semaphores at zero, x and the staging buffer whole again, and
    rows 512 … 1023 of the local buffer hold the narrowed rows of x. -/
def xpost2 : sProp 𝕄 :=
  iprop((∃ W, owes (c : Thread nD τ) O W)
    ∗ (∃ f : Rows (F := F), rowsOn ownH1 c fullShare f ∗ ⌜∀ i ∈ (ownH1 : Memref sig .tc .vmem S512x4096 .bf16).view.set, f i = xb m c i⌝)
    ∗ semVal ((c : Thread nD τ), SemLoc.dma xS0) 0 ∗ semVal ((c : Thread nD τ), SemLoc.dma xS1) 0
    ∗ (xM.view.loc (c : Thread nD τ) ↦{fullShare} m ((c : Thread nD τ).loc main_arg0))
    ∗ ∃ G : Buf (Elt F) (xfM.view.loc (c : Thread nD τ)), xfM.view.loc (c : Thread nD τ) ↦{fullShare} G)

theorem inv_exit2 : xinv2 m c O (4 + 4) ⊢ xpost2 m c O := by
  unfold xinv2 xpost2
  rw [if_pos (show (4 + 4) % 2 = 0 by decide)]
  unfold xpieces0
  rw [dif_neg (show ¬ (4 + 4) + 1 < 8 by decide), dif_neg (show ¬ (4 + 4) < 8 by decide)]
  iintro ⟨-, ⟨%W, HO⟩, ⟨%f, H0, %hf⟩, Hs0, Hs1, Hx, H5⟩
  isplitl [HO]
  · iexists _; iexact HO
  isplitl [H0]
  · iexists _
    isplitl [H0]
    · iexact H0
    · ipureintro
      intro i hi
      have hr := mem_ownH1 i hi
      have h1024 : (i 0).val < 1024 := (i 0).isLt
      exact hf i (by omega) (by omega)
  isplitl [Hs0]
  · iexact Hs0
  isplitl [Hs1]
  · iexact Hs1
  isplitl [Hx]
  · iexact Hx
  iexact H5

end Ends

set_option warn.classDefReducibility false in
/-- The first conversion loop by its invariant: one trip by the parity of the block and whether a block is left to fetch. -/
@[sl_loop] noncomputable def loopInv_k0_t1 (m : (ℓ : Loc nD τ sig) → Buf (Elt F) ℓ) (O : CellTallies nD τ sig Unit) (c d0 : Dev nD)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (v13 v24 : BitVec 32) :
    Cert.KernelIdeal.Gen.LoopInvTy_k0_t1 (F := F) Unit ℕ UU ℕ 𝒱₀ c none Set.univ (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 where
  inv := fun k _ => xinv1 m c O k
  step := fun k _ => by
    rcases Nat.mod_two_eq_zero_or_one k.val with he | he <;> rcases Nat.lt_or_ge k.val 2 with hlt | hge
    · exact trip1_even_refill m c O k he hlt hmw0 hmw1 d0 v13 v24
    · exact trip1_even_tail m c O k he hge hmw0 hmw1 d0 v13 v24
    · exact trip1_odd_refill m c O k he hlt hmw0 hmw1 d0 v13 v24
    · exact trip1_odd_tail m c O k he hge hmw0 hmw1 d0 v13 v24

/-- What holds after the first loop, from the invariant at its last trip. -/
noncomputable instance loopExit_k0_t1 (m : (ℓ : Loc nD τ sig) → Buf (Elt F) ℓ) (O : CellTallies nD τ sig Unit) (c d0 : Dev nD)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (v13 v24 : BitVec 32) : LoopExit (loopInv_k0_t1 (F := F) m O c d0 hmw0 hmw1 v13 v24) where
  post := fun _ => xpost1 m c O
  exit := fun _ => by
    show xinv1 m c O k0_t1_loop.trips ⊢ _
    rw [t1_trips]
    exact inv_exit1 m c O

set_option warn.classDefReducibility false in
/-- The second conversion loop by its invariant: one trip by the parity of the block and whether a block is left to fetch. -/
@[sl_loop] noncomputable def loopInv_k0_t2 (m : (ℓ : Loc nD τ sig) → Buf (Elt F) ℓ) (O : CellTallies nD τ sig Unit) (c d0 : Dev nD)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (v13 v24 : BitVec 32) :
    Cert.KernelIdeal.Gen.LoopInvTy_k0_t2 (F := F) Unit ℕ UU ℕ 𝒱₀ c none Set.univ (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v13 v24 where
  inv := fun k _ => xinv2 m c O (4 + k)
  step := fun k _ => by
    rcases Nat.mod_two_eq_zero_or_one k.val with he | he <;> rcases Nat.lt_or_ge k.val 2 with hlt | hge
    · exact trip2_even_refill m c O k he hlt hmw0 hmw1 d0 v13 v24
    · exact trip2_even_tail m c O k he hge hmw0 hmw1 d0 v13 v24
    · exact trip2_odd_refill m c O k he hlt hmw0 hmw1 d0 v13 v24
    · exact trip2_odd_tail m c O k he hge hmw0 hmw1 d0 v13 v24

/-- What holds after the second loop, from the invariant at its last trip. -/
noncomputable instance loopExit_k0_t2 (m : (ℓ : Loc nD τ sig) → Buf (Elt F) ℓ) (O : CellTallies nD τ sig Unit) (c d0 : Dev nD)
    (hmw0 : (levAts L lv : sProp 𝕄) ⊢ MayWait (c : Thread nD τ) (SemLoc.dma xS0) () O)
    (hmw1 : (levAts L lv : sProp 𝕄) ⊢ MayWait (c : Thread nD τ) (SemLoc.dma xS1) () O)
    (v13 v24 : BitVec 32) : LoopExit (loopInv_k0_t2 (F := F) m O c d0 hmw0 hmw1 v13 v24) where
  post := fun _ => xpost2 m c O
  exit := fun _ => by
    show xinv2 m c O (4 + k0_t2_loop.trips) ⊢ _
    rw [t2_trips]
    exact inv_exit2 m c O

end Cert.KernelIdeal.AG

end
-- ==== Proof.LoopW.lean ====
/-
  The loop that narrows the device's block of w.

  The device's 4096 × 2048 block of w is cut into sixteen blocks of 128 columns. Block t is copied into slot t mod 2 of a
  two-slot staging buffer, on the slot's own counter, and trip t of the loop waits for that copy, stores the slot's
  contents narrowed to the short format into columns 128 t … 128 t + 127 of the narrowed block, and, while t + 2 < 16,
  starts the copy of block t + 2 into the slot it has just read. Two copies are under way across every trip boundary but
  the last two.

  The invariant before trip k: blocks k and k + 1 (those below 16) are in flight into the slots of their parity, each
  flight delivering its slot at contents that read the block, and the block itself back; the other blocks of w are held,
  each by its own elements, at the launch contents; the narrowed block is held whole and agrees with the narrowed w on
  the columns of the blocks before k; a slot past the last block is free, its counter at zero. One trip is proved once
  per parity of the trip (the slot and the counter it addresses are then fixed) and per whether it starts another copy;
  the other slot's state passes through a trip untouched. At entry the two copies started before the loop are the
  flights of trip 0; at exit every block of w is home, the narrowed block equals the narrowed w everywhere, and the two
  slots rejoin to the staging buffer.
-/
import proofs.«900658_g7700000000000659_dist_ag_gemm_m4096_k4096_n8192_f32_relu_v7x_i4_1_alg».proof.Proof.Contents
import proofs.«900658_g7700000000000659_dist_ag_gemm_m4096_k4096_n8192_f32_relu_v7x_i4_1_alg».proof.Proof.State
import proofs.«900658_g7700000000000659_dist_ag_gemm_m4096_k4096_n8192_f32_relu_v7x_i4_1_alg».proof.Proof.Gen.KernelIdeal.Loops
import Idealize.ShloMosaic.Lib.Tactic
import Idealize.ShloMosaic.Lib.Ring
import Idealize.ShloMosaic.Lib.ValueIdx
import Idealize.ShloMosaic.Lib.ValueLayout
import Idealize.ShloMosaic.Lib.WritesUnit

noncomputable section

namespace Cert.KernelIdeal.AG.LW
open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The loop's offsets by the trip's parity -/

theorem t3_trips : k0_t3_loop.trips = 16 := by decide +kernel

theorem off17_even : ∀ k : Fin k0_t3_loop.trips, k.val % 2 = 0 → k0_off17 k = ![0] := by decide +kernel
theorem off17_odd : ∀ k : Fin k0_t3_loop.trips, k.val % 2 = 1 → k0_off17 k = ![1] := by decide +kernel
theorem off18_even : ∀ k : Fin k0_t3_loop.trips, k.val % 2 = 0 → k0_off18 k = ![0, 0, 0] := by decide +kernel
theorem off18_odd : ∀ k : Fin k0_t3_loop.trips, k.val % 2 = 1 → k0_off18 k = ![1, 0, 0] := by decide +kernel
theorem off20_even : ∀ k : Fin k0_t3_loop.trips, k.val % 2 = 0 → k0_off20 k = ![0, 0, 0] := by decide +kernel
theorem off20_odd : ∀ k : Fin k0_t3_loop.trips, k.val % 2 = 1 → k0_off20 k = ![1, 0, 0] := by decide +kernel
theorem off22_even : ∀ k : Fin k0_t3_loop.trips, k.val % 2 = 0 → k0_off22 k = ![0] := by decide +kernel
theorem off22_odd : ∀ k : Fin k0_t3_loop.trips, k.val % 2 = 1 → k0_off22 k = ![1] := by decide +kernel
theorem off23_even : ∀ k : Fin k0_t3_loop.trips, k.val % 2 = 0 → k0_off23 k = ![0, 0, 0] := by decide +kernel
theorem off23_odd : ∀ k : Fin k0_t3_loop.trips, k.val % 2 = 1 → k0_off23 k = ![1, 0, 0] := by decide +kernel
theorem cond3_iff : ∀ k : Fin k0_t3_loop.trips, k0_cond3 k = 1#1 ↔ k.val + 2 < 16 := by decide +kernel

theorem off20_mod : ∀ k : Fin k0_t3_loop.trips, k0_off20 k = ![k.val % 2, 0, 0] := by decide +kernel
instance closedOff_k0_off20 (k : Fin k0_t3_loop.trips) : ClosedOff (k0_off20 k) := ⟨![k.val % 2, 0, 0], off20_mod k⟩

variable (m : (ℓ : Loc nD τ sig) → Buf (Elt F) ℓ)

/-! ## The sixteen column blocks of w and the two slots of the staging buffer -/

/-- Column block j of w starts at column 128 j. -/
abbrev colOff (j : Fin 16) : Fin 2 → ℕ := ![0, 128 * j.val]
theorem colOff_inb (j : Fin 16) : ∀ a, colOff j a + S4096x128.size a ≤ S4096x2048.size a := by
  have := j.isLt; intro a; fin_cases a
  · show 0 + 4096 ≤ 4096; omega
  · show 128 * j.val + 128 ≤ 2048; omega
instance closedOff_colOff (j : Fin 16) : ClosedOff (colOff j) := ⟨colOff j, rfl⟩

/-- Column block j of w, as the body slices it. -/
def wcol (j : Fin 16) : Memref sig .tc .hbm S4096x128 .f32 :=
  (wM : Memref sig .tc .hbm S4096x2048 .f32).slice (Rect.unit (s := S4096x2048) (colOff j) S4096x128.size (colOff_inb j)) (fun _ => rfl)

/-- The two slots of the staging buffer, as the body slices and squeezes them. -/
abbrev slot0 : Memref sig .tc .vmem S4096x128 .f32 :=
  ((wfM : Memref sig .tc .vmem S2x4096x128 .f32).slice (Rect.unit (s := S2x4096x128) ![0, 0, 0] S1x4096x128.size inb_S2x4096x128_S1x4096x128_0_0_0) (fun _ => rfl)).squeeze S4096x128 squeezes_S1x4096x128_S4096x128
abbrev slot1 : Memref sig .tc .vmem S4096x128 .f32 :=
  ((wfM : Memref sig .tc .vmem S2x4096x128 .f32).slice (Rect.unit (s := S2x4096x128) ![1, 0, 0] S1x4096x128.size inb_S2x4096x128_S1x4096x128_1_0_0) (fun _ => rfl)).squeeze S4096x128 squeezes_S1x4096x128_S4096x128

/-- The elements of column block j. -/
abbrev colSet (j : Fin 16) : Finset S4096x2048.Idx := (Rect.unit (s := S4096x2048) (colOff j) S4096x128.size (colOff_inb j)).set

omit [FloatOps F] in
theorem wcol_set (j : Fin 16) : (wcol j : Memref sig .tc .hbm _ _).view.set = colSet j := View.set_slice_whole _ _

theorem mem_colSet (j : Fin 16) (y : S4096x2048.Idx) : y ∈ colSet j ↔ 128 * j.val ≤ (y 1).val ∧ (y 1).val < 128 * j.val + 128 := by
  rw [Rect.mem_set_unit]
  have h0 : (y 0).val < 4096 := (y 0).isLt
  constructor
  · intro H; exact H 1
  · intro H i; fin_cases i
    · show 0 ≤ (y 0).val ∧ (y 0).val < 0 + 4096; omega
    · exact H

theorem colSet_disjoint (b b' : Fin 16) (h : b ≠ b') : Disjoint (colSet b) (colSet b') :=
  Ring.lead_disjoint (s := S4096x2048) (NB := 16) 1 128 colOff S4096x128.size colOff_inb (fun _ => rfl) rfl b b' h
theorem colSet_cover : Finset.univ.biUnion colSet = Finset.univ :=
  Ring.lead_cover (s := S4096x2048) (NB := 16) 1 128 colOff S4096x128.size colOff_inb (fun _ => rfl)
    (fun b a ha => by fin_cases a; · rfl
                      · exact absurd rfl ha) rfl
    (fun a ha => by fin_cases a; · rfl
                    · exact absurd rfl ha) rfl

omit [FloatOps F] in
theorem wcol_congr {off : Fin 2 → ℕ} {j : Fin 16} (e : off = colOff j) (hh : ∀ a, off a + S4096x128.size a ≤ S4096x2048.size a) (hs) :
    (wM : Memref sig .tc .hbm S4096x2048 .f32).slice (Rect.unit (s := S4096x2048) off S4096x128.size hh) hs = wcol j := by
  unfold wcol; exact Memref.slice_unit_congr _ e _ _ _ _

/-! ## Values: what a column block holds, what a landed slot reads, the narrowed columns -/

section Values
open Idealize.ShloMosaic.ValueIdx

variable (c : Dev nD)

/-- Column block j of w at launch, as a 4096 × 128 array. -/
def colOf (j : Fin 16) : S4096x128.Idx → Elt F .f32 :=
  (wcol j : Memref sig .tc .hbm S4096x128 .f32).view.read (Elt F) (m ((c : Thread nD τ).loc main_arg1))

theorem colOf_apply (j : Fin 16) (y : S4096x128.Idx) :
    colOf m c j y = m ((c : Thread nD τ).loc main_arg1) (ix2 (y 0 : Fin 4096) (⟨128 * j.val + (y 1).val, by have := j.isLt; have := idx2_lt1 y; omega⟩ : Fin 2048)) := by
  unfold colOf
  show m ((c : Thread nD τ).loc main_arg1) ((Rect.unit (s := S4096x2048) (colOff j) S4096x128.size (colOff_inb j)).emb y) = _
  congr 1
  funext a
  fin_cases a
  · apply Fin.ext; show 0 + 1 * (y 0).val = (y 0).val; omega
  · apply Fin.ext; show 128 * j.val + 1 * (y 1).val = 128 * j.val + (y 1).val; omega

/-- A slot holds column block j: read through the slot, its contents are the block. -/
def SlotHolds (S : Memref sig .tc .vmem S4096x128 .f32) (j : Fin 16) (G : S.view.ty.Contents (Elt F)) : Prop :=
  S.view.read (Elt F) G = colOf m c j

end Values

section Values2
open Idealize.ShloMosaic.ValueIdx

variable (c : Dev nD)

omit [FloatOps F] in
/-- A slot written whole reads the payload (the transfer's raw write); -/
theorem slotHolds_write (S : Memref sig .tc .vmem S4096x128 .f32) (j : Fin 16) (G : S.view.ty.Contents (Elt F)) :
    SlotHolds m c S j (S.view.write (Elt F) G (ReadAs.same.apply (colOf m c j)) Finset.univ) :=
  View.read_write_univ _ _

omit [FloatOps F] in
/-- (the same as one listed piece). -/
theorem slotHolds_writes (S : Memref sig .tc .vmem S4096x128 .f32) (j : Fin 16) (G : S.view.ty.Contents (Elt F)) :
    SlotHolds m c S j (S.view.writes (Elt F) G [⟨Rect.whole S4096x128, ReadAs.same.apply (colOf m c j)⟩]) := by
  unfold SlotHolds
  funext y
  have hy : (Rect.whole S4096x128).emb y = y := funext fun a => Fin.ext (by
    show 0 + 1 * (y a).val = (y a).val; omega)
  rw [View.writes_singleton]
  conv_lhs => rw [← hy]
  exact View.read_slice_write_emb _ _ _ (Finset.mem_univ y)

/-- The load of slot 0 through the whole staging buffer, narrowed, is the narrowed block the slot holds. -/
theorem pay_slot0 (j : Fin 16) (G : (cc0_scratch6 : Ref sig .tc).ty.Contents (Elt F)) (hG : SlotHolds m c slot0 j G)
    (off : Fin 3 → ℕ) (e : off = ![0, 0, 0]) (inb : ∀ a, off a + S1x4096x128.size a ≤ S2x4096x128.size a) :
    k0_pay3 (F := F) (View.readAt (Elt F) (wfM : Memref sig .tc .vmem S2x4096x128 .f32).view (Rect.unit (s := S2x4096x128) off S1x4096x128.size inb).toLoadRect G)
      = truncf (F := F) .bf16 (colOf m c j) bitsLt_bf16_f32 := by
  subst e
  unfold k0_pay3
  dsimp only
  rw [Idealize.ShloMosaic.shapeCast_self, ← hG]
  rfl
theorem pay_slot1 (j : Fin 16) (G : (cc0_scratch6 : Ref sig .tc).ty.Contents (Elt F)) (hG : SlotHolds m c slot1 j G)
    (off : Fin 3 → ℕ) (e : off = ![1, 0, 0]) (inb : ∀ a, off a + S1x4096x128.size a ≤ S2x4096x128.size a) :
    k0_pay3 (F := F) (View.readAt (Elt F) (wfM : Memref sig .tc .vmem S2x4096x128 .f32).view (Rect.unit (s := S2x4096x128) off S1x4096x128.size inb).toLoadRect G)
      = truncf (F := F) .bf16 (colOf m c j) bitsLt_bf16_f32 := by
  subst e
  unfold k0_pay3
  dsimp only
  rw [Idealize.ShloMosaic.shapeCast_self, ← hG]
  rfl

end Values2

section Values3
open Idealize.ShloMosaic.ValueIdx

variable (c : Dev nD)

theorem bk16_val (k : Fin k0_t3_loop.trips) : (Ring.bk 16 k.val).val = k.val :=
  Ring.bk_val (Nat.lt_of_lt_of_eq k.isLt t3_trips)

/-- Storing the narrowed block k into columns 128 k … 128 k + 127 of an array that agrees with the narrowed w on the
    columns before gives one that agrees on the columns before 128 (k + 1). -/
theorem wbf_step (k : Fin k0_t3_loop.trips) (f : Cols (F := F)) (hf : ∀ i : S4096x2048.Idx, (i 1).val < 128 * k.val → f i = wb m c i)
    (i : S4096x2048.Idx) (hi : (i 1).val < 128 * (k.val + 1)) :
    (wbfM : Memref sig .tc .vmem S4096x2048 .bf16).view.writes (Elt F) f
      [⟨Rect.unit (s := S4096x2048) (k0_off21 k) S4096x128.size (k0_off21_inb k), truncf (F := F) .bf16 (colOf m c (Ring.bk 16 k.val)) bitsLt_bf16_f32⟩] i
      = wb m c i := by
  have key := View.read_writes_cons_unit (View.whole cc0_scratch4 : View sig .tc .vmem S4096x2048 .bf16) f (k0_off21_inb k)
    (truncf (F := F) .bf16 (colOf m c (Ring.bk 16 k.val)) bitsLt_bf16_f32) [] i (k0_off21_eq k)
  rw [View.read_whole, View.read_whole] at key
  refine Eq.trans key ?_
  split
  · rename_i h
    have h1 : 128 * k.val ≤ (i 1).val := (h 1).1
    unfold wb
    simp only [truncf]
    rw [colOf_apply]
    refine congrArg _ (congrArg _ ?_)
    funext a
    fin_cases a
    · apply Fin.ext; show (i 0).val - 0 = (i 0).val; omega
    · apply Fin.ext; show 128 * (Ring.bk 16 k.val).val + ((i 1).val - 128 * k.val) = (i 1).val; rw [bk16_val]; omega
  · rename_i h
    show f i = _
    apply hf
    by_contra hge
    apply h
    intro a; fin_cases a
    · show 0 ≤ (i 0).val ∧ (i 0).val < 0 + 4096; have := idx2_lt0 i; omega
    · show 128 * k.val ≤ (i 1).val ∧ (i 1).val < 128 * k.val + 128; omega

end Values3

/-! ## The invariant -/

section Inv

variable (c : Dev nD) (O : CellTallies nD τ sig Unit)

/-- Column block j of w at home: held by its own elements at the launch contents. -/
abbrev homeP (j : Fin 16) : sProp 𝕄 :=
  (wcol j : Memref sig .tc .hbm S4096x128 .f32).view.loc (c : Thread nD τ) ↦[(wcol j : Memref sig .tc .hbm S4096x128 .f32).view.set]{fullShare} m ((c : Thread nD τ).loc main_arg1)

/-- A slot held by its own elements. -/
abbrev slotP (S : Memref sig .tc .vmem S4096x128 .f32) (G : Buf (Elt F) (S.view.loc (c : Thread nD τ))) : sProp 𝕄 :=
  S.view.loc (c : Thread nD τ) ↦[S.view.set]{fullShare} G

/-- Column block j in flight into slot S on cell sem: at the wait the slot comes back at G and the block comes home. -/
abbrev flightP (sem : DmaSem sig) (S : Memref sig .tc .vmem S4096x128 .f32) (j : Fin 16) (G : Buf (Elt F) (S.view.loc (c : Thread nD τ))) : sProp 𝕄 :=
  Transfers.Flight countersEmb (c : Thread nD τ) (SemLoc.dma sem) () 65536 iprop(slotP c S G ∗ homeP m c j)

/-- A slot's state when its next block is j: in flight with block j (the slot then reads the block), or, past the last
    block, free (its cell at zero, the slot at anything). -/
def slotSt (sem : DmaSem sig) (S : Memref sig .tc .vmem S4096x128 .f32) (j : ℕ) : sProp 𝕄 :=
  if j < 16 then iprop(∃ G, flightP m c sem S (Ring.bk 16 j) G ∗ ⌜SlotHolds m c S (Ring.bk 16 j) G⌝)
  else iprop(semVal ((c : Thread nD τ), SemLoc.dma sem) 0 ∗ ∃ G, slotP c S G)

/-- The narrowed block: whole, agreeing with the narrowed w on the columns of the blocks before k. -/
def wbfP (k : ℕ) : sProp 𝕄 :=
  iprop(∃ f : Cols (F := F), ((wbfM : Memref sig .tc .vmem S4096x2048 .bf16).view.loc (c : Thread nD τ) ↦{fullShare} f)
    ∗ ⌜∀ i : S4096x2048.Idx, (i 1).val < 128 * k → f i = wb m c i⌝)

/-- Before trip k: blocks k and k + 1 in flight into the slots of their parity, the other blocks home, the columns of the
    blocks before k narrowed. -/
def invAt (k : ℕ) : sProp 𝕄 :=
  iprop(□ levAts L lv ∗ (∃ W, owes (c : Thread nD τ) O W) ∗ bigSep (Ring.homeSet (NB := 16) 2 k) (homeP m c) ∗ wbfP m c k
    ∗ (if k % 2 = 0 then iprop(slotSt m c wS0 slot0 k ∗ slotSt m c wS1 slot1 (k + 1))
       else iprop(slotSt m c wS1 slot1 k ∗ slotSt m c wS0 slot0 (k + 1))))

end Inv

section Trip
variable (c d0 : Dev nD) (v2 : BitVec 32) (O : CellTallies nD τ sig Unit)

theorem homes_here (k : ℕ) (hk : k + 2 < 16) :
    bigSep (Ring.homeSet (NB := 16) 2 k) (homeP m c) = iprop(homeP m c (Ring.bk 16 (k + 2)) ∗ bigSep ((Ring.homeSet (NB := 16) 2 k).erase (Ring.bk 16 (k + 2))) (homeP m c)) := by
  conv_lhs => rw [Ring.homeSet_out 2 k hk, bigSep_insert (Ring.bkL_not_mem_erase 2 k)]
  rfl
theorem homes_next (k : ℕ) (hk : k + 2 < 16) :
    bigSep (Ring.homeSet (NB := 16) 2 (k + 1)) (homeP m c) = iprop(homeP m c (Ring.bk 16 k) ∗ bigSep ((Ring.homeSet (NB := 16) 2 k).erase (Ring.bk 16 (k + 2))) (homeP m c)) := by
  conv_lhs => rw [Ring.homeSet_succ 2 k hk, bigSep_insert (Ring.bk_not_mem_erase 2 k (by omega) (by decide))]
  rfl
theorem homes_next_tail (k : ℕ) (hk : 16 ≤ k + 2) (hk' : k < 16) :
    bigSep (Ring.homeSet (NB := 16) 2 (k + 1)) (homeP m c) = iprop(homeP m c (Ring.bk 16 k) ∗ bigSep (Ring.homeSet (NB := 16) 2 k) (homeP m c)) := by
  conv_lhs => rw [Ring.homeSet_succ_tail 2 k hk hk', bigSep_insert (Ring.bk_not_mem_homeSet 2 k hk' (by decide))]
  rfl

/-- One trip at parity 0 that starts the copy of block k + 2: wait block k in slot 0, narrow it into columns 128 k …, start block k + 2 into the slot. -/
theorem trip0_issue (k : Fin k0_t3_loop.trips) (hpar : k.val % 2 = 0) (hc : k.val + 2 < 16) (W : Waits sig Unit)
    (hmw0 : (levAts L lv : sProp 𝕄) ⊢ MayWait (c : Thread nD τ) (SemLoc.dma wS0) () O) :
    iprop(□ levAts L lv ∗ owes (c : Thread nD τ) O W ∗ bigSep (Ring.homeSet (NB := 16) 2 k.val) (homeP m c) ∗ wbfP m c k.val ∗ slotSt m c wS0 slot0 k.val)
      ⊢ wp frame (wpE (defs₀ (F := F)) 𝒱₀ c none) Set.univ (k0_t3_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 k ())
          (fun _ => iprop((∃ W, owes (c : Thread nD τ) O W) ∗ bigSep (Ring.homeSet (NB := 16) 2 (k.val + 1)) (homeP m c) ∗ wbfP m c (k.val + 1) ∗ slotSt m c wS0 slot0 (k.val + 2))) := by
  have hk16 : k.val < 16 := Nat.lt_of_lt_of_eq k.isLt t3_trips
  unfold slotSt wbfP
  rw [if_pos hk16, if_pos hc, homes_here m c k.val hc, homes_next m c k.val hc]
  iintro ⟨#Hlev, HO, ⟨Hnew, Hrest⟩, ⟨%f, Hb, %hf⟩, ⟨%G, HF, %hG⟩⟩
  have hc3 : k0_cond3 k = 1#1 := (cond3_iff k).2 hc
  have hcanonS17 : cc0_scratch13.slice (Rect.unit (s := S2) (k0_off17 k) S1.size (k0_off17_inb k)) = cc0_scratch13.slice (Rect.unit (s := S2) ![0] S1.size inb_S2_S1_0) :=
    SemArray.slice_unit_congr _ (off17_even k hpar) _ _
  have hcanonS22 : cc0_scratch13.slice (Rect.unit (s := S2) (k0_off22 k) S1.size (k0_off22_inb k hc3)) = cc0_scratch13.slice (Rect.unit (s := S2) ![0] S1.size inb_S2_S1_0) :=
    SemArray.slice_unit_congr _ (off22_even k hpar) _ _
  have hcanonM18 : (Memref.whole cc0_scratch6 : Memref sig .tc .vmem S2x4096x128 .f32).slice (Rect.unit (s := S2x4096x128) (k0_off18 k) S1x4096x128.size (k0_off18_inb k)) (fun _ => rfl)
      = (Memref.whole cc0_scratch6 : Memref sig .tc .vmem S2x4096x128 .f32).slice (Rect.unit (s := S2x4096x128) ![0, 0, 0] S1x4096x128.size inb_S2x4096x128_S1x4096x128_0_0_0) (fun _ => rfl) :=
    Memref.slice_unit_congr _ (off18_even k hpar) _ _ _ _
  have hcanonM23 : (Memref.whole cc0_scratch6 : Memref sig .tc .vmem S2x4096x128 .f32).slice (Rect.unit (s := S2x4096x128) (k0_off23 k) S1x4096x128.size (k0_off23_inb k hc3)) (fun _ => rfl)
      = (Memref.whole cc0_scratch6 : Memref sig .tc .vmem S2x4096x128 .f32).slice (Rect.unit (s := S2x4096x128) ![0, 0, 0] S1x4096x128.size inb_S2x4096x128_S1x4096x128_0_0_0) (fun _ => rfl) :=
    Memref.slice_unit_congr _ (off23_even k hpar) _ _ _ _
  have hcanonW19 : (Memref.whole main_arg1 : Memref sig .tc .hbm S4096x2048 .f32).slice (Rect.unit (s := S4096x2048) (k0_off19 k) S4096x128.size (k0_off19_inb k)) (fun _ => rfl) = wcol (Ring.bk 16 k.val) :=
    wcol_congr ((k0_off19_eq k).trans (by show _ = ![0, 128 * (Ring.bk 16 k.val).val]; rw [bk16_val])) _ _
  have hcanonW24 : (Memref.whole main_arg1 : Memref sig .tc .hbm S4096x2048 .f32).slice (Rect.unit (s := S4096x2048) (k0_off24 k) S4096x128.size (k0_off24_inb k hc3)) (fun _ => rfl) = wcol (Ring.bk 16 (k.val + 2)) :=
    wcol_congr ((k0_off24_eq k).trans (by show _ = ![0, 128 * (Ring.bk 16 (k.val + 2)).val]; rw [Ring.bk_val hc, Nat.mul_add])) _ _
  sl_unfold [k0_t3_body]
  sl_exec
  sl_step
  isplitl [HO]; · iexists _; iexact HO
  isplitl [HF_src Hrest]
  · isplitl [HF_src]; · iexact HF_src
    iexact Hrest
  isplitl [Hb]
  · iexists _
    isplitl [Hb]; · iexact Hb
    ipureintro
    intro i hi
    rw [pay_slot0 m c _ G hG _ (off20_even k hpar)]
    exact wbf_step m c k f hf i hi
  · iexists (slot0.view.writes (Elt F) G [⟨Rect.whole S4096x128, ReadAs.same.apply (colOf m c (Ring.bk 16 (k.val + 2)))⟩])
    isplitl [HF]; · iexact HF
    ipureintro
    exact slotHolds_writes m c slot0 _ G

/-- One trip at parity 0 past the last copy to start: wait block k in slot 0, narrow it into columns 128 k …; the slot stays free. -/
theorem trip0_tail (k : Fin k0_t3_loop.trips) (hpar : k.val % 2 = 0) (hc : 16 ≤ k.val + 2) (W : Waits sig Unit)
    (hmw0 : (levAts L lv : sProp 𝕄) ⊢ MayWait (c : Thread nD τ) (SemLoc.dma wS0) () O) :
    iprop(□ levAts L lv ∗ owes (c : Thread nD τ) O W ∗ bigSep (Ring.homeSet (NB := 16) 2 k.val) (homeP m c) ∗ wbfP m c k.val ∗ slotSt m c wS0 slot0 k.val)
      ⊢ wp frame (wpE (defs₀ (F := F)) 𝒱₀ c none) Set.univ (k0_t3_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 k ())
          (fun _ => iprop((∃ W, owes (c : Thread nD τ) O W) ∗ bigSep (Ring.homeSet (NB := 16) 2 (k.val + 1)) (homeP m c) ∗ wbfP m c (k.val + 1) ∗ slotSt m c wS0 slot0 (k.val + 2))) := by
  have hk16 : k.val < 16 := Nat.lt_of_lt_of_eq k.isLt t3_trips
  unfold slotSt wbfP
  rw [if_pos hk16, if_neg (Nat.not_lt.mpr hc), homes_next_tail m c k.val hc hk16]
  iintro ⟨#Hlev, HO, Hhome, ⟨%f, Hb, %hf⟩, ⟨%G, HF, %hG⟩⟩
  have hc3 : ¬ k0_cond3 k = 1#1 := fun h => absurd ((cond3_iff k).1 h) (Nat.not_lt.mpr hc)
  have hcanonS17 : cc0_scratch13.slice (Rect.unit (s := S2) (k0_off17 k) S1.size (k0_off17_inb k)) = cc0_scratch13.slice (Rect.unit (s := S2) ![0] S1.size inb_S2_S1_0) :=
    SemArray.slice_unit_congr _ (off17_even k hpar) _ _
  have hcanonM18 : (Memref.whole cc0_scratch6 : Memref sig .tc .vmem S2x4096x128 .f32).slice (Rect.unit (s := S2x4096x128) (k0_off18 k) S1x4096x128.size (k0_off18_inb k)) (fun _ => rfl)
      = (Memref.whole cc0_scratch6 : Memref sig .tc .vmem S2x4096x128 .f32).slice (Rect.unit (s := S2x4096x128) ![0, 0, 0] S1x4096x128.size inb_S2x4096x128_S1x4096x128_0_0_0) (fun _ => rfl) :=
    Memref.slice_unit_congr _ (off18_even k hpar) _ _ _ _
  have hcanonW19 : (Memref.whole main_arg1 : Memref sig .tc .hbm S4096x2048 .f32).slice (Rect.unit (s := S4096x2048) (k0_off19 k) S4096x128.size (k0_off19_inb k)) (fun _ => rfl) = wcol (Ring.bk 16 k.val) :=
    wcol_congr ((k0_off19_eq k).trans (by show _ = ![0, 128 * (Ring.bk 16 k.val).val]; rw [bk16_val])) _ _
  sl_unfold [k0_t3_body]
  sl_exec
  sl_step
  isplitl [HO]; · iexists _; iexact HO
  isplitl [HF_src Hhome]
  · isplitl [HF_src]; · iexact HF_src
    iexact Hhome
  isplitl [Hb]
  · iexists _
    isplitl [Hb]; · iexact Hb
    ipureintro
    intro i hi
    rw [pay_slot0 m c _ G hG _ (off20_even k hpar)]
    exact wbf_step m c k f hf i hi
  · isplitl [HF]; · iexact HF
    iexists _; iexact HF_dst

/-- One trip at parity 1 that starts the copy of block k + 2: wait block k in slot 1, narrow it into columns 128 k …, start block k + 2 into the slot. -/
theorem trip1_issue (k : Fin k0_t3_loop.trips) (hpar : k.val % 2 = 1) (hc : k.val + 2 < 16) (W : Waits sig Unit)
    (hmw1 : (levAts L lv : sProp 𝕄) ⊢ MayWait (c : Thread nD τ) (SemLoc.dma wS1) () O) :
    iprop(□ levAts L lv ∗ owes (c : Thread nD τ) O W ∗ bigSep (Ring.homeSet (NB := 16) 2 k.val) (homeP m c) ∗ wbfP m c k.val ∗ slotSt m c wS1 slot1 k.val)
      ⊢ wp frame (wpE (defs₀ (F := F)) 𝒱₀ c none) Set.univ (k0_t3_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 k ())
          (fun _ => iprop((∃ W, owes (c : Thread nD τ) O W) ∗ bigSep (Ring.homeSet (NB := 16) 2 (k.val + 1)) (homeP m c) ∗ wbfP m c (k.val + 1) ∗ slotSt m c wS1 slot1 (k.val + 2))) := by
  have hk16 : k.val < 16 := Nat.lt_of_lt_of_eq k.isLt t3_trips
  unfold slotSt wbfP
  rw [if_pos hk16, if_pos hc, homes_here m c k.val hc, homes_next m c k.val hc]
  iintro ⟨#Hlev, HO, ⟨Hnew, Hrest⟩, ⟨%f, Hb, %hf⟩, ⟨%G, HF, %hG⟩⟩
  have hc3 : k0_cond3 k = 1#1 := (cond3_iff k).2 hc
  have hcanonS17 : cc0_scratch13.slice (Rect.unit (s := S2) (k0_off17 k) S1.size (k0_off17_inb k)) = cc0_scratch13.slice (Rect.unit (s := S2) ![1] S1.size inb_S2_S1_1) :=
    SemArray.slice_unit_congr _ (off17_odd k hpar) _ _
  have hcanonS22 : cc0_scratch13.slice (Rect.unit (s := S2) (k0_off22 k) S1.size (k0_off22_inb k hc3)) = cc0_scratch13.slice (Rect.unit (s := S2) ![1] S1.size inb_S2_S1_1) :=
    SemArray.slice_unit_congr _ (off22_odd k hpar) _ _
  have hcanonM18 : (Memref.whole cc0_scratch6 : Memref sig .tc .vmem S2x4096x128 .f32).slice (Rect.unit (s := S2x4096x128) (k0_off18 k) S1x4096x128.size (k0_off18_inb k)) (fun _ => rfl)
      = (Memref.whole cc0_scratch6 : Memref sig .tc .vmem S2x4096x128 .f32).slice (Rect.unit (s := S2x4096x128) ![1, 0, 0] S1x4096x128.size inb_S2x4096x128_S1x4096x128_1_0_0) (fun _ => rfl) :=
    Memref.slice_unit_congr _ (off18_odd k hpar) _ _ _ _
  have hcanonM23 : (Memref.whole cc0_scratch6 : Memref sig .tc .vmem S2x4096x128 .f32).slice (Rect.unit (s := S2x4096x128) (k0_off23 k) S1x4096x128.size (k0_off23_inb k hc3)) (fun _ => rfl)
      = (Memref.whole cc0_scratch6 : Memref sig .tc .vmem S2x4096x128 .f32).slice (Rect.unit (s := S2x4096x128) ![1, 0, 0] S1x4096x128.size inb_S2x4096x128_S1x4096x128_1_0_0) (fun _ => rfl) :=
    Memref.slice_unit_congr _ (off23_odd k hpar) _ _ _ _
  have hcanonW19 : (Memref.whole main_arg1 : Memref sig .tc .hbm S4096x2048 .f32).slice (Rect.unit (s := S4096x2048) (k0_off19 k) S4096x128.size (k0_off19_inb k)) (fun _ => rfl) = wcol (Ring.bk 16 k.val) :=
    wcol_congr ((k0_off19_eq k).trans (by show _ = ![0, 128 * (Ring.bk 16 k.val).val]; rw [bk16_val])) _ _
  have hcanonW24 : (Memref.whole main_arg1 : Memref sig .tc .hbm S4096x2048 .f32).slice (Rect.unit (s := S4096x2048) (k0_off24 k) S4096x128.size (k0_off24_inb k hc3)) (fun _ => rfl) = wcol (Ring.bk 16 (k.val + 2)) :=
    wcol_congr ((k0_off24_eq k).trans (by show _ = ![0, 128 * (Ring.bk 16 (k.val + 2)).val]; rw [Ring.bk_val hc, Nat.mul_add])) _ _
  sl_unfold [k0_t3_body]
  sl_exec
  sl_step
  isplitl [HO]; · iexists _; iexact HO
  isplitl [HF_src Hrest]
  · isplitl [HF_src]; · iexact HF_src
    iexact Hrest
  isplitl [Hb]
  · iexists _
    isplitl [Hb]; · iexact Hb
    ipureintro
    intro i hi
    rw [pay_slot1 m c _ G hG _ (off20_odd k hpar)]
    exact wbf_step m c k f hf i hi
  · iexists (slot1.view.writes (Elt F) G [⟨Rect.whole S4096x128, ReadAs.same.apply (colOf m c (Ring.bk 16 (k.val + 2)))⟩])
    isplitl [HF]; · iexact HF
    ipureintro
    exact slotHolds_writes m c slot1 _ G

/-- One trip at parity 1 past the last copy to start: wait block k in slot 1, narrow it into columns 128 k …; the slot stays free. -/
theorem trip1_tail (k : Fin k0_t3_loop.trips) (hpar : k.val % 2 = 1) (hc : 16 ≤ k.val + 2) (W : Waits sig Unit)
    (hmw1 : (levAts L lv : sProp 𝕄) ⊢ MayWait (c : Thread nD τ) (SemLoc.dma wS1) () O) :
    iprop(□ levAts L lv ∗ owes (c : Thread nD τ) O W ∗ bigSep (Ring.homeSet (NB := 16) 2 k.val) (homeP m c) ∗ wbfP m c k.val ∗ slotSt m c wS1 slot1 k.val)
      ⊢ wp frame (wpE (defs₀ (F := F)) 𝒱₀ c none) Set.univ (k0_t3_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 k ())
          (fun _ => iprop((∃ W, owes (c : Thread nD τ) O W) ∗ bigSep (Ring.homeSet (NB := 16) 2 (k.val + 1)) (homeP m c) ∗ wbfP m c (k.val + 1) ∗ slotSt m c wS1 slot1 (k.val + 2))) := by
  have hk16 : k.val < 16 := Nat.lt_of_lt_of_eq k.isLt t3_trips
  unfold slotSt wbfP
  rw [if_pos hk16, if_neg (Nat.not_lt.mpr hc), homes_next_tail m c k.val hc hk16]
  iintro ⟨#Hlev, HO, Hhome, ⟨%f, Hb, %hf⟩, ⟨%G, HF, %hG⟩⟩
  have hc3 : ¬ k0_cond3 k = 1#1 := fun h => absurd ((cond3_iff k).1 h) (Nat.not_lt.mpr hc)
  have hcanonS17 : cc0_scratch13.slice (Rect.unit (s := S2) (k0_off17 k) S1.size (k0_off17_inb k)) = cc0_scratch13.slice (Rect.unit (s := S2) ![1] S1.size inb_S2_S1_1) :=
    SemArray.slice_unit_congr _ (off17_odd k hpar) _ _
  have hcanonM18 : (Memref.whole cc0_scratch6 : Memref sig .tc .vmem S2x4096x128 .f32).slice (Rect.unit (s := S2x4096x128) (k0_off18 k) S1x4096x128.size (k0_off18_inb k)) (fun _ => rfl)
      = (Memref.whole cc0_scratch6 : Memref sig .tc .vmem S2x4096x128 .f32).slice (Rect.unit (s := S2x4096x128) ![1, 0, 0] S1x4096x128.size inb_S2x4096x128_S1x4096x128_1_0_0) (fun _ => rfl) :=
    Memref.slice_unit_congr _ (off18_odd k hpar) _ _ _ _
  have hcanonW19 : (Memref.whole main_arg1 : Memref sig .tc .hbm S4096x2048 .f32).slice (Rect.unit (s := S4096x2048) (k0_off19 k) S4096x128.size (k0_off19_inb k)) (fun _ => rfl) = wcol (Ring.bk 16 k.val) :=
    wcol_congr ((k0_off19_eq k).trans (by show _ = ![0, 128 * (Ring.bk 16 k.val).val]; rw [bk16_val])) _ _
  sl_unfold [k0_t3_body]
  sl_exec
  sl_step
  isplitl [HO]; · iexists _; iexact HO
  isplitl [HF_src Hhome]
  · isplitl [HF_src]; · iexact HF_src
    iexact Hhome
  isplitl [Hb]
  · iexists _
    isplitl [Hb]; · iexact Hb
    ipureintro
    intro i hi
    rw [pay_slot1 m c _ G hG _ (off20_odd k hpar)]
    exact wbf_step m c k f hf i hi
  · isplitl [HF]; · iexact HF
    iexists _; iexact HF_dst

end Trip

/-! ## The loop -/

section Loop
variable (c d0 : Dev nD) (v2 : BitVec 32) (O : CellTallies nD τ sig Unit)

/-- One trip takes the invariant at its trip to the invariant at the next: by the trip's parity, and by whether it
    starts another copy; the other slot's state passes through untouched. -/
theorem step_k0_t3
    (hmw0 : (levAts L lv : sProp 𝕄) ⊢ MayWait (c : Thread nD τ) (SemLoc.dma wS0) () O)
    (hmw1 : (levAts L lv : sProp 𝕄) ⊢ MayWait (c : Thread nD τ) (SemLoc.dma wS1) () O)
    (k : Fin k0_t3_loop.trips) :
    invAt m c O k.val ⊢ wp frame (wpE (defs₀ (F := F)) 𝒱₀ c none) Set.univ (k0_t3_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 k ())
      (fun _ => invAt m c O (k.val + 1)) := by
  unfold invAt
  rcases Nat.mod_two_eq_zero_or_one k.val with hpar | hpar
  · rw [if_pos hpar, if_neg (by omega : ¬ (k.val + 1) % 2 = 0)]
    have Ti := fun hc W => trip0_issue m c d0 v2 O k hpar hc W hmw0
    have Tt := fun hc W => trip0_tail m c d0 v2 O k hpar hc W hmw0
    iintro ⟨#Hlev, ⟨%W, HO⟩, Hh, Hb, Hs, Hother⟩
    iapply (wp_wand_r Idealize.ShloMosaic.frame (wpE (defs₀ (F := F)) 𝒱₀ (c : Thread nD τ) none) Set.univ)
    isplitl [HO Hh Hb Hs]
    · by_cases hc : k.val + 2 < 16
      · iapply (Ti hc W)
        isplitr; · iexact Hlev
        isplitl [HO]; · iexact HO
        isplitl [Hh]; · iexact Hh
        isplitl [Hb]; · iexact Hb
        iexact Hs
      · iapply (Tt (Nat.le_of_not_lt hc) W)
        isplitr; · iexact Hlev
        isplitl [HO]; · iexact HO
        isplitl [Hh]; · iexact Hh
        isplitl [Hb]; · iexact Hb
        iexact Hs
    · iintro %_ ⟨HO', Hh', Hb', Hs'⟩
      isplitr; · iexact Hlev
      isplitl [HO']; · iexact HO'
      isplitl [Hh']; · iexact Hh'
      isplitl [Hb']; · iexact Hb'
      isplitl [Hother]; · iexact Hother
      iexact Hs'
  · rw [if_neg (by omega : ¬ k.val % 2 = 0), if_pos (by omega : (k.val + 1) % 2 = 0)]
    have Ti := fun hc W => trip1_issue m c d0 v2 O k hpar hc W hmw1
    have Tt := fun hc W => trip1_tail m c d0 v2 O k hpar hc W hmw1
    iintro ⟨#Hlev, ⟨%W, HO⟩, Hh, Hb, Hs, Hother⟩
    iapply (wp_wand_r Idealize.ShloMosaic.frame (wpE (defs₀ (F := F)) 𝒱₀ (c : Thread nD τ) none) Set.univ)
    isplitl [HO Hh Hb Hs]
    · by_cases hc : k.val + 2 < 16
      · iapply (Ti hc W)
        isplitr; · iexact Hlev
        isplitl [HO]; · iexact HO
        isplitl [Hh]; · iexact Hh
        isplitl [Hb]; · iexact Hb
        iexact Hs
      · iapply (Tt (Nat.le_of_not_lt hc) W)
        isplitr; · iexact Hlev
        isplitl [HO]; · iexact HO
        isplitl [Hh]; · iexact Hh
        isplitl [Hb]; · iexact Hb
        iexact Hs
    · iintro %_ ⟨HO', Hh', Hb', Hs'⟩
      isplitr; · iexact Hlev
      isplitl [HO']; · iexact HO'
      isplitl [Hh']; · iexact Hh'
      isplitl [Hb']; · iexact Hb'
      isplitl [Hother]; · iexact Hother
      iexact Hs'

set_option warn.classDefReducibility false in
/-- The loop's invariant, instanced: the launch memory, what the core owes and the two waits' evidence are its
    logical parameters. -/
@[sl_loop] def loopInv_k0_t3
    (hmw0 : (levAts L lv : sProp 𝕄) ⊢ MayWait (c : Thread nD τ) (SemLoc.dma wS0) () O)
    (hmw1 : (levAts L lv : sProp 𝕄) ⊢ MayWait (c : Thread nD τ) (SemLoc.dma wS1) () O) :
    LoopInvTy_k0_t3 (F := F) Unit ℕ UU ℕ 𝒱₀ c none Set.univ (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 where
  inv k _ := invAt m c O k
  step k _ := step_k0_t3 m c d0 v2 O hmw0 hmw1 k

end Loop

/-! ## Entry and exit -/

section Ends
open Idealize.ShloMosaic.ValueIdx

variable (c : Dev nD) (O : CellTallies nD τ sig Unit)

/-- The first two column blocks, as the two copies before the loop slice them. -/
abbrev wpre0 : Memref sig .tc .hbm S4096x128 .f32 :=
  (wM : Memref sig .tc .hbm S4096x2048 .f32).slice (Rect.unit (s := S4096x2048) ![0, 0] S4096x128.size inb_S4096x2048_S4096x128_0_0) (fun _ => rfl)
abbrev wpre1 : Memref sig .tc .hbm S4096x128 .f32 :=
  (wM : Memref sig .tc .hbm S4096x2048 .f32).slice (Rect.unit (s := S4096x2048) ![0, 128] S4096x128.size inb_S4096x2048_S4096x128_0_128) (fun _ => rfl)

omit [FloatOps F] in
theorem wpre0_set : (wpre0 : Memref sig .tc .hbm S4096x128 .f32).view.set = colSet (Ring.bk 16 0) := (View.set_slice_whole _ _).trans rfl
omit [FloatOps F] in
theorem wpre1_set : (wpre1 : Memref sig .tc .hbm S4096x128 .f32).view.set = colSet (Ring.bk 16 (0 + 1)) := (View.set_slice_whole _ _).trans rfl

theorem homeP_eq (j : Fin 16) :
    homeP m c j = ((wM : Memref sig .tc .hbm S4096x2048 .f32).view.loc (c : Thread nD τ) ↦[colSet j]{fullShare} m ((c : Thread nD τ).loc main_arg1)) := by
  show ((wM : Memref sig .tc .hbm S4096x2048 .f32).view.loc (c : Thread nD τ) ↦[(wcol j : Memref sig .tc .hbm S4096x128 .f32).view.set]{fullShare} m ((c : Thread nD τ).loc main_arg1)) = _
  rw [wcol_set]

/-- The blocks at home are one points-to over their union. -/
theorem homes_eq (k : ℕ) :
    bigSep (Ring.homeSet (NB := 16) 2 k) (homeP m c)
      = ((wM : Memref sig .tc .hbm S4096x2048 .f32).view.loc (c : Thread nD τ) ↦[(Ring.homeSet (NB := 16) 2 k).biUnion colSet]{fullShare} m ((c : Thread nD τ).loc main_arg1)) := by
  rw [pointsTo_biUnion _ _ (fun t _ t' _ h => colSet_disjoint t t' h)]
  exact congrArg (bigSep _) (funext (homeP_eq m c))

omit [FloatOps F] in
/-- Before the first trip the blocks at home are all but the first two. -/
theorem home0_set :
    (Ring.homeSet (NB := 16) 2 0).biUnion colSet
      = (Finset.univ \ (wpre0 : Memref sig .tc .hbm S4096x128 .f32).view.set) \ (wpre1 : Memref sig .tc .hbm S4096x128 .f32).view.set := by
  rw [wpre0_set, wpre1_set]
  ext i
  have h1 := idx2_lt1 i
  simp only [Finset.mem_biUnion, Ring.mem_homeSet, Finset.mem_sdiff, Finset.mem_univ, true_and, mem_colSet,
    Ring.bk_val (show 0 < 16 by decide), Ring.bk_val (show 0 + 1 < 16 by decide)]
  constructor
  · rintro ⟨b, hb, h2, h3⟩; omega
  · rintro ⟨h0, h2⟩
    exact ⟨⟨(i 1).val / 128, by omega⟩, by show _ ∨ 0 + 2 ≤ (i 1).val / 128; omega, by show 128 * ((i 1).val / 128) ≤ _; omega, by show _ < 128 * ((i 1).val / 128) + 128; omega⟩

omit [FloatOps F] in
/-- After the last trip all are. -/
theorem home16_set : (Ring.homeSet (NB := 16) 2 16).biUnion colSet = Finset.univ := by
  rw [Ring.homeSet_last 2 16 (Nat.le_refl _)]; exact colSet_cover

theorem flight_pre0 (G0 : (cc0_scratch6 : Ref sig .tc).ty.Contents (Elt F)) :
    Transfers.Flight countersEmb (c : Thread nD τ) (SemLoc.dma wS0) () 65536
        iprop(((wfM : Memref sig .tc .vmem S2x4096x128 .f32).view.loc (c : Thread nD τ) ↦[slot0.view.set]{fullShare} G0)
          ∗ ((wM : Memref sig .tc .hbm S4096x2048 .f32).view.loc (c : Thread nD τ) ↦[(wpre0 : Memref sig .tc .hbm S4096x128 .f32).view.set]{fullShare} m ((c : Thread nD τ).loc main_arg1)))
      ⊢ flightP m c wS0 slot0 (Ring.bk 16 0) G0 := by
  apply Transfers.Flight_mono
  rw [homeP_eq, wpre0_set]
theorem flight_pre1 (G1 : (cc0_scratch6 : Ref sig .tc).ty.Contents (Elt F)) :
    Transfers.Flight countersEmb (c : Thread nD τ) (SemLoc.dma wS1) () 65536
        iprop(((wfM : Memref sig .tc .vmem S2x4096x128 .f32).view.loc (c : Thread nD τ) ↦[slot1.view.set]{fullShare} G1)
          ∗ ((wM : Memref sig .tc .hbm S4096x2048 .f32).view.loc (c : Thread nD τ) ↦[(wpre1 : Memref sig .tc .hbm S4096x128 .f32).view.set]{fullShare} m ((c : Thread nD τ).loc main_arg1)))
      ⊢ flightP m c wS1 slot1 (Ring.bk 16 (0 + 1)) G1 := by
  apply Transfers.Flight_mono
  rw [homeP_eq, wpre1_set]

/-- The state the two copies before the loop leave is the invariant before trip 0: the two transfers in flight (each
    delivering its slot at contents that read its block, and the block), the rest of w, the narrowed block at anything;
    what is left of the staging buffer beside the two slots is dropped. -/
theorem inv_entry (W : Waits sig Unit) (fb : Cols (F := F)) (G0 G1 Gr : (cc0_scratch6 : Ref sig .tc).ty.Contents (Elt F))
    (hG0 : SlotHolds m c slot0 (Ring.bk 16 0) G0) (hG1 : SlotHolds m c slot1 (Ring.bk 16 (0 + 1)) G1)
    (Sr : Finset S2x4096x128.Idx) :
    iprop(□ levAts L lv ∗ owes (c : Thread nD τ) O W
        ∗ ((wbfM : Memref sig .tc .vmem S4096x2048 .bf16).view.loc (c : Thread nD τ) ↦{fullShare} fb)
        ∗ Transfers.Flight countersEmb (c : Thread nD τ) (SemLoc.dma wS0) () 65536
            iprop(((wfM : Memref sig .tc .vmem S2x4096x128 .f32).view.loc (c : Thread nD τ) ↦[slot0.view.set]{fullShare} G0)
              ∗ ((wM : Memref sig .tc .hbm S4096x2048 .f32).view.loc (c : Thread nD τ) ↦[(wpre0 : Memref sig .tc .hbm S4096x128 .f32).view.set]{fullShare} m ((c : Thread nD τ).loc main_arg1)))
        ∗ Transfers.Flight countersEmb (c : Thread nD τ) (SemLoc.dma wS1) () 65536
            iprop(((wfM : Memref sig .tc .vmem S2x4096x128 .f32).view.loc (c : Thread nD τ) ↦[slot1.view.set]{fullShare} G1)
              ∗ ((wM : Memref sig .tc .hbm S4096x2048 .f32).view.loc (c : Thread nD τ) ↦[(wpre1 : Memref sig .tc .hbm S4096x128 .f32).view.set]{fullShare} m ((c : Thread nD τ).loc main_arg1)))
        ∗ ((wM : Memref sig .tc .hbm S4096x2048 .f32).view.loc (c : Thread nD τ)
            ↦[(Finset.univ \ (wpre0 : Memref sig .tc .hbm S4096x128 .f32).view.set) \ (wpre1 : Memref sig .tc .hbm S4096x128 .f32).view.set]{fullShare} m ((c : Thread nD τ).loc main_arg1))
        ∗ ((wfM : Memref sig .tc .vmem S2x4096x128 .f32).view.loc (c : Thread nD τ) ↦[Sr]{fullShare} Gr))
      ⊢ invAt m c O 0 := by
  unfold invAt slotSt wbfP
  rw [if_pos (show 0 % 2 = 0 by decide), if_pos (show 0 < 16 by decide), if_pos (show 0 + 1 < 16 by decide), homes_eq, home0_set]
  iintro ⟨#Hlev, HO, Hb, HF0, HF1, Hw, -⟩
  isplitr; · iexact Hlev
  isplitl [HO]; · iexists W; iexact HO
  isplitl [Hw]; · iexact Hw
  isplitl [Hb]
  · iexists fb
    isplitl [Hb]; · iexact Hb
    ipureintro; intro i hi; exact absurd hi (by omega)
  isplitl [HF0]
  · iexists G0
    isplitl [HF0]
    · iapply (flight_pre0 m c G0); iexact HF0
    · ipureintro; exact hG0
  · iexists G1
    isplitl [HF1]
    · iapply (flight_pre1 m c G1); iexact HF1
    · ipureintro; exact hG1

end Ends

section EntryAsLeft
variable (c : Dev nD) (O : CellTallies nD τ sig Unit)

/-- The same from the two copies' payloads as written into the slots: slot 0 over the buffer's contents, slot 1 over
    that. -/
theorem inv_entry_written (W : Waits sig Unit) (fb : Cols (F := F)) (f9 Gr : (cc0_scratch6 : Ref sig .tc).ty.Contents (Elt F))
    (p0 p1 : S4096x128.Idx → Elt F .f32)
    (hp0 : p0 = ReadAs.same.apply (colOf m c (Ring.bk 16 0))) (hp1 : p1 = ReadAs.same.apply (colOf m c (Ring.bk 16 (0 + 1))))
    (Sr : Finset S2x4096x128.Idx) :
    iprop(□ levAts L lv ∗ owes (c : Thread nD τ) O W
        ∗ ((wbfM : Memref sig .tc .vmem S4096x2048 .bf16).view.loc (c : Thread nD τ) ↦{fullShare} fb)
        ∗ Transfers.Flight countersEmb (c : Thread nD τ) (SemLoc.dma wS0) () 65536
            iprop(((wfM : Memref sig .tc .vmem S2x4096x128 .f32).view.loc (c : Thread nD τ) ↦[slot0.view.set]{fullShare}
                    (slot0 : Memref sig .tc .vmem S4096x128 .f32).view.write (Elt F) f9 p0 Finset.univ)
              ∗ ((wM : Memref sig .tc .hbm S4096x2048 .f32).view.loc (c : Thread nD τ) ↦[(wpre0 : Memref sig .tc .hbm S4096x128 .f32).view.set]{fullShare} m ((c : Thread nD τ).loc main_arg1)))
        ∗ Transfers.Flight countersEmb (c : Thread nD τ) (SemLoc.dma wS1) () 65536
            iprop(((wfM : Memref sig .tc .vmem S2x4096x128 .f32).view.loc (c : Thread nD τ) ↦[slot1.view.set]{fullShare}
                    (slot1 : Memref sig .tc .vmem S4096x128 .f32).view.write (Elt F) ((slot0 : Memref sig .tc .vmem S4096x128 .f32).view.write (Elt F) f9 p0 Finset.univ) p1 Finset.univ)
              ∗ ((wM : Memref sig .tc .hbm S4096x2048 .f32).view.loc (c : Thread nD τ) ↦[(wpre1 : Memref sig .tc .hbm S4096x128 .f32).view.set]{fullShare} m ((c : Thread nD τ).loc main_arg1)))
        ∗ ((wM : Memref sig .tc .hbm S4096x2048 .f32).view.loc (c : Thread nD τ)
            ↦[(Finset.univ \ (wpre0 : Memref sig .tc .hbm S4096x128 .f32).view.set) \ (wpre1 : Memref sig .tc .hbm S4096x128 .f32).view.set]{fullShare} m ((c : Thread nD τ).loc main_arg1))
        ∗ ((wfM : Memref sig .tc .vmem S2x4096x128 .f32).view.loc (c : Thread nD τ) ↦[Sr]{fullShare} Gr))
      ⊢ invAt m c O 0 := by
  subst hp0 hp1
  exact inv_entry m c O W fb _ _ Gr (slotHolds_write m c slot0 _ f9) (slotHolds_write m c slot1 _ _) Sr

end EntryAsLeft

section Exit
open Idealize.ShloMosaic.ValueIdx

variable (c : Dev nD) (O : CellTallies nD τ sig Unit)

/-- The two slots' elements: the staging buffer's two leading indices. -/
abbrev slotOff (s : Fin 2) : Fin 3 → ℕ := ![s.val, 0, 0]
theorem slotOff_inb (s : Fin 2) : ∀ a, slotOff s a + S1x4096x128.size a ≤ S2x4096x128.size a := by
  have := s.isLt; intro a; fin_cases a
  · show s.val + 1 ≤ 2; omega
  · show 0 + 4096 ≤ 4096; omega
  · show 0 + 128 ≤ 128; omega
abbrev slotSet (s : Fin 2) : Finset S2x4096x128.Idx := (Rect.unit (s := S2x4096x128) (slotOff s) S1x4096x128.size (slotOff_inb s)).set

omit [FloatOps F] in
theorem slot0_set : (slot0 : Memref sig .tc .vmem S4096x128 .f32).view.set = slotSet 0 :=
  (View.set_reshape _ _).trans ((View.set_slice_whole _ _).trans rfl)
omit [FloatOps F] in
theorem slot1_set : (slot1 : Memref sig .tc .vmem S4096x128 .f32).view.set = slotSet 1 :=
  (View.set_reshape _ _).trans ((View.set_slice_whole _ _).trans rfl)

theorem mem_slotSet (s : Fin 2) (y : S2x4096x128.Idx) : y ∈ slotSet s ↔ (y 0).val = s.val := by
  rw [Rect.mem_set_unit]
  have h1 : (y 1).val < 4096 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 128; omega

theorem slotSet_disjoint : Disjoint (slotSet 0) (slotSet 1) :=
  Finset.disjoint_left.mpr fun y h0 h1 => by
    rw [mem_slotSet] at h0 h1
    have e0 : ((0 : Fin 2) : ℕ) = 0 := rfl
    have e1 : ((1 : Fin 2) : ℕ) = 1 := rfl
    omega
theorem slotSet_union : slotSet 0 ∪ slotSet 1 = Finset.univ := by
  ext y
  simp only [Finset.mem_union, mem_slotSet, Finset.mem_univ, iff_true]
  have h0 : (y 0).val < 2 := (y 0).isLt
  have e0 : ((0 : Fin 2) : ℕ) = 0 := rfl
  have e1 : ((1 : Fin 2) : ℕ) = 1 := rfl
  omega

/-- The two slots at contents of their own are the staging buffer whole at contents that are slot 1's on slot 1 and
    slot 0's elsewhere. -/
theorem slots_join' (g0 g1 : Buf (Elt F) ((wfM : Memref sig .tc .vmem S2x4096x128 .f32).view.loc (c : Thread nD τ))) :
    iprop(slotP (F := F) c slot0 g0 ∗ slotP (F := F) c slot1 g1)
      ⊢ ((wfM : Memref sig .tc .vmem S2x4096x128 .f32).view.loc (c : Thread nD τ) ↦{fullShare} (slotSet 1).piecewise g1 g0) := by
  have e0 : slotP (F := F) c slot0 g0 = ((wfM : Memref sig .tc .vmem S2x4096x128 .f32).view.loc (c : Thread nD τ) ↦[slotSet 0]{fullShare} g0) := by
    show ((wfM : Memref sig .tc .vmem S2x4096x128 .f32).view.loc (c : Thread nD τ) ↦[(slot0 : Memref sig .tc .vmem S4096x128 .f32).view.set]{fullShare} g0) = _
    rw [slot0_set]
  have e1 : slotP (F := F) c slot1 g1 = ((wfM : Memref sig .tc .vmem S2x4096x128 .f32).view.loc (c : Thread nD τ) ↦[slotSet 1]{fullShare} g1) := by
    show ((wfM : Memref sig .tc .vmem S2x4096x128 .f32).view.loc (c : Thread nD τ) ↦[(slot1 : Memref sig .tc .vmem S4096x128 .f32).view.set]{fullShare} g1) = _
    rw [slot1_set]
  have hj := pointsTo_join (Ix := Unit) (Name := ℕ) (U := UU) (Lvl := ℕ) (ℓ := (wfM : Memref sig .tc .vmem S2x4096x128 .f32).view.loc (c : Thread nD τ)) (q := fullShare) (f := g0) (g := g1) slotSet_disjoint
  rw [slotSet_union] at hj
  rw [e0, e1]
  exact hj

/-- The two slots, each at some contents, are the staging buffer whole at some contents. -/
theorem slots_join :
    iprop((∃ f, slotP (F := F) c slot0 f) ∗ (∃ f, slotP (F := F) c slot1 f))
      ⊢ iprop(∃ g, (wfM : Memref sig .tc .vmem S2x4096x128 .f32).view.loc (c : Thread nD τ) ↦{fullShare} g) := by
  iintro ⟨⟨%g0, H0⟩, ⟨%g1, H1⟩⟩
  iexists ((slotSet 1).piecewise g1 g0)
  iapply (slots_join' (F := F) c g0 g1)
  isplitl [H0]; · iexact H0
  iexact H1

/-- After the last trip: w whole at its launch contents, the narrowed block whole and equal to the narrowed w, the staging
    buffer whole at some contents, both cells at zero, the core owing what it owed. -/
theorem inv_exit :
    invAt m c O 16 ⊢ iprop(□ levAts L lv ∗ (∃ W, owes (c : Thread nD τ) O W)
      ∗ ((wM : Memref sig .tc .hbm S4096x2048 .f32).view.loc (c : Thread nD τ) ↦{fullShare} m ((c : Thread nD τ).loc main_arg1))
      ∗ (∃ f : Cols (F := F), ((wbfM : Memref sig .tc .vmem S4096x2048 .bf16).view.loc (c : Thread nD τ) ↦{fullShare} f) ∗ ⌜∀ i, f i = wb m c i⌝)
      ∗ (∃ g, (wfM : Memref sig .tc .vmem S2x4096x128 .f32).view.loc (c : Thread nD τ) ↦{fullShare} g)
      ∗ semVal ((c : Thread nD τ), SemLoc.dma wS0) 0 ∗ semVal ((c : Thread nD τ), SemLoc.dma wS1) 0) := by
  unfold invAt slotSt wbfP
  rw [if_pos (show 16 % 2 = 0 by decide), if_neg (show ¬ 16 < 16 by decide), if_neg (show ¬ 16 + 1 < 16 by decide), homes_eq, home16_set]
  have J := slots_join (F := F) c
  iintro ⟨#Hlev, HO, Hw, ⟨%f, Hb, %hf⟩, ⟨Hc0, Hs0⟩, ⟨Hc1, Hs1⟩⟩
  isplitr; · iexact Hlev
  isplitl [HO]; · iexact HO
  isplitl [Hw]; · iexact Hw
  isplitl [Hb]
  · iexists f
    isplitl [Hb]; · iexact Hb
    ipureintro; intro i; exact hf i (by have := idx2_lt1 i; omega)
  isplitl [Hs0 Hs1]
  · iapply J
    isplitl [Hs0]; · iexact Hs0
    iexact Hs1
  isplitl [Hc0]; · iexact Hc0
  iexact Hc1

end Exit

section ExitTrips
variable (c : Dev nD) (O : CellTallies nD τ sig Unit)
/-- The same at the loop's trip count. -/
theorem inv_exit_trips :
    invAt m c O k0_t3_loop.trips ⊢ iprop(□ levAts L lv ∗ (∃ W, owes (c : Thread nD τ) O W)
      ∗ ((wM : Memref sig .tc .hbm S4096x2048 .f32).view.loc (c : Thread nD τ) ↦{fullShare} m ((c : Thread nD τ).loc main_arg1))
      ∗ (∃ f : Cols (F := F), ((wbfM : Memref sig .tc .vmem S4096x2048 .bf16).view.loc (c : Thread nD τ) ↦{fullShare} f) ∗ ⌜∀ i, f i = wb m c i⌝)
      ∗ (∃ g, (wfM : Memref sig .tc .vmem S2x4096x128 .f32).view.loc (c : Thread nD τ) ↦{fullShare} g)
      ∗ semVal ((c : Thread nD τ), SemLoc.dma wS0) 0 ∗ semVal ((c : Thread nD τ), SemLoc.dma wS1) 0) := by
  rw [t3_trips]; exact inv_exit m c O
end ExitTrips

end Cert.KernelIdeal.AG.LW
end
-- ==== Proof.OutValue.lean ====
/-
  The result's value, block by block.

  The kernel fills its 4096 × 2048 result in forty blocks. Each block is one tile of `outv`: 512 rows (256 for the rows
  of the opposite device) by 512 columns, computed into a slot of a two-slot buffer and copied from the slot to its place
  in the result. Three things are shown. What the copy carries is the tile: reading a slot, through the placement that
  drops the slot axis, of contents whose last store was the tile under an added unit axis returns the tile; and a load
  of whole rows (or of 512 whole columns) through a buffer's placement is the row range (column range) of its contents.
  Writing a tile at its block of a function that agrees with `outv` on a set of elements gives a function that agrees
  with `outv` on that set and the block. And the forty blocks cover the result, so a function that agrees with `outv` on
  all of them is `outv`.
-/
import proofs.«900658_g7700000000000659_dist_ag_gemm_m4096_k4096_n8192_f32_relu_v7x_i4_1_alg».proof.Proof.Contents
import proofs.«900658_g7700000000000659_dist_ag_gemm_m4096_k4096_n8192_f32_relu_v7x_i4_1_alg».proof.Proof.Ring
import proofs.«900658_g7700000000000659_dist_ag_gemm_m4096_k4096_n8192_f32_relu_v7x_i4_1_alg».proof.Proof.State
import Idealize.ShloMosaic.Lib.Pipeline.Value
import Idealize.ShloMosaic.Lib.ValueLayout
import Idealize.ShloMosaic.Lib.Writes

noncomputable section

namespace Cert.KernelIdeal.AG

open Cert.KernelIdeal Cert.KernelIdeal.Gen Idealize.ShloMosaic Idealize.ShloMosaic.TcCoe
open Idealize.ShloMosaic.ValueIdx

variable {F : FTy → Type} [FloatOps F]

/-! ## Loads of whole rows and of whole columns -/

/-- An element of the range of `n` rows from row `r₀`, placed in the 1024 × 4096 array. -/
theorem emb_rows {n : Nat} {o : Fin 2 → Nat} {inb : ∀ a, o a + (![n, 4096] : Fin 2 → Nat) a ≤ S1024x4096.size a} {r₀ : Nat}
    (ho : o = ![r₀, 0]) (x : (⟨2, ![n, 4096]⟩ : Shape).Idx) (hlt : r₀ + (x 0).val < 1024) :
    (Rect.unit (s := S1024x4096) o ![n, 4096] inb).emb x = ix2 (⟨r₀ + (x 0).val, hlt⟩ : Fin 1024) (x 1 : Fin 4096) := by
  subst ho
  funext a
  match a with
  | ⟨0, _⟩ => exact Fin.ext (by show r₀ + 1 * (x 0).val = _; rw [Nat.one_mul])
  | ⟨1, _⟩ => exact Fin.ext (by show 0 + 1 * (x 1).val = _; rw [Nat.one_mul, Nat.zero_add])

/-- An element of the range of 512 columns from column `c₀`, placed in the 4096 × 2048 array. -/
theorem emb_cols {o : Fin 2 → Nat} {inb : ∀ a, o a + S4096x512.size a ≤ S4096x2048.size a} {c₀ : Nat}
    (ho : o = ![0, c₀]) (x : S4096x512.Idx) (hlt : c₀ + (x 1).val < 2048) :
    (Rect.unit (s := S4096x2048) o S4096x512.size inb).emb x = ix2 (x 0 : Fin 4096) (⟨c₀ + (x 1).val, hlt⟩ : Fin 2048) := by
  subst ho
  funext a
  match a with
  | ⟨0, _⟩ => exact Fin.ext (by show 0 + 1 * (x 0).val = _; rw [Nat.one_mul, Nat.zero_add])
  | ⟨1, _⟩ => exact Fin.ext (by show c₀ + 1 * (x 1).val = _; rw [Nat.one_mul])

/-- The contents read along a range of 512 rows are that half. -/
theorem ld_rows512 (X : Rows (F := F)) (h : Fin 2) {o : Fin 2 → Nat} (inb : ∀ a, o a + S512x4096.size a ≤ S1024x4096.size a)
    (ho : o = ![512 * h.val, 0]) :
    (fun x => X ((Rect.unit (s := S1024x4096) o S512x4096.size inb).emb x)) = rows512 X h := by
  funext x
  have h0 := idx2_lt0 x; have hh := h.isLt
  exact congrArg X (emb_rows ho x (by omega))

/-- The contents read along a range of 256 rows are that quarter. -/
theorem ld_rows256 (X : Rows (F := F)) (h : Fin 4) {o : Fin 2 → Nat} (inb : ∀ a, o a + S256x4096.size a ≤ S1024x4096.size a)
    (ho : o = ![256 * h.val, 0]) :
    (fun x => X ((Rect.unit (s := S1024x4096) o S256x4096.size inb).emb x)) = rows256 X h := by
  funext x
  have h0 := idx2_lt0 x; have hh := h.isLt
  exact congrArg X (emb_rows ho x (by omega))

/-- The contents read along a range of 512 columns are that column tile. -/
theorem ld_cols512 (W : Cols (F := F)) (t : Fin 4) {o : Fin 2 → Nat} (inb : ∀ a, o a + S4096x512.size a ≤ S4096x2048.size a)
    (ho : o = ![0, 512 * t.val]) :
    (fun x => W ((Rect.unit (s := S4096x2048) o S4096x512.size inb).emb x)) = cols512 W t := by
  funext x
  have h1 := idx2_lt1 x; have ht := t.isLt
  exact congrArg W (emb_cols ho x (by omega))

/-- A load of 512 whole rows through the placement of the device's own buffer, of the buffer of what came from the
    left, of the buffer of what came from the right: that half of the contents. -/
theorem readAt_own_rows512 (X : Rows (F := F)) (h : Fin 2) {o : Fin 2 → Nat} (inb : ∀ a, o a + S512x4096.size a ≤ S1024x4096.size a)
    (ho : o = ![512 * h.val, 0]) :
    View.readAt (Elt F) ownM.view (Rect.unit (s := S1024x4096) o S512x4096.size inb).toLoadRect X = rows512 X h :=
  ld_rows512 X h inb ho
theorem readAt_lft_rows512 (X : Rows (F := F)) (h : Fin 2) {o : Fin 2 → Nat} (inb : ∀ a, o a + S512x4096.size a ≤ S1024x4096.size a)
    (ho : o = ![512 * h.val, 0]) :
    View.readAt (Elt F) lftM.view (Rect.unit (s := S1024x4096) o S512x4096.size inb).toLoadRect X = rows512 X h :=
  ld_rows512 X h inb ho
theorem readAt_rgt_rows512 (X : Rows (F := F)) (h : Fin 2) {o : Fin 2 → Nat} (inb : ∀ a, o a + S512x4096.size a ≤ S1024x4096.size a)
    (ho : o = ![512 * h.val, 0]) :
    View.readAt (Elt F) rgtM.view (Rect.unit (s := S1024x4096) o S512x4096.size inb).toLoadRect X = rows512 X h :=
  ld_rows512 X h inb ho
/-- A load of 256 whole rows through the placement of the buffer of what came from across: that quarter. -/
theorem readAt_dgn_rows256 (X : Rows (F := F)) (h : Fin 4) {o : Fin 2 → Nat} (inb : ∀ a, o a + S256x4096.size a ≤ S1024x4096.size a)
    (ho : o = ![256 * h.val, 0]) :
    View.readAt (Elt F) dgnM.view (Rect.unit (s := S1024x4096) o S256x4096.size inb).toLoadRect X = rows256 X h :=
  ld_rows256 X h inb ho
/-- A load of 512 whole columns through the placement of the buffer of narrowed columns: that column tile. -/
theorem readAt_wbf_cols512 (W : Cols (F := F)) (t : Fin 4) {o : Fin 2 → Nat} (inb : ∀ a, o a + S4096x512.size a ≤ S4096x2048.size a)
    (ho : o = ![0, 512 * t.val]) :
    View.readAt (Elt F) wbfM.view (Rect.unit (s := S4096x2048) o S4096x512.size inb).toLoadRect W = cols512 W t :=
  ld_cols512 W t inb ho

/-! The same at the literal offsets the kernel's loads are printed with. -/

theorem readAt_own_h0 (X : Rows (F := F)) (inb : ∀ a, (![0, 0] : Fin 2 → Nat) a + S512x4096.size a ≤ S1024x4096.size a) :
    View.readAt (Elt F) ownM.view (Rect.unit (s := S1024x4096) ![0, 0] S512x4096.size inb).toLoadRect X = rows512 X 0 :=
  readAt_own_rows512 X 0 inb rfl
theorem readAt_own_h1 (X : Rows (F := F)) (inb : ∀ a, (![512, 0] : Fin 2 → Nat) a + S512x4096.size a ≤ S1024x4096.size a) :
    View.readAt (Elt F) ownM.view (Rect.unit (s := S1024x4096) ![512, 0] S512x4096.size inb).toLoadRect X = rows512 X 1 :=
  readAt_own_rows512 X 1 inb rfl
theorem readAt_lft_h0 (X : Rows (F := F)) (inb : ∀ a, (![0, 0] : Fin 2 → Nat) a + S512x4096.size a ≤ S1024x4096.size a) :
    View.readAt (Elt F) lftM.view (Rect.unit (s := S1024x4096) ![0, 0] S512x4096.size inb).toLoadRect X = rows512 X 0 :=
  readAt_lft_rows512 X 0 inb rfl
theorem readAt_lft_h1 (X : Rows (F := F)) (inb : ∀ a, (![512, 0] : Fin 2 → Nat) a + S512x4096.size a ≤ S1024x4096.size a) :
    View.readAt (Elt F) lftM.view (Rect.unit (s := S1024x4096) ![512, 0] S512x4096.size inb).toLoadRect X = rows512 X 1 :=
  readAt_lft_rows512 X 1 inb rfl
theorem readAt_rgt_h0 (X : Rows (F := F)) (inb : ∀ a, (![0, 0] : Fin 2 → Nat) a + S512x4096.size a ≤ S1024x4096.size a) :
    View.readAt (Elt F) rgtM.view (Rect.unit (s := S1024x4096) ![0, 0] S512x4096.size inb).toLoadRect X = rows512 X 0 :=
  readAt_rgt_rows512 X 0 inb rfl
theorem readAt_rgt_h1 (X : Rows (F := F)) (inb : ∀ a, (![512, 0] : Fin 2 → Nat) a + S512x4096.size a ≤ S1024x4096.size a) :
    View.readAt (Elt F) rgtM.view (Rect.unit (s := S1024x4096) ![512, 0] S512x4096.size inb).toLoadRect X = rows512 X 1 :=
  readAt_rgt_rows512 X 1 inb rfl
theorem readAt_dgn_q0 (X : Rows (F := F)) (inb : ∀ a, (![0, 0] : Fin 2 → Nat) a + S256x4096.size a ≤ S1024x4096.size a) :
    View.readAt (Elt F) dgnM.view (Rect.unit (s := S1024x4096) ![0, 0] S256x4096.size inb).toLoadRect X = rows256 X 0 :=
  readAt_dgn_rows256 X 0 inb rfl
theorem readAt_dgn_q1 (X : Rows (F := F)) (inb : ∀ a, (![256, 0] : Fin 2 → Nat) a + S256x4096.size a ≤ S1024x4096.size a) :
    View.readAt (Elt F) dgnM.view (Rect.unit (s := S1024x4096) ![256, 0] S256x4096.size inb).toLoadRect X = rows256 X 1 :=
  readAt_dgn_rows256 X 1 inb rfl
theorem readAt_dgn_q2 (X : Rows (F := F)) (inb : ∀ a, (![512, 0] : Fin 2 → Nat) a + S256x4096.size a ≤ S1024x4096.size a) :
    View.readAt (Elt F) dgnM.view (Rect.unit (s := S1024x4096) ![512, 0] S256x4096.size inb).toLoadRect X = rows256 X 2 :=
  readAt_dgn_rows256 X 2 inb rfl
theorem readAt_dgn_q3 (X : Rows (F := F)) (inb : ∀ a, (![768, 0] : Fin 2 → Nat) a + S256x4096.size a ≤ S1024x4096.size a) :
    View.readAt (Elt F) dgnM.view (Rect.unit (s := S1024x4096) ![768, 0] S256x4096.size inb).toLoadRect X = rows256 X 3 :=
  readAt_dgn_rows256 X 3 inb rfl
theorem readAt_wbf_t0 (W : Cols (F := F)) (inb : ∀ a, (![0, 0] : Fin 2 → Nat) a + S4096x512.size a ≤ S4096x2048.size a) :
    View.readAt (Elt F) wbfM.view (Rect.unit (s := S4096x2048) ![0, 0] S4096x512.size inb).toLoadRect W = cols512 W 0 :=
  readAt_wbf_cols512 W 0 inb rfl
theorem readAt_wbf_t1 (W : Cols (F := F)) (inb : ∀ a, (![0, 512] : Fin 2 → Nat) a + S4096x512.size a ≤ S4096x2048.size a) :
    View.readAt (Elt F) wbfM.view (Rect.unit (s := S4096x2048) ![0, 512] S4096x512.size inb).toLoadRect W = cols512 W 1 :=
  readAt_wbf_cols512 W 1 inb rfl
theorem readAt_wbf_t2 (W : Cols (F := F)) (inb : ∀ a, (![0, 1024] : Fin 2 → Nat) a + S4096x512.size a ≤ S4096x2048.size a) :
    View.readAt (Elt F) wbfM.view (Rect.unit (s := S4096x2048) ![0, 1024] S4096x512.size inb).toLoadRect W = cols512 W 2 :=
  readAt_wbf_cols512 W 2 inb rfl
theorem readAt_wbf_t3 (W : Cols (F := F)) (inb : ∀ a, (![0, 1536] : Fin 2 → Nat) a + S4096x512.size a ≤ S4096x2048.size a) :
    View.readAt (Elt F) wbfM.view (Rect.unit (s := S4096x2048) ![0, 1536] S4096x512.size inb).toLoadRect W = cols512 W 3 :=
  readAt_wbf_cols512 W 3 inb rfl

/-! ## What a copy out of a slot carries -/

/-- Reading a slot of 512 rows, through the placement that drops the slot axis, of contents whose last store was `T`
    under an added unit axis at that slot returns `T`. -/
theorem slot512_read {o : Fin 3 → Nat} (inb : ∀ a, o a + S1x512x512.size a ≤ S2x512x512.size a)
    (hs : ∀ a, (Rect.unit (s := S2x512x512) o S1x512x512.size inb).stride a = 1)
    (f : (cc0_scratch7 : Ref sig .tc).ty.Contents (Elt F)) (P : S1x512x512.Idx → Elt F .f32) (T : S512x512.Idx → Elt F .f32)
    (hP : P = shapeCast S1x512x512 T shapeCasts_S512x512_S1x512x512) (L : List (View.Piece (Elt F) S2x512x512 .f32)) :
    ReadAs.same.apply (View.read (Elt F)
        ((yvM.slice (Rect.unit (s := S2x512x512) o S1x512x512.size inb) hs).squeeze S512x512 squeezes_S1x512x512_S512x512).view
        (yvM.view.writes (Elt F) f (⟨Rect.unit (s := S2x512x512) o S1x512x512.size inb, P⟩ :: L))) = T := by
  subst hP
  funext x
  obtain ⟨p, q, rfl⟩ : ∃ (p : Fin 512) (q : Fin 512), x = ix2 p q := ⟨x 0, x 1, eq_ix2 x⟩
  rw [ReadAs.apply_same]
  show yvM.view.read (Elt F) (yvM.view.writes (Elt F) f (⟨Rect.unit (s := S2x512x512) o S1x512x512.size inb, _⟩ :: L))
      ((Rect.unit (s := S2x512x512) o S1x512x512.size inb).emb (Shape.reshapeEquiv squeezes_S1x512x512_S512x512.numel_eq (ix2 p q))) = T (ix2 p q)
  rw [View.read_writes_cons_emb, reshapeEquiv_ix2_1ab, shapeCast_ab_1ab_apply]

/-- The same for a slot's first 256 rows. -/
theorem slot256_read {o : Fin 3 → Nat} (inb : ∀ a, o a + S1x256x512.size a ≤ S2x512x512.size a)
    (hs : ∀ a, (Rect.unit (s := S2x512x512) o S1x256x512.size inb).stride a = 1)
    (f : (cc0_scratch7 : Ref sig .tc).ty.Contents (Elt F)) (P : S1x256x512.Idx → Elt F .f32) (T : S256x512.Idx → Elt F .f32)
    (hP : P = shapeCast S1x256x512 T shapeCasts_S256x512_S1x256x512) (L : List (View.Piece (Elt F) S2x512x512 .f32)) :
    ReadAs.same.apply (View.read (Elt F)
        ((yvM.slice (Rect.unit (s := S2x512x512) o S1x256x512.size inb) hs).squeeze S256x512 squeezes_S1x256x512_S256x512).view
        (yvM.view.writes (Elt F) f (⟨Rect.unit (s := S2x512x512) o S1x256x512.size inb, P⟩ :: L))) = T := by
  subst hP
  funext x
  obtain ⟨p, q, rfl⟩ : ∃ (p : Fin 256) (q : Fin 512), x = ix2 p q := ⟨x 0, x 1, eq_ix2 x⟩
  rw [ReadAs.apply_same]
  show yvM.view.read (Elt F) (yvM.view.writes (Elt F) f (⟨Rect.unit (s := S2x512x512) o S1x256x512.size inb, _⟩ :: L))
      ((Rect.unit (s := S2x512x512) o S1x256x512.size inb).emb (Shape.reshapeEquiv squeezes_S1x256x512_S256x512.numel_eq (ix2 p q))) = T (ix2 p q)
  rw [View.read_writes_cons_emb, reshapeEquiv_ix2_1ab, shapeCast_ab_1ab_apply]

/-! ## The value of `outv` on a block -/

variable (m : (ℓ : Loc nD τ sig) → Buf (Elt F) ℓ)

/-- At row `1024 d + 512 h + p` and column `512 t + q`, for a device `d` other than the opposite one, `outv` is element
    (p, q) of the tile of half `h` of `d`'s rows with column tile `t`. -/
theorem outv_at512 (c d : Dev nD) (hd : d ≠ opp c) (h : Fin 2) (t : Fin 4) (p q : Fin 512) (i : S4096x2048.Idx)
    (hi0 : (i 0).val = 1024 * d.val + 512 * h.val + p.val) (hi1 : (i 1).val = 512 * t.val + q.val) :
    outv m c i = mmRelu512F (rows512 (xb m d) h) (cols512 (wb m c) t) (ix2 p q) := by
  have hh := h.isLt; have hp := p.isLt; have hq := q.isLt; have hdl : d.val < 4 := d.isLt; have htl := t.isLt
  have e1 : oDev i = d := Fin.ext (by show (i 0).val / 1024 = d.val; omega)
  have e2 : (⟨(oRow i).val / 512, by have := (oRow i).isLt; omega⟩ : Fin 2) = h :=
    Fin.ext (by show (i 0).val % 1024 / 512 = h.val; omega)
  have e3 : oTile i = t := Fin.ext (by show (i 1).val / 512 = t.val; omega)
  have e4 : (⟨(oRow i).val % 512, Nat.mod_lt _ (by decide)⟩ : Fin 512) = p :=
    Fin.ext (by show (i 0).val % 1024 % 512 = p.val; omega)
  have e5 : oCol i = q := Fin.ext (by show (i 1).val % 512 = q.val; omega)
  rw [outv_ne m c i (by rw [e1]; exact hd), e1, e2, e3, e4, e5]

/-- At row `1024 (opp c) + 256 h + p` and column `512 t + q`, `outv` is element (p, q) of the tile of quarter `h` of the
    opposite device's rows with column tile `t`. -/
theorem outv_at256 (c : Dev nD) (h : Fin 4) (t : Fin 4) (p : Fin 256) (q : Fin 512) (i : S4096x2048.Idx)
    (hi0 : (i 0).val = 1024 * (opp c).val + 256 * h.val + p.val) (hi1 : (i 1).val = 512 * t.val + q.val) :
    outv m c i = mmRelu256F (rows256 (xb m (opp c)) h) (cols512 (wb m c) t) (ix2 p q) := by
  have hh := h.isLt; have hp := p.isLt; have hq := q.isLt; have hdl : (opp c).val < 4 := (opp c).isLt; have htl := t.isLt
  have e1 : oDev i = opp c := Fin.ext (by show (i 0).val / 1024 = (opp c).val; omega)
  have e2 : (⟨(oRow i).val / 256, by have := (oRow i).isLt; omega⟩ : Fin 4) = h :=
    Fin.ext (by show (i 0).val % 1024 / 256 = h.val; omega)
  have e3 : oTile i = t := Fin.ext (by show (i 1).val / 512 = t.val; omega)
  have e4 : (⟨(oRow i).val % 256, Nat.mod_lt _ (by decide)⟩ : Fin 256) = p :=
    Fin.ext (by show (i 0).val % 1024 % 256 = p.val; omega)
  have e5 : oCol i = q := Fin.ext (by show (i 1).val % 512 = q.val; omega)
  rw [outv_opp m c i e1, e1, e2, e3, e4, e5]

/-! ## Blocks, labelled

An element of the result is labelled by the device its row belongs to, the quarter of that device's 1024 rows its row
lies in, and the tile of 512 columns its column lies in: 4 × 4 × 4 labels. A block of 512 rows is two labels, a block of
256 rows one. Which elements a function is known to agree with `outv` on is kept as a set of labels. -/

/-- Device, quarter of its rows, column tile. -/
abbrev Lab : Type := Dev nD × Fin 4 × Fin 4

/-- The quarter of the device's rows: ((i 0) mod 1024) / 256. -/
def oQuart (i : S4096x2048.Idx) : Fin 4 := ⟨(oRow i).val / 256, by have := (oRow i).isLt; omega⟩

/-- An element's label. -/
def lab (i : S4096x2048.Idx) : Lab := (oDev i, oQuart i, oTile i)

/-- The two labels of half `h` of device `d`'s rows at column tile `t`. -/
def lab512 (d : Dev nD) (h : Fin 2) (t : Fin 4) : Finset Lab :=
  {(d, ⟨2 * h.val, by have := h.isLt; omega⟩, t), (d, ⟨2 * h.val + 1, by have := h.isLt; omega⟩, t)}

/-- The label of quarter `q` of device `d`'s rows at column tile `t`. -/
def lab256 (d : Dev nD) (q : Fin 4) (t : Fin 4) : Finset Lab := {(d, q, t)}

/-- `g` agrees with `outv m c` on every element whose label is in `D`. -/
def Agrees (c : Dev nD) (D : Finset Lab) (g : (main_v1 : Ref sig .tc).ty.Contents (Elt F)) : Prop :=
  ∀ i : S4096x2048.Idx, lab i ∈ D → g i = outv m c i

theorem agrees_empty (c : Dev nD) (g : (main_v1 : Ref sig .tc).ty.Contents (Elt F)) : Agrees m c ∅ g :=
  fun i hi => absurd hi (Finset.notMem_empty _)

/-- Agreement on every label is equality. -/
theorem eq_outv_of_agrees (c : Dev nD) {D : Finset Lab} {g : (main_v1 : Ref sig .tc).ty.Contents (Elt F)}
    (hg : Agrees m c D g) (hD : D = Finset.univ) : g = outv m c :=
  funext fun i => hg i (hD ▸ Finset.mem_univ _)

/-- The elements of the block of 512 rows from row `1024 d + 512 h` and 512 columns from column `512 t` are those
    labelled by half `h` of `d` at tile `t`. -/
theorem mem_blk512_iff {off : Fin 2 → Nat} (inb : ∀ a, off a + S512x512.size a ≤ S4096x2048.size a)
    (d : Dev nD) (h : Fin 2) (t : Fin 4) (hr : off 0 = 1024 * d.val + 512 * h.val) (hc : off 1 = 512 * t.val)
    (i : S4096x2048.Idx) :
    i ∈ (Rect.unit (s := S4096x2048) off S512x512.size inb).set ↔ lab i ∈ lab512 d h t := by
  have hh := h.isLt; have hdl : d.val < 4 := d.isLt; have htl := t.isLt
  have h0 := idx2_lt0 i; have h1 := idx2_lt1 i
  rw [Rect.mem_set_unit, Fin.forall_fin_two]
  unfold lab lab512
  simp only [Finset.mem_insert, Finset.mem_singleton, Prod.mk.injEq, Fin.ext_iff]
  show (off 0 ≤ (i 0).val ∧ (i 0).val < off 0 + 512) ∧ (off 1 ≤ (i 1).val ∧ (i 1).val < off 1 + 512)
    ↔ ((i 0).val / 1024 = d.val ∧ (i 0).val % 1024 / 256 = 2 * h.val ∧ (i 1).val / 512 = t.val)
      ∨ ((i 0).val / 1024 = d.val ∧ (i 0).val % 1024 / 256 = 2 * h.val + 1 ∧ (i 1).val / 512 = t.val)
  omega

/-- The elements of the block of 256 rows from row `1024 d + 256 q` and 512 columns from column `512 t` are those
    labelled by quarter `q` of `d` at tile `t`. -/
theorem mem_blk256_iff {off : Fin 2 → Nat} (inb : ∀ a, off a + S256x512.size a ≤ S4096x2048.size a)
    (d : Dev nD) (q : Fin 4) (t : Fin 4) (hr : off 0 = 1024 * d.val + 256 * q.val) (hc : off 1 = 512 * t.val)
    (i : S4096x2048.Idx) :
    i ∈ (Rect.unit (s := S4096x2048) off S256x512.size inb).set ↔ lab i ∈ lab256 d q t := by
  have hq := q.isLt; have hdl : d.val < 4 := d.isLt; have htl := t.isLt
  have h0 := idx2_lt0 i; have h1 := idx2_lt1 i
  rw [Rect.mem_set_unit, Fin.forall_fin_two]
  unfold lab lab256
  simp only [Finset.mem_singleton, Prod.mk.injEq, Fin.ext_iff]
  show (off 0 ≤ (i 0).val ∧ (i 0).val < off 0 + 256) ∧ (off 1 ≤ (i 1).val ∧ (i 1).val < off 1 + 512)
    ↔ ((i 0).val / 1024 = d.val ∧ (i 0).val % 1024 / 256 = q.val ∧ (i 1).val / 512 = t.val)
  omega

/-! ## Writing a block -/

/-- Writing, at a block of `n` rows and 512 columns whose elements are those labelled in `B`, a payload that is `outv`
    on the block, into a function that agrees with `outv` on the labels `D`: the result agrees on `D ∪ B`. -/
theorem agrees_write_block (c : Dev nD) {n : Nat} {D B : Finset Lab} {g : (main_v1 : Ref sig .tc).ty.Contents (Elt F)}
    (hg : Agrees m c D g) {off : Fin 2 → Nat} (inb : ∀ a, off a + (![n, 512] : Fin 2 → Nat) a ≤ S4096x2048.size a)
    (hs : ∀ a, (Rect.unit (s := S4096x2048) off ![n, 512] inb).stride a = 1)
    (hB : ∀ i, i ∈ (Rect.unit (s := S4096x2048) off ![n, 512] inb).set ↔ lab i ∈ B)
    (P : (⟨2, ![n, 512]⟩ : Shape).Idx → Elt F .f32)
    (hP : ∀ x, P x = outv m c ((Rect.unit (s := S4096x2048) off ![n, 512] inb).emb x)) :
    Agrees m c (D ∪ B) ((oM.slice (Rect.unit (s := S4096x2048) off ![n, 512] inb) hs).view.write (Elt F) g P Finset.univ) := by
  intro i hi
  by_cases hb : i ∈ (Rect.unit (s := S4096x2048) off ![n, 512] inb).set
  · obtain ⟨x, rfl⟩ := (Rect.unit (s := S4096x2048) off ![n, 512] inb).exists_idx_of_mem hb
    exact (View.write_emb_of_mem (v := (oM.slice (Rect.unit (s := S4096x2048) off ![n, 512] inb) hs).view) (Val := Elt F)
      g P (M := Finset.univ) (x := x) (Finset.mem_univ x)).trans (hP x)
  · rw [View.write_of_not_mem _ _ _ (by rw [View.setOn_univ, View.set_slice_whole]; exact hb)]
    exact hg i ((Finset.mem_union.mp hi).resolve_right fun h => hb ((hB i).mpr h))

/-- A tile of 512 rows written at its block. -/
theorem agrees_write512 (c d : Dev nD) (hd : d ≠ opp c) (h : Fin 2) (t : Fin 4) {D : Finset Lab}
    {g : (main_v1 : Ref sig .tc).ty.Contents (Elt F)} (hg : Agrees m c D g)
    {off : Fin 2 → Nat} (inb : ∀ a, off a + S512x512.size a ≤ S4096x2048.size a)
    (hs : ∀ a, (Rect.unit (s := S4096x2048) off S512x512.size inb).stride a = 1)
    (hr : off 0 = 1024 * d.val + 512 * h.val) (hc : off 1 = 512 * t.val)
    (P : S512x512.Idx → Elt F .f32) (hP : P = mmRelu512F (rows512 (xb m d) h) (cols512 (wb m c) t)) :
    Agrees m c (D ∪ lab512 d h t)
      ((oM.slice (Rect.unit (s := S4096x2048) off S512x512.size inb) hs).view.write (Elt F) g P Finset.univ) :=
  agrees_write_block m c hg inb hs (mem_blk512_iff inb d h t hr hc) P fun x => by
    subst hP
    have e := outv_at512 m c d hd h t (x 0) (x 1) ((Rect.unit (s := S4096x2048) off S512x512.size inb).emb x)
      (by show off 0 + 1 * (x 0).val = _; omega) (by show off 1 + 1 * (x 1).val = _; omega)
    rw [e]
    exact congrArg _ (eq_ix2 x)

/-- A tile of 256 rows of the opposite device written at its block. -/
theorem agrees_write256 (c : Dev nD) (q : Fin 4) (t : Fin 4) {D : Finset Lab}
    {g : (main_v1 : Ref sig .tc).ty.Contents (Elt F)} (hg : Agrees m c D g)
    {off : Fin 2 → Nat} (inb : ∀ a, off a + S256x512.size a ≤ S4096x2048.size a)
    (hs : ∀ a, (Rect.unit (s := S4096x2048) off S256x512.size inb).stride a = 1)
    (hr : off 0 = 1024 * (opp c).val + 256 * q.val) (hc : off 1 = 512 * t.val)
    (P : S256x512.Idx → Elt F .f32) (hP : P = mmRelu256F (rows256 (xb m (opp c)) q) (cols512 (wb m c) t)) :
    Agrees m c (D ∪ lab256 (opp c) q t)
      ((oM.slice (Rect.unit (s := S4096x2048) off S256x512.size inb) hs).view.write (Elt F) g P Finset.univ) :=
  agrees_write_block m c hg inb hs (mem_blk256_iff inb (opp c) q t hr hc) P fun x => by
    subst hP
    have e := outv_at256 m c q t (x 0) (x 1) ((Rect.unit (s := S4096x2048) off S256x512.size inb).emb x)
      (by show off 0 + 1 * (x 0).val = _; omega) (by show off 1 + 1 * (x 1).val = _; omega)
    rw [e]
    exact congrArg _ (eq_ix2 x)

/-! ## The forty blocks cover the result -/

/-- The labels of the forty blocks, in the order the kernel writes them: the device's own rows (halves alternating,
    tile by tile), the left and right neighbours' first halves, their second halves, then the opposite device's
    quarters 0 and 2, then 1 and 3. -/
def labels40 (c : Dev nD) : Finset Lab :=
  ∅ ∪ lab512 c 0 0 ∪ lab512 c 1 0 ∪ lab512 c 0 1 ∪ lab512 c 1 1 ∪ lab512 c 0 2 ∪ lab512 c 1 2 ∪ lab512 c 0 3 ∪ lab512 c 1 3
    ∪ lab512 (prv c) 0 0 ∪ lab512 (nxt c) 0 0 ∪ lab512 (prv c) 0 1 ∪ lab512 (nxt c) 0 1
    ∪ lab512 (prv c) 0 2 ∪ lab512 (nxt c) 0 2 ∪ lab512 (prv c) 0 3 ∪ lab512 (nxt c) 0 3
    ∪ lab512 (prv c) 1 0 ∪ lab512 (nxt c) 1 0 ∪ lab512 (prv c) 1 1 ∪ lab512 (nxt c) 1 1
    ∪ lab512 (prv c) 1 2 ∪ lab512 (nxt c) 1 2 ∪ lab512 (prv c) 1 3 ∪ lab512 (nxt c) 1 3
    ∪ lab256 (opp c) 0 0 ∪ lab256 (opp c) 2 0 ∪ lab256 (opp c) 0 1 ∪ lab256 (opp c) 2 1
    ∪ lab256 (opp c) 0 2 ∪ lab256 (opp c) 2 2 ∪ lab256 (opp c) 0 3 ∪ lab256 (opp c) 2 3
    ∪ lab256 (opp c) 1 0 ∪ lab256 (opp c) 3 0 ∪ lab256 (opp c) 1 1 ∪ lab256 (opp c) 3 1
    ∪ lab256 (opp c) 1 2 ∪ lab256 (opp c) 3 2 ∪ lab256 (opp c) 1 3 ∪ lab256 (opp c) 3 3

/-- They are all sixty-four labels. -/
theorem labels40_univ : ∀ c : Dev nD, labels40 c = Finset.univ := by decide

/-- A function that agrees with `outv` on the forty blocks is `outv`. -/
theorem eq_outv_of_agrees40 (c : Dev nD) {g : (main_v1 : Ref sig .tc).ty.Contents (Elt F)}
    (hg : Agrees m c (labels40 c) g) : g = outv m c :=
  eq_outv_of_agrees m c hg (labels40_univ c)

/-- info: 'Cert.KernelIdeal.AG.agrees_write512' depends on axioms: [propext, Classical.choice, Quot.sound] -/
#guard_msgs in #print axioms agrees_write512

/-- info: 'Cert.KernelIdeal.AG.eq_outv_of_agrees40' depends on axioms: [propext, Classical.choice, Quot.sound] -/
#guard_msgs in #print axioms eq_outv_of_agrees40

end Cert.KernelIdeal.AG

end
-- ==== Proof.OutDisjoint.lean ====
/-
  Blocks of the result that share no element.

  A block's elements are those carrying its labels (device, quarter of its rows, column tile), so two blocks whose label
  sets are disjoint share no element. The left and the right neighbour's rows at one column tile are such a pair, because
  the two neighbours are different devices; so are the last block of one phase and the first of the next, which lie in
  different column tiles.
-/
import proofs.«900658_g7700000000000659_dist_ag_gemm_m4096_k4096_n8192_f32_relu_v7x_i4_1_alg».proof.Proof.OutValue

noncomputable section

namespace Cert.KernelIdeal.AG

open Cert.KernelIdeal Cert.KernelIdeal.Gen Idealize.ShloMosaic Idealize.ShloMosaic.TcCoe
open Idealize.ShloMosaic.ValueIdx

/-- Two blocks of the result whose elements are those labelled in `B` and in `B'`, with `B` and `B'` disjoint, share
    no element. -/
theorem out_blocks_disjoint {n n' : Nat} {off off' : Fin 2 → Nat}
    (inb : ∀ a, off a + (![n, 512] : Fin 2 → Nat) a ≤ S4096x2048.size a)
    (inb' : ∀ a, off' a + (![n', 512] : Fin 2 → Nat) a ≤ S4096x2048.size a)
    (hs : ∀ a, (Rect.unit (s := S4096x2048) off ![n, 512] inb).stride a = 1)
    (hs' : ∀ a, (Rect.unit (s := S4096x2048) off' ![n', 512] inb').stride a = 1)
    {B B' : Finset Lab}
    (hB : ∀ i, i ∈ (Rect.unit (s := S4096x2048) off ![n, 512] inb).set ↔ lab i ∈ B)
    (hB' : ∀ i, i ∈ (Rect.unit (s := S4096x2048) off' ![n', 512] inb').set ↔ lab i ∈ B')
    (hd : Disjoint B B') :
    Disjoint ((Memref.whole main_v1 : Memref sig .tc .hbm S4096x2048 .f32).slice (Rect.unit (s := S4096x2048) off ![n, 512] inb) hs).view.set
      ((Memref.whole main_v1 : Memref sig .tc .hbm S4096x2048 .f32).slice (Rect.unit (s := S4096x2048) off' ![n', 512] inb') hs').view.set := by
  show Disjoint ((View.whole main_v1).slice (Rect.unit (s := S4096x2048) off ![n, 512] inb)).set
    ((View.whole main_v1).slice (Rect.unit (s := S4096x2048) off' ![n', 512] inb')).set
  rw [View.set_slice_whole, View.set_slice_whole]
  exact Finset.disjoint_left.mpr fun i h h' => Finset.disjoint_left.mp hd ((hB i).mp h) ((hB' i).mp h')

/-- A label of half `h` of `d` at tile `t` names `d`, a quarter whose half is `h`, and `t`. -/
theorem of_mem_lab512 {d : Dev nD} {h : Fin 2} {t : Fin 4} {x : Lab} (hx : x ∈ lab512 d h t) :
    x.1 = d ∧ x.2.1.val / 2 = h.val ∧ x.2.2 = t := by
  unfold lab512 at hx
  simp only [Finset.mem_insert, Finset.mem_singleton] at hx
  rcases hx with rfl | rfl <;> refine ⟨rfl, ?_, rfl⟩ <;> (dsimp only; omega)

/-- The labels of two different (device, half, column tile) are disjoint. -/
theorem lab512_disjoint (d d' : Dev nD) (h h' : Fin 2) (t t' : Fin 4) (hne : (d, h, t) ≠ (d', h', t')) :
    Disjoint (lab512 d h t) (lab512 d' h' t') :=
  Finset.disjoint_left.mpr fun x hx hx' => hne (by
    obtain ⟨a1, a2, a3⟩ := of_mem_lab512 hx
    obtain ⟨b1, b2, b3⟩ := of_mem_lab512 hx'
    exact Prod.ext (a1.symm.trans b1) (Prod.ext (Fin.ext (a2.symm.trans b2)) (a3.symm.trans b3)))

/-- Two blocks of 512 rows with different (device, half, column tile) share no element. -/
theorem blk512_disjoint {off off' : Fin 2 → Nat}
    (inb : ∀ a, off a + S512x512.size a ≤ S4096x2048.size a) (inb' : ∀ a, off' a + S512x512.size a ≤ S4096x2048.size a)
    (hs : ∀ a, (Rect.unit (s := S4096x2048) off S512x512.size inb).stride a = 1)
    (hs' : ∀ a, (Rect.unit (s := S4096x2048) off' S512x512.size inb').stride a = 1)
    (d d' : Dev nD) (h h' : Fin 2) (t t' : Fin 4)
    (hr : off 0 = 1024 * d.val + 512 * h.val) (hc : off 1 = 512 * t.val)
    (hr' : off' 0 = 1024 * d'.val + 512 * h'.val) (hc' : off' 1 = 512 * t'.val)
    (hne : (d, h, t) ≠ (d', h', t')) :
    Disjoint ((Memref.whole main_v1 : Memref sig .tc .hbm S4096x2048 .f32).slice (Rect.unit (s := S4096x2048) off S512x512.size inb) hs).view.set
      ((Memref.whole main_v1 : Memref sig .tc .hbm S4096x2048 .f32).slice (Rect.unit (s := S4096x2048) off' S512x512.size inb') hs').view.set :=
  out_blocks_disjoint inb inb' hs hs' (mem_blk512_iff inb d h t hr hc) (mem_blk512_iff inb' d' h' t' hr' hc')
    (lab512_disjoint d d' h h' t t' hne)

/-! The left and the right neighbour's blocks at one column tile, the later copy first. -/

theorem disj_34_33 (c : Dev nD) :
    Disjoint ((Memref.whole main_v1 : Memref sig .tc .hbm S4096x2048 .f32).slice (Rect.unit (s := S4096x2048) (k0_off34 c) S512x512.size (k0_off34_inb c)) (fun _ => rfl)).view.set
      ((Memref.whole main_v1 : Memref sig .tc .hbm S4096x2048 .f32).slice (Rect.unit (s := S4096x2048) (k0_off33 c) S512x512.size (k0_off33_inb c)) (fun _ => rfl)).view.set :=
  blk512_disjoint _ _ _ _ (nxt c) (prv c) 0 0 0 0 (by rw [off34_eq]; rfl) (by rw [off34_eq]; rfl) (by rw [off33_eq]; rfl) (by rw [off33_eq]; rfl)
    (fun e => nxt_ne_prv c (Prod.ext_iff.mp e).1)
theorem disj_36_35 (c : Dev nD) :
    Disjoint ((Memref.whole main_v1 : Memref sig .tc .hbm S4096x2048 .f32).slice (Rect.unit (s := S4096x2048) (k0_off36 c) S512x512.size (k0_off36_inb c)) (fun _ => rfl)).view.set
      ((Memref.whole main_v1 : Memref sig .tc .hbm S4096x2048 .f32).slice (Rect.unit (s := S4096x2048) (k0_off35 c) S512x512.size (k0_off35_inb c)) (fun _ => rfl)).view.set :=
  blk512_disjoint _ _ _ _ (nxt c) (prv c) 0 0 1 1 (by rw [off36_eq]; rfl) (by rw [off36_eq]; rfl) (by rw [off35_eq]; rfl) (by rw [off35_eq]; rfl)
    (fun e => nxt_ne_prv c (Prod.ext_iff.mp e).1)
theorem disj_38_37 (c : Dev nD) :
    Disjoint ((Memref.whole main_v1 : Memref sig .tc .hbm S4096x2048 .f32).slice (Rect.unit (s := S4096x2048) (k0_off38 c) S512x512.size (k0_off38_inb c)) (fun _ => rfl)).view.set
      ((Memref.whole main_v1 : Memref sig .tc .hbm S4096x2048 .f32).slice (Rect.unit (s := S4096x2048) (k0_off37 c) S512x512.size (k0_off37_inb c)) (fun _ => rfl)).view.set :=
  blk512_disjoint _ _ _ _ (nxt c) (prv c) 0 0 2 2 (by rw [off38_eq]; rfl) (by rw [off38_eq]; rfl) (by rw [off37_eq]; rfl) (by rw [off37_eq]; rfl)
    (fun e => nxt_ne_prv c (Prod.ext_iff.mp e).1)
theorem disj_40_39 (c : Dev nD) :
    Disjoint ((Memref.whole main_v1 : Memref sig .tc .hbm S4096x2048 .f32).slice (Rect.unit (s := S4096x2048) (k0_off40 c) S512x512.size (k0_off40_inb c)) (fun _ => rfl)).view.set
      ((Memref.whole main_v1 : Memref sig .tc .hbm S4096x2048 .f32).slice (Rect.unit (s := S4096x2048) (k0_off39 c) S512x512.size (k0_off39_inb c)) (fun _ => rfl)).view.set :=
  blk512_disjoint _ _ _ _ (nxt c) (prv c) 0 0 3 3 (by rw [off40_eq]; rfl) (by rw [off40_eq]; rfl) (by rw [off39_eq]; rfl) (by rw [off39_eq]; rfl)
    (fun e => nxt_ne_prv c (Prod.ext_iff.mp e).1)
theorem disj_42_41 (c : Dev nD) :
    Disjoint ((Memref.whole main_v1 : Memref sig .tc .hbm S4096x2048 .f32).slice (Rect.unit (s := S4096x2048) (k0_off42 c) S512x512.size (k0_off42_inb c)) (fun _ => rfl)).view.set
      ((Memref.whole main_v1 : Memref sig .tc .hbm S4096x2048 .f32).slice (Rect.unit (s := S4096x2048) (k0_off41 c) S512x512.size (k0_off41_inb c)) (fun _ => rfl)).view.set :=
  blk512_disjoint _ _ _ _ (nxt c) (prv c) 1 1 0 0 (by rw [off42_eq]; rfl) (by rw [off42_eq]; rfl) (by rw [off41_eq]; rfl) (by rw [off41_eq]; rfl)
    (fun e => nxt_ne_prv c (Prod.ext_iff.mp e).1)
theorem disj_44_43 (c : Dev nD) :
    Disjoint ((Memref.whole main_v1 : Memref sig .tc .hbm S4096x2048 .f32).slice (Rect.unit (s := S4096x2048) (k0_off44 c) S512x512.size (k0_off44_inb c)) (fun _ => rfl)).view.set
      ((Memref.whole main_v1 : Memref sig .tc .hbm S4096x2048 .f32).slice (Rect.unit (s := S4096x2048) (k0_off43 c) S512x512.size (k0_off43_inb c)) (fun _ => rfl)).view.set :=
  blk512_disjoint _ _ _ _ (nxt c) (prv c) 1 1 1 1 (by rw [off44_eq]; rfl) (by rw [off44_eq]; rfl) (by rw [off43_eq]; rfl) (by rw [off43_eq]; rfl)
    (fun e => nxt_ne_prv c (Prod.ext_iff.mp e).1)
theorem disj_46_45 (c : Dev nD) :
    Disjoint ((Memref.whole main_v1 : Memref sig .tc .hbm S4096x2048 .f32).slice (Rect.unit (s := S4096x2048) (k0_off46 c) S512x512.size (k0_off46_inb c)) (fun _ => rfl)).view.set
      ((Memref.whole main_v1 : Memref sig .tc .hbm S4096x2048 .f32).slice (Rect.unit (s := S4096x2048) (k0_off45 c) S512x512.size (k0_off45_inb c)) (fun _ => rfl)).view.set :=
  blk512_disjoint _ _ _ _ (nxt c) (prv c) 1 1 2 2 (by rw [off46_eq]; rfl) (by rw [off46_eq]; rfl) (by rw [off45_eq]; rfl) (by rw [off45_eq]; rfl)
    (fun e => nxt_ne_prv c (Prod.ext_iff.mp e).1)
theorem disj_48_47 (c : Dev nD) :
    Disjoint ((Memref.whole main_v1 : Memref sig .tc .hbm S4096x2048 .f32).slice (Rect.unit (s := S4096x2048) (k0_off48 c) S512x512.size (k0_off48_inb c)) (fun _ => rfl)).view.set
      ((Memref.whole main_v1 : Memref sig .tc .hbm S4096x2048 .f32).slice (Rect.unit (s := S4096x2048) (k0_off47 c) S512x512.size (k0_off47_inb c)) (fun _ => rfl)).view.set :=
  blk512_disjoint _ _ _ _ (nxt c) (prv c) 1 1 3 3 (by rw [off48_eq]; rfl) (by rw [off48_eq]; rfl) (by rw [off47_eq]; rfl) (by rw [off47_eq]; rfl)
    (fun e => nxt_ne_prv c (Prod.ext_iff.mp e).1)

/-! The last block of one phase and the first of the next, the later copy first: they lie in different column tiles. -/

theorem disj_33_32 (c : Dev nD) :
    Disjoint ((Memref.whole main_v1 : Memref sig .tc .hbm S4096x2048 .f32).slice (Rect.unit (s := S4096x2048) (k0_off33 c) S512x512.size (k0_off33_inb c)) (fun _ => rfl)).view.set
      ((Memref.whole main_v1 : Memref sig .tc .hbm S4096x2048 .f32).slice (Rect.unit (s := S4096x2048) (k0_off32 c) S512x512.size (k0_off32_inb c)) (fun _ => rfl)).view.set :=
  blk512_disjoint _ _ _ _ (prv c) c 0 1 0 3 (by rw [off33_eq]; rfl) (by rw [off33_eq]; rfl) (by rw [k0_off32_eq]; rfl) (by rw [k0_off32_eq]; rfl)
    (fun e => (show (0 : Fin 4) ≠ 3 by decide) (congrArg (fun p : Dev nD × Fin 2 × Fin 4 => p.2.2) e))
theorem disj_41_40 (c : Dev nD) :
    Disjoint ((Memref.whole main_v1 : Memref sig .tc .hbm S4096x2048 .f32).slice (Rect.unit (s := S4096x2048) (k0_off41 c) S512x512.size (k0_off41_inb c)) (fun _ => rfl)).view.set
      ((Memref.whole main_v1 : Memref sig .tc .hbm S4096x2048 .f32).slice (Rect.unit (s := S4096x2048) (k0_off40 c) S512x512.size (k0_off40_inb c)) (fun _ => rfl)).view.set :=
  blk512_disjoint _ _ _ _ (prv c) (nxt c) 1 0 0 3 (by rw [off41_eq]; rfl) (by rw [off41_eq]; rfl) (by rw [off40_eq]; rfl) (by rw [off40_eq]; rfl)
    (fun e => (show (0 : Fin 4) ≠ 3 by decide) (congrArg (fun p : Dev nD × Fin 2 × Fin 4 => p.2.2) e))
theorem disj_49_48 (c : Dev nD) :
    Disjoint ((Memref.whole main_v1 : Memref sig .tc .hbm S4096x2048 .f32).slice (Rect.unit (s := S4096x2048) (k0_off49 c) S256x512.size (k0_off49_inb c)) (fun _ => rfl)).view.set
      ((Memref.whole main_v1 : Memref sig .tc .hbm S4096x2048 .f32).slice (Rect.unit (s := S4096x2048) (k0_off48 c) S512x512.size (k0_off48_inb c)) (fun _ => rfl)).view.set :=
  out_blocks_disjoint (n := 256) (n' := 512) (k0_off49_inb c) (k0_off48_inb c) _ _
    (mem_blk256_iff (k0_off49_inb c) (opp c) 0 0 (by rw [off49_eq]; rfl) (by rw [off49_eq]; rfl))
    (mem_blk512_iff (k0_off48_inb c) (nxt c) 1 3 (by rw [off48_eq]; rfl) (by rw [off48_eq]; rfl))
    (by revert c; decide)

/-- info: 'Cert.KernelIdeal.AG.disj_34_33' depends on axioms: [propext, Classical.choice, Quot.sound] -/
#guard_msgs in #print axioms disj_34_33

end Cert.KernelIdeal.AG

end
-- ==== Proof.Body.lean ====
/-
  The kernel body on one device: from what the launch hands it (Phi.lean's bodyPre) to the result holding its column
  block of relu (X · W) with every argument unchanged (bodyPost), owing nothing.

  The order of events, as the program has it: the entry handshake with both ring neighbours (two units out, two in), which
  hands over the buffers the neighbours let this device write; the device's rows of x narrowed in two halves, each half
  sent to both neighbours as soon as it is done; its block of w narrowed; the products on its own rows while those copies
  travel; each neighbour's first half as it lands — its quarters forwarded one step further, the products on it — then the
  second halves likewise; the quarters that came across, and their products; every wait; the result tiles' copies drained.
  The straight-line stretches are run by the symbolic executor; the barrier's wait and the eight remote copies are applied
  by the rules of the rounds library (Sends.lean); the three loops go by their invariants (LoopX.lean, LoopW.lean); the row
  buffers are cut and rejoined by RowRangesInst.lean and Rejoin.lean; what the result holds is OutValue.lean's.
-/
import proofs.«900658_g7700000000000659_dist_ag_gemm_m4096_k4096_n8192_f32_relu_v7x_i4_1_alg».proof.Proof.Phi
import proofs.«900658_g7700000000000659_dist_ag_gemm_m4096_k4096_n8192_f32_relu_v7x_i4_1_alg».proof.Proof.Levels
import proofs.«900658_g7700000000000659_dist_ag_gemm_m4096_k4096_n8192_f32_relu_v7x_i4_1_alg».proof.Proof.RowRangesInst
import proofs.«900658_g7700000000000659_dist_ag_gemm_m4096_k4096_n8192_f32_relu_v7x_i4_1_alg».proof.Proof.Tables
import proofs.«900658_g7700000000000659_dist_ag_gemm_m4096_k4096_n8192_f32_relu_v7x_i4_1_alg».proof.Proof.Rejoin
import proofs.«900658_g7700000000000659_dist_ag_gemm_m4096_k4096_n8192_f32_relu_v7x_i4_1_alg».proof.Proof.CloseCells
import proofs.«900658_g7700000000000659_dist_ag_gemm_m4096_k4096_n8192_f32_relu_v7x_i4_1_alg».proof.Proof.Sends
import proofs.«900658_g7700000000000659_dist_ag_gemm_m4096_k4096_n8192_f32_relu_v7x_i4_1_alg».proof.Proof.LoopX
import proofs.«900658_g7700000000000659_dist_ag_gemm_m4096_k4096_n8192_f32_relu_v7x_i4_1_alg».proof.Proof.LoopW
import proofs.«900658_g7700000000000659_dist_ag_gemm_m4096_k4096_n8192_f32_relu_v7x_i4_1_alg».proof.Proof.OutDisjoint

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## The legs' semaphores as the program spells them -/

theorem sS_a1r_canon : ((SemArray.slice cc0_scratch8 (Rect.unit (s := S4) ![0] S1.size inb_S4_S1_0)).squeeze S_ squeezes_S1_S_).sem = sS .a1r := rfl
theorem sS_a1l_canon : ((SemArray.slice cc0_scratch8 (Rect.unit (s := S4) ![1] S1.size inb_S4_S1_1)).squeeze S_ squeezes_S1_S_).sem = sS .a1l := rfl
theorem sS_a2r_canon : ((SemArray.slice cc0_scratch8 (Rect.unit (s := S4) ![2] S1.size inb_S4_S1_2)).squeeze S_ squeezes_S1_S_).sem = sS .a2r := rfl
theorem sS_a2l_canon : ((SemArray.slice cc0_scratch8 (Rect.unit (s := S4) ![3] S1.size inb_S4_S1_3)).squeeze S_ squeezes_S1_S_).sem = sS .a2l := rfl
theorem sS_fr0_canon : ((SemArray.slice cc0_scratch10 (Rect.unit (s := S4) ![0] S1.size inb_S4_S1_0)).squeeze S_ squeezes_S1_S_).sem = sS .fr0 := rfl
theorem sS_fr1_canon : ((SemArray.slice cc0_scratch10 (Rect.unit (s := S4) ![1] S1.size inb_S4_S1_1)).squeeze S_ squeezes_S1_S_).sem = sS .fr1 := rfl
theorem sS_fl0_canon : ((SemArray.slice cc0_scratch10 (Rect.unit (s := S4) ![2] S1.size inb_S4_S1_2)).squeeze S_ squeezes_S1_S_).sem = sS .fl0 := rfl
theorem sS_fl1_canon : ((SemArray.slice cc0_scratch10 (Rect.unit (s := S4) ![3] S1.size inb_S4_S1_3)).squeeze S_ squeezes_S1_S_).sem = sS .fl1 := rfl
theorem sR_a1r_canon : ((SemArray.slice cc0_scratch9 (Rect.unit (s := S4) ![0] S1.size inb_S4_S1_0)).squeeze S_ squeezes_S1_S_).sem = sR .a1r := rfl
theorem sR_a1l_canon : ((SemArray.slice cc0_scratch9 (Rect.unit (s := S4) ![1] S1.size inb_S4_S1_1)).squeeze S_ squeezes_S1_S_).sem = sR .a1l := rfl
theorem sR_a2r_canon : ((SemArray.slice cc0_scratch9 (Rect.unit (s := S4) ![2] S1.size inb_S4_S1_2)).squeeze S_ squeezes_S1_S_).sem = sR .a2r := rfl
theorem sR_a2l_canon : ((SemArray.slice cc0_scratch9 (Rect.unit (s := S4) ![3] S1.size inb_S4_S1_3)).squeeze S_ squeezes_S1_S_).sem = sR .a2l := rfl
theorem sR_fr0_canon : ((SemArray.slice cc0_scratch11 (Rect.unit (s := S4) ![0] S1.size inb_S4_S1_0)).squeeze S_ squeezes_S1_S_).sem = sR .fr0 := rfl
theorem sR_fr1_canon : ((SemArray.slice cc0_scratch11 (Rect.unit (s := S4) ![1] S1.size inb_S4_S1_1)).squeeze S_ squeezes_S1_S_).sem = sR .fr1 := rfl
theorem sR_fl0_canon : ((SemArray.slice cc0_scratch11 (Rect.unit (s := S4) ![2] S1.size inb_S4_S1_2)).squeeze S_ squeezes_S1_S_).sem = sR .fl0 := rfl
theorem sR_fl1_canon : ((SemArray.slice cc0_scratch11 (Rect.unit (s := S4) ![3] S1.size inb_S4_S1_3)).squeeze S_ squeezes_S1_S_).sem = sR .fl1 := rfl
attribute [local sl_canon] sS_a1r_canon sR_a1r_canon sS_a1l_canon sR_a1l_canon sS_a2r_canon sR_a2r_canon sS_a2l_canon sR_a2l_canon sS_fr0_canon sR_fr0_canon sS_fr1_canon sR_fr1_canon sS_fl0_canon sR_fl0_canon sS_fl1_canon sR_fl1_canon

attribute [local sl_rounds] duties_bar duties_send duties_recv amount_bar amount_send amount_recv expect_bar expect_send expect_recv
  payload_bar_true_prv payload_bar_false_nxt
  pay_send_a1r pay_send_a1l pay_send_a2r pay_send_a2l pay_send_fr0 pay_send_fr1 pay_send_fl0 pay_send_fl1
  pay_recv_a1r pay_recv_a1l pay_recv_a2r pay_recv_a2l pay_recv_fr0 pay_recv_fr1 pay_recv_fl0 pay_recv_fl1
  prv_nxt nxt_prv opp_nxt opp_prv
attribute [local sl_canon] dev1_eq dev2_eq dev3_eq dev4_eq dev5_eq dev6_eq dev7_eq dev8_eq dev9_eq dev10_eq

/-- What the device owes, stage by stage: after the barrier the eight legs' credits; each send takes the last summand off. -/
def O8 (c : Dev nD) : CellTallies nD τ sig Unit :=
  tallyAt (recvCell .fl1 (prv c)) () (legAmt .fl1) + tallyAt (recvCell .fl0 (prv c)) () (legAmt .fl0)
  + tallyAt (recvCell .fr1 (nxt c)) () (legAmt .fr1) + tallyAt (recvCell .fr0 (nxt c)) () (legAmt .fr0)
  + tallyAt (recvCell .a2l (prv c)) () (legAmt .a2l) + tallyAt (recvCell .a2r (nxt c)) () (legAmt .a2r)
  + tallyAt (recvCell .a1l (prv c)) () (legAmt .a1l) + tallyAt (recvCell .a1r (nxt c)) () (legAmt .a1r)
def O6 (c : Dev nD) : CellTallies nD τ sig Unit :=
  tallyAt (recvCell .fl1 (prv c)) () (legAmt .fl1) + tallyAt (recvCell .fl0 (prv c)) () (legAmt .fl0)
  + tallyAt (recvCell .fr1 (nxt c)) () (legAmt .fr1) + tallyAt (recvCell .fr0 (nxt c)) () (legAmt .fr0)
  + tallyAt (recvCell .a2l (prv c)) () (legAmt .a2l) + tallyAt (recvCell .a2r (nxt c)) () (legAmt .a2r)
def O4 (c : Dev nD) : CellTallies nD τ sig Unit :=
  tallyAt (recvCell .fl1 (prv c)) () (legAmt .fl1) + tallyAt (recvCell .fl0 (prv c)) () (legAmt .fl0)
  + tallyAt (recvCell .fr1 (nxt c)) () (legAmt .fr1) + tallyAt (recvCell .fr0 (nxt c)) () (legAmt .fr0)
def O2 (c : Dev nD) : CellTallies nD τ sig Unit :=
  tallyAt (recvCell .fl1 (prv c)) () (legAmt .fl1) + tallyAt (recvCell .fl0 (prv c)) () (legAmt .fl0)
theorem above_O8 (c : Dev nD) (k : ℕ) (hk : k < 2) : Above k (O8 c) := by
  unfold O8; repeat' apply above_add
  all_goals exact above_recv _ _ (by rw [lv_recv]; dsimp only; omega)
theorem above_O6 (c : Dev nD) (k : ℕ) (hk : k < 2) : Above k (O6 c) := by
  unfold O6; repeat' apply above_add
  all_goals exact above_recv _ _ (by rw [lv_recv]; dsimp only; omega)
theorem above_O4 (c : Dev nD) (k : ℕ) (hk : k < 3) : Above k (O4 c) := by
  unfold O4; repeat' apply above_add
  all_goals exact above_recv _ _ (by rw [lv_recv]; dsimp only; omega)
theorem above_O2 (c : Dev nD) (k : ℕ) (hk : k < 3) : Above k (O2 c) := by
  unfold O2; repeat' apply above_add
  all_goals exact above_recv _ _ (by rw [lv_recv]; dsimp only; omega)

-- one theorem over the whole body (every printed part, the three loops, the forty result tiles): minutes of elaboration
set_option maxHeartbeats 8000000 in
theorem sound_body (c : Dev nD) (W : Waits sig Unit) (Kt : PUnit → sProp 𝕄) :
    iprop((bodyPre m K c ∗ owes (c : Thread nD τ) (O₀ c) W) ∗ ((bodyPost m c ∗ ∃ W', owes (c : Thread nD τ) 0 W') -∗ Kt ⟨⟩))
      ⊢ wp frame (wpE (defs₀ (F := F)) 𝒱₀ c none) Set.univ (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14) Kt := by
  unfold bodyPre ghost barInv legInvAt barGhost legGhostAt localSems creds arrays scratch O₀
  iintro ⟨⟨⟨⟨⟨⟨#HIb, #HIbp, #HIbn⟩, ⟨#HIs0, #HIr0, #HIt0⟩, ⟨#HIs1, #HIr1, #HIt1⟩, ⟨#HIs2, #HIr2, #HIt2⟩, ⟨#HIs3, #HIr3, #HIt3⟩, ⟨#HIs4, #HIr4, #HIt4⟩, ⟨#HIs5, #HIr5, #HIt5⟩, ⟨#HIs6, #HIr6, #HIt6⟩, ⟨#HIs7, #HIr7, #HIt7⟩⟩, ⟨Hatb, #Hrbp, #Hrbn, Htbp, Htbn⟩, ⟨Has0, Har0, #Hrs0, #Hrr0, #Hrt0, Hts0, Htt0⟩, ⟨Has1, Har1, #Hrs1, #Hrr1, #Hrt1, Hts1, Htt1⟩, ⟨Has2, Har2, #Hrs2, #Hrr2, #Hrt2, Hts2, Htt2⟩, ⟨Has3, Har3, #Hrs3, #Hrr3, #Hrt3, Hts3, Htt3⟩, ⟨Has4, Har4, #Hrs4, #Hrr4, #Hrt4, Hts4, Htt4⟩, ⟨Has5, Har5, #Hrs5, #Hrr5, #Hrt5, Hts5, Htt5⟩, ⟨Has6, Har6, #Hrs6, #Hrr6, #Hrt6, Hts6, Htt6⟩, ⟨Has7, Har7, #Hrs7, #Hrr7, #Hrt7, Hts7, Htt7⟩⟩,
    ⟨Hx0, Hx1, Hw0, Hw1, Hy0, Hy1⟩, ⟨Hcb, Hc0, Hc1, Hc2, Hc3, Hc4, Hc5, Hc6, Hc7⟩, #Hlev, ⟨Harg0, Harg1, Hout⟩,
    ⟨⟨%f0, Hown⟩, ⟨%f1, Hlft⟩, ⟨%f2, Hrgt⟩, ⟨%f3, Hdgn⟩, ⟨%f4, Hwbf⟩, ⟨%f5, Hxf⟩, ⟨%f6, Hwf⟩, ⟨%f7, Hyv⟩⟩⟩, HO⟩, Hk⟩
  ihave Hd := (split_halves_dgn c fullShare f3).1 $$ Hdgn
  icases Hd with ⟨Hdg0, Hdg1⟩
  -- the levels' word for every wait made while something is still owed
  have hmwx0 : (levAts L lv : sProp 𝕄) ⊢ MayWait (c : Thread nD τ) (SemLoc.dma xS0) () (O8 c) := mayWait_of_above c (SemLoc.dma xS0) (O8 c) (by rw [lv_xS0]; exact above_O8 c 0 (by decide))
  have hmwx1 : (levAts L lv : sProp 𝕄) ⊢ MayWait (c : Thread nD τ) (SemLoc.dma xS1) () (O8 c) := mayWait_of_above c (SemLoc.dma xS1) (O8 c) (by rw [lv_xS1]; exact above_O8 c 0 (by decide))
  have hmwx0' : (levAts L lv : sProp 𝕄) ⊢ MayWait (c : Thread nD τ) (SemLoc.dma xS0) () (O6 c) := mayWait_of_above c (SemLoc.dma xS0) (O6 c) (by rw [lv_xS0]; exact above_O6 c 0 (by decide))
  have hmwx1' : (levAts L lv : sProp 𝕄) ⊢ MayWait (c : Thread nD τ) (SemLoc.dma xS1) () (O6 c) := mayWait_of_above c (SemLoc.dma xS1) (O6 c) (by rw [lv_xS1]; exact above_O6 c 0 (by decide))
  have hmwy0 : (levAts L lv : sProp 𝕄) ⊢ MayWait (c : Thread nD τ) (SemLoc.dma yS0) () (O4 c) := mayWait_of_above c (SemLoc.dma yS0) (O4 c) (by rw [lv_yS0]; exact above_O4 c 0 (by decide))
  have hmwy1 : (levAts L lv : sProp 𝕄) ⊢ MayWait (c : Thread nD τ) (SemLoc.dma yS1) () (O4 c) := mayWait_of_above c (SemLoc.dma yS1) (O4 c) (by rw [lv_yS1]; exact above_O4 c 0 (by decide))
  have hmwy0' : (levAts L lv : sProp 𝕄) ⊢ MayWait (c : Thread nD τ) (SemLoc.dma yS0) () (O2 c) := mayWait_of_above c (SemLoc.dma yS0) (O2 c) (by rw [lv_yS0]; exact above_O2 c 0 (by decide))
  have hmwy1' : (levAts L lv : sProp 𝕄) ⊢ MayWait (c : Thread nD τ) (SemLoc.dma yS1) () (O2 c) := mayWait_of_above c (SemLoc.dma yS1) (O2 c) (by rw [lv_yS1]; exact above_O2 c 0 (by decide))
  have hmww0 : (levAts L lv : sProp 𝕄) ⊢ MayWait (c : Thread nD τ) (SemLoc.dma wS0) () (O4 c) := mayWait_of_above c (SemLoc.dma wS0) (O4 c) (by rw [lv_wS0]; exact above_O4 c 0 (by decide))
  have hmww1 : (levAts L lv : sProp 𝕄) ⊢ MayWait (c : Thread nD τ) (SemLoc.dma wS1) () (O4 c) := mayWait_of_above c (SemLoc.dma wS1) (O4 c) (by rw [lv_wS1]; exact above_O4 c 0 (by decide))
  have hmwr0 : (levAts L lv : sProp 𝕄) ⊢ MayWait (c : Thread nD τ) (SemLoc.dma (sR .a1r)) () (O4 c) := mayWait_of_above c (SemLoc.dma (sR .a1r)) (O4 c) (by rw [show lv ((c : Thread nD τ), SemLoc.dma (sR .a1r)) () = 2 from lv_recv .a1r c]; exact above_O4 c 2 (by decide))
  have hmwr1 : (levAts L lv : sProp 𝕄) ⊢ MayWait (c : Thread nD τ) (SemLoc.dma (sR .a1l)) () (O2 c) := mayWait_of_above c (SemLoc.dma (sR .a1l)) (O2 c) (by rw [show lv ((c : Thread nD τ), SemLoc.dma (sR .a1l)) () = 2 from lv_recv .a1l c]; exact above_O2 c 2 (by decide))
  have hmwr3 : (levAts L lv : sProp 𝕄) ⊢ MayWait (c : Thread nD τ) (SemLoc.dma (sR .a2l)) () (O2 c) := mayWait_of_above c (SemLoc.dma (sR .a2l)) (O2 c) (by rw [show lv ((c : Thread nD τ), SemLoc.dma (sR .a2l)) () = 2 from lv_recv .a2l c]; exact above_O2 c 2 (by decide))
  unfold O8 at hmwx0 hmwx1; unfold O6 at hmwx0' hmwx1'; unfold O4 at hmwy0 hmwy1 hmwr0 hmww0 hmww1; unfold O2 at hmwy0' hmwy1' hmwr1 hmwr3
  have hdj_34_33 := disj_34_33 c
  have hdj_36_35 := disj_36_35 c
  have hdj_38_37 := disj_38_37 c
  have hdj_40_39 := disj_40_39 c
  have hdj_42_41 := disj_42_41 c
  have hdj_44_43 := disj_44_43 c
  have hdj_46_45 := disj_46_45 c
  have hdj_48_47 := disj_48_47 c
  have hdj_33_32 := disj_33_32 c
  have hdj_41_40 := disj_41_40 c
  have hdj_49_48 := disj_49_48 c
  rw [cc0_body_eq_skeleton]; unfold cc0_body_skel
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  -- the wait for both neighbours' units: everything still owed is a receive cell, above the barrier cell
  iapply (Rounds.wp_wait_rest_token 𝒱₀ ER (agRd m) (c : Thread nD τ) none (κ := K (barCell c))
      (wpE_semWait_eq 𝒱₀ (c : Thread nD τ) none Set.univ) (Set.mem_univ _) () (O := _) (W := W) (R := 0) (m := 0) (T := ∅)
      (by rw [expect_bar]; decide)) $$ [Hcb HO Hatb]
  · isplitr; · iexact HIb
    isplitl [Hcb]; · iexact Hcb
    isplitl [HO]; · iexact HO
    isplitr; · iapply (mayWait_of_above c (.reg barS) _ (by rw [lv_bar]; exact above_O8 c 1 (by decide))); iexact Hlev
    iexact Hatb
  iintro ⟨HO, Hatb, -, Hpay⟩
  ihave Hp := (Entails.of_eq (rest_bar m c)) $$ Hpay
  unfold barPayF barPayT
  icases Hp with ⟨⟨⟨%g2, Hrgtp⟩, ⟨%g3b, Hdg1p⟩⟩, ⟨⟨%g1, Hlftn⟩, ⟨%g3a, Hdg0n⟩⟩⟩
  -- the first conversion of rows: two prefetches, then the loop from its invariant
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  ihave Hinv := (inv_entry1 m c _ _ f0 f5 (sound_body.sl.dma0 m c) (sound_body.sl.dma0_1 m c)
      (blk_of_off m c 0 (by decide) (by decide) _ _) (blk_of_off m c 1 (by decide) (by decide) _ _)) $$ [HO Hown Hx0 Hx1 Harg0 Hxf]
  · isplitr; · iexact Hlev
    isplitl [HO]; · iexact HO
    isplitl [Hown]; · iexact Hown
    isplitl [Hx0]; · iexact Hx0
    isplitl [Hx1]; · iexact Hx1
    isplitl [Harg0]; · iexact Harg0
    iexact Hxf
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  -- the own buffer in halves; rows 0–511 hold the converted block and are shared three ways: two legs and the loads
  ihave Hs := (split_halves_own c fullShare fL1).1 $$ HL1
  icases Hs with ⟨Hown0, Hown1⟩
  ihave Hown0 := (rowsOn_restate ownH0 c fullShare fL1 (xb m c) hL2) $$ Hown0
  ihave Hs := (rowsOn_full ownH0 c (xb m c)).1 $$ Hown0
  icases Hs with ⟨Hown0a, Hown0r⟩
  ihave Hs := (rowsOn_full_right ownH0 c (xb m c)).1 $$ Hown0r
  icases Hs with ⟨Hown0b, Hown0c⟩
  -- the neighbours' landing buffers in halves
  ihave Hs := (split_halves_lft (nxt c) fullShare g1).1 $$ Hlftn
  icases Hs with ⟨Hlftn0, Hlftn1⟩
  ihave Hs := (split_halves_rgt (prv c) fullShare g2).1 $$ Hrgtp
  icases Hs with ⟨Hrgtp0, Hrgtp1⟩
  iapply (wp_send_a1r m K c (nxt c) rfl g1 _ _) $$ [HL0 Hown0a Hlftn0 Hts0 Htt0]
  · isplitr; · iexact HIs0
    isplitr; · iexact HIt0
    isplitl [Hown0a]; · iexact Hown0a
    isplitl [Hlftn0]; · iexact Hlftn0
    isplitl [HL0]; · iexact HL0
    isplitl [Hts0]; · iexact Hts0
    isplitr; · iexact Hrs0
    isplitl [Htt0]; · iexact Htt0
    iexact Hrt0
  iintro ⟨Hcs0, HO⟩
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  iapply (wp_send_a1l m K c (prv c) rfl g2 _ _) $$ [HO Hown0b Hrgtp0 Hts1 Htt1]
  · isplitr; · iexact HIs1
    isplitr; · iexact HIt1
    isplitl [Hown0b]; · iexact Hown0b
    isplitl [Hrgtp0]; · iexact Hrgtp0
    isplitl [HO]; · iexact HO
    isplitl [Hts1]; · iexact Hts1
    isplitr; · iexact Hrs1
    isplitl [Htt1]; · iexact Htt1
    iexact Hrt1
  iintro ⟨Hcs1, HO⟩
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  -- the second conversion of rows, over rows 512–1023 only (rows 0–511 are lent to the two legs just fired)
  ihave Hinv := (inv_entry2 m c _ _ fL1 (fun i h1 h2 => by omega) GL2 (sound_body.sl.dma0_2 m c) (sound_body.sl.dma0_3 m c)
      (blk_of_off m c 4 (by decide) (by decide) _ _) (blk_of_off m c 5 (by decide) (by decide) _ _)) $$ [HO Hown1 HL3 HL4 HL5 HL6]
  · isplitr; · iexact Hlev
    isplitl [HO]; · iexact HO
    isplitl [Hown1]; · iexact Hown1
    isplitl [HL3]; · iexact HL3
    isplitl [HL4]; · iexact HL4
    isplitl [HL5]; · iexact HL5
    iexact HL6
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  -- rows 512–1023 now hold the converted block too: shared three ways like the first half
  ihave Hown1x := (rowsOn_restate ownH1 c fullShare fL1 (xb m c) hL2) $$ HL1
  ihave Hs := (rowsOn_full ownH1 c (xb m c)).1 $$ Hown1x
  icases Hs with ⟨Hown1a, Hown1r⟩
  ihave Hs := (rowsOn_full_right ownH1 c (xb m c)).1 $$ Hown1r
  icases Hs with ⟨Hown1b, Hown1c⟩
  iapply (wp_send_a2r m K c (nxt c) rfl g1 _ _) $$ [HL0 Hown1a Hlftn1 Hts2 Htt2]
  · isplitr; · iexact HIs2
    isplitr; · iexact HIt2
    isplitl [Hown1a]; · iexact Hown1a
    isplitl [Hlftn1]; · iexact Hlftn1
    isplitl [HL0]; · iexact HL0
    isplitl [Hts2]; · iexact Hts2
    isplitr; · iexact Hrs2
    isplitl [Htt2]; · iexact Htt2
    iexact Hrt2
  iintro ⟨Hcs2, HO⟩
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  iapply (wp_send_a2l m K c (prv c) rfl g2 _ _) $$ [HO Hown1b Hrgtp1 Hts3 Htt3]
  · isplitr; · iexact HIs3
    isplitr; · iexact HIt3
    isplitl [Hown1b]; · iexact Hown1b
    isplitl [Hrgtp1]; · iexact Hrgtp1
    isplitl [HO]; · iexact HO
    isplitl [Hts3]; · iexact Hts3
    isplitr; · iexact Hrs3
    isplitl [Htt3]; · iexact Htt3
    iexact Hrt3
  iintro ⟨Hcs3, HO⟩
  -- the conversion of w: two prefetches, then the loop from its invariant
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  ihave Hinv := (LW.inv_entry_written m c _ _ f4 f6 _ _ _ rfl rfl _) $$ [HO Hwbf Hw0 Hw1 Harg1 Hwf]
  · isplitr; · iexact Hlev
    isplitl [HO]; · iexact HO
    isplitl [Hwbf]; · iexact Hwbf
    isplitl [Hw0]; · iexact Hw0
    isplitl [Hw1]; · iexact Hw1
    isplitl [Harg1]; · iexact Harg1
    iexact Hwf
  sl_for (fun k (_ : Unit) => LW.invAt m c _ k) $$ [Hinv]
  · intro k acc
    exact LW.step_k0_t3 m c _ _ _ hmww0 hmww1 k
  · iexact Hinv
  iintro %acc HI
  ihave HE := (LW.inv_exit_trips m c _) $$ [HI]
  · iexact HI
  icases HE with ⟨#Hlev', ⟨%W', HO⟩, Harg1, ⟨%fw, Hwbf, %hfw⟩, ⟨%gw, Hwf⟩, Hw0, Hw1⟩
  have hfw' : fw = wb m c := funext hfw
  subst hfw'
  -- the first products, on the device's own rows; then the first landing from the left
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  -- the left neighbour's first half has landed: forward its two quarters to the right, keeping a share to load them with
  ihave Hs := (rowsOn_full lftH0 c (xb m (prv c))).1 $$ Har0_pay1
  icases Hs with ⟨Hl0a, Hl0r⟩
  ihave Hs := (split_quarters_lo_lft c fullShare.left (xb m (prv c))).1 $$ Hl0a
  icases Hs with ⟨Hlq0, Hlq1⟩
  ihave Hs := (split_quarters_lo_dgn (nxt c) fullShare g3a).1 $$ Hdg0n
  icases Hs with ⟨Hdq0, Hdq1⟩
  iapply (wp_send_fr0 m K c (nxt c) rfl g3a _ _) $$ [HO Hlq0 Hdq0 Hts4 Htt4]
  · isplitr; · iexact HIs4
    isplitr; · iexact HIt4
    isplitl [Hlq0]; · iexact Hlq0
    isplitl [Hdq0]; · iexact Hdq0
    isplitl [HO]; · iexact HO
    isplitl [Hts4]; · iexact Hts4
    isplitr; · iexact Hrs4
    isplitl [Htt4]; · iexact Htt4
    iexact Hrt4
  iintro ⟨Hcs4, HO⟩
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  iapply (wp_send_fr1 m K c (nxt c) rfl g3a _ _) $$ [HO Hlq1 Hdq1 Hts5 Htt5]
  · isplitr; · iexact HIs5
    isplitr; · iexact HIt5
    isplitl [Hlq1]; · iexact Hlq1
    isplitl [Hdq1]; · iexact Hdq1
    isplitl [HO]; · iexact HO
    isplitl [Hts5]; · iexact Hts5
    isplitr; · iexact Hrs5
    isplitl [Htt5]; · iexact Htt5
    iexact Hrt5
  iintro ⟨Hcs5, HO⟩
  -- the right neighbour's first half, the products on both neighbours' first halves, then its second half lands
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  ihave Hs := (rowsOn_full rgtH1 c (xb m (nxt c))).1 $$ Har3_pay1
  icases Hs with ⟨Hr1a, Hr1r⟩
  ihave Hs := (split_quarters_hi_rgt c fullShare.left (xb m (nxt c))).1 $$ Hr1a
  icases Hs with ⟨Hrq2, Hrq3⟩
  ihave Hs := (split_quarters_hi_dgn (prv c) fullShare g3b).1 $$ Hdg1p
  icases Hs with ⟨Hdq2, Hdq3⟩
  iapply (wp_send_fl0 m K c (prv c) rfl g3b _ _) $$ [HO Hrq2 Hdq2 Hts6 Htt6]
  · isplitr; · iexact HIs6
    isplitr; · iexact HIt6
    isplitl [Hrq2]; · iexact Hrq2
    isplitl [Hdq2]; · iexact Hdq2
    isplitl [HO]; · iexact HO
    isplitl [Hts6]; · iexact Hts6
    isplitr; · iexact Hrs6
    isplitl [Htt6]; · iexact Htt6
    iexact Hrt6
  iintro ⟨Hcs6, HO⟩
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  ihave HOz := (Entails.of_eq (congrArg (fun O => owes (c : Thread nD τ) O _) (zero_add (tallyAt (recvCell .fl1 (prv c)) () (legAmt .fl1))).symm)) $$ HO
  iapply (wp_send_fl1 m K c (prv c) rfl g3b 0 _) $$ [HOz Hrq3 Hdq3 Hts7 Htt7]
  · isplitr; · iexact HIs7
    isplitr; · iexact HIt7
    isplitl [Hrq3]; · iexact Hrq3
    isplitl [Hdq3]; · iexact Hdq3
    isplitl [HOz]; · iexact HOz
    isplitl [Hts7]; · iexact Hts7
    isplitr; · iexact Hrs7
    isplitl [Htt7]; · iexact Htt7
    iexact Hrt7
  iintro ⟨Hcs7, HO⟩
  -- nothing is owed any more: the rest runs through — the last landings, the remaining products, every wait, the drains
  set_option sl_exec.dmaWindow true in
  set_option sl_exec.dmaWindowLent true in
  sl_exec_parts (disch := simp only [dev1_eq, dev2_eq, dev3_eq, dev4_eq, dev5_eq, dev6_eq, dev7_eq, dev8_eq, dev9_eq, dev10_eq])
  -- every leg's two cells are at their second round with nothing taken: closed, their counters come back at zero
  imod (close_legs m K c) $$ [Has0 Has1 Has2 Has3 Har0 Har1 Har2 Har3 Has4 Has5 Has6 Has7 Har4 Har5 Har6 Har7] with Hlegs
  · isplitr
    · isplitr; · iexact HIs0
      isplitr; · iexact HIs1
      isplitr; · iexact HIs2
      isplitr; · iexact HIs3
      isplitr; · iexact HIr0
      isplitr; · iexact HIr1
      isplitr; · iexact HIr2
      isplitr; · iexact HIr3
      isplitr; · iexact HIs4
      isplitr; · iexact HIs5
      isplitr; · iexact HIs6
      isplitr; · iexact HIs7
      isplitr; · iexact HIr4
      isplitr; · iexact HIr5
      isplitr; · iexact HIr6
      iexact HIr7
    · isplitl [Has0]; · iexact Has0
      isplitl [Has1]; · iexact Has1
      isplitl [Has2]; · iexact Has2
      isplitl [Has3]; · iexact Has3
      isplitl [Har0]; · iexact Har0
      isplitl [Har1]; · iexact Har1
      isplitl [Har2]; · iexact Har2
      isplitl [Har3]; · iexact Har3
      isplitl [Has4]; · iexact Has4
      isplitl [Has5]; · iexact Has5
      isplitl [Has6]; · iexact Has6
      isplitl [Has7]; · iexact Has7
      isplitl [Har4]; · iexact Har4
      isplitl [Har5]; · iexact Har5
      isplitl [Har6]; · iexact Har6
      iexact Har7
  -- the four row buffers whole again
  ihave Hown := (rejoin_own c (xb m c)) $$ [Has0_pay1 Has1_pay1 Hown0c Has2_pay1 Has3_pay1 Hown1c]
  ·
    isplitl [Has0_pay1]; · iexact Has0_pay1
    isplitl [Has1_pay1]; · iexact Has1_pay1
    isplitl [Hown0c]; · iexact Hown0c
    isplitl [Has2_pay1]; · iexact Has2_pay1
    isplitl [Has3_pay1]; · iexact Has3_pay1
    iexact Hown1c
  ihave Hs := (split_quarters_lo_lft c fullShare.right (xb m (prv c))).1 $$ Hl0r
  icases Hs with ⟨Hl0r0, Hl0r1⟩
  ihave Hlft := (rejoin_lft c (xb m (prv c))) $$ [Has4_pay1 Hl0r0 Has5_pay1 Hl0r1 Har2_pay1]
  ·
    isplitl [Has4_pay1]; · iexact Has4_pay1
    isplitl [Hl0r0]; · iexact Hl0r0
    isplitl [Has5_pay1]; · iexact Has5_pay1
    isplitl [Hl0r1]; · iexact Hl0r1
    iexact Har2_pay1
  ihave Hs := (split_quarters_hi_rgt c fullShare.right (xb m (nxt c))).1 $$ Hr1r
  icases Hs with ⟨Hr1r2, Hr1r3⟩
  ihave Hrgt := (rejoin_rgt c (xb m (nxt c))) $$ [Har1_pay1 Has6_pay1 Hr1r2 Has7_pay1 Hr1r3]
  ·
    isplitl [Har1_pay1]; · iexact Har1_pay1
    isplitl [Has6_pay1]; · iexact Has6_pay1
    isplitl [Hr1r2]; · iexact Hr1r2
    isplitl [Has7_pay1]; · iexact Has7_pay1
    iexact Hr1r3
  ihave Hdgn := (rejoin_dgn c (xb m (opp c))) $$ [Har4_pay1 Har5_pay1 Har6_pay1 Har7_pay1]
  ·
    isplitl [Har4_pay1]; · iexact Har4_pay1
    isplitl [Har5_pay1]; · iexact Har5_pay1
    isplitl [Har6_pay1]; · iexact Har6_pay1
    iexact Har7_pay1
  -- the result holds the product's column block
  -- the forty result tiles: what each copy carried, then the result agreeing with the product's column block tile by tile
  have hp1 : sound_body.sl.dma4 m c f7 = mmRelu512F (rows512 (xb m c) 0) (cols512 (wb m c) 0) := by
    unfold sound_body.sl.dma4 sound_body.sl.Hyv_1
    rw [readAt_own_h0, readAt_wbf_t0]
    exact slot512_read _ _ f7 _ _ rfl _
  have hp2 : sound_body.sl.dma8 m c f7 = mmRelu512F (rows512 (xb m c) 1) (cols512 (wb m c) 0) := by
    unfold sound_body.sl.dma8 sound_body.sl.Hyv_2
    rw [readAt_own_h1, readAt_wbf_t0]
    exact slot512_read _ _ f7 _ _ rfl _
  have hp3 : sound_body.sl.dma12 m c f7 = mmRelu512F (rows512 (xb m c) 0) (cols512 (wb m c) 1) := by
    unfold sound_body.sl.dma12 sound_body.sl.Hyv_3 sound_body.sl.r
    rw [readAt_own_h0, readAt_wbf_t1]
    exact slot512_read _ _ f7 _ _ rfl _
  have hp4 : sound_body.sl.dma16 m c f7 = mmRelu512F (rows512 (xb m c) 1) (cols512 (wb m c) 1) := by
    unfold sound_body.sl.dma16 sound_body.sl.Hyv_4
    rw [readAt_own_h1, readAt_wbf_t1]
    exact slot512_read _ _ f7 _ _ rfl _
  have hp5 : sound_body.sl.dma20 m c f7 = mmRelu512F (rows512 (xb m c) 0) (cols512 (wb m c) 2) := by
    unfold sound_body.sl.dma20 sound_body.sl.Hyv_5
    rw [readAt_own_h0, readAt_wbf_t2]
    exact slot512_read _ _ f7 _ _ rfl _
  have hp6 : sound_body.sl.dma24 m c f7 = mmRelu512F (rows512 (xb m c) 1) (cols512 (wb m c) 2) := by
    unfold sound_body.sl.dma24 sound_body.sl.Hyv_6 sound_body.sl.r_1
    rw [readAt_own_h1, readAt_wbf_t2]
    exact slot512_read _ _ f7 _ _ rfl _
  have hp7 : sound_body.sl.dma28 m c f7 = mmRelu512F (rows512 (xb m c) 0) (cols512 (wb m c) 3) := by
    unfold sound_body.sl.dma28 sound_body.sl.Hyv_7
    rw [readAt_own_h0, readAt_wbf_t3]
    exact slot512_read _ _ f7 _ _ rfl _
  have hp8 : sound_body.sl.dma32 m c f7 = mmRelu512F (rows512 (xb m c) 1) (cols512 (wb m c) 3) := by
    unfold sound_body.sl.dma32 sound_body.sl.Hyv_8
    rw [readAt_own_h1, readAt_wbf_t3]
    exact slot512_read _ _ f7 _ _ rfl _
  have hp9 : sound_body.sl.dma4_1 m c f7 = mmRelu512F (rows512 (xb m (prv c)) 0) (cols512 (wb m c) 0) := by
    unfold sound_body.sl.dma4_1 sound_body.sl.Hyv_9 sound_body.sl.r_2
    rw [readAt_lft_h0, readAt_wbf_t0]
    exact slot512_read _ _ f7 _ _ rfl _
  have hp10 : sound_body.sl.dma8_1 m c f7 = mmRelu512F (rows512 (xb m (nxt c)) 0) (cols512 (wb m c) 0) := by
    unfold sound_body.sl.dma8_1 sound_body.sl.Hyv_10
    rw [readAt_rgt_h0, readAt_wbf_t0]
    exact slot512_read _ _ f7 _ _ rfl _
  have hp11 : sound_body.sl.dma12_1 m c f7 = mmRelu512F (rows512 (xb m (prv c)) 0) (cols512 (wb m c) 1) := by
    unfold sound_body.sl.dma12_1 sound_body.sl.Hyv_11
    rw [readAt_lft_h0, readAt_wbf_t1]
    exact slot512_read _ _ f7 _ _ rfl _
  have hp12 : sound_body.sl.dma16_1 m c f7 = mmRelu512F (rows512 (xb m (nxt c)) 0) (cols512 (wb m c) 1) := by
    unfold sound_body.sl.dma16_1 sound_body.sl.Hyv_12 sound_body.sl.r_3
    rw [readAt_rgt_h0, readAt_wbf_t1]
    exact slot512_read _ _ f7 _ _ rfl _
  have hp13 : sound_body.sl.dma20_1 m c f7 = mmRelu512F (rows512 (xb m (prv c)) 0) (cols512 (wb m c) 2) := by
    unfold sound_body.sl.dma20_1 sound_body.sl.Hyv_13
    rw [readAt_lft_h0, readAt_wbf_t2]
    exact slot512_read _ _ f7 _ _ rfl _
  have hp14 : sound_body.sl.dma24_1 m c f7 = mmRelu512F (rows512 (xb m (nxt c)) 0) (cols512 (wb m c) 2) := by
    unfold sound_body.sl.dma24_1 sound_body.sl.Hyv_14
    rw [readAt_rgt_h0, readAt_wbf_t2]
    exact slot512_read _ _ f7 _ _ rfl _
  have hp15 : sound_body.sl.dma28_1 m c f7 = mmRelu512F (rows512 (xb m (prv c)) 0) (cols512 (wb m c) 3) := by
    unfold sound_body.sl.dma28_1 sound_body.sl.Hyv_15 sound_body.sl.r_4
    rw [readAt_lft_h0, readAt_wbf_t3]
    exact slot512_read _ _ f7 _ _ rfl _
  have hp16 : sound_body.sl.dma32_1 m c f7 = mmRelu512F (rows512 (xb m (nxt c)) 0) (cols512 (wb m c) 3) := by
    unfold sound_body.sl.dma32_1 sound_body.sl.Hyv_16
    rw [readAt_rgt_h0, readAt_wbf_t3]
    exact slot512_read _ _ f7 _ _ rfl _
  have hp17 : sound_body.sl.dma4_2 m c f7 = mmRelu512F (rows512 (xb m (prv c)) 1) (cols512 (wb m c) 0) := by
    unfold sound_body.sl.dma4_2 sound_body.sl.Hyv_17
    rw [readAt_lft_h1, readAt_wbf_t0]
    exact slot512_read _ _ f7 _ _ rfl _
  have hp18 : sound_body.sl.dma8_2 m c f7 = mmRelu512F (rows512 (xb m (nxt c)) 1) (cols512 (wb m c) 0) := by
    unfold sound_body.sl.dma8_2 sound_body.sl.Hyv_18
    rw [readAt_rgt_h1, readAt_wbf_t0]
    exact slot512_read _ _ f7 _ _ rfl _
  have hp19 : sound_body.sl.dma12_2 m c f7 = mmRelu512F (rows512 (xb m (prv c)) 1) (cols512 (wb m c) 1) := by
    unfold sound_body.sl.dma12_2 sound_body.sl.Hyv_19 sound_body.sl.r_5
    rw [readAt_lft_h1, readAt_wbf_t1]
    exact slot512_read _ _ f7 _ _ rfl _
  have hp20 : sound_body.sl.dma16_2 m c f7 = mmRelu512F (rows512 (xb m (nxt c)) 1) (cols512 (wb m c) 1) := by
    unfold sound_body.sl.dma16_2 sound_body.sl.Hyv_20
    rw [readAt_rgt_h1, readAt_wbf_t1]
    exact slot512_read _ _ f7 _ _ rfl _
  have hp21 : sound_body.sl.dma20_2 m c f7 = mmRelu512F (rows512 (xb m (prv c)) 1) (cols512 (wb m c) 2) := by
    unfold sound_body.sl.dma20_2 sound_body.sl.Hyv_21
    rw [readAt_lft_h1, readAt_wbf_t2]
    exact slot512_read _ _ f7 _ _ rfl _
  have hp22 : sound_body.sl.dma24_2 m c f7 = mmRelu512F (rows512 (xb m (nxt c)) 1) (cols512 (wb m c) 2) := by
    unfold sound_body.sl.dma24_2 sound_body.sl.Hyv_22 sound_body.sl.r_6
    rw [readAt_rgt_h1, readAt_wbf_t2]
    exact slot512_read _ _ f7 _ _ rfl _
  have hp23 : sound_body.sl.dma28_2 m c f7 = mmRelu512F (rows512 (xb m (prv c)) 1) (cols512 (wb m c) 3) := by
    unfold sound_body.sl.dma28_2 sound_body.sl.Hyv_23
    rw [readAt_lft_h1, readAt_wbf_t3]
    exact slot512_read _ _ f7 _ _ rfl _
  have hp24 : sound_body.sl.dma32_2 m c f7 = mmRelu512F (rows512 (xb m (nxt c)) 1) (cols512 (wb m c) 3) := by
    unfold sound_body.sl.dma32_2 sound_body.sl.Hyv_24
    rw [readAt_rgt_h1, readAt_wbf_t3]
    exact slot512_read _ _ f7 _ _ rfl _
  have hp25 : sound_body.sl.dma36 m c f7 = mmRelu256F (rows256 (xb m (opp c)) 0) (cols512 (wb m c) 0) := by
    unfold sound_body.sl.dma36 sound_body.sl.Hyv_25
    rw [readAt_dgn_q0, readAt_wbf_t0]
    exact slot256_read _ _ f7 _ _ rfl _
  have hp26 : sound_body.sl.dma40 m c f7 = mmRelu256F (rows256 (xb m (opp c)) 2) (cols512 (wb m c) 0) := by
    unfold sound_body.sl.dma40 sound_body.sl.Hyv_26
    rw [readAt_dgn_q2, readAt_wbf_t0]
    exact slot256_read _ _ f7 _ _ rfl _
  have hp27 : sound_body.sl.dma44 m c f7 = mmRelu256F (rows256 (xb m (opp c)) 0) (cols512 (wb m c) 1) := by
    unfold sound_body.sl.dma44 sound_body.sl.Hyv_27 sound_body.sl.r_7
    rw [readAt_dgn_q0, readAt_wbf_t1]
    exact slot256_read _ _ f7 _ _ rfl _
  have hp28 : sound_body.sl.dma48 m c f7 = mmRelu256F (rows256 (xb m (opp c)) 2) (cols512 (wb m c) 1) := by
    unfold sound_body.sl.dma48 sound_body.sl.Hyv_28
    rw [readAt_dgn_q2, readAt_wbf_t1]
    exact slot256_read _ _ f7 _ _ rfl _
  have hp29 : sound_body.sl.dma52 m c f7 = mmRelu256F (rows256 (xb m (opp c)) 0) (cols512 (wb m c) 2) := by
    unfold sound_body.sl.dma52 sound_body.sl.Hyv_29
    rw [readAt_dgn_q0, readAt_wbf_t2]
    exact slot256_read _ _ f7 _ _ rfl _
  have hp30 : sound_body.sl.dma56 m c f7 = mmRelu256F (rows256 (xb m (opp c)) 2) (cols512 (wb m c) 2) := by
    unfold sound_body.sl.dma56 sound_body.sl.Hyv_30 sound_body.sl.r_8
    rw [readAt_dgn_q2, readAt_wbf_t2]
    exact slot256_read _ _ f7 _ _ rfl _
  have hp31 : sound_body.sl.dma60 m c f7 = mmRelu256F (rows256 (xb m (opp c)) 0) (cols512 (wb m c) 3) := by
    unfold sound_body.sl.dma60 sound_body.sl.Hyv_31
    rw [readAt_dgn_q0, readAt_wbf_t3]
    exact slot256_read _ _ f7 _ _ rfl _
  have hp32 : sound_body.sl.dma64 m c f7 = mmRelu256F (rows256 (xb m (opp c)) 2) (cols512 (wb m c) 3) := by
    unfold sound_body.sl.dma64 sound_body.sl.Hyv_32
    rw [readAt_dgn_q2, readAt_wbf_t3]
    exact slot256_read _ _ f7 _ _ rfl _
  have hp33 : sound_body.sl.dma68 m c f7 = mmRelu256F (rows256 (xb m (opp c)) 1) (cols512 (wb m c) 0) := by
    unfold sound_body.sl.dma68 sound_body.sl.Hyv_33
    rw [readAt_dgn_q1, readAt_wbf_t0]
    exact slot256_read _ _ f7 _ _ rfl _
  have hp34 : sound_body.sl.dma72 m c f7 = mmRelu256F (rows256 (xb m (opp c)) 3) (cols512 (wb m c) 0) := by
    unfold sound_body.sl.dma72 sound_body.sl.Hyv_34 sound_body.sl.r_9
    rw [readAt_dgn_q3, readAt_wbf_t0]
    exact slot256_read _ _ f7 _ _ rfl _
  have hp35 : sound_body.sl.dma76 m c f7 = mmRelu256F (rows256 (xb m (opp c)) 1) (cols512 (wb m c) 1) := by
    unfold sound_body.sl.dma76 sound_body.sl.Hyv_35
    rw [readAt_dgn_q1, readAt_wbf_t1]
    exact slot256_read _ _ f7 _ _ rfl _
  have hp36 : sound_body.sl.dma80 m c f7 = mmRelu256F (rows256 (xb m (opp c)) 3) (cols512 (wb m c) 1) := by
    unfold sound_body.sl.dma80 sound_body.sl.Hyv_36
    rw [readAt_dgn_q3, readAt_wbf_t1]
    exact slot256_read _ _ f7 _ _ rfl _
  have hp37 : sound_body.sl.dma84 m c f7 = mmRelu256F (rows256 (xb m (opp c)) 1) (cols512 (wb m c) 2) := by
    unfold sound_body.sl.dma84 sound_body.sl.Hyv_37 sound_body.sl.r_10
    rw [readAt_dgn_q1, readAt_wbf_t2]
    exact slot256_read _ _ f7 _ _ rfl _
  have hp38 : sound_body.sl.dma88 m c f7 = mmRelu256F (rows256 (xb m (opp c)) 3) (cols512 (wb m c) 2) := by
    unfold sound_body.sl.dma88 sound_body.sl.Hyv_38
    rw [readAt_dgn_q3, readAt_wbf_t2]
    exact slot256_read _ _ f7 _ _ rfl _
  have hp39 : sound_body.sl.dma92 m c f7 = mmRelu256F (rows256 (xb m (opp c)) 1) (cols512 (wb m c) 3) := by
    unfold sound_body.sl.dma92 sound_body.sl.Hyv_39
    rw [readAt_dgn_q1, readAt_wbf_t3]
    exact slot256_read _ _ f7 _ _ rfl _
  have hp40 : sound_body.sl.dma96 m c f7 = mmRelu256F (rows256 (xb m (opp c)) 3) (cols512 (wb m c) 3) := by
    unfold sound_body.sl.dma96 sound_body.sl.Hyv_40 sound_body.sl.r_11
    rw [readAt_dgn_q3, readAt_wbf_t3]
    exact slot256_read _ _ f7 _ _ rfl _
  have hout : sound_body.sl.Hout_w23 m c f7 = outv m c := by
    refine eq_outv_of_agrees40 m c ?_
    unfold labels40
    unfold sound_body.sl.Hout_w23
    refine agrees_write256 m c 3 3 ?_ _ _ (by rw [off60_eq]; rfl) (by rw [off60_eq]; rfl) _ hp40
    unfold sound_body.sl.Hout_w22
    refine agrees_write256 m c 1 3 ?_ _ _ (by rw [off56_eq_256]; rfl) (by rw [off56_eq_256]; rfl) _ hp39
    unfold sound_body.sl.Hout_w21
    refine agrees_write256 m c 3 2 ?_ _ _ (by rw [off59_eq]; rfl) (by rw [off59_eq]; rfl) _ hp38
    unfold sound_body.sl.Hout_w20
    refine agrees_write256 m c 1 2 ?_ _ _ (by rw [off54_eq_256]; rfl) (by rw [off54_eq_256]; rfl) _ hp37
    unfold sound_body.sl.Hout_w19
    refine agrees_write256 m c 3 1 ?_ _ _ (by rw [off58_eq]; rfl) (by rw [off58_eq]; rfl) _ hp36
    unfold sound_body.sl.Hout_w18
    refine agrees_write256 m c 1 1 ?_ _ _ (by rw [off52_eq_256]; rfl) (by rw [off52_eq_256]; rfl) _ hp35
    unfold sound_body.sl.Hout_w17
    refine agrees_write256 m c 3 0 ?_ _ _ (by rw [off57_eq]; rfl) (by rw [off57_eq]; rfl) _ hp34
    unfold sound_body.sl.Hout_w16
    refine agrees_write256 m c 1 0 ?_ _ _ (by rw [off50_eq_256]; rfl) (by rw [off50_eq_256]; rfl) _ hp33
    unfold sound_body.sl.Hout_w15
    refine agrees_write256 m c 2 3 ?_ _ _ (by rw [off56_eq_512]; rfl) (by rw [off56_eq_512]; rfl) _ hp32
    unfold sound_body.sl.Hout_w14
    refine agrees_write256 m c 0 3 ?_ _ _ (by rw [off55_eq]; rfl) (by rw [off55_eq]; rfl) _ hp31
    unfold sound_body.sl.Hout_w13
    refine agrees_write256 m c 2 2 ?_ _ _ (by rw [off54_eq_512]; rfl) (by rw [off54_eq_512]; rfl) _ hp30
    unfold sound_body.sl.Hout_w12
    refine agrees_write256 m c 0 2 ?_ _ _ (by rw [off53_eq]; rfl) (by rw [off53_eq]; rfl) _ hp29
    unfold sound_body.sl.Hout_w11
    refine agrees_write256 m c 2 1 ?_ _ _ (by rw [off52_eq_512]; rfl) (by rw [off52_eq_512]; rfl) _ hp28
    unfold sound_body.sl.Hout_w10
    refine agrees_write256 m c 0 1 ?_ _ _ (by rw [off51_eq]; rfl) (by rw [off51_eq]; rfl) _ hp27
    unfold sound_body.sl.Hout_w9
    refine agrees_write256 m c 2 0 ?_ _ _ (by rw [off50_eq_512]; rfl) (by rw [off50_eq_512]; rfl) _ hp26
    unfold sound_body.sl.Hout_w8
    refine agrees_write256 m c 0 0 ?_ _ _ (by rw [off49_eq]; rfl) (by rw [off49_eq]; rfl) _ hp25
    unfold sound_body.sl.Hout_w7_2
    refine agrees_write512 m c (nxt c) (nxt_ne_opp c) 1 3 ?_ _ _ (by rw [off48_eq]; rfl) (by rw [off48_eq]; rfl) _ hp24
    unfold sound_body.sl.Hout_w6_2
    refine agrees_write512 m c (prv c) (prv_ne_opp c) 1 3 ?_ _ _ (by rw [off47_eq]; rfl) (by rw [off47_eq]; rfl) _ hp23
    unfold sound_body.sl.Hout_w5_2
    refine agrees_write512 m c (nxt c) (nxt_ne_opp c) 1 2 ?_ _ _ (by rw [off46_eq]; rfl) (by rw [off46_eq]; rfl) _ hp22
    unfold sound_body.sl.Hout_w4_2
    refine agrees_write512 m c (prv c) (prv_ne_opp c) 1 2 ?_ _ _ (by rw [off45_eq]; rfl) (by rw [off45_eq]; rfl) _ hp21
    unfold sound_body.sl.Hout_w3_2
    refine agrees_write512 m c (nxt c) (nxt_ne_opp c) 1 1 ?_ _ _ (by rw [off44_eq]; rfl) (by rw [off44_eq]; rfl) _ hp20
    unfold sound_body.sl.Hout_w2_2
    refine agrees_write512 m c (prv c) (prv_ne_opp c) 1 1 ?_ _ _ (by rw [off43_eq]; rfl) (by rw [off43_eq]; rfl) _ hp19
    unfold sound_body.sl.Hout_w1_2
    refine agrees_write512 m c (nxt c) (nxt_ne_opp c) 1 0 ?_ _ _ (by rw [off42_eq]; rfl) (by rw [off42_eq]; rfl) _ hp18
    unfold sound_body.sl.Hout_w0_2
    refine agrees_write512 m c (prv c) (prv_ne_opp c) 1 0 ?_ _ _ (by rw [off41_eq]; rfl) (by rw [off41_eq]; rfl) _ hp17
    unfold sound_body.sl.Hout_w7_1
    refine agrees_write512 m c (nxt c) (nxt_ne_opp c) 0 3 ?_ _ _ (by rw [off40_eq]; rfl) (by rw [off40_eq]; rfl) _ hp16
    unfold sound_body.sl.Hout_w6_1
    refine agrees_write512 m c (prv c) (prv_ne_opp c) 0 3 ?_ _ _ (by rw [off39_eq]; rfl) (by rw [off39_eq]; rfl) _ hp15
    unfold sound_body.sl.Hout_w5_1
    refine agrees_write512 m c (nxt c) (nxt_ne_opp c) 0 2 ?_ _ _ (by rw [off38_eq]; rfl) (by rw [off38_eq]; rfl) _ hp14
    unfold sound_body.sl.Hout_w4_1
    refine agrees_write512 m c (prv c) (prv_ne_opp c) 0 2 ?_ _ _ (by rw [off37_eq]; rfl) (by rw [off37_eq]; rfl) _ hp13
    unfold sound_body.sl.Hout_w3_1
    refine agrees_write512 m c (nxt c) (nxt_ne_opp c) 0 1 ?_ _ _ (by rw [off36_eq]; rfl) (by rw [off36_eq]; rfl) _ hp12
    unfold sound_body.sl.Hout_w2_1
    refine agrees_write512 m c (prv c) (prv_ne_opp c) 0 1 ?_ _ _ (by rw [off35_eq]; rfl) (by rw [off35_eq]; rfl) _ hp11
    unfold sound_body.sl.Hout_w1_1
    refine agrees_write512 m c (nxt c) (nxt_ne_opp c) 0 0 ?_ _ _ (by rw [off34_eq]; rfl) (by rw [off34_eq]; rfl) _ hp10
    unfold sound_body.sl.Hout_w0_1
    refine agrees_write512 m c (prv c) (prv_ne_opp c) 0 0 ?_ _ _ (by rw [off33_eq]; rfl) (by rw [off33_eq]; rfl) _ hp9
    unfold sound_body.sl.Hout_w7
    refine agrees_write512 m c c (self_ne_opp c) 1 3 ?_ _ _ (by rw [k0_off32_eq]; rfl) (by rw [k0_off32_eq]; rfl) _ hp8
    unfold sound_body.sl.Hout_w6
    refine agrees_write512 m c c (self_ne_opp c) 0 3 ?_ _ _ (by rw [k0_off31_eq]; rfl) (by rw [k0_off31_eq]; rfl) _ hp7
    unfold sound_body.sl.Hout_w5
    refine agrees_write512 m c c (self_ne_opp c) 1 2 ?_ _ _ (by rw [k0_off30_eq]; rfl) (by rw [k0_off30_eq]; rfl) _ hp6
    unfold sound_body.sl.Hout_w4
    refine agrees_write512 m c c (self_ne_opp c) 0 2 ?_ _ _ (by rw [k0_off29_eq]; rfl) (by rw [k0_off29_eq]; rfl) _ hp5
    unfold sound_body.sl.Hout_w3
    refine agrees_write512 m c c (self_ne_opp c) 1 1 ?_ _ _ (by rw [k0_off28_eq]; rfl) (by rw [k0_off28_eq]; rfl) _ hp4
    unfold sound_body.sl.Hout_w2
    refine agrees_write512 m c c (self_ne_opp c) 0 1 ?_ _ _ (by rw [k0_off27_eq]; rfl) (by rw [k0_off27_eq]; rfl) _ hp3
    unfold sound_body.sl.Hout_w1
    refine agrees_write512 m c c (self_ne_opp c) 1 0 ?_ _ _ (by rw [k0_off26_eq]; rfl) (by rw [k0_off26_eq]; rfl) _ hp2
    unfold sound_body.sl.Hout_w0
    refine agrees_write512 m c c (self_ne_opp c) 0 0 ?_ _ _ (by rw [k0_off25_eq]; rfl) (by rw [k0_off25_eq]; rfl) _ hp1
    exact agrees_empty m c _
  -- (end of the forty tiles)
  ihave Hout' := (Entails.of_eq (congrArg (fun g => ((oM : Memref sig .tc .hbm S4096x2048 .f32).view.loc (c : Thread nD τ) ↦{fullShare} g : sProp 𝕄)) hout)) $$ Hout
  sl_step
  iapply Hk
  unfold bodyPost arrays localSems scratch
  isplitr [HO]
  · isplitl [HL5 Harg1 Hout']
    · isplitl [HL5]; · iexact HL5
      isplitl [Harg1]; · iexact Harg1
      iexact Hout'
    isplitl [HL3 HL4 Hw0 Hw1 Hy0 Hy1]
    · isplitl [HL3]; · iexact HL3
      isplitl [HL4]; · iexact HL4
      isplitl [Hw0]; · iexact Hw0
      isplitl [Hw1]; · iexact Hw1
      isplitl [Hy0]; · iexact Hy0
      iexact Hy1
    isplitl [Hlegs]; · iexact Hlegs
    isplitl [Hown]; · iexact Hown
    isplitl [Hlft]; · iexact Hlft
    isplitl [Hrgt]; · iexact Hrgt
    isplitl [Hdgn]; · iexact Hdgn
    isplitl [Hwbf]; · iexists _; iexact Hwbf
    isplitl [HL6]; · iexists _; iexact HL6
    isplitl [Hwf]; · iexists _; iexact Hwf
    iexists _; iexact Hyv
  · iexists _; iexact HO

/-- info: 'Cert.KernelIdeal.AG.sound_body' depends on axioms: [propext, Classical.choice, Quot.sound] -/
#guard_msgs in #print axioms sound_body

end Cert.KernelIdeal.AG

end
-- ==== Proof.Launch.lean ====
/-
  The launch of the gathered product on the four devices: from one device's body to the run of the whole program, every
  device's result named.
-/
import proofs.«900658_g7700000000000659_dist_ag_gemm_m4096_k4096_n8192_f32_relu_v7x_i4_1_alg».proof.Proof.Body
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element, split between the pipeline's rounds and the legs' -/

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The kernel's own semaphores -/

/-- The 22 scoped DMA semaphores: the six of the local copies, then the legs' in the order the counters are listed. -/
abbrev osem : Fin 22 → SemLoc sig := fun k => match k with
  | 0 => .dma xS0 | 1 => .dma xS1 | 2 => .dma wS0 | 3 => .dma wS1 | 4 => .dma yS0 | 5 => .dma yS1
  | 6 => .dma (sS .a1r) | 7 => .dma (sS .a1l) | 8 => .dma (sS .a2r) | 9 => .dma (sS .a2l)
  | 10 => .dma (sR .a1r) | 11 => .dma (sR .a1l) | 12 => .dma (sR .a2r) | 13 => .dma (sR .a2l)
  | 14 => .dma (sS .fr0) | 15 => .dma (sS .fr1) | 16 => .dma (sS .fl0) | 17 => .dma (sS .fl1)
  | 18 => .dma (sR .fr0) | 19 => .dma (sR .fr1) | 20 => .dma (sR .fl0) | 21 => .dma (sR .fl1)
  | ⟨_ + 22, h⟩ => absurd h (Nat.not_lt.2 (Nat.le_add_left _ _))

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma xS0) 0 ∗ semVal ((c : Thread nD τ), SemLoc.dma xS1) 0 ∗ semVal ((c : Thread nD τ), SemLoc.dma wS0) 0 ∗ semVal ((c : Thread nD τ), SemLoc.dma wS1) 0 ∗ semVal ((c : Thread nD τ), SemLoc.dma yS0) 0 ∗ semVal ((c : Thread nD τ), SemLoc.dma yS1) 0 ∗ semVal (sendCell .a1r c) 0 ∗ semVal (sendCell .a1l c) 0 ∗ semVal (sendCell .a2r c) 0 ∗ semVal (sendCell .a2l c) 0 ∗ semVal (recvCell .a1r c) 0 ∗ semVal (recvCell .a1l c) 0 ∗ semVal (recvCell .a2r c) 0 ∗ semVal (recvCell .a2l c) 0 ∗ semVal (sendCell .fr0 c) 0 ∗ semVal (sendCell .fr1 c) 0 ∗ semVal (sendCell .fl0 c) 0 ∗ semVal (sendCell .fl1 c) 0 ∗ semVal (recvCell .fr0 c) 0 ∗ semVal (recvCell .fr1 c) 0 ∗ semVal (recvCell .fl0 c) 0 ∗ semVal (recvCell .fl1 c) 0) := by
  rw [Pipeline.ownSems0_eq_of_list c osem [0, 1, 2, 3, 4, 5, 6, 7, 8, 9, 10, 11, 12, 13, 14, 15, 16, 17, 18, 19, 20, 21] (by decide) (by decide)]; rfl

theorem ownSems0_elim (c : Dev nD) : (Pipeline.ownSems0 (Ix := Unit) (Name := ℕ) (U := UU) (Lvl := ℕ) (Val := Elt F) (τ := τ) osem c : sProp 𝕄)
    ⊢ iprop(localSems c ∗ legSems c) := by
  rw [ownSems0_eq]
  unfold localSems legSems
  iintro ⟨H0, H1, H2, H3, H4, H5, H6, H7, H8, H9, H10, H11, H12, H13, H14, H15, H16, H17, H18, H19, H20, H21⟩
  iframe

theorem ownSems0_intro (c : Dev nD) : iprop(localSems c ∗ legSems c)
    ⊢ (Pipeline.ownSems0 (Ix := Unit) (Name := ℕ) (U := UU) (Lvl := ℕ) (Val := Elt F) (τ := τ) osem c : sProp 𝕄) := by
  rw [ownSems0_eq]
  unfold localSems legSems
  iintro ⟨⟨H0, H1, H2, H3, H4, H5⟩, H6, H7, H8, H9, H10, H11, H12, H13, H14, H15, H16, H17, H18, H19, H20, H21⟩
  iframe

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells of the legs' rounds: per device the barrier, the eight send cells, the eight receive cells -/

abbrev csem : Fin 17 → SemLoc sig := fun k => match k with
  | 0 => .reg barS
  | 1 => .dma (sS .a1r)
  | 2 => .dma (sS .a1l)
  | 3 => .dma (sS .a2r)
  | 4 => .dma (sS .a2l)
  | 5 => .dma (sS .fr0)
  | 6 => .dma (sS .fr1)
  | 7 => .dma (sS .fl0)
  | 8 => .dma (sS .fl1)
  | 9 => .dma (sR .a1r)
  | 10 => .dma (sR .a1l)
  | 11 => .dma (sR .a2r)
  | 12 => .dma (sR .a2l)
  | 13 => .dma (sR .fr0)
  | 14 => .dma (sR .fr1)
  | 15 => .dma (sR .fl0)
  | 16 => .dma (sR .fl1)
  | ⟨_ + 17, h⟩ => absurd h (Nat.not_lt.2 (Nat.le_add_left _ _))
abbrev kcell (ck : Dev nD × Fin 17) : GSem nD τ sig := ((ck.1 : Thread nD τ), csem ck.2)

/-- Where a leg's send cell and receive cell stand among a device's 17. -/
abbrev sIdx : Leg → Fin 17 | .a1r => 1 | .a1l => 2 | .a2r => 3 | .a2l => 4 | .fr0 => 5 | .fr1 => 6 | .fl0 => 7 | .fl1 => 8
abbrev rIdx : Leg → Fin 17 | .a1r => 9 | .a1l => 10 | .a2r => 11 | .a2l => 12 | .fr0 => 13 | .fr1 => 14 | .fl0 => 15 | .fl1 => 16
theorem kcell_bar (c : Dev nD) : kcell (c, 0) = barCell c := rfl
theorem kcell_send (c : Dev nD) (l : Leg) : kcell (c, sIdx l) = sendCell l c := by cases l <;> rfl
theorem kcell_recv (c : Dev nD) (l : Leg) : kcell (c, rIdx l) = recvCell l c := by cases l <;> rfl

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def ringCells : Finset (GSem nD τ sig) := Finset.univ.map ⟨kcell, kcell_injective⟩

/-- The duty tokens minted at a device's own cells: its barrier's two, and each leg's send and receive duty. -/
abbrev tcode : Fin 18 → SemLoc sig × Bool := fun j => match j with
  | 0 => (.reg barS, false)
  | 1 => (.reg barS, true)
  | 2 => (.dma (sS .a1r), false)
  | 3 => (.dma (sR .a1r), false)
  | 4 => (.dma (sS .a1l), false)
  | 5 => (.dma (sR .a1l), false)
  | 6 => (.dma (sS .a2r), false)
  | 7 => (.dma (sR .a2r), false)
  | 8 => (.dma (sS .a2l), false)
  | 9 => (.dma (sR .a2l), false)
  | 10 => (.dma (sS .fr0), false)
  | 11 => (.dma (sR .fr0), false)
  | 12 => (.dma (sS .fr1), false)
  | 13 => (.dma (sR .fr1), false)
  | 14 => (.dma (sS .fl0), false)
  | 15 => (.dma (sR .fl0), false)
  | 16 => (.dma (sS .fl1), false)
  | 17 => (.dma (sR .fl1), false)
  | ⟨_ + 18, h⟩ => absurd h (Nat.not_lt.2 (Nat.le_add_left _ _))
abbrev tokOf (cj : Dev nD × Fin 18) : GSem nD τ sig × ℕ × Bool := (((cj.1 : Thread nD τ), (tcode cj.2).1), 0, (tcode cj.2).2)
theorem tcode_injective : Function.Injective tcode := by decide
theorem tokOf_injective : Function.Injective (tokOf : Dev nD × Fin 18 → GSem nD τ sig × ℕ × Bool) := by
  rintro ⟨c, j⟩ ⟨c', j'⟩ h
  have h1 : c = c' := congrArg (fun x : GSem nD τ sig × ℕ × Bool => x.1.1.1) h
  subst h1
  have h2 : tcode j = tcode j' := Prod.ext (congrArg (fun x : GSem nD τ sig × ℕ × Bool => x.1.2) h) (congrArg (fun x : GSem nD τ sig × ℕ × Bool => x.2.2) h)
  rw [tcode_injective h2]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- The tokens as minted, device by device. -/
def toks (c : Dev nD) : sProp 𝕄 :=
  iprop(dutyTok ER (barCell c) 0 false ∗ dutyTok ER (barCell c) 0 true
    ∗ dutyTok ER (sendCell .a1r c) 0 false ∗ dutyTok ER (recvCell .a1r c) 0 false
    ∗ dutyTok ER (sendCell .a1l c) 0 false ∗ dutyTok ER (recvCell .a1l c) 0 false
    ∗ dutyTok ER (sendCell .a2r c) 0 false ∗ dutyTok ER (recvCell .a2r c) 0 false
    ∗ dutyTok ER (sendCell .a2l c) 0 false ∗ dutyTok ER (recvCell .a2l c) 0 false
    ∗ dutyTok ER (sendCell .fr0 c) 0 false ∗ dutyTok ER (recvCell .fr0 c) 0 false
    ∗ dutyTok ER (sendCell .fr1 c) 0 false ∗ dutyTok ER (recvCell .fr1 c) 0 false
    ∗ dutyTok ER (sendCell .fl0 c) 0 false ∗ dutyTok ER (recvCell .fl0 c) 0 false
    ∗ dutyTok ER (sendCell .fl1 c) 0 false ∗ dutyTok ER (recvCell .fl1 c) 0 false)

/-- What the launch element deals device `c`. -/
def G (c : Dev nD) : sProp 𝕄 :=
  iprop((bigSep Finset.univ fun k : Fin 17 => roundState ER (agRd m) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop((∃ K, ghost m K c) ∗ localSems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin18]; rfl
  iintro HX
  imod (Rounds.fund ER (agRd m) ringCells ringToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The payloads can be kept in an invariant -/

instance agRd_payload_storable (g : GSem nD τ sig) (r : ℕ) (d : Bool) :
    BI.Storable (upEmb : UEmb _ 𝕄) ((agRd (F := F) m).payload g r d) := by
  show BI.Storable upEmb (match g.2 with
    | .reg s => if s = barS then (if d then barPayT g.1.1 else barPayF g.1.1) else iprop(emp)
    | .dma s => match legOf s with
      | some (true, l) => recvPay m l g.1.1
      | some (false, l) => sendPay m l g.1.1
      | none => iprop(emp))
  unfold barPayT barPayF recvPay sendPay
  (repeat' split) <;> infer_instance

/-! ## The global step: every cell's invariant allocated, the tokens dealt around the ring -/

theorem atPos17 (c : Dev nD) : (bigSep Finset.univ fun k : Fin 17 => (atPos ER (kcell (c, k)) 0 ∅ 0 : sProp 𝕄))
    = iprop(atPos ER (barCell c) 0 ∅ 0 ∗ atPos ER (sendCell .a1r c) 0 ∅ 0 ∗ atPos ER (sendCell .a1l c) 0 ∅ 0 ∗ atPos ER (sendCell .a2r c) 0 ∅ 0 ∗ atPos ER (sendCell .a2l c) 0 ∅ 0 ∗ atPos ER (sendCell .fr0 c) 0 ∅ 0 ∗ atPos ER (sendCell .fr1 c) 0 ∅ 0 ∗ atPos ER (sendCell .fl0 c) 0 ∅ 0 ∗ atPos ER (sendCell .fl1 c) 0 ∅ 0 ∗ atPos ER (recvCell .a1r c) 0 ∅ 0 ∗ atPos ER (recvCell .a1l c) 0 ∅ 0 ∗ atPos ER (recvCell .a2r c) 0 ∅ 0 ∗ atPos ER (recvCell .a2l c) 0 ∅ 0 ∗ atPos ER (recvCell .fr0 c) 0 ∅ 0 ∗ atPos ER (recvCell .fr1 c) 0 ∅ 0 ∗ atPos ER (recvCell .fl0 c) 0 ∅ 0 ∗ atPos ER (recvCell .fl1 c) 0 ∅ 0) := by
  rw [bigSep_fin17]

theorem sems17 (c : Dev nD) : iprop(legSems c ∗ semVal (barCell c) 0) ⊢ (bigSep Finset.univ fun k : Fin 17 => semVal (kcell (c, k)) 0 : sProp 𝕄) := by
  rw [bigSep_fin17]
  show _ ⊢ iprop(semVal (barCell c) 0 ∗ semVal (sendCell .a1r c) 0 ∗ semVal (sendCell .a1l c) 0 ∗ semVal (sendCell .a2r c) 0 ∗ semVal (sendCell .a2l c) 0 ∗ semVal (sendCell .fr0 c) 0 ∗ semVal (sendCell .fr1 c) 0 ∗ semVal (sendCell .fl0 c) 0 ∗ semVal (sendCell .fl1 c) 0 ∗ semVal (recvCell .a1r c) 0 ∗ semVal (recvCell .a1l c) 0 ∗ semVal (recvCell .a2r c) 0 ∗ semVal (recvCell .a2l c) 0 ∗ semVal (recvCell .fr0 c) 0 ∗ semVal (recvCell .fr1 c) 0 ∗ semVal (recvCell .fl0 c) 0 ∗ semVal (recvCell .fl1 c) 0)
  unfold legSems
  iintro ⟨⟨H1, H2, H3, H4, H5, H6, H7, H8, H9, H10, H11, H12, H13, H14, H15, H16⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (agRd m) κ (kcell (c, k))))
          ∗ (bigSep Finset.univ fun k => iprop(atPos ER (kcell (c, k)) 0 ∅ 0 ∗ reached ER (kcell (c, k)) 0)) ∗ toks c ∗ localSems c) := by
  rw [unscopedSems0_eq]
  unfold G
  iintro ⟨Hos, Hus, Hst, Hat, Htok⟩
  ihave Hos' := (ownSems0_elim (F := F) c) $$ Hos
  icases Hos' with ⟨Hloc, Hleg⟩
  ihave Hv := (sems17 (F := F) c) $$ [Hleg Hus]
  · isplitl [Hleg] <;> iassumption
  imod (show iprop((bigSep Finset.univ fun k : Fin 17 => semVal (kcell (c, k)) 0) ∗ bigSep Finset.univ fun k : Fin 17 => roundState ER (agRd m) (kcell (c, k)) 0)
      ⊢ (|={Set.univ}=> bigSep Finset.univ fun k => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The persistent facts every device reads: each cell's invariant under the names `K`, and that round 0 of each is reached. -/
def records (K : GSem nD τ sig → ℕ) : sProp 𝕄 :=
  iprop((bigSep Finset.univ fun ck : Dev nD × Fin 17 => cellInv ER (agRd m) (K (kcell ck)) (kcell ck))
    ∗ bigSep Finset.univ fun ck : Dev nD × Fin 17 => reached ER (kcell ck) 0)

instance records_persistent (K : GSem nD τ sig → ℕ) : BI.Persistent (records m K) := by unfold records; infer_instance

theorem inv_at (K : GSem nD τ sig → ℕ) (ck : Dev nD × Fin 17) : records m K ⊢ cellInv ER (agRd m) (K (kcell ck)) (kcell ck) := by
  unfold records; exact sep_elim_left.trans (bigSep_elim (Finset.mem_univ ck))
theorem reached_at (K : GSem nD τ sig → ℕ) (ck : Dev nD × Fin 17) : records m K ⊢ reached ER (kcell ck) 0 := by
  unfold records; exact sep_elim_right.trans (bigSep_elim (Finset.mem_univ ck))

theorem inv_bar (K : GSem nD τ sig → ℕ) (c : Dev nD) : records m K ⊢ cellInv ER (agRd m) (K (barCell c)) (barCell c) := inv_at m K (c, 0)
theorem inv_send (K : GSem nD τ sig → ℕ) (c : Dev nD) (l : Leg) : records m K ⊢ cellInv ER (agRd m) (K (sendCell l c)) (sendCell l c) := by
  rw [← kcell_send c l]; exact inv_at m K _
theorem inv_recv (K : GSem nD τ sig → ℕ) (c : Dev nD) (l : Leg) : records m K ⊢ cellInv ER (agRd m) (K (recvCell l c)) (recvCell l c) := by
  rw [← kcell_recv c l]; exact inv_at m K _
theorem reached_bar (K : GSem nD τ sig → ℕ) (c : Dev nD) : records m K ⊢ reached ER (barCell c) 0 := reached_at m K (c, 0)
theorem reached_send (K : GSem nD τ sig → ℕ) (c : Dev nD) (l : Leg) : records m K ⊢ reached ER (sendCell l c) 0 := by
  rw [← kcell_send c l]; exact reached_at m K _
theorem reached_recv (K : GSem nD τ sig → ℕ) (c : Dev nD) (l : Leg) : records m K ⊢ reached ER (recvCell l c) 0 := by
  rw [← kcell_recv c l]; exact reached_at m K _

theorem barInv_intro (K : GSem nD τ sig → ℕ) (c : Dev nD) : records m K ⊢ barInv m K c := by
  unfold barInv
  iintro #H
  isplitr; · iapply (inv_bar m K c); iexact H
  isplitr; · iapply (inv_bar m K (prv c)); iexact H
  iapply (inv_bar m K (nxt c)); iexact H
theorem legInv_intro (K : GSem nD τ sig → ℕ) (c : Dev nD) (l : Leg) (t : Dev nD) : records m K ⊢ legInvAt m K c l t := by
  unfold legInvAt
  iintro #H
  isplitr; · iapply (inv_send m K c l); iexact H
  isplitr; · iapply (inv_recv m K c l); iexact H
  iapply (inv_recv m K t l); iexact H

/-- What stays with a device of the barrier: its position, and the tokens of the two barrier duties it pays. -/
def barLin (c : Dev nD) : sProp 𝕄 :=
  iprop(atPos ER (barCell c) 0 ∅ 0 ∗ dutyTok ER (barCell (prv c)) 0 true ∗ dutyTok ER (barCell (nxt c)) 0 false)
/-- Of a leg: its two positions and the tokens of the two duties its copy pays. -/
def legLin (c : Dev nD) (l : Leg) : sProp 𝕄 :=
  iprop(atPos ER (sendCell l c) 0 ∅ 0 ∗ atPos ER (recvCell l c) 0 ∅ 0 ∗ dutyTok ER (sendCell l c) 0 false ∗ dutyTok ER (recvCell l (tgt l c)) 0 false)
def linear (c : Dev nD) : sProp 𝕄 :=
  iprop(barLin c ∗ legLin c .a1r ∗ legLin c .a1l ∗ legLin c .a2r ∗ legLin c .a2l ∗ legLin c .fr0 ∗ legLin c .fr1 ∗ legLin c .fl0 ∗ legLin c .fl1)

theorem barGhost_intro (K : GSem nD τ sig → ℕ) (c : Dev nD) : iprop(records m K ∗ barLin c) ⊢ barGhost c := by
  unfold barGhost barLin
  iintro ⟨#H, Ha, Ht, Hf⟩
  isplitl [Ha]; · iexact Ha
  isplitr; · iapply (reached_bar m K (prv c)); iexact H
  isplitr; · iapply (reached_bar m K (nxt c)); iexact H
  isplitl [Ht]; · iexact Ht
  iexact Hf
theorem legGhost_intro (K : GSem nD τ sig → ℕ) (c : Dev nD) (l : Leg) : iprop(records m K ∗ legLin c l) ⊢ legGhostAt c l (tgt l c) := by
  unfold legGhostAt legLin
  iintro ⟨#H, Ha, Hb, Hs, Hr⟩
  isplitl [Ha]; · iexact Ha
  isplitl [Hb]; · iexact Hb
  isplitr; · iapply (reached_send m K c l); iexact H
  isplitr; · iapply (reached_recv m K c l); iexact H
  isplitr; · iapply (reached_recv m K (tgt l c) l); iexact H
  isplitl [Hs]; · iexact Hs
  iexact Hr

theorem ghost_intro (K : GSem nD τ sig → ℕ) (c : Dev nD) : iprop(records m K ∗ linear c ∗ localSems c) ⊢ G' m c := by
  unfold G' ghost linear
  iintro ⟨#H, ⟨HB, H1, H2, H3, H4, H5, H6, H7, H8⟩, Hloc⟩
  isplitr [Hloc]
  · iexists K
    isplitr
    · isplitr; · iapply (barInv_intro m K c); iexact H
      isplitr; · iapply (legInv_intro m K c .a1r (nxt c)); iexact H
      isplitr; · iapply (legInv_intro m K c .a1l (prv c)); iexact H
      isplitr; · iapply (legInv_intro m K c .a2r (nxt c)); iexact H
      isplitr; · iapply (legInv_intro m K c .a2l (prv c)); iexact H
      isplitr; · iapply (legInv_intro m K c .fr0 (nxt c)); iexact H
      isplitr; · iapply (legInv_intro m K c .fr1 (nxt c)); iexact H
      isplitr; · iapply (legInv_intro m K c .fl0 (prv c)); iexact H
      iapply (legInv_intro m K c .fl1 (prv c)); iexact H
    · isplitl [HB]
      · iapply (barGhost_intro m K c); isplitr; · iexact H
        iexact HB
      isplitl [H1]
      · iapply (legGhost_intro m K c .a1r); isplitr; · iexact H
        iexact H1
      isplitl [H2]
      · iapply (legGhost_intro m K c .a1l); isplitr; · iexact H
        iexact H2
      isplitl [H3]
      · iapply (legGhost_intro m K c .a2r); isplitr; · iexact H
        iexact H3
      isplitl [H4]
      · iapply (legGhost_intro m K c .a2l); isplitr; · iexact H
        iexact H4
      isplitl [H5]
      · iapply (legGhost_intro m K c .fr0); isplitr; · iexact H
        iexact H5
      isplitl [H6]
      · iapply (legGhost_intro m K c .fr1); isplitr; · iexact H
        iexact H6
      isplitl [H7]
      · iapply (legGhost_intro m K c .fl0); isplitr; · iexact H
        iexact H7
      iapply (legGhost_intro m K c .fl1); isplitr; · iexact H
      iexact H8
  · iexact Hloc

/-- A family of assertions over the devices, read one device further along a bijection of the devices. -/
theorem shift (e : Dev nD ≃ Dev nD) (Φ : Dev nD → sProp 𝕄) : bigSep Finset.univ Φ ⊢ bigSep Finset.univ fun c => Φ (e c) :=
  Entails.of_eq (bigSep_univ_equiv e Φ)
def tgtE (l : Leg) : Dev nD ≃ Dev nD := ⟨tgt l, src l, src_tgt l, tgt_src l⟩

def ringInv : Dev nD ≃ Dev nD := ⟨prv, nxt, nxt_prv, prv_nxt⟩

/-- A barrier's `true` token goes to the device after it (whose left neighbour it is), -/
theorem tok_bar_true : (bigSep Finset.univ fun c : Dev nD => (dutyTok ER (barCell c) 0 true : sProp 𝕄))
    ⊢ bigSep Finset.univ fun c : Dev nD => dutyTok ER (barCell (prv c)) 0 true :=
  shift ringInv fun c => dutyTok ER (barCell c) 0 true
/-- its `false` token to the device before it, -/
theorem tok_bar_false : (bigSep Finset.univ fun c : Dev nD => (dutyTok ER (barCell c) 0 false : sProp 𝕄))
    ⊢ bigSep Finset.univ fun c : Dev nD => dutyTok ER (barCell (nxt c)) 0 false :=
  shift ring fun c => dutyTok ER (barCell c) 0 false
/-- and a receive cell's token to the device whose copy lands on it. -/
theorem tok_recv (l : Leg) : (bigSep Finset.univ fun c : Dev nD => (dutyTok ER (recvCell l c) 0 false : sProp 𝕄))
    ⊢ bigSep Finset.univ fun c : Dev nD => dutyTok ER (recvCell l (tgt l c)) 0 false :=
  shift (tgtE l) fun c => dutyTok ER (recvCell l c) 0 false

/-- The positions and the tokens as minted are, dealt around the ring, what each device keeps. -/
theorem around :
    iprop((bigSep Finset.univ fun c : Dev nD => bigSep Finset.univ fun k : Fin 17 => (atPos ER (kcell (c, k)) 0 ∅ 0 : sProp 𝕄))
        ∗ bigSep Finset.univ fun c : Dev nD => toks c)
      ⊢ bigSep Finset.univ fun c : Dev nD => linear c := by
  simp only [atPos17]
  unfold toks linear barLin legLin
  simp only [bigSep_sep']
  iintro ⟨⟨A0, A1, A2, A3, A4, A5, A6, A7, A8, A9, A10, A11, A12, A13, A14, A15, A16⟩, T0, T1, T2, T3, T4, T5, T6, T7, T8, T9, T10, T11, T12, T13, T14, T15, T16, T17⟩
  isplitl [A0 T0 T1]
  · isplitl [A0]; · iexact A0
    isplitl [T1]; · iapply (tok_bar_true (F := F)); iexact T1
    iapply (tok_bar_false (F := F)); iexact T0
  isplitl [A1 A9 T2 T3]
  · isplitl [A1]; · iexact A1
    isplitl [A9]; · iexact A9
    isplitl [T2]; · iexact T2
    iapply (tok_recv (F := F) .a1r); iexact T3
  isplitl [A2 A10 T4 T5]
  · isplitl [A2]; · iexact A2
    isplitl [A10]; · iexact A10
    isplitl [T4]; · iexact T4
    iapply (tok_recv (F := F) .a1l); iexact T5
  isplitl [A3 A11 T6 T7]
  · isplitl [A3]; · iexact A3
    isplitl [A11]; · iexact A11
    isplitl [T6]; · iexact T6
    iapply (tok_recv (F := F) .a2r); iexact T7
  isplitl [A4 A12 T8 T9]
  · isplitl [A4]; · iexact A4
    isplitl [A12]; · iexact A12
    isplitl [T8]; · iexact T8
    iapply (tok_recv (F := F) .a2l); iexact T9
  isplitl [A5 A13 T10 T11]
  · isplitl [A5]; · iexact A5
    isplitl [A13]; · iexact A13
    isplitl [T10]; · iexact T10
    iapply (tok_recv (F := F) .fr0); iexact T11
  isplitl [A6 A14 T12 T13]
  · isplitl [A6]; · iexact A6
    isplitl [A14]; · iexact A14
    isplitl [T12]; · iexact T12
    iapply (tok_recv (F := F) .fr1); iexact T13
  isplitl [A7 A15 T14 T15]
  · isplitl [A7]; · iexact A7
    isplitl [A15]; · iexact A15
    isplitl [T14]; · iexact T14
    iapply (tok_recv (F := F) .fl0); iexact T15
  isplitl [A8]; · iexact A8
  isplitl [A16]; · iexact A16
  isplitl [T16]; · iexact T16
  iapply (tok_recv (F := F) .fl1); iexact T17

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 17 => iprop(∃ κ : ℕ, cellInv ER (agRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, Hloc⟩
  ihave HK := (BI.bigSep_exists_pi Finset.univ (fun (ck : Dev nD × Fin 17) (κ : ℕ) => (cellInv ER (agRd m) κ (kcell ck) : sProp 𝕄))) $$ HI
  icases HK with ⟨%K', #HI⟩
  have hK : ∀ ck, K' (Function.invFun kcell (kcell ck)) = K' ck := fun ck => congrArg K' (Function.leftInverse_invFun kcell_injective ck)
  have hconv : (bigSep Finset.univ fun ck : Dev nD × Fin 17 => (cellInv ER (agRd m) (K' ck) (kcell ck) : sProp 𝕄))
      ⊢ bigSep Finset.univ fun ck : Dev nD × Fin 17 => cellInv ER (agRd m) (K' (Function.invFun kcell (kcell ck))) (kcell ck) :=
    bigSep_mono fun ck _ => Entails.of_eq (congrArg (fun n => (cellInv ER (agRd m) n (kcell ck) : sProp 𝕄)) (hK ck).symm)
  ihave Hlin := (around (F := F)) $$ [Hat Htok]
  · isplitl [Hat] <;> iassumption
  iapply (bigSep_with_persistent (R := records m fun g => K' (Function.invFun kcell g)) fun c _ => ghost_intro m (fun g => K' (Function.invFun kcell g)) c)
  isplitr
  · unfold records; isplitl
    · iapply hconv; iexact HI
    · iexact HR
  · iapply (Entails.of_eq (bigSep_sep' Finset.univ (fun c : Dev nD => linear c) (fun c : Dev nD => localSems c)).symm)
    isplitl [Hlin] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds_intro (c : Dev nD) : (Pipeline.launchCred O₀ c : sProp 𝕄) ⊢ creds c := by
  unfold O₀ creds
  simp only [Pipeline.launchCred_add]
  iintro ⟨⟨⟨⟨⟨⟨⟨⟨⟨Hfl1, Hfl0⟩, Hfr1⟩, Hfr0⟩, Ha2l⟩, Ha2r⟩, Ha1l⟩, Ha1r⟩, Hbn⟩, Hbp⟩
  ihave Hb1 := (Pipeline.launchCred_tallyAt (.reg barS) nxt prv nxt_prv prv_nxt () 1 c) $$ Hbn
  ihave Hb2 := (Pipeline.launchCred_tallyAt (.reg barS) prv nxt prv_nxt nxt_prv () 1 c) $$ Hbp
  isplitl [Hb1 Hb2]
  · iapply (Entails.of_eq (congrArg cred (tallyAt_add (barCell c) () 1 1)))
    iapply (cred_add _ _).2
    isplitl [Hb1] <;> iassumption
  isplitl [Ha1r]; · iapply (Pipeline.launchCred_tallyAt (.dma (sR .a1r)) nxt prv nxt_prv prv_nxt () (legAmt .a1r) c); iexact Ha1r
  isplitl [Ha1l]; · iapply (Pipeline.launchCred_tallyAt (.dma (sR .a1l)) prv nxt prv_nxt nxt_prv () (legAmt .a1l) c); iexact Ha1l
  isplitl [Ha2r]; · iapply (Pipeline.launchCred_tallyAt (.dma (sR .a2r)) nxt prv nxt_prv prv_nxt () (legAmt .a2r) c); iexact Ha2r
  isplitl [Ha2l]; · iapply (Pipeline.launchCred_tallyAt (.dma (sR .a2l)) prv nxt prv_nxt nxt_prv () (legAmt .a2l) c); iexact Ha2l
  isplitl [Hfr0]; · iapply (Pipeline.launchCred_tallyAt (.dma (sR .fr0)) nxt prv nxt_prv prv_nxt () (legAmt .fr0) c); iexact Hfr0
  isplitl [Hfr1]; · iapply (Pipeline.launchCred_tallyAt (.dma (sR .fr1)) nxt prv nxt_prv prv_nxt () (legAmt .fr1) c); iexact Hfr1
  isplitl [Hfl0]; · iapply (Pipeline.launchCred_tallyAt (.dma (sR .fl0)) prv nxt prv_nxt nxt_prv () (legAmt .fl0) c); iexact Hfl0
  iapply (Pipeline.launchCred_tallyAt (.dma (sR .fl1)) prv nxt prv_nxt nxt_prv () (legAmt .fl1) c); iexact Hfl1

/-! ## The pipeline's proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(emp) := by
  rw [show (Finset.univ : Finset (Fin cfg0.W)) = ∅ from rfl, bigSep_empty]; rfl

/-- The library's body obligation on device `c`: the body lemma, its precondition found inside the invariant before the
    point and its postcondition handed back as the invariant after it. -/
theorem body_obligation (c : Dev nD) : BodyObligation (dats (F := F) m 0 c) (defs₀ (F := F)) 𝒱₀ () Set.univ := fun t => by
  rw [fin_N0 t]
  rw [bigSep_W, bigSep_W]
  show iprop(Φ₀ m c ∗ (dats m 0 c).owesAt () t0_0.castSucc ∗ emp)
    ⊢ wp frame (wpE (defs₀ (F := F)) 𝒱₀ c none) Set.univ (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14)
      (fun _ => iprop(Φ₁ m c ∗ (dats m 0 c).owesAt () t0_0.succ ∗ emp))
  unfold Φ₀ Φ₁ Dat.owesAt Pipeline.owesWithin
  rw [show (dats m 0 c).owed t0_0.castSucc = O₀ c from rfl, show (dats m 0 c).owed t0_0.succ = 0 from rfl]
  iintro ⟨⟨%K, Hpre⟩, ⟨%W, %hW, HO⟩, -⟩
  iapply (sound_body m K c W _)
  isplitl [Hpre HO]
  · isplitl [Hpre] <;> iassumption
  · iintro ⟨Hpost, ⟨%W', HO'⟩⟩
    isplitl [Hpost]; · iexact Hpost
    isplitl [HO']
    · iexists W'
      isplitr; · ipureintro; exact fun _ _ => Or.inl trivial
      iexact HO'
    · iempintro

/-! ## The launch theorem's side conditions -/

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

/-- What a device holds once the launch has dealt it its share: the cells' ghost state, its own counters, the credit it
    waits for, the levels, and the three arrays at their launch contents. -/
def start (c : Dev nD) : sProp 𝕄 :=
  iprop((∃ K, ghost m K c) ∗ localSems c ∗ creds c ∗ levAts L lv ∗ arrays m c (m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha0, Ha1, Hv1⟩, Hlev, Hcr, -, HG⟩
  ihave Hc := (creds_intro (F := F) c) $$ Hcr
  imodintro
  unfold start G' arrays
  icases HG with ⟨Hg, Hloc⟩
  isplitl
  · isplitl [Hg]; · iexact Hg
    isplitl [Hloc]; · iexact Hloc
    isplitl [Hc]; · iexact Hc
    isplitl [Hlev]; · iexact Hlev
    isplitl [Ha0]; · iexact Ha0
    isplitl [Ha1]; · iexact Ha1
    iexact Hv1
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start bodyPre scratch
  iintro ⟨⟨⟨%K, Hg⟩, Hloc, Hc, Hlev, Harr⟩, -, Hs⟩
  iexists K
  isplitl [Hg]; · iexact Hg
  isplitl [Hloc]; · iexact Hloc
  isplitl [Hc]; · iexact Hc
  isplitl [Hlev]; · iexact Hlev
  isplitl [Harr]; · iexact Harr
  iexact Hs

theorem phi1_exit (c : Dev nD) :
    (dats m 0 c).Φ (Fin.last cfg0.N) ⊢ iprop(arrays m c (outv m c) ∗ Pipeline.ownSems0 osem c ∗ Pipeline.scopedRest cfg0.spec c) := by
  rw [show (dats m 0 c).Φ (Fin.last cfg0.N) = Φ₁ m c from rfl, scopedRest0_eq]
  unfold Φ₁ bodyPost scratch
  iintro ⟨Harr, Hloc, Hleg, Hs⟩
  isplitl [Harr]; · iexact Harr
  isplitl [Hloc Hleg]
  · iapply (ownSems0_intro (F := F) c)
    isplitl [Hloc] <;> iassumption
  iexact Hs

/-! ## The run -/

-- the launch theorem is applied to the whole layout record at once (twenty named arguments over it): the elaborator recurses deep
set_option maxRecDepth 8000 in
/-- At the compiled mesh of four devices, for any float values, from any memory with zero counters: every weakly fair
    execution of the program terminates, and every final state has each device's result at `outv m c` and its two
    arguments as launched. -/
theorem run_main [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split (F := F) _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => arrays m c (outv m c)) (Z := fun _ => iprop(emp))
    (hX := start_intro m ρ) (hin := phi0_intro m) (hout := phi1_exit m)
    (QY := fun c s => s.mem ((c.tc : Thread nD τ).loc main_v1) = outv m c
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold arrays
      iintro ⟨⟨Ha0, Ha1, Hv1⟩, -, HSI⟩
      icombine HSI Ha0 gives %h0
      icombine HSI Ha1 gives %h1
      icombine HSI Hv1 gives %hv
      imodintro
      isplitr
      · ipureintro; exact ⟨Buf.eq_of_forall_mem_univ hv, Buf.eq_of_forall_mem_univ h0, Buf.eq_of_forall_mem_univ h1⟩
      iexact HSI)
    (hQ := fun _ h c => (h c).2.2)

/-- info: 'Cert.KernelIdeal.AG.glob' depends on axioms: [propext, Classical.choice, Quot.sound] -/
#guard_msgs in #print axioms glob

end Cert.KernelIdeal.AG

end
-- ==== Proof.Spec.lean ====
/-
  The specification of the gathered product: relu (X · W) over the extended reals, as ONE function of the whole
  arrays; a column block of it is the same function of the column block of W, and the whole X is recovered from
  its four row blocks.
-/
import Idealize.ShloMosaic.Lib.Layout
import Idealize.ShloMosaic.Lib.ValueIdx
import Idealize.ShloMosaic.PureOps.Ideal
import Mathlib.Data.EReal.Basic
import Mathlib.Algebra.BigOperators.Group.Finset.Basic

noncomputable section

open scoped BigOperators

namespace AGSpec

open Idealize.ShloMosaic Idealize.ShloMosaic.ValueIdx

/-- The whole left operand X, 4096 × 4096. -/
abbrev SX : Shape := ⟨2, ![4096, 4096]⟩
/-- The whole right operand W, 4096 × 8192. -/
abbrev SW : Shape := ⟨2, ![4096, 8192]⟩
/-- One column block of W, 4096 × 2048. -/
abbrev SWc : Shape := ⟨2, ![4096, 2048]⟩
/-- The whole result, 4096 × 8192. -/
abbrev SO : Shape := ⟨2, ![4096, 8192]⟩
/-- One column block of the result, 4096 × 2048. -/
abbrev SOc : Shape := ⟨2, ![4096, 2048]⟩
/-- One row block of X, 1024 × 4096. -/
abbrev SXc : Shape := ⟨2, ![1024, 4096]⟩

/-- relu (X · W): at (r, l) the maximum of Σ_k X[r, k] · W[k, l] and 0. -/
def G (X : SX.Idx → EReal) (W : SW.Idx → EReal) : SO.Idx → EReal :=
  fun i => max (∑ k : Fin 4096, X (ix2 (i 0 : Fin 4096) k) * W (ix2 k (i 1 : Fin 8192))) 0

/-- The same function of a column block of W: relu (X · Wc), 4096 × 2048. -/
def Gc (X : SX.Idx → EReal) (Wc : SWc.Idx → EReal) : SOc.Idx → EReal :=
  fun i => max (∑ k : Fin 4096, X (ix2 (i 0 : Fin 4096) k) * Wc (ix2 k (i 1 : Fin 2048))) 0

theorem G_apply (X : SX.Idx → EReal) (W : SW.Idx → EReal) (i : SO.Idx) :
    G X W i = max (∑ k : Fin 4096, X (ix2 (i 0 : Fin 4096) k) * W (ix2 k (i 1 : Fin 8192))) 0 := rfl

theorem Gc_apply (X : SX.Idx → EReal) (Wc : SWc.Idx → EReal) (i : SOc.Idx) :
    Gc X Wc i = max (∑ k : Fin 4096, X (ix2 (i 0 : Fin 4096) k) * Wc (ix2 k (i 1 : Fin 2048))) 0 := rfl

/-- Column block c of relu (X · W) is relu (X · (column block c of W)): a column of the product reads only that
    column of W. -/
theorem block_G (c : Fin 4) (X : SX.Idx → EReal) (W : SW.Idx → EReal) :
    Layout.block SOc SO 1 4 c (G X W) = Gc X (Layout.block SWc SW 1 4 c W) := by
  funext i
  rw [Layout.block_apply, G_apply, Gc_apply]
  refine congrArg (fun s => max s (0 : EReal)) (Finset.sum_congr rfl fun k _ => ?_)
  have hl : (ix2 ((Layout.Tiles.idx (S := SOc) (T := SO) (a := 1) (k := 4) (by decide) c i) 0 : Fin 4096) k : SX.Idx)
      = ix2 (i 0 : Fin 4096) k := by
    funext a
    match a with
    | ⟨0, _⟩ => exact Fin.ext rfl
    | ⟨1, _⟩ => rfl
  have hr : (ix2 k ((Layout.Tiles.idx (S := SOc) (T := SO) (a := 1) (k := 4) (by decide) c i) 1 : Fin 8192) : SW.Idx)
      = Layout.Tiles.idx (S := SWc) (T := SW) (a := 1) (k := 4) (by decide) c (ix2 k (i 1 : Fin 2048)) := by
    funext a
    match a with
    | ⟨0, _⟩ => exact Fin.ext rfl
    | ⟨1, _⟩ => exact Fin.ext rfl
  exact congrArg₂ (fun a b : EReal => a * b) (congrArg X hl) (congrArg W hr)

/-- The whole X from its four row blocks of 1024 rows: row r is row r mod 1024 of block r / 1024. -/
def gather (xs : Fin 4 → (SXc.Idx → EReal)) : SX.Idx → EReal :=
  fun i => xs ⟨(i 0).val / 1024, by have := idx2_lt0 i; omega⟩
    (ix2 (⟨(i 0).val % 1024, Nat.mod_lt _ (by decide)⟩ : Fin 1024) (i 1 : Fin 4096))

/-- Gathering the four row blocks of X gives X back. -/
theorem gather_block (X : SX.Idx → EReal) : gather (fun c => Layout.block SXc SX 0 4 c X) = X := by
  funext i
  show X _ = X i
  refine congrArg X (funext fun a => ?_)
  match a with
  | ⟨0, _⟩ =>
    refine Fin.ext ?_
    show (i 0).val / 1024 * 1024 + (i 0).val % 1024 = (i 0).val
    exact Nat.div_add_mod' _ _
  | ⟨1, _⟩ => exact Fin.ext rfl

end AGSpec

end
-- ==== Proof.PayVal.lean ====
/-
  The kernel's store payloads read at an index, at the extended reals. Every payload is one of a few functions,
  each met again under other binder names: the product of two blocks accumulated into zero, its maximum with zero
  under an added leading unit axis, the maximum alone, and the narrowing of a loaded block (the identity here).
  Each function is defined once, read at an index once, and every payload is shown to be one of them.
-/
import proofs.«900658_g7700000000000659_dist_ag_gemm_m4096_k4096_n8192_f32_relu_v7x_i4_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.AG

open Cert.KernelIdeal Cert.KernelIdeal.Gen
open Idealize.ShloMosaic Idealize.ShloMosaic.ValueIdx

/-- The scalar constant of pattern zero is the extended real 0. -/
theorem scalar_zero : Scalar.ofBits (F := Ideal) .f32 0x00000000#32 = (0 : EReal) := Ideal.ofBits_zero_f32

/-! ## 512 rows -/

/-- The product of a 512 × 4096 block and a 4096 × 512 block, accumulated into the zero splat. -/
def mm512 (a : Vec Ideal S512x4096 .bf16) (b : Vec Ideal S4096x512 .bf16) : FVec Ideal S512x512 .f32 :=
  matmul (φ₁ := .bf16) (φ₂ := .bf16) dot_S512x4096_S4096x512_S512x512_1_0_0_1_n_n none a b (constant S512x512 .f32 0x00000000#32)

/-- The maximum of a 512 × 512 array with a broadcast scalar, with a leading unit axis added. -/
def relu512 (v : FVec Ideal S512x512 .f32) (cst : Ideal .f32) : FVec Ideal S1x512x512 .f32 :=
  shapeCast S1x512x512 (maximumf v (broadcast S512x512 cst)) shapeCasts_S512x512_S1x512x512

/-- The same against the scalar constant of pattern zero. -/
def relu512z (v : FVec Ideal S512x512 .f32) : FVec Ideal S1x512x512 .f32 :=
  relu512 v (Scalar.ofBits (F := Ideal) .f32 0x00000000#32)

/-- The product, then the maximum with zero, then the leading unit axis. -/
def mmRelu512 (a : Vec Ideal S512x4096 .bf16) (b : Vec Ideal S4096x512 .bf16) : FVec Ideal S1x512x512 .f32 :=
  relu512z (mm512 a b)

theorem lhs512_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs512_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs512_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs512_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- The product at (p, q) is the sum over the contraction coordinate k of a[p, k] · b[k, q]. -/
theorem mm512_apply (a : Vec Ideal S512x4096 .bf16) (b : Vec Ideal S4096x512 .bf16) (p : Fin 512) (q : Fin 512) :
    mm512 a b (ix2 p q) = ∑ k : Fin 4096, a (ix2 p k) * b (ix2 k q) := by
  unfold mm512
  simp only [matmul]
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun x => Fin.ext (by
    match x with
    | ⟨0, _⟩ => exact lhs512_0 _ _
    | ⟨1, _⟩ => exact (lhs512_1 _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun x => Fin.ext (by
    match x with
    | ⟨0, _⟩ => exact (rhs512_0 _ _).trans hk
    | ⟨1, _⟩ => exact rhs512_1 _ _)
  rw [el, er]

/-- The maximum with a broadcast scalar, read under the added unit axis at (u, p, q). -/
theorem relu512_apply (v : FVec Ideal S512x512 .f32) (cst : Ideal .f32) (u : Fin 1) (p : Fin 512) (q : Fin 512) :
    relu512 v cst (ix3 u p q) = max (v (ix2 p q)) cst := by
  unfold relu512
  rw [shapeCast_ab_1ab_apply]
  rfl

/-- The maximum with zero, read under the added unit axis at (u, p, q). -/
theorem relu512z_apply (v : FVec Ideal S512x512 .f32) (u : Fin 1) (p : Fin 512) (q : Fin 512) :
    relu512z v (ix3 u p q) = max (v (ix2 p q)) 0 := by
  unfold relu512z
  rw [relu512_apply, scalar_zero]

/-- The product's maximum with zero at (u, p, q): max (Σ_k a[p, k] · b[k, q]) 0. -/
theorem mmRelu512_apply (a : Vec Ideal S512x4096 .bf16) (b : Vec Ideal S4096x512 .bf16) (u : Fin 1) (p : Fin 512) (q : Fin 512) :
    mmRelu512 a b (ix3 u p q) = max (∑ k : Fin 4096, a (ix2 p k) * b (ix2 k q)) 0 := by
  unfold mmRelu512
  rw [relu512z_apply, mm512_apply]

/-- The same three at an arbitrary index i of the result, with p := i 1 and q := i 2 (p := i 0, q := i 1 for the product). -/
theorem mm512_idx (a : Vec Ideal S512x4096 .bf16) (b : Vec Ideal S4096x512 .bf16) (i : S512x512.Idx) :
    mm512 a b i = ∑ k : Fin 4096, a (ix2 (i 0 : Fin 512) k) * b (ix2 k (i 1 : Fin 512)) := by
  rw [eq_ix2 i]; exact mm512_apply a b _ _
theorem relu512_idx (v : FVec Ideal S512x512 .f32) (cst : Ideal .f32) (i : S1x512x512.Idx) :
    relu512 v cst i = max (v (ix2 (i 1 : Fin 512) (i 2 : Fin 512))) cst := by
  rw [eq_ix3 i]; exact relu512_apply v cst _ _ _
theorem relu512z_idx (v : FVec Ideal S512x512 .f32) (i : S1x512x512.Idx) :
    relu512z v i = max (v (ix2 (i 1 : Fin 512) (i 2 : Fin 512))) 0 := by
  rw [eq_ix3 i]; exact relu512z_apply v _ _ _
theorem mmRelu512_idx (a : Vec Ideal S512x4096 .bf16) (b : Vec Ideal S4096x512 .bf16) (i : S1x512x512.Idx) :
    mmRelu512 a b i = max (∑ k : Fin 4096, a (ix2 (i 1 : Fin 512) k) * b (ix2 k (i 2 : Fin 512))) 0 := by
  rw [eq_ix3 i]; exact mmRelu512_apply a b _ _ _

/-! ## 256 rows -/

/-- The product of a 256 × 4096 block and a 4096 × 512 block, accumulated into the zero splat. -/
def mm256 (a : Vec Ideal S256x4096 .bf16) (b : Vec Ideal S4096x512 .bf16) : FVec Ideal S256x512 .f32 :=
  matmul (φ₁ := .bf16) (φ₂ := .bf16) dot_S256x4096_S4096x512_S256x512_1_0_0_1_n_n none a b (constant S256x512 .f32 0x00000000#32)

/-- The maximum of a 256 × 512 array with a broadcast scalar, with a leading unit axis added. -/
def relu256 (v : FVec Ideal S256x512 .f32) (cst : Ideal .f32) : FVec Ideal S1x256x512 .f32 :=
  shapeCast S1x256x512 (maximumf v (broadcast S256x512 cst)) shapeCasts_S256x512_S1x256x512

/-- The same against the scalar constant of pattern zero. -/
def relu256z (v : FVec Ideal S256x512 .f32) : FVec Ideal S1x256x512 .f32 :=
  relu256 v (Scalar.ofBits (F := Ideal) .f32 0x00000000#32)

/-- The product, then the maximum with zero, then the leading unit axis. -/
def mmRelu256 (a : Vec Ideal S256x4096 .bf16) (b : Vec Ideal S4096x512 .bf16) : FVec Ideal S1x256x512 .f32 :=
  relu256z (mm256 a b)

theorem lhs256_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs256_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs256_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs256_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- The product at (p, q) is the sum over the contraction coordinate k of a[p, k] · b[k, q]. -/
theorem mm256_apply (a : Vec Ideal S256x4096 .bf16) (b : Vec Ideal S4096x512 .bf16) (p : Fin 256) (q : Fin 512) :
    mm256 a b (ix2 p q) = ∑ k : Fin 4096, a (ix2 p k) * b (ix2 k q) := by
  unfold mm256
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 p q) ((contrEquiv1 dot_S256x4096_S4096x512_S256x512_1_0_0_1_n_n 4096 rfl rfl).symm k) = ix2 p k := funext fun x => Fin.ext (by
    match x with
    | ⟨0, _⟩ => exact lhs256_0 _ _
    | ⟨1, _⟩ => exact (lhs256_1 _ _).trans hk)
  have er : dot_S256x4096_S4096x512_S256x512_1_0_0_1_n_n.rhsIdx (ix2 p q) ((contrEquiv1 dot_S256x4096_S4096x512_S256x512_1_0_0_1_n_n 4096 rfl rfl).symm k) = ix2 k q := funext fun x => Fin.ext (by
    match x with
    | ⟨0, _⟩ => exact (rhs256_0 _ _).trans hk
    | ⟨1, _⟩ => exact rhs256_1 _ _)
  rw [el, er]

/-- The maximum with a broadcast scalar, read under the added unit axis at (u, p, q). -/
theorem relu256_apply (v : FVec Ideal S256x512 .f32) (cst : Ideal .f32) (u : Fin 1) (p : Fin 256) (q : Fin 512) :
    relu256 v cst (ix3 u p q) = max (v (ix2 p q)) cst := by
  unfold relu256
  rw [shapeCast_ab_1ab_apply]
  rfl

/-- The maximum with zero, read under the added unit axis at (u, p, q). -/
theorem relu256z_apply (v : FVec Ideal S256x512 .f32) (u : Fin 1) (p : Fin 256) (q : Fin 512) :
    relu256z v (ix3 u p q) = max (v (ix2 p q)) 0 := by
  unfold relu256z
  rw [relu256_apply, scalar_zero]

/-- The product's maximum with zero at (u, p, q): max (Σ_k a[p, k] · b[k, q]) 0. -/
theorem mmRelu256_apply (a : Vec Ideal S256x4096 .bf16) (b : Vec Ideal S4096x512 .bf16) (u : Fin 1) (p : Fin 256) (q : Fin 512) :
    mmRelu256 a b (ix3 u p q) = max (∑ k : Fin 4096, a (ix2 p k) * b (ix2 k q)) 0 := by
  unfold mmRelu256
  rw [relu256z_apply, mm256_apply]

/-- The same three at an arbitrary index i of the result, with p := i 1 and q := i 2 (p := i 0, q := i 1 for the product). -/
theorem mm256_idx (a : Vec Ideal S256x4096 .bf16) (b : Vec Ideal S4096x512 .bf16) (i : S256x512.Idx) :
    mm256 a b i = ∑ k : Fin 4096, a (ix2 (i 0 : Fin 256) k) * b (ix2 k (i 1 : Fin 512)) := by
  rw [eq_ix2 i]; exact mm256_apply a b _ _
theorem relu256_idx (v : FVec Ideal S256x512 .f32) (cst : Ideal .f32) (i : S1x256x512.Idx) :
    relu256 v cst i = max (v (ix2 (i 1 : Fin 256) (i 2 : Fin 512))) cst := by
  rw [eq_ix3 i]; exact relu256_apply v cst _ _ _
theorem relu256z_idx (v : FVec Ideal S256x512 .f32) (i : S1x256x512.Idx) :
    relu256z v i = max (v (ix2 (i 1 : Fin 256) (i 2 : Fin 512))) 0 := by
  rw [eq_ix3 i]; exact relu256z_apply v _ _ _
theorem mmRelu256_idx (a : Vec Ideal S256x4096 .bf16) (b : Vec Ideal S4096x512 .bf16) (i : S1x256x512.Idx) :
    mmRelu256 a b i = max (∑ k : Fin 4096, a (ix2 (i 1 : Fin 256) k) * b (ix2 k (i 2 : Fin 512))) 0 := by
  rw [eq_ix3 i]; exact mmRelu256_apply a b _ _ _

/-! ## The narrowing is the identity -/

/-- Narrowing a 1024 × 4096 array to the shorter format changes no element. -/
theorem truncf_bf16_apply (v : FVec Ideal S1024x4096 .f32) (i : S1024x4096.Idx) :
    truncf (F := Ideal) .bf16 v bitsLt_bf16_f32 i = v i := rfl
/-- Narrowing a 4096 × 2048 array to the shorter format changes no element. -/
theorem truncf_bf16_apply' (v : FVec Ideal S4096x2048 .f32) (i : S4096x2048.Idx) :
    truncf (F := Ideal) .bf16 v bitsLt_bf16_f32 i = v i := rfl
/-- At any shape, as functions. -/
theorem truncf_bf16_eq {s : Shape} (v : FVec Ideal s .f32) (h : FTy.bits .bf16 < FTy.bits .f32) :
    truncf (F := Ideal) .bf16 v h = v := rfl

/-! ## The loaded blocks: drop the unit axis, narrow, cast to the same shape -/

/-- A loaded 1 × 128 × 4096 block, narrowed, at (p, q) is the block at (0, p, q). -/
theorem pay1_at (v : Vec Ideal S1x128x4096 .f32) (p : Fin 128) (q : Fin 4096) :
    k0_pay1 (F := Ideal) v (ix2 p q) = v (ix3 (0 : Fin 1) p q) := by
  unfold k0_pay1
  rw [shapeCast_self]
  exact shapeCast_1ab_ab_apply v _ p q
theorem pay2_apply (v : Vec Ideal S1x128x4096 .f32) (p : Fin 128) (q : Fin 4096) :
    k0_pay2 (F := Ideal) v (ix2 p q) = v (ix3 (0 : Fin 1) p q) := by
  unfold k0_pay2
  rw [shapeCast_self]
  exact shapeCast_1ab_ab_apply v _ p q
/-- A loaded 1 × 4096 × 128 block, narrowed, at (p, q) is the block at (0, p, q). -/
theorem pay3_apply (v : Vec Ideal S1x4096x128 .f32) (p : Fin 4096) (q : Fin 128) :
    k0_pay3 (F := Ideal) v (ix2 p q) = v (ix3 (0 : Fin 1) p q) := by
  unfold k0_pay3
  rw [shapeCast_self]
  exact shapeCast_1ab_ab_apply v _ p q
theorem pay2_eq : k0_pay2 (F := Ideal) = k0_pay1 (F := Ideal) := rfl

/-! ## Every payload is one of the functions above -/

theorem pay4_eq : k0_pay4 (F := Ideal) = mmRelu512 := rfl
theorem pay5_eq : k0_pay5 (F := Ideal) = mmRelu512 := rfl
theorem pay6_eq : k0_pay6 (F := Ideal) = mm512 := rfl
theorem pay7_eq : k0_pay7 (F := Ideal) = relu512 := rfl
theorem pay8_eq : k0_pay8 (F := Ideal) = mmRelu512 := rfl
theorem pay9_eq : k0_pay9 (F := Ideal) = mmRelu512 := rfl
theorem pay10_eq : k0_pay10 (F := Ideal) = mm512 := rfl
theorem pay11_eq : k0_pay11 (F := Ideal) = relu512 := rfl
theorem pay12_eq : k0_pay12 (F := Ideal) = mmRelu512 := rfl
theorem pay13_eq : k0_pay13 (F := Ideal) = mmRelu512 := rfl
theorem pay14_eq : k0_pay14 (F := Ideal) = mm512 := rfl
theorem pay15_eq : k0_pay15 (F := Ideal) = relu512z := rfl
theorem pay16_eq : k0_pay16 (F := Ideal) = mmRelu512 := rfl
theorem pay17_eq : k0_pay17 (F := Ideal) = mmRelu512 := rfl
theorem pay18_eq : k0_pay18 (F := Ideal) = mm512 := rfl
theorem pay19_eq : k0_pay19 (F := Ideal) = relu512z := rfl
theorem pay20_eq : k0_pay20 (F := Ideal) = mmRelu512 := rfl
theorem pay21_eq : k0_pay21 (F := Ideal) = mmRelu512 := rfl
theorem pay22_eq : k0_pay22 (F := Ideal) = mm512 := rfl
theorem pay23_eq : k0_pay23 (F := Ideal) = relu512z := rfl
theorem pay24_eq : k0_pay24 (F := Ideal) = mmRelu512 := rfl
theorem pay25_eq : k0_pay25 (F := Ideal) = mmRelu512 := rfl
theorem pay26_eq : k0_pay26 (F := Ideal) = mmRelu512 := rfl
theorem pay27_eq : k0_pay27 (F := Ideal) = mm512 := rfl
theorem pay28_eq : k0_pay28 (F := Ideal) = relu512 := rfl
theorem pay29_eq : k0_pay29 (F := Ideal) = mmRelu512 := rfl
theorem pay30_eq : k0_pay30 (F := Ideal) = mmRelu512 := rfl
theorem pay31_eq : k0_pay31 (F := Ideal) = mm512 := rfl
theorem pay32_eq : k0_pay32 (F := Ideal) = relu512 := rfl
theorem pay33_eq : k0_pay33 (F := Ideal) = mmRelu512 := rfl
theorem pay34_eq : k0_pay34 (F := Ideal) = mmRelu512 := rfl
theorem pay35_eq : k0_pay35 (F := Ideal) = mmRelu256 := rfl
theorem pay36_eq : k0_pay36 (F := Ideal) = mmRelu256 := rfl
theorem pay37_eq : k0_pay37 (F := Ideal) = mm256 := rfl
theorem pay38_eq : k0_pay38 (F := Ideal) = relu256z := rfl
theorem pay39_eq : k0_pay39 (F := Ideal) = mmRelu256 := rfl
theorem pay40_eq : k0_pay40 (F := Ideal) = mmRelu256 := rfl
theorem pay41_eq : k0_pay41 (F := Ideal) = mm256 := rfl
theorem pay42_eq : k0_pay42 (F := Ideal) = relu256z := rfl
theorem pay43_eq : k0_pay43 (F := Ideal) = mmRelu256 := rfl
theorem pay44_eq : k0_pay44 (F := Ideal) = mmRelu256 := rfl
theorem pay45_eq : k0_pay45 (F := Ideal) = mmRelu256 := rfl
theorem pay46_eq : k0_pay46 (F := Ideal) = mm256 := rfl
theorem pay47_eq : k0_pay47 (F := Ideal) = relu256z := rfl
theorem pay48_eq : k0_pay48 (F := Ideal) = mmRelu256 := rfl
theorem pay49_eq : k0_pay49 (F := Ideal) = mmRelu256 := rfl
theorem pay50_eq : k0_pay50 (F := Ideal) = mm256 := rfl
theorem pay51_eq : k0_pay51 (F := Ideal) = relu256z := rfl
theorem pay52_eq : k0_pay52 (F := Ideal) = mmRelu256 := rfl
theorem pay53_eq : k0_pay53 (F := Ideal) = mmRelu256 := rfl
theorem pay54_eq : k0_pay54 (F := Ideal) = mm256 := rfl
theorem pay55_eq : k0_pay55 (F := Ideal) = relu256z := rfl

end Cert.KernelIdeal.AG

end
-- ==== Proof.Value.lean ====
/-
  At the extended reals each device's result is the specification: the product of the whole gathered x with the
  device's columns of w, followed by the maximum with zero.

  One tile of the result at (p, q) is max (Σ_k a[p, k] · b[k, q]) 0 whatever its height; the narrowing to the short
  format is the identity; row R of the gathered x is row R mod 1024 of device R / 1024; and a row or column offset
  split into tile and remainder adds back up (256 (r / 256) + r mod 256 = r, and so for 512). So the case split of
  `outv` on the tile height closes the same way on both sides.
-/
import proofs.«900658_g7700000000000659_dist_ag_gemm_m4096_k4096_n8192_f32_relu_v7x_i4_1_alg».proof.Proof.Contents
import proofs.«900658_g7700000000000659_dist_ag_gemm_m4096_k4096_n8192_f32_relu_v7x_i4_1_alg».proof.Proof.Spec
import proofs.«900658_g7700000000000659_dist_ag_gemm_m4096_k4096_n8192_f32_relu_v7x_i4_1_alg».proof.Proof.PayVal

noncomputable section

open scoped BigOperators

namespace Cert.KernelIdeal.AG

open Cert.KernelIdeal Cert.KernelIdeal.Gen Idealize.ShloMosaic Idealize.ShloMosaic.TcCoe
open Idealize.ShloMosaic.ValueIdx

/-! ## At the extended reals -/

section AtIdeal

/-- One 512-row tile at (p, q): max (Σ_k a[p, k] · b[k, q]) 0. -/
theorem mmRelu512F_apply (a : Vec Ideal S512x4096 .bf16) (b : Vec Ideal S4096x512 .bf16) (p q : Fin 512) :
    mmRelu512F (F := Ideal) a b (ix2 p q)
      = max (∑ k : Fin 4096, (show EReal from a (ix2 p k)) * (show EReal from b (ix2 k q))) 0 := by
  unfold mmRelu512F
  rw [maximumf_apply, broadcast_apply, scalar_zero]
  exact congrArg (fun s => max s (0 : EReal)) (mm512_apply a b p q)

/-- One 256-row tile at (p, q): max (Σ_k a[p, k] · b[k, q]) 0. -/
theorem mmRelu256F_apply (a : Vec Ideal S256x4096 .bf16) (b : Vec Ideal S4096x512 .bf16) (p : Fin 256) (q : Fin 512) :
    mmRelu256F (F := Ideal) a b (ix2 p q)
      = max (∑ k : Fin 4096, (show EReal from a (ix2 p k)) * (show EReal from b (ix2 k q))) 0 := by
  unfold mmRelu256F
  rw [maximumf_apply, broadcast_apply, scalar_zero]
  exact congrArg (fun s => max s (0 : EReal)) (mm256_apply a b p q)

variable (m : (ℓ : Loc nD τ sig) → Buf (Elt Ideal) ℓ)

/-- The narrowed rows of x are the rows of x. -/
theorem xb_ideal (d : Dev nD) (i : S1024x4096.Idx) : xb (F := Ideal) m d i = m ((d : Thread nD τ).loc main_arg0) i := rfl
/-- The narrowed columns of w are the columns of w. -/
theorem wb_ideal (c : Dev nD) (i : S4096x2048.Idx) : wb (F := Ideal) m c i = m ((c : Thread nD τ).loc main_arg1) i := rfl

/-- The gathered x at (R, k) is device R / 1024's x at (R mod 1024, k). -/
theorem gather_at (i : S4096x2048.Idx) (k : Fin 4096) :
    AGSpec.gather (fun d : Fin 4 => m (((d : Dev nD) : Thread nD τ).loc main_arg0)) (ix2 (i 0 : Fin 4096) k)
      = m ((oDev i : Thread nD τ).loc main_arg0) (ix2 (oRow i) k) := rfl

/-- At the extended reals every device's result is the product of the gathered x with its columns of w, followed by
    the maximum with zero: the tiling does not show. -/
theorem outv_ideal (c : Dev nD) :
    outv (F := Ideal) m c
      = AGSpec.Gc (AGSpec.gather fun d : Fin 4 => m (((d : Dev nD) : Thread nD τ).loc main_arg0)) (m ((c : Thread nD τ).loc main_arg1)) := by
  funext i
  rw [AGSpec.Gc_apply]
  by_cases h : oDev i = opp c
  · rw [outv_opp m c i h, mmRelu256F_apply]
    refine congrArg (fun s => max s (0 : EReal)) (Finset.sum_congr rfl fun k _ => ?_)
    rw [gather_at, rows256_apply, cols512_apply, xb_ideal, wb_ideal]
    refine congrArg₂ (fun a b : EReal => a * b) (congrArg _ ?_) (congrArg _ ?_)
    · exact congrArg (fun a => ix2 a k) (Fin.ext (Nat.div_add_mod _ _))
    · exact congrArg (fun b => ix2 k b) (Fin.ext (Nat.div_add_mod _ _))
  · rw [outv_ne m c i h, mmRelu512F_apply]
    refine congrArg (fun s => max s (0 : EReal)) (Finset.sum_congr rfl fun k _ => ?_)
    rw [gather_at, rows512_apply, cols512_apply, xb_ideal, wb_ideal]
    refine congrArg₂ (fun a b : EReal => a * b) (congrArg _ ?_) (congrArg _ ?_)
    · exact congrArg (fun a => ix2 a k) (Fin.ext (Nat.div_add_mod _ _))
    · exact congrArg (fun b => ix2 k b) (Fin.ext (Nat.div_add_mod _ _))

end AtIdeal

/-- info: 'Cert.KernelIdeal.AG.outv_ideal' depends on axioms: [propext, Classical.choice, Quot.sound] -/
#guard_msgs in #print axioms outv_ideal

end Cert.KernelIdeal.AG

end
-- ==== Proof.RefImports.lean ====
import proofs.«900658_g7700000000000659_dist_ag_gemm_m4096_k4096_n8192_f32_relu_v7x_i4_1_alg».proof.Proof.Gen.ReferenceIdeal.Run
import proofs.«900658_g7700000000000659_dist_ag_gemm_m4096_k4096_n8192_f32_relu_v7x_i4_1_alg».proof.Proof.Gen.ReferenceIdeal.Read
-- ==== Proof.RefValue.lean ====
/-
  The reference's value: its generated run ends with the result array at relu (X · W) of the two argument arrays
  — the product read index by index is the sum over the contraction coordinate, the broadcast constant is 0, the
  maximum is the extended reals' — and with the arguments unchanged.
-/
import proofs.«900658_g7700000000000659_dist_ag_gemm_m4096_k4096_n8192_f32_relu_v7x_i4_1_alg».proof.Defs
import proofs.«900658_g7700000000000659_dist_ag_gemm_m4096_k4096_n8192_f32_relu_v7x_i4_1_alg».proof.Proof.RefImports
import proofs.«900658_g7700000000000659_dist_ag_gemm_m4096_k4096_n8192_f32_relu_v7x_i4_1_alg».proof.Proof.Gen.Pre_finite_inputs_ReferenceIdeal
import proofs.«900658_g7700000000000659_dist_ag_gemm_m4096_k4096_n8192_f32_relu_v7x_i4_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The left operand's index at (output index i, contraction coordinate k) is (row of i, k). -/
theorem lidx_eq (i : S4096x8192.Idx) (k : Fin 4096) : lidx_main_v0 i k = ix2 (i 0 : Fin 4096) k := by
  funext a
  match a with
  | ⟨0, _⟩ => rfl
  | ⟨1, _⟩ => rfl

/-- The right operand's index at (output index i, contraction coordinate k) is (k, column of i). -/
theorem ridx_eq (i : S4096x8192.Idx) (k : Fin 4096) : ridx_main_v0 i k = ix2 k (i 1 : Fin 8192) := by
  funext a
  match a with
  | ⟨0, _⟩ => rfl
  | ⟨1, _⟩ => rfl

/-- The reference's last stage, read index by index, is relu (X · W): the product's element is the sum over the
    contraction coordinate, the broadcast constant is the extended real 0, and the maximum is the lattice's. -/
theorem val_main_v2_is_G (X : FVec Ideal S4096x4096 .f32) (W : FVec Ideal S4096x8192 .f32) :
    val_main_v2 (F := Ideal) X W = AGSpec.G X W := by
  funext i
  rw [val_main_v2_apply, val_main_v0_apply, val_main_v1_apply, val_main_cst_apply, AGSpec.G_apply,
    Ideal.maximumf_def, Ideal.ofBits_def, Ideal.ofBits_zero_f32]
  refine congrArg (fun s => max s (0 : EReal)) (Finset.sum_congr rfl fun k _ => ?_)
  exact congrArg₂ (fun a b : EReal => a * b) (congrArg X (lidx_eq i k)) (congrArg W (ridx_eq i k))

/-- The term the reference's run states for its result is relu (X · W). -/
theorem ref_is_G (X : FVec Ideal S4096x4096 .f32) (W : FVec Ideal S4096x8192 .f32) :
    maximumf (Host.dotGeneral dot_S4096x4096_S4096x8192_S4096x8192_1_0_0_1_n_n none X W)
      (broadcastInDim S4096x8192 ![] bcast_S_S4096x8192 (constant (F := Ideal) S_ .f32 0x00000000#32))
    = AGSpec.G X W :=
  (val_main_v2_eq (F := Ideal) X W).trans (val_main_v2_is_G X W)

/-- The reference runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, its result ends at relu (X · W) of its two arguments' launch contents, and the arguments end
    unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v2)
        = AGSpec.G (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (ref_is_G _ _), (h 0).2⟩)
    (Cert.ReferenceIdeal.Value.run (F := Ideal) m' g')

end Cert.ReferenceIdeal.RefValue

end
-- ==== Proof.Claims.lean ====
/-
  The five claims, from the two kernels' runs and the reference's.

  Each kernel's run ends with every device's result at `outv` of the launch memory and its two arguments unchanged.
  Dropping the result gives the two frames. At the extended reals `outv` is relu of the gathered x times the device's
  columns of w (`outv_ideal`); under the agreement of the memories the four devices' row blocks gather back to the
  whole X, and column block `c` of relu (X · W) reads only column block `c` of W, which is device `c`'s w: so the
  device's result is column block `c` of the value the reference's run ends with.
-/
import proofs.«900658_g7700000000000659_dist_ag_gemm_m4096_k4096_n8192_f32_relu_v7x_i4_1_alg».proof.Defs
import proofs.«900658_g7700000000000659_dist_ag_gemm_m4096_k4096_n8192_f32_relu_v7x_i4_1_alg».proof.Proof.Launch
import proofs.«900658_g7700000000000659_dist_ag_gemm_m4096_k4096_n8192_f32_relu_v7x_i4_1_alg».proof.Proof.LaunchB
import proofs.«900658_g7700000000000659_dist_ag_gemm_m4096_k4096_n8192_f32_relu_v7x_i4_1_alg».proof.Proof.Value
import proofs.«900658_g7700000000000659_dist_ag_gemm_m4096_k4096_n8192_f32_relu_v7x_i4_1_alg».proof.Proof.RefValue
import proofs.«900658_g7700000000000659_dist_ag_gemm_m4096_k4096_n8192_f32_relu_v7x_i4_1_alg».proof.Proof.Gen.Kernel
import proofs.«900658_g7700000000000659_dist_ag_gemm_m4096_k4096_n8192_f32_relu_v7x_i4_1_alg».proof.Proof.Gen.KernelIdeal
import proofs.«900658_g7700000000000659_dist_ag_gemm_m4096_k4096_n8192_f32_relu_v7x_i4_1_alg».proof.Proof.Gen.ReferenceIdeal
import proofs.«900658_g7700000000000659_dist_ag_gemm_m4096_k4096_n8192_f32_relu_v7x_i4_1_alg».proof.Proof.Gen.Pre_finite_inputs_Kernel
import proofs.«900658_g7700000000000659_dist_ag_gemm_m4096_k4096_n8192_f32_relu_v7x_i4_1_alg».proof.Proof.Gen.Pre_finite_inputs_ReferenceIdeal

noncomputable section

namespace Cert.Proof

open Idealize.ShloMosaic Idealize.ShloMosaic.TcCoe Idealize.SL.Sem

/-- The kernel as printed runs and its arguments end unchanged: its run, the contents of the result dropped. -/
theorem frame_p : Cert.frame_Kernel := fun m g _ =>
  (θ_run Cert.Kernel.defs _ _).mono (fun _ h c => (h c).2) (Cert.Kernel.AG.run_main (F := Bits) m g)

/-- The idealized kernel runs and its arguments end unchanged. -/
theorem frame_pi : Cert.frame_KernelIdeal := fun m g _ =>
  (θ_run Cert.KernelIdeal.defs _ _).mono (fun _ h c => (h c).2) (Cert.KernelIdeal.AG.run_main (F := Ideal) m g)

/-- The reference runs and its arguments end unchanged. -/
theorem frame_ri : Cert.frame_ReferenceIdeal := Cert.ReferenceIdeal.RefValue.frame_ri

/-- The idealization rewrote no operation. -/
theorem preserves : Cert.preserves_Kernel_KernelIdeal := trivial

/-- At the extended reals, device `c`'s result is column block `c` of relu (X · W) of the whole arrays: its own
    result is relu of the gathered x times its columns of w, the gathered row blocks of X are X, and a column block
    of relu (X · W) reads only that column block of W. -/
theorem algebraic : Cert.algebraic_KernelIdeal_ReferenceIdeal := by
  intro m g m' g' _ hagree
  refine ⟨AGSpec.G (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_,
    Cert.ReferenceIdeal.RefValue.ref_run m' g'⟩
  refine (θ_run Cert.KernelIdeal.defs _ _).mono (fun r h c => ?_) (Cert.KernelIdeal.AG.run_main (F := Ideal) m g)
  obtain ⟨hv, h0, h1⟩ := h c
  refine ⟨?_, h0, h1⟩
  rw [hv, Cert.KernelIdeal.AG.outv_ideal]
  have hx : (fun d : Fin 4 => m (((d : Dev Cert.KernelIdeal.nD) : Thread Cert.KernelIdeal.nD Cert.KernelIdeal.τ).loc Cert.KernelIdeal.main_arg0))
      = fun d => Layout.block AGSpec.SXc AGSpec.SX 0 4 d (m' (((0 : Dev Cert.ReferenceIdeal.nD).tc : Thread Cert.ReferenceIdeal.nD Cert.ReferenceIdeal.τ).loc Cert.ReferenceIdeal.main_arg0)) :=
    funext fun d => (hagree d).1
  rw [hx, AGSpec.gather_block]
  exact (congrArg (AGSpec.Gc _) (hagree c).2).trans (AGSpec.block_G c _ _).symm

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, frame_p, frame_pi, frame_ri, preserves, algebraic⟩

end Cert.Proof

end
-- ==== Proof.lean ====
/-
  The proof of Cert.Claim for the gathered product on four devices: each device holds 1024 rows of X and a 2048-column block
  of W; the kernel gathers the rows around the ring in the narrow format while it multiplies, and leaves on device c the
  column block c of relu (X · W); the reference computes relu (X · W) whole.

  The five conjuncts are proved in Proof/Claims.lean from: the reference's run and value (Proof/RefValue.lean over
  Proof/Spec.lean); the kernel's run on the four devices with every device's result named (Proof/Launch.lean at the extended
  reals and at any float instance, Proof/LaunchB.lean at the word level), which rests on one device's body
  (Proof/Body.lean, Proof/BodyB.lean) over the protocol of rounds (Proof/Sched.lean) and the three loops' invariants
  (Proof/LoopX.lean, Proof/LoopW.lean); and the value of the result at the extended reals (Proof/Value.lean).
-/
import proofs.«900658_g7700000000000659_dist_ag_gemm_m4096_k4096_n8192_f32_relu_v7x_i4_1_alg».proof.Defs
import proofs.«900658_g7700000000000659_dist_ag_gemm_m4096_k4096_n8192_f32_relu_v7x_i4_1_alg».proof.Proof.Claims
